-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S32x2048x1024 : Shape := ⟨3, ![32, 2048, 1024]⟩
abbrev S32x1024 : Shape := ⟨2, ![32, 1024]⟩
abbrev S32x1024x2048 : Shape := ⟨3, ![32, 1024, 2048]⟩
abbrev S32x2048 : Shape := ⟨2, ![32, 2048]⟩
abbrev S8192 : Shape := ⟨1, ![8192]⟩
abbrev S_ : Shape := ⟨0, ![]⟩
abbrev S8192x1 : Shape := ⟨2, ![8192, 1]⟩
abbrev S8192x32 : Shape := ⟨2, ![8192, 32]⟩
abbrev S32 : Shape := ⟨1, ![32]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S32x1024x2048 : S_.BroadcastsInDim S32x1024x2048 (![] : Fin 0 → Fin S32x1024x2048.rank)
  reducesTo_S32x1024x2048_S_d0_1_2 : S32x1024x2048.ReducesTo [0, 1, 2] S_
  bcast_S_S32x2048 : S_.BroadcastsInDim S32x2048 (![] : Fin 0 → Fin S32x2048.rank)
  reducesTo_S32x2048_S_d0_1 : S32x2048.ReducesTo [0, 1] S_
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  natLt_1_32 : 1 < 32
  reducesTo_S8192x32_S32_d0 : S8192x32.ReducesTo [0] S32
  bcast_S_S32 : S_.BroadcastsInDim S32 (![] : Fin 0 → Fin S32.rank)
  reducesTo_S32_S_d0 : S32.ReducesTo [0] S_

variable [Facts]

def fn_part3 {F : FTy → Type} [FloatOps F] (main_v41 : IVec S_ 1) (main_v50 : IVec S_ 1) : IVec S_ 1 :=
  let main_v51 : IVec S_ 1 := andi main_v41 main_v50
  main_v51

def fn_part2 {F : FTy → Type} [FloatOps F] (main_arg7 : IVec S8192 32) (main_v33 : IVec S_ 1) : IVec S_ 1 :=
  let main_c_12 : IVec S_ 32 := constantI S_ 32 0#32
  let main_v34 : IVec S8192 32 := broadcastInDim S8192 ![] bcast_S_S8192 main_c_12
  let main_v35 : IVec S8192 1 := cmpi .sge main_arg7 main_v34
  let main_c_13 : IVec S_ 1 := constantI S_ 1 1#1
  let main_v36 : IVec S_ 1 := (fun x v => Host.reduce IntOp.andi x v reducesTo_S8192_S_d0 h_S_) main_v35 main_c_13
  let main_v37 : IVec S_ 1 := andi main_v33 main_v36
  let main_c_14 : IVec S_ 32 := constantI S_ 32 32#32
  let main_v38 : IVec S8192 32 := broadcastInDim S8192 ![] bcast_S_S8192 main_c_14
  let main_v39 : IVec S8192 1 := cmpi .slt main_arg7 main_v38
  let main_c_15 : IVec S_ 1 := constantI S_ 1 1#1
  let main_v40 : IVec S_ 1 := (fun x v => Host.reduce IntOp.andi x v reducesTo_S8192_S_d0 h_S_) main_v39 main_c_15
  let main_v41 : IVec S_ 1 := andi main_v37 main_v40
  let main_v42 : IVec S8192x1 32 := broadcastInDim S8192x1 ![0] bcast_S8192_S8192x1_0 main_arg7
  let main_v43 : IVec S8192x32 32 := iotaInDim S8192x32 32 1
  let main_v44 : IVec S8192x32 32 := broadcastInDim S8192x32 ![0, 1] bcast_S8192x1_S8192x32_0_1 main_v42
  let main_v45 : IVec S8192x32 1 := cmpi .eq main_v44 main_v43
  let main_v46 : IVec S8192x32 32 := (extui 32 · natLt_1_32) main_v45
  let main_c_16 : IVec S_ 32 := constantI S_ 32 0#32
  let main_v47 : IVec S32 32 := (fun x v => Host.reduce IntOp.addi x v reducesTo_S8192x32_S32_d0 h_S_) main_v46 main_c_16
  let main_c_17 : IVec S_ 32 := constantI S_ 32 512#32
  let main_v48 : IVec S32 32 := broadcastInDim S32 ![] bcast_S_S32 main_c_17
  let main_v49 : IVec S32 1 := cmpi .sle main_v47 main_v48
  let main_c_18 : IVec S_ 1 := constantI S_ 1 1#1
  let main_v50 : IVec S_ 1 := (fun x v => Host.reduce IntOp.andi x v reducesTo_S32_S_d0 h_S_) main_v49 main_c_18
  fn_part3 (F := F) main_v41 main_v50

def fn_part1 {F : FTy → Type} [FloatOps F] (main_arg4 : FVec F S32x2048 .f32) (main_arg5 : FVec F S32x2048x1024 .f32) (main_arg6 : FVec F S32x1024 .f32) (main_arg7 : IVec S8192 32) (main_v13 : IVec S_ 1) (main_v16 : IVec S32x1024x2048 1) : IVec S_ 1 :=
  let main_c_5 : IVec S_ 1 := constantI S_ 1 1#1
  let main_v17 : IVec S_ 1 := (fun x v => Host.reduce IntOp.andi x v reducesTo_S32x1024x2048_S_d0_1_2 h_S_) main_v16 main_c_5
  let main_v18 : IVec S_ 1 := andi main_v13 main_v17
  let main_v19 : FVec F S32x2048 .f32 := Host.absf main_arg4
  let main_cst_6 : FVec F S_ .f32 := constant S_ .f32 0x7F800000#32
  let main_v20 : FVec F S32x2048 .f32 := broadcastInDim S32x2048 ![] bcast_S_S32x2048 main_cst_6
  let main_v21 : IVec S32x2048 1 := cmpf .olt main_v19 main_v20
  let main_c_7 : IVec S_ 1 := constantI S_ 1 1#1
  let main_v22 : IVec S_ 1 := (fun x v => Host.reduce IntOp.andi x v reducesTo_S32x2048_S_d0_1 h_S_) main_v21 main_c_7
  let main_v23 : IVec S_ 1 := andi main_v18 main_v22
  let main_v24 : FVec F S32x2048x1024 .f32 := Host.absf main_arg5
  let main_cst_8 : FVec F S_ .f32 := constant S_ .f32 0x7F800000#32
  let main_v25 : FVec F S32x2048x1024 .f32 := broadcastInDim S32x2048x1024 ![] bcast_S_S32x2048x1024 main_cst_8
  let main_v26 : IVec S32x2048x1024 1 := cmpf .olt main_v24 main_v25
  let main_c_9 : IVec S_ 1 := constantI S_ 1 1#1
  let main_v27 : IVec S_ 1 := (fun x v => Host.reduce IntOp.andi x v reducesTo_S32x2048x1024_S_d0_1_2 h_S_) main_v26 main_c_9
  let main_v28 : IVec S_ 1 := andi main_v23 main_v27
  let main_v29 : FVec F S32x1024 .f32 := Host.absf main_arg6
  let main_cst_10 : FVec F S_ .f32 := constant S_ .f32 0x7F800000#32
  let main_v30 : FVec F S32x1024 .f32 := broadcastInDim S32x1024 ![] bcast_S_S32x1024 main_cst_10
  let main_v31 : IVec S32x1024 1 := cmpf .olt main_v29 main_v30
  let main_c_11 : IVec S_ 1 := constantI S_ 1 1#1
  let main_v32 : IVec S_ 1 := (fun x v => Host.reduce IntOp.andi x v reducesTo_S32x1024_S_d0_1 h_S_) main_v31 main_c_11
  let main_v33 : IVec S_ 1 := andi main_v28 main_v32
  fn_part2 (F := F) main_arg7 main_v33

def fn {F : FTy → Type} [FloatOps F] (main_arg0 : FVec F S4x2048x2048 .f32) (main_arg1 : FVec F S32x2048x1024 .f32) (main_arg2 : FVec F S32x1024 .f32) (main_arg3 : FVec F S32x1024x2048 .f32) (main_arg4 : FVec F S32x2048 .f32) (main_arg5 : FVec F S32x2048x1024 .f32) (main_arg6 : FVec F S32x1024 .f32) (main_arg7 : IVec S8192 32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x1024x2048 .f32 := Host.absf main_arg3
  let main_cst_4 : FVec F S_ .f32 := constant S_ .f32 0x7F800000#32
  let main_v15 : FVec F S32x1024x2048 .f32 := broadcastInDim S32x1024x2048 ![] bcast_S_S32x1024x2048 main_cst_4
  let main_v16 : IVec S32x1024x2048 1 := cmpf .olt main_v14 main_v15
  fn_part1 (F := F) main_arg4 main_arg5 main_arg6 main_arg7 main_v13 main_v16
-- ==== Kernel.lean ====
abbrev S4x2048x2048 : Shape := ⟨3, ![4, 2048, 2048]⟩
abbrev S32x2048x1024 : Shape := ⟨3, ![32, 2048, 1024]⟩
abbrev S32x1024 : Shape := ⟨2, ![32, 1024]⟩
abbrev S32x1024x2048 : Shape := ⟨3, ![32, 1024, 2048]⟩
abbrev S32x2048 : Shape := ⟨2, ![32, 2048]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S32 : Shape := ⟨1, ![32]⟩
abbrev S8192x2048 : Shape := ⟨2, ![8192, 2048]⟩
abbrev S32x512x2048 : Shape := ⟨3, ![32, 512, 2048]⟩
abbrev S8192x2 : Shape := ⟨2, ![8192, 2]⟩
abbrev S32x1x1024 : Shape := ⟨3, ![32, 1, 1024]⟩
abbrev S32x1x2048 : Shape := ⟨3, ![32, 1, 2048]⟩
abbrev S1x256x2048 : Shape := ⟨3, ![1, 256, 2048]⟩
abbrev S1x2048x1024 : Shape := ⟨3, ![1, 2048, 1024]⟩
abbrev S1x1024x2048 : Shape := ⟨3, ![1, 1024, 2048]⟩
abbrev S1x1x1024 : Shape := ⟨3, ![1, 1, 1024]⟩
abbrev S1x1x2048 : Shape := ⟨3, ![1, 1, 2048]⟩
abbrev S256x2048 : Shape := ⟨2, ![256, 2048]⟩
abbrev S2048x1024 : Shape := ⟨2, ![2048, 1024]⟩
abbrev S1024x2048 : Shape := ⟨2, ![1024, 2048]⟩
abbrev S1x1024 : Shape := ⟨2, ![1, 1024]⟩
abbrev S1x2048 : Shape := ⟨2, ![1, 2048]⟩
abbrev S256x1024 : Shape := ⟨2, ![256, 1024]⟩
abbrev S16384x2048 : Shape := ⟨2, ![16384, 2048]⟩
abbrev S1x1 : Shape := ⟨2, ![1, 1]⟩

abbrev nBuf : Space → Nat
  | .hbm => 101
  | .vmem => 16
  | .smem => 1
  | _ => 0

abbrev bufTy : (tb : Table) → Fin (tcTables nBuf tb) → BufTy
  | .hbm, ⟨0, _⟩ => ⟨S4x2048x2048, .f32⟩
  | .hbm, ⟨1, _⟩ => ⟨S32x2048x1024, .f32⟩
  | .hbm, ⟨2, _⟩ => ⟨S32x1024, .f32⟩
  | .hbm, ⟨3, _⟩ => ⟨S32x1024x2048, .f32⟩
  | .hbm, ⟨4, _⟩ => ⟨S32x2048, .f32⟩
  | .hbm, ⟨5, _⟩ => ⟨S32x2048x1024, .f32⟩
  | .hbm, ⟨6, _⟩ => ⟨S32x1024, .f32⟩
  | .hbm, ⟨7, _⟩ => ⟨S8192, .i32⟩
  | .hbm, ⟨8, _⟩ => ⟨S8192x1, .i32⟩
  | .hbm, ⟨9, _⟩ => ⟨S1x32, .i32⟩
  | .hbm, ⟨10, _⟩ => ⟨S8192x32, .i32⟩
  | .hbm, ⟨11, _⟩ => ⟨S8192x32, .i32⟩
  | .hbm, ⟨12, _⟩ => ⟨S8192x32, .i1⟩
  | .hbm, ⟨13, _⟩ => ⟨S8192x32, .i32⟩
  | .hbm, ⟨14, _⟩ => ⟨S_, .i32⟩
  | .hbm, ⟨15, _⟩ => ⟨S_, .i32⟩
  | .hbm, ⟨16, _⟩ => ⟨S8192x32, .i32⟩
  | .hbm, ⟨17, _⟩ => ⟨S8192x32, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192x2048, .f32⟩
  | .hbm, ⟨44, _⟩ => ⟨S8192x2048, .bf16⟩
  | .hbm, ⟨45, _⟩ => ⟨S_, .bf16⟩
  | .hbm, ⟨46, _⟩ => ⟨S32x512x2048, .bf16⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x1, .i32⟩
  | .hbm, ⟨63, _⟩ => ⟨S8192x2, .i32⟩
  | .hbm, ⟨64, _⟩ => ⟨S32x512x2048, .bf16⟩
  | .hbm, ⟨65, _⟩ => ⟨S32x2048x1024, .bf16⟩
  | .hbm, ⟨66, _⟩ => ⟨S32x2048x1024, .bf16⟩
  | .hbm, ⟨67, _⟩ => ⟨S32x1024x2048, .bf16⟩
  | .hbm, ⟨68, _⟩ => ⟨S32x1x1024, .f32⟩
  | .hbm, ⟨69, _⟩ => ⟨S32x1x1024, .f32⟩
  | .hbm, ⟨70, _⟩ => ⟨S32x1x2048, .f32⟩
  | .hbm, ⟨71, _⟩ => ⟨S32x512x2048, .f32⟩
  | .hbm, ⟨72, _⟩ => ⟨S16384x2048, .f32⟩
  | .hbm, ⟨73, _⟩ => ⟨S_, .i32⟩
  | .hbm, ⟨74, _⟩ => ⟨S8192, .i32⟩
  | .hbm, ⟨75, _⟩ => ⟨S8192, .i32⟩
  | .hbm, ⟨76, _⟩ => ⟨S8192, .i32⟩
  | .hbm, ⟨77, _⟩ => ⟨S_, .i32⟩
  | .hbm, ⟨78, _⟩ => ⟨S8192, .i32⟩
  | .hbm, ⟨79, _⟩ => ⟨S8192, .i1⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S8192, .i32⟩
  | .hbm, ⟨84, _⟩ => ⟨S8192x1, .i32⟩
  | .hbm, ⟨85, _⟩ => ⟨S1, .i32⟩
  | .hbm, ⟨86, _⟩ => ⟨S_, .i32⟩
  | .hbm, ⟨87, _⟩ => ⟨S8192x1, .i32⟩
  | .hbm, ⟨88, _⟩ => ⟨S8192x1, .i1⟩
  | .hbm, ⟨89, _⟩ => ⟨S1x1, .i32⟩
  | .hbm, ⟨90, _⟩ => ⟨S8192x1, .i32⟩
  | .hbm, ⟨91, _⟩ => ⟨S8192x1, .i1⟩
  | .hbm, ⟨92, _⟩ => ⟨S8192x1, .i1⟩
  | .hbm, ⟨93, _⟩ => ⟨S_, .i1⟩
  | .hbm, ⟨94, _⟩ => ⟨S8192, .i1⟩
  | .hbm, ⟨95, _⟩ => ⟨S8192x2048, .f32⟩
  | .hbm, ⟨96, _⟩ => ⟨S8192x2048, .i1⟩
  | .hbm, ⟨97, _⟩ => ⟨S_, .f32⟩
  | .hbm, ⟨98, _⟩ => ⟨S8192x2048, .f32⟩
  | .hbm, ⟨99, _⟩ => ⟨S8192x2048, .f32⟩
  | .hbm, ⟨100, _⟩ => ⟨S4x2048x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x2048, .f32⟩
  | .local _ .vmem, ⟨13, _⟩ => ⟨S1x1x2048, .f32⟩
  | .local _ .vmem, ⟨14, _⟩ => ⟨S1x256x2048, .f32⟩
  | .local _ .vmem, ⟨15, _⟩ => ⟨S1x256x2048, .f32⟩
  | .local _ .smem, ⟨0, _⟩ => ⟨S32, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_call1_call0_c : Ref sig .tc := ⟨.hbm, 14, rfl⟩
abbrev main_call1_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v4 : Ref sig .tc := ⟨.hbm, 40, rfl⟩
abbrev main_v5 : Ref sig .tc := ⟨.hbm, 41, rfl⟩
abbrev main_c : Ref sig .tc := ⟨.hbm, 42, rfl⟩
abbrev main_v7 : Ref sig .tc := ⟨.hbm, 43, rfl⟩
abbrev main_v8 : Ref sig .tc := ⟨.hbm, 44, rfl⟩
abbrev main_cst : Ref sig .tc := ⟨.hbm, 45, rfl⟩
abbrev main_v9 : Ref sig .tc := ⟨.hbm, 46, rfl⟩
abbrev main_c_0 : Ref sig .tc := ⟨.hbm, 47, rfl⟩
abbrev main_v10 : Ref sig .tc := ⟨.hbm, 48, rfl⟩
abbrev main_v11 : Ref sig .tc := ⟨.hbm, 49, rfl⟩
abbrev main_c_1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_c_2 : Ref sig .tc := ⟨.hbm, 54, rfl⟩
abbrev main_v15 : Ref sig .tc := ⟨.hbm, 55, rfl⟩
abbrev main_v16 : Ref sig .tc := ⟨.hbm, 56, rfl⟩
abbrev main_c_3 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_4 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v35 : Ref sig .tc := ⟨.hbm, 99, rfl⟩
abbrev main_v36 : Ref sig .tc := ⟨.hbm, 100, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_cond1 (i : grid0.Coords) (v2 : BitVec 32) : BitVec 1 :=
  let arg1 : BitVec 32 := BitVec.ofNat 32 (i 1).val
  let c256_i32 : BitVec 32 := 256#32
  let v0 : BitVec 32 := Scalar.muli arg1 c256_i32
  let v3 : BitVec 1 := Scalar.cmpi .slt v0 v2
  let v4 : BitVec 32 := Scalar.extui v3
  let c0_i32 : BitVec 32 := 0#32
  let v5 : BitVec 1 := Scalar.cmpi .ne v4 c0_i32
  v5

def k0_cond2 (i : grid0.Coords) (v2 : BitVec 32) : BitVec 1 :=
  let arg1 : BitVec 32 := BitVec.ofNat 32 (i 1).val
  let c256_i32 : BitVec 32 := 256#32
  let v0 : BitVec 32 := Scalar.muli arg1 c256_i32
  let v3 : BitVec 1 := Scalar.cmpi .slt v0 v2
  let v_true : BitVec 1 := 1#1
  let v6 : BitVec 1 := Scalar.xori v3 v_true
  let v7 : BitVec 32 := Scalar.extui v6
  let c0_i32_0 : BitVec 32 := 0#32
  let v8 : BitVec 1 := Scalar.cmpi .ne v7 c0_i32_0
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  natLt_1_32 : 1 < 32
  bcast_S_S_ : S_.BroadcastsInDim S_ (![] : Fin 0 → Fin S_.rank)
  reduceWindows_S8192x32_S8192x32_w8192s1p8191_0_w1s1p0_0 : S8192x32.ReduceWindows (![8192, 1] : Fin 2 → Nat) ![1, 1] ![8191, 0] ![0, 0] S8192x32
  h_S_ : 0 < S_.numel
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192x32_S32_d0 : S8192x32.ReducesTo [0] S32
  shapeCasts_S4x2048x2048_S8192x2048 : S4x2048x2048.ShapeCasts S8192x2048
  bitsLt_bf16_f32 : FTy.bits .bf16 < FTy.bits .f32
  bcast_S_S32x512x2048 : S_.BroadcastsInDim S32x512x2048 (![] : Fin 0 → Fin S32x512x2048.rank)
  bcast_S_S8192 : S_.BroadcastsInDim S8192 (![] : Fin 0 → Fin S8192.rank)
  concatenates_S8192x1_S8192x1_S8192x2_d1 : Shape.Concatenates [S8192x1, S8192x1] S8192x2 1
  shapeCasts_S32x1024_S32x1x1024 : S32x1024.ShapeCasts S32x1x1024
  shapeCasts_S32x2048_S32x1x2048 : S32x2048.ShapeCasts S32x1x2048
  numel1_S1 : S1.numel = 1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x1024_S256x1024 : S1x1024.Broadcasts S256x1024
  broadcasts_S1x2048_S256x2048 : S1x2048.Broadcasts S256x2048
  shapeCasts_S256x2048_S1x256x2048 : S256x2048.ShapeCasts S1x256x2048
  shapeCasts_S32x512x2048_S16384x2048 : S32x512x2048.ShapeCasts S16384x2048
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x2048_0 : S8192.BroadcastsInDim S8192x2048 (![0] : Fin 1 → Fin S8192x2048.rank)
  bcast_S_S8192x2048 : S_.BroadcastsInDim S8192x2048 (![] : Fin 0 → Fin S8192x2048.rank)
  shapeCasts_S8192x2048_S4x2048x2048 : S8192x2048.ShapeCasts S4x2048x2048
  gather_S8192x32_S8192x1x1_S8192x1_n_1_0_0_1_2_11_wf : GatherDims.WF S8192x32 S8192x1x1 S8192x1 [] [1] [0] [1] [0] 2 ![1, 1]
  scatter_S32x512x2048_S8192x2_S8192x2048_1_01_01_1_wf : ScatterDims.WF S32x512x2048 S8192x2 S8192x2048 [1] [0, 1] [0, 1] 1
  dot_S256x2048_S2048x1024_S256x1024_1_0_0_1_n_n_wf : DotDims.WF S256x2048 S2048x1024 S256x1024 [1] [0] [0] [1] [] []
  dot_S256x1024_S1024x2048_S256x2048_1_0_0_1_n_n_wf : DotDims.WF S256x1024 S1024x2048 S256x2048 [1] [0] [0] [1] [] []
  gather_S16384x2048_S8192x1_S8192x2048_1_0_n_n_0_1_12048_wf : GatherDims.WF S16384x2048 S8192x1 S8192x2048 [1] [0] [] [0] [] 1 ![1, 2048]
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S32x512x2048.size a
  hwx0_0 : ∀ i : grid0.Coords, EltTy.bits .bf16 = 32 ∨ (Rect.block (s := S32x512x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S32x2048x1024.size a
  hwx0_1 : ∀ i : grid0.Coords, EltTy.bits .bf16 = 32 ∨ (Rect.block (s := S32x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S32x2048x1024.size a
  hwx0_2 : ∀ i : grid0.Coords, EltTy.bits .bf16 = 32 ∨ (Rect.block (s := S32x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S32x1024x2048.size a
  hwx0_3 : ∀ i : grid0.Coords, EltTy.bits .bf16 = 32 ∨ (Rect.block (s := S32x1024x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S32x1x1024.size a
  hwx0_4 : ∀ i : grid0.Coords, EltTy.bits .f32 = 32 ∨ (Rect.block (s := S32x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S32x1x1024.size a
  hwx0_5 : ∀ i : grid0.Coords, EltTy.bits .f32 = 32 ∨ (Rect.block (s := S32x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S32x1x2048.size a
  hwx0_6 : ∀ i : grid0.Coords, EltTy.bits .f32 = 32 ∨ (Rect.block (s := S32x1x2048) S1x1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x2048.size a ≤ S32x512x2048.size a
  hwx0_7 : ∀ i : grid0.Coords, EltTy.bits .f32 = 32 ∨ (Rect.block (s := S32x512x2048) S1x256x2048.size (cc0_transform_7 i) (hinb0_7 i)).WholeWords (EltTy.packing .f32)

variable [Facts₀]

def gather_S8192x32_S8192x1x1_S8192x1_n_1_0_0_1_2_11 : GatherDims S8192x32 S8192x1x1 S8192x1 where
  offsetDims := []
  collapsedSliceDims := [1]
  operandBatchingDims := [0]
  startIndicesBatchingDims := [0]
  startIndexMap := [1]
  indexVectorDim := 2
  sliceSizes := ![1, 1]
  wf := gather_S8192x32_S8192x1x1_S8192x1_n_1_0_0_1_2_11_wf
def scatter_S32x512x2048_S8192x2_S8192x2048_1_01_01_1 : ScatterDims S32x512x2048 S8192x2 S8192x2048 where
  updateWindowDims := [1]
  insertedWindowDims := [0, 1]
  scatterDimsToOperandDims := [0, 1]
  indexVectorDim := 1
  wf := scatter_S32x512x2048_S8192x2_S8192x2048_1_01_01_1_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def gather_S16384x2048_S8192x1_S8192x2048_1_0_n_n_0_1_12048 : GatherDims S16384x2048 S8192x1 S8192x2048 where
  offsetDims := [1]
  collapsedSliceDims := [0]
  operandBatchingDims := []
  startIndicesBatchingDims := []
  startIndexMap := [0]
  indexVectorDim := 1
  sliceSizes := ![1, 2048]
  wf := gather_S16384x2048_S8192x1_S8192x2048_1_0_n_n_0_1_12048_wf

abbrev spec0_0 : Pipeline.WinSpec sig grid0.rank :=
  Pipeline.WinSpec.ofSpec (Memref.whole main_v23) S1x256x2048.size reads0_0 false false 2 stage0_0 sem0_0 nbuf0_0 hstage0_0

abbrev spec0_1 : Pipeline.WinSpec sig grid0.rank :=
  Pipeline.WinSpec.ofSpec (Memref.whole main_v24) S1x2048x1024.size reads0_1 false false 2 stage0_1 sem0_1 nbuf0_1 hstage0_1

abbrev spec0_2 : Pipeline.WinSpec sig grid0.rank :=
  Pipeline.WinSpec.ofSpec (Memref.whole main_v25) S1x2048x1024.size reads0_2 false false 2 stage0_2 sem0_2 nbuf0_2 hstage0_2

abbrev spec0_3 : Pipeline.WinSpec sig grid0.rank :=
  Pipeline.WinSpec.ofSpec (Memref.whole main_v26) S1x1024x2048.size reads0_3 false false 2 stage0_3 sem0_3 nbuf0_3 hstage0_3

abbrev spec0_4 : Pipeline.WinSpec sig grid0.rank :=
  Pipeline.WinSpec.ofSpec (Memref.whole main_v27) S1x1x1024.size reads0_4 false false 2 stage0_4 sem0_4 nbuf0_4 hstage0_4

abbrev spec0_5 : Pipeline.WinSpec sig grid0.rank :=
  Pipeline.WinSpec.ofSpec (Memref.whole main_v28) S1x1x1024.size reads0_5 false false 2 stage0_5 sem0_5 nbuf0_5 hstage0_5

abbrev spec0_6 : Pipeline.WinSpec sig grid0.rank :=
  Pipeline.WinSpec.ofSpec (Memref.whole main_v29) S1x1x2048.size reads0_6 false false 2 stage0_6 sem0_6 nbuf0_6 hstage0_6

abbrev spec0_7 : Pipeline.WinSpec sig grid0.rank :=
  Pipeline.WinSpec.ofSpec (Memref.whole main_v30) S1x256x2048.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))
abbrev idle0 (pf : pre0.Contents (Elt F)) : Fin 8 → grid0.Coords → Bool := fun | 0 => fun _ => false | 1 => fun _ => false | 2 => fun _ => false | 3 => fun _ => false | 4 => fun _ => false | 5 => fun _ => false | 6 => fun _ => false | 7 => fun i => !(k0_cond1 i (pf.atD 0 (k0_off1 i)) == 1#1) && !(k0_cond2 i (pf.atD 0 (k0_off1 i)) == 1#1) | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S4x2048x2048 : Shape := ⟨3, ![4, 2048, 2048]⟩
abbrev S32x2048x1024 : Shape := ⟨3, ![32, 2048, 1024]⟩
abbrev S32x1024 : Shape := ⟨2, ![32, 1024]⟩
abbrev S32x1024x2048 : Shape := ⟨3, ![32, 1024, 2048]⟩
abbrev S32x2048 : Shape := ⟨2, ![32, 2048]⟩
abbrev S8192 : Shape := ⟨1, ![8192]⟩
abbrev S8192x2048 : Shape := ⟨2, ![8192, 2048]⟩
abbrev S8192x1 : Shape := ⟨2, ![8192, 1]⟩
abbrev S1x32 : Shape := ⟨2, ![1, 32]⟩
abbrev S8192x32 : Shape := ⟨2, ![8192, 32]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S32x512x2048 : Shape := ⟨3, ![32, 512, 2048]⟩
abbrev S8192x2 : Shape := ⟨2, ![8192, 2]⟩
abbrev S32x512x1024 : Shape := ⟨3, ![32, 512, 1024]⟩
abbrev S32x1x1024 : Shape := ⟨3, ![32, 1, 1024]⟩
abbrev S32x1x2048 : Shape := ⟨3, ![32, 1, 2048]⟩

abbrev nBuf : Space → Nat
  | .hbm => 104
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S32x2048x1024, .f32⟩
  | .hbm, ⟨2, _⟩ => ⟨S32x1024, .f32⟩
  | .hbm, ⟨3, _⟩ => ⟨S32x1024x2048, .f32⟩
  | .hbm, ⟨4, _⟩ => ⟨S32x2048, .f32⟩
  | .hbm, ⟨5, _⟩ => ⟨S32x2048x1024, .f32⟩
  | .hbm, ⟨6, _⟩ => ⟨S32x1024, .f32⟩
  | .hbm, ⟨7, _⟩ => ⟨S8192, .i32⟩
  | .hbm, ⟨8, _⟩ => ⟨S8192x2048, .f32⟩
  | .hbm, ⟨9, _⟩ => ⟨S8192x1, .i32⟩
  | .hbm, ⟨10, _⟩ => ⟨S1x32, .i32⟩
  | .hbm, ⟨11, _⟩ => ⟨S8192x32, .i32⟩
  | .hbm, ⟨12, _⟩ => ⟨S8192x32, .i32⟩
  | .hbm, ⟨13, _⟩ => ⟨S8192x32, .i1⟩
  | .hbm, ⟨14, _⟩ => ⟨S8192x32, .i32⟩
  | .hbm, ⟨15, _⟩ => ⟨S_, .i32⟩
  | .hbm, ⟨16, _⟩ => ⟨S_, .i32⟩
  | .hbm, ⟨17, _⟩ => ⟨S8192x32, .i32⟩
  | .hbm, ⟨18, _⟩ => ⟨S8192x32, .i32⟩
  | .hbm, ⟨19, _⟩ => ⟨S8192x1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S_, .i32⟩
  | .hbm, ⟨24, _⟩ => ⟨S8192x1, .i32⟩
  | .hbm, ⟨25, _⟩ => ⟨S8192x1, .i32⟩
  | .hbm, ⟨26, _⟩ => ⟨S8192x1, .i32⟩
  | .hbm, ⟨27, _⟩ => ⟨S8192x1x1, .i32⟩
  | .hbm, ⟨28, _⟩ => ⟨S1, .i32⟩
  | .hbm, ⟨29, _⟩ => ⟨S_, .i32⟩
  | .hbm, ⟨30, _⟩ => ⟨S8192x1x1, .i32⟩
  | .hbm, ⟨31, _⟩ => ⟨S8192x1x1, .i1⟩
  | .hbm, ⟨32, _⟩ => ⟨S1x1x1, .i32⟩
  | .hbm, ⟨33, _⟩ => ⟨S8192x1x1, .i32⟩
  | .hbm, ⟨34, _⟩ => ⟨S8192x1x1, .i1⟩
  | .hbm, ⟨35, _⟩ => ⟨S8192x1x1, .i1⟩
  | .hbm, ⟨36, _⟩ => ⟨S_, .i1⟩
  | .hbm, ⟨37, _⟩ => ⟨S8192x1, .i1⟩
  | .hbm, ⟨38, _⟩ => ⟨S8192x1, .i32⟩
  | .hbm, ⟨39, _⟩ => ⟨S_, .i32⟩
  | .hbm, ⟨40, _⟩ => ⟨S8192x1, .i32⟩
  | .hbm, ⟨41, _⟩ => ⟨S8192x1, .i32⟩
  | .hbm, ⟨42, _⟩ => ⟨S8192, .i32⟩
  | .hbm, ⟨43, _⟩ => ⟨S_, .f32⟩
  | .hbm, ⟨44, _⟩ => ⟨S32x512x2048, .f32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S8192x1, .i32⟩
  | .hbm, ⟨61, _⟩ => ⟨S8192x2, .i32⟩
  | .hbm, ⟨62, _⟩ => ⟨S32x512x2048, .f32⟩
  | .hbm, ⟨63, _⟩ => ⟨S32x512x1024, .f32⟩
  | .hbm, ⟨64, _⟩ => ⟨S32x1x1024, .f32⟩
  | .hbm, ⟨65, _⟩ => ⟨S32x512x1024, .f32⟩
  | .hbm, ⟨66, _⟩ => ⟨S32x512x1024, .f32⟩
  | .hbm, ⟨67, _⟩ => ⟨S32x512x1024, .f32⟩
  | .hbm, ⟨68, _⟩ => ⟨S32x512x1024, .f32⟩
  | .hbm, ⟨69, _⟩ => ⟨S_, .f32⟩
  | .hbm, ⟨70, _⟩ => ⟨S32x512x1024, .f32⟩
  | .hbm, ⟨71, _⟩ => ⟨S32x512x1024, .f32⟩
  | .hbm, ⟨72, _⟩ => ⟨S_, .f32⟩
  | .hbm, ⟨73, _⟩ => ⟨S32x512x1024, .f32⟩
  | .hbm, ⟨74, _⟩ => ⟨S32x512x1024, .f32⟩
  | .hbm, ⟨75, _⟩ => ⟨S32x512x1024, .f32⟩
  | .hbm, ⟨76, _⟩ => ⟨S32x512x1024, .f32⟩
  | .hbm, ⟨77, _⟩ => ⟨S32x1x1024, .f32⟩
  | .hbm, ⟨78, _⟩ => ⟨S32x512x1024, .f32⟩
  | .hbm, ⟨79, _⟩ => ⟨S32x512x1024, .f32⟩
  | .hbm, ⟨80, _⟩ => ⟨S32x512x1024, .f32⟩
  | .hbm, ⟨81, _⟩ => ⟨S32x512x2048, .f32⟩
  | .hbm, ⟨82, _⟩ => ⟨S32x1x2048, .f32⟩
  | .hbm, ⟨83, _⟩ => ⟨S32x512x2048, .f32⟩
  | .hbm, ⟨84, _⟩ => ⟨S32x512x2048, .f32⟩
  | .hbm, ⟨85, _⟩ => ⟨S_, .i32⟩
  | .hbm, ⟨86, _⟩ => ⟨S8192, .i32⟩
  | .hbm, ⟨87, _⟩ => ⟨S8192, .i1⟩
  | .hbm, ⟨88, _⟩ => ⟨S_, .i32⟩
  | .hbm, ⟨89, _⟩ => ⟨S8192, .i32⟩
  | .hbm, ⟨90, _⟩ => ⟨S8192, .i32⟩
  | .hbm, ⟨91, _⟩ => ⟨S8192, .i32⟩
  | .hbm, ⟨92, _⟩ => ⟨S_, .i32⟩
  | .hbm, ⟨93, _⟩ => ⟨S8192, .i32⟩
  | .hbm, ⟨94, _⟩ => ⟨S8192, .i1⟩
  | .hbm, ⟨95, _⟩ => ⟨S_, .i32⟩
  | .hbm, ⟨96, _⟩ => ⟨S8192, .i32⟩
  | .hbm, ⟨97, _⟩ => ⟨S8192, .i32⟩
  | .hbm, ⟨98, _⟩ => ⟨S8192, .i32⟩
  | .hbm, ⟨99, _⟩ => ⟨S8192x1, .i32⟩
  | .hbm, ⟨100, _⟩ => ⟨S8192x1, .i32⟩
  | .hbm, ⟨101, _⟩ => ⟨S8192x2, .i32⟩
  | .hbm, ⟨102, _⟩ => ⟨S8192x2048, .f32⟩
  | .hbm, ⟨103, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_call1_call0_c : Ref sig .tc := ⟨.hbm, 15, rfl⟩
abbrev main_call1_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call2_c : Ref sig .tc := ⟨.hbm, 20, rfl⟩
abbrev main_call2_v0 : Ref sig .tc := ⟨.hbm, 21, rfl⟩
abbrev main_call2_v1 : Ref sig .tc := ⟨.hbm, 22, rfl⟩
abbrev main_call2_c_0 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_c_1 : Ref sig .tc := ⟨.hbm, 28, rfl⟩
abbrev main_call2_c_2 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_3 : Ref sig .tc := ⟨.hbm, 36, rfl⟩
abbrev main_call2_v12 : Ref sig .tc := ⟨.hbm, 37, rfl⟩
abbrev main_call2_v13 : Ref sig .tc := ⟨.hbm, 38, rfl⟩
abbrev main_call2_c_4 : Ref sig .tc := ⟨.hbm, 39, rfl⟩
abbrev main_call2_v14 : Ref sig .tc := ⟨.hbm, 40, rfl⟩
abbrev main_v5 : Ref sig .tc := ⟨.hbm, 41, rfl⟩
abbrev main_v6 : Ref sig .tc := ⟨.hbm, 42, rfl⟩
abbrev main_cst : Ref sig .tc := ⟨.hbm, 43, rfl⟩
abbrev main_v7 : Ref sig .tc := ⟨.hbm, 44, rfl⟩
abbrev main_c : Ref sig .tc := ⟨.hbm, 45, rfl⟩
abbrev main_v8 : Ref sig .tc := ⟨.hbm, 46, rfl⟩
abbrev main_v9 : Ref sig .tc := ⟨.hbm, 47, rfl⟩
abbrev main_c_0 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_v13 : Ref sig .tc := ⟨.hbm, 53, rfl⟩
abbrev main_v14 : Ref sig .tc := ⟨.hbm, 54, rfl⟩
abbrev main_c_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c_3 : Ref sig .tc := ⟨.hbm, 85, rfl⟩
abbrev main_v36 : Ref sig .tc := ⟨.hbm, 86, rfl⟩
abbrev main_v37 : Ref sig .tc := ⟨.hbm, 87, rfl⟩
abbrev main_c_4 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_5 : Ref sig .tc := ⟨.hbm, 92, rfl⟩
abbrev main_v41 : Ref sig .tc := ⟨.hbm, 93, rfl⟩
abbrev main_v42 : Ref sig .tc := ⟨.hbm, 94, rfl⟩
abbrev main_c_6 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩

abbrev nD : Nat := 1
abbrev τ : Topo := Topo.v7x

variable {F : FTy → Type} [FloatOps F]

class Facts₀ : Prop where
  shapeCasts_S4x2048x2048_S8192x2048 : S4x2048x2048.ShapeCasts S8192x2048
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  natLt_1_32 : 1 < 32
  bcast_S_S_ : S_.BroadcastsInDim S_ (![] : Fin 0 → Fin S_.rank)
  reduceWindows_S8192x32_S8192x32_w8192s1p8191_0_w1s1p0_0 : S8192x32.ReduceWindows (![8192, 1] : Fin 2 → Nat) ![1, 1] ![8191, 0] ![0, 0] S8192x32
  h_S_ : 0 < S_.numel
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S32x512x2048 : S_.BroadcastsInDim S32x512x2048 (![] : Fin 0 → Fin S32x512x2048.rank)
  bcast_S_S8192 : S_.BroadcastsInDim S8192 (![] : Fin 0 → Fin S8192.rank)
  concatenates_S8192x1_S8192x1_S8192x2_d1 : Shape.Concatenates [S8192x1, S8192x1] S8192x2 1
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  bcast_S_S32x512x1024 : S_.BroadcastsInDim S32x512x1024 (![] : Fin 0 → Fin S32x512x1024.rank)
  bcast_S32x2048_S32x1x2048_0_2 : S32x2048.BroadcastsInDim S32x1x2048 (![0, 2] : Fin 2 → Fin S32x1x2048.rank)
  bcast_S32x1x2048_S32x512x2048_0_1_2 : S32x1x2048.BroadcastsInDim S32x512x2048 (![0, 1, 2] : Fin 3 → Fin S32x512x2048.rank)
  shapeCasts_S8192x2048_S4x2048x2048 : S8192x2048.ShapeCasts S4x2048x2048
  gather_S8192x32_S8192x1x1_S8192x1_n_1_0_0_1_2_11_wf : GatherDims.WF S8192x32 S8192x1x1 S8192x1 [] [1] [0] [1] [0] 2 ![1, 1]
  scatter_S32x512x2048_S8192x2_S8192x2048_1_01_01_1_wf : ScatterDims.WF S32x512x2048 S8192x2 S8192x2048 [1] [0, 1] [0, 1] 1
  dot_S32x512x2048_S32x2048x1024_S32x512x1024_2_1_1_2_0_0_wf : DotDims.WF S32x512x2048 S32x2048x1024 S32x512x1024 [2] [1] [1] [2] [0] [0]
  dot_S32x512x1024_S32x1024x2048_S32x512x2048_2_1_1_2_0_0_wf : DotDims.WF S32x512x1024 S32x1024x2048 S32x512x2048 [2] [1] [1] [2] [0] [0]
  gather_S32x512x2048_S8192x2_S8192x2048_1_01_n_n_01_1_112048_wf : GatherDims.WF S32x512x2048 S8192x2 S8192x2048 [1] [0, 1] [] [0, 1] [] 1 ![1, 1, 2048]

variable [Facts₀]

def gather_S8192x32_S8192x1x1_S8192x1_n_1_0_0_1_2_11 : GatherDims S8192x32 S8192x1x1 S8192x1 where
  offsetDims := []
  collapsedSliceDims := [1]
  operandBatchingDims := [0]
  startIndicesBatchingDims := [0]
  startIndexMap := [1]
  indexVectorDim := 2
  sliceSizes := ![1, 1]
  wf := gather_S8192x32_S8192x1x1_S8192x1_n_1_0_0_1_2_11_wf
def scatter_S32x512x2048_S8192x2_S8192x2048_1_01_01_1 : ScatterDims S32x512x2048 S8192x2 S8192x2048 where
  updateWindowDims := [1]
  insertedWindowDims := [0, 1]
  scatterDimsToOperandDims := [0, 1]
  indexVectorDim := 1
  wf := scatter_S32x512x2048_S8192x2_S8192x2048_1_01_01_1_wf
def dot_S32x512x2048_S32x2048x1024_S32x512x1024_2_1_1_2_0_0 : DotDims S32x512x2048 S32x2048x1024 S32x512x1024 where
  lhsContracting := [2]
  rhsContracting := [1]
  lhsNonContracting := [1]
  rhsNonContracting := [2]
  lhsBatch := [0]
  rhsBatch := [0]
  wf := dot_S32x512x2048_S32x2048x1024_S32x512x1024_2_1_1_2_0_0_wf
def dot_S32x512x1024_S32x1024x2048_S32x512x2048_2_1_1_2_0_0 : DotDims S32x512x1024 S32x1024x2048 S32x512x2048 where
  lhsContracting := [2]
  rhsContracting := [1]
  lhsNonContracting := [1]
  rhsNonContracting := [2]
  lhsBatch := [0]
  rhsBatch := [0]
  wf := dot_S32x512x1024_S32x1024x2048_S32x512x2048_2_1_1_2_0_0_wf
def gather_S32x512x2048_S8192x2_S8192x2048_1_01_n_n_01_1_112048 : GatherDims S32x512x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S32x512x2048_S8192x2_S8192x2048_1_01_n_n_01_1_112048_wf

class Facts : Prop extends Facts₀ where

variable [Facts]
-- ==== Proof.KVal.lean ====
/-
  The contents of a core's buffers around the kernel region.

  @main runs five stretches of host operations (the one-hot of the expert indices, its running sum, each token's
  position inside its expert's capacity buffer, the per-expert token counts, the dispatch scatter, the weights' and
  biases' re-typing and re-shaping), then the kernel region, then three more stretches (the flattened index
  `expert · 512 + position`, the row gather with its in-range mask, the final reshape). The region reads the arrays
  the first five stretches left and writes one array, its result; the last three read that array.
-/
import proofs.«427358_j7456063225884_2_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo (after launchContents)

variable {F : FTy → Type} [FloatOps F]

/-- Core `c`'s buffers when the region is entered: the five stretches before it have run, in order, from the
    launch contents. -/
def Vpre (m : (ℓ : Loc nD τ sig) → Buf (Elt F) ℓ) (c : Dev nD) : Valuation τ sig (Elt F) :=
  after hostOps0_4 (after hostOps0_3 (after hostOps0_2 (after hostOps0_1 (after hostOps0 (launchContents m c)))))

open Classical in
/-- Core `c`'s buffers when the region is left with its result array at `Y`: every other buffer as the region found
    it. -/
def Vmid (m : (ℓ : Loc nD τ sig) → Buf (Elt F) ℓ) (c : Dev nD)
    (Y : (Proc.devRef .tc main_v30 : DevRef τ sig).ty.Contents (Elt F)) : Valuation τ sig (Elt F) :=
  Function.update (Vpre m c) (Proc.devRef .tc main_v30) Y

/-- Core `c`'s buffers at the end: the three stretches after the region have run. -/
def Vfin (m : (ℓ : Loc nD τ sig) → Buf (Elt F) ℓ) (c : Dev nD)
    (Y : (Proc.devRef .tc main_v30 : DevRef τ sig).ty.Contents (Elt F)) : Valuation τ sig (Elt F) :=
  after hostOps1_2 (after hostOps1_1 (after hostOps1 (Vmid m c Y)))

open Classical in
theorem Vmid_result (m : (ℓ : Loc nD τ sig) → Buf (Elt F) ℓ) (c : Dev nD)
    (Y : (Proc.devRef .tc main_v30 : DevRef τ sig).ty.Contents (Elt F)) :
    Vmid m c Y (Proc.devRef .tc main_v30) = Y := by
  unfold Vmid; exact Function.update_self _ _ _

open Classical in
theorem Vmid_other (m : (ℓ : Loc nD τ sig) → Buf (Elt F) ℓ) (c : Dev nD)
    (Y : (Proc.devRef .tc main_v30 : DevRef τ sig).ty.Contents (Elt F)) (b : DevRef τ sig)
    (hb : b ≠ Proc.devRef .tc main_v30) : Vmid m c Y b = Vpre m c b := by
  unfold Vmid; exact Function.update_of_ne hb _ _

end Cert.KernelIdeal.Hand

end
-- ==== Proof.KData.lean ====
/-
  The proof data of the kernel region of @main.

  The region is one pipeline over the grid of 32 experts × 2 capacity tiles. Its eight windows are the dispatched
  tokens' block (expert, tile), the three weight blocks and three bias blocks of the expert, and the result's block
  (expert, tile), written back at every point. The per-expert token counts are a table held in scalar memory through
  the whole region: at point (expert, tile) the body loads the expert's count and, where tile · 256 is below it,
  stores the gated feed-forward of the seven input blocks, and zeros elsewhere.

  Stated here: the table as the operations before the region left it, the blocks the windows stage at each point, the
  block the body leaves, the proof data these make on each core, and the result array the region leaves.
-/
import proofs.«427358_j7456063225884_2_alg».proof.Proof.KVal
import proofs.«427358_j7456063225884_2_alg».proof.Proof.Gen.KernelIdeal.Launch
import proofs.«427358_j7456063225884_2_alg».proof.Proof.Gen.KernelIdeal.Skeleton
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: one copy of the rounds algebra over the machine's cells, which funds the staging cells. The
    kernel names no semaphore of its own, so nothing rides beside it. -/
abbrev U : Type := UR sig nD τ

local notation "𝕄" => MT nD τ sig Unit (Elt F) ℕ U ℕ

/-- The kernel's functions have no loop: no variant. -/
abbrev 𝒱₀ : Variants := Variants.none

/-! ## The table and the body's two cases -/

/-- The word of a 32-entry table that the body's scalar load reads at the point of coordinates `i`: the entry of the
    point's expert. -/
def cntWord (T : S32.Idx → Elt F .i32) (i : grid0.Coords) : Elt F .i32 :=
  T ((Rect.unit (s := S32) (k0_off1 i) S1.size (Facts₀.k0_off1_inb i)).emb (Shape.Idx.first (numel1_S1.symm ▸ Nat.one_pos)))

/-- What the body leaves in the result's staging buffer at the point of coordinates `i`, the table at `T` and the
    seven inputs' staging buffers at `X3 … X9`: the gated feed-forward of the inputs where the tile starts below the
    expert's count, zeros elsewhere. -/
def outOf (T : S32.Idx → Elt F .i32) (i : grid0.Coords) (X3 : Vec F S1x256x2048 .bf16) (X4 X5 : Vec F S1x2048x1024 .bf16)
    (X6 : Vec F S1x1024x2048 .bf16) (X7 X8 : Vec F S1x1x1024 .f32) (X9 : Vec F S1x1x2048 .f32) : Vec F S1x256x2048 .f32 :=
  if k0_cond1 i (cntWord T i) = 1#1 then k0_pay1 X3 X4 X5 X6 X7 X8 X9 else k0_pay2

variable (m : (ℓ : Loc nD τ sig) → Buf (Elt F) ℓ)

/-- The table on core `c` when the region is entered: the per-expert token counts the operations before it computed. -/
def tbl (c : Dev nD) : pre0.Contents (Elt F) := fun k => Vpre m c (Proc.devRef .tc (pre0.ref k))

/-- The contents the pipeline is run at: the one device's table (the side condition on a table is void here). -/
def adm : (p : Fin 1) → (pcfgs (F := F) p).Adm := fun _ => ⟨tbl m 0, trivial⟩

/-- The pipeline at those contents. -/
abbrev cfgA : Cfg sig Λ₀ := Pipeline.pin (pcfgs (F := F)) (adm m) 0

/-- The count the body loads at point `t`: the table's entry for the point's expert. -/
def cntAt (c : Dev nD) (t : Fin grid0.N) : BitVec 32 := cntWord (tbl m c 0) (grid0.coords t)

/-- Input window `w`'s block at point `t`, read off the window's array as the region finds it. -/
def inBlk (c : Dev nD) (w : Fin 8) (t : Fin grid0.N) : (((cfgA m).win w).xblock ((cfgA m).grid.coords t)).Idx → Elt F ((cfgA m).win w).elt :=
  (((cfgA m).win w).blk t).view.read (Elt F) (Vpre m c (Pipeline.arrRef spec0 w))

/-- What the body leaves in the result's staging buffer at point `t`. -/
def outBlk (c : Dev nD) (t : Fin grid0.N) : Vec F S1x256x2048 .f32 :=
  outOf (tbl m c 0) (grid0.coords t) (inBlk m c 0 t) (inBlk m c 1 t) (inBlk m c 2 t) (inBlk m c 3 t) (inBlk m c 4 t) (inBlk m c 5 t) (inBlk m c 6 t)

/-! ## The proof data -/

/-- The invariant between points: the table held whole at its contents (nothing writes it), and the scoped buffers no
    window stages. -/
def Φc (c : Dev nD) : sProp 𝕄 :=
  iprop(Pipeline.prefHeld pre0 c (fun _ => fullShare) (tbl m c)
    ∗ Pipeline.scopedRest (Ix := Unit) (Name := ℕ) (U := U) (Lvl := ℕ) (Val := Elt F) spec0 c)

/-- The proof data on core `c`: the windows' arrays as the region finds them; after the body at point `t` each input's
    staging buffer at its block and the result's at `outBlk`; the invariant `Φc`; full shares; nothing owed. -/
def dats : (p : Fin 1) → (c : Dev nD) → Dat τ (Elt F) Unit ℕ U ℕ (Pipeline.pin (pcfgs (F := F)) (adm m) p) c := fun _ c =>
  { A := fun w => Vpre m c (Pipeline.arrRef spec0 w)
    after := fun w t => match w with
      | ⟨0, _⟩ => inBlk m c 0 t
      | ⟨1, _⟩ => inBlk m c 1 t
      | ⟨2, _⟩ => inBlk m c 2 t
      | ⟨3, _⟩ => inBlk m c 3 t
      | ⟨4, _⟩ => inBlk m c 4 t
      | ⟨5, _⟩ => inBlk m c 5 t
      | ⟨6, _⟩ => inBlk m c 6 t
      | ⟨7, _⟩ => outBlk m c t
    Φ := fun _ => Φc m c
    q := fun _ => fullShare
    owed := fun _ => 0 }

/-- The result array as the region leaves it: every write-back done. -/
def resultY (c : Dev nD) : (Proc.devRef .tc main_v30 : DevRef τ sig).ty.Contents (Elt F) :=
  (dats m 0 c).arrAt 7 (cfgA m).N

/-! ## The proof data projected -/

theorem dats_A (c : Dev nD) (w : Fin 8) : (dats m 0 c).A w = Vpre m c (Pipeline.arrRef spec0 w) := by
  dsimp only [dats]

theorem dats_Φ (c : Dev nD) (t : Fin ((cfgA m).N + 1)) : (dats m 0 c).Φ t = Φc m c := by
  dsimp only [dats]

theorem dats_owed (c : Dev nD) (t : Fin ((cfgA m).N + 1)) : (dats m 0 c).owed t = 0 := by
  dsimp only [dats]

theorem dats_q (c : Dev nD) (w : Fin 8) : (dats m 0 c).q w = fullShare := by
  dsimp only [dats]

theorem after_0 (c : Dev nD) (t : Fin grid0.N) : (dats m 0 c).after 0 t = inBlk m c 0 t := by dsimp only [dats]; rfl
theorem after_1 (c : Dev nD) (t : Fin grid0.N) : (dats m 0 c).after 1 t = inBlk m c 1 t := by dsimp only [dats]; rfl
theorem after_2 (c : Dev nD) (t : Fin grid0.N) : (dats m 0 c).after 2 t = inBlk m c 2 t := by dsimp only [dats]; rfl
theorem after_3 (c : Dev nD) (t : Fin grid0.N) : (dats m 0 c).after 3 t = inBlk m c 3 t := by dsimp only [dats]; rfl
theorem after_4 (c : Dev nD) (t : Fin grid0.N) : (dats m 0 c).after 4 t = inBlk m c 4 t := by dsimp only [dats]; rfl
theorem after_5 (c : Dev nD) (t : Fin grid0.N) : (dats m 0 c).after 5 t = inBlk m c 5 t := by dsimp only [dats]; rfl
theorem after_6 (c : Dev nD) (t : Fin grid0.N) : (dats m 0 c).after 6 t = inBlk m c 6 t := by dsimp only [dats]; rfl
theorem after_7 (c : Dev nD) (t : Fin grid0.N) : (dats m 0 c).after 7 t = outBlk m c t := by dsimp only [dats]; rfl

/-- One device: every core's table is the one the pipeline is run at. -/
theorem tbl_dev (c : Dev nD) : tbl m c = (adm m 0).1 := by
  rw [Subsingleton.elim c 0]; rfl

/-- The word the body loads is the table's entry at the load's offsets, as the configuration's idle table spells it. -/
theorem cntAt_eq_atD (c : Dev nD) (t : Fin grid0.N) :
    cntAt m c t = (tbl m c).atD 0 (k0_off1 (grid0.coords t)) := by
  unfold cntAt cntWord Pipeline.Prefetch.Contents.atD
  split
  · -- the unit rectangle's one element sits at the load's offsets
    refine congrArg _ (funext fun a => Fin.ext ?_)
    exact Nat.add_zero _
  · -- and the offsets are inside the table: the point's expert is below 32
    next hn =>
    refine absurd (fun a => ?_) hn
    obtain ⟨a, ha⟩ := a
    have ha' : a < 1 := ha
    obtain rfl : a = 0 := by omega
    exact Facts₀.k0_off1_inb (grid0.coords t) 0

end Cert.KernelIdeal.Hand

end
-- ==== Proof.KCond.lean ====
/-
  The two branch conditions of the kernel body, as comparisons of words.

  At the grid point (e, c) the body loads the count n of tokens routed to expert e and computes the one-bit word
  b = (c · 256 <ₛ n). The first branch is taken when b, widened, is not zero — that is when b is set — and the
  second when b's complement, widened, is not zero — that is when b is clear. So exactly one of the two is taken,
  and the first one is taken as soon as c · 256 is below n as signed integers.
-/
import proofs.«427358_j7456063225884_2_alg».proof.Proof.Gen.KernelIdeal

namespace Cert.KernelIdeal.Hand

open Cert.KernelIdeal Idealize.ShloMosaic

/-- A one-bit word widened to 32 bits differs from zero exactly when it is set. -/
theorem ne_zero_of_bit (b : BitVec 1) : Scalar.cmpi .ne (Scalar.extui b) 0#32 = b := by
  have hb : b = 0#1 ∨ b = 1#1 := by
    rcases b with ⟨⟨v, hv⟩⟩
    have : v = 0 ∨ v = 1 := by omega
    rcases this with rfl | rfl
    · exact Or.inl rfl
    · exact Or.inr rfl
  rcases hb with rfl | rfl <;> rfl

/-- The complement of a one-bit word is set exactly when the word is clear. -/
theorem xor_one_eq_one_iff (b : BitVec 1) : Scalar.xori b 1#1 = 1#1 ↔ b ≠ 1#1 := by
  have hb : b = 0#1 ∨ b = 1#1 := by
    rcases b with ⟨⟨v, hv⟩⟩
    have : v = 0 ∨ v = 1 := by omega
    rcases this with rfl | rfl
    · exact Or.inl rfl
    · exact Or.inr rfl
  rcases hb with rfl | rfl <;> decide

/-- The compared bit: is c · 256 below the count, as signed words. -/
def tileBit (i : grid0.Coords) (n : BitVec 32) : BitVec 1 :=
  Scalar.cmpi .slt (Scalar.muli (BitVec.ofNat 32 (i 1).val) 256#32) n

theorem cond1_eq (i : grid0.Coords) (n : BitVec 32) : k0_cond1 i n = tileBit i n := by
  unfold k0_cond1 tileBit
  exact ne_zero_of_bit _

theorem cond2_eq (i : grid0.Coords) (n : BitVec 32) : k0_cond2 i n = Scalar.xori (tileBit i n) 1#1 := by
  unfold k0_cond2 tileBit
  exact ne_zero_of_bit _

/-- The second branch is taken exactly when the first is not. -/
theorem cond2_iff_not_cond1 (i : grid0.Coords) (n : BitVec 32) : k0_cond2 i n = 1#1 ↔ ¬ k0_cond1 i n = 1#1 := by
  rw [cond1_eq, cond2_eq]; exact xor_one_eq_one_iff _

theorem cond2_of_not_cond1 (i : grid0.Coords) (n : BitVec 32) (h : ¬ k0_cond1 i n = 1#1) : k0_cond2 i n = 1#1 :=
  (cond2_iff_not_cond1 i n).mpr h

theorem not_cond2_of_cond1 (i : grid0.Coords) (n : BitVec 32) (h : k0_cond1 i n = 1#1) : ¬ k0_cond2 i n = 1#1 :=
  fun h2 => (cond2_iff_not_cond1 i n).mp h2 h

/-- The first branch is taken when c · 256 is below the count as signed integers. -/
theorem cond1_of_lt (i : grid0.Coords) (n : BitVec 32) (h : ((i 1).val : Int) * 256 < n.toInt) : k0_cond1 i n = 1#1 := by
  rw [cond1_eq]; unfold tileBit Scalar.cmpi IntOp.cmpi Scalar.muli IntOp.muli
  have hc : (i 1).val = 0 ∨ (i 1).val = 1 := by
    have := (i 1).isLt
    have h2 : (i 1).val < 2 := this
    omega
  have hs : (BitVec.ofNat 32 (i 1).val * 256#32).slt n = true := by
    rw [BitVec.slt_iff_toInt_lt]
    rcases hc with h0 | h1
    · rw [h0] at h ⊢
      have : (BitVec.ofNat 32 0 * 256#32).toInt = 0 := by decide
      rw [this]; simpa using h
    · rw [h1] at h ⊢
      have : (BitVec.ofNat 32 1 * 256#32).toInt = 256 := by decide
      rw [this]; simpa using h
  simp only [hs]; rfl

end Cert.KernelIdeal.Hand
-- ==== Proof.KBody.lean ====
/-
  The body obligation of the kernel region's pipeline.

  At a grid point the body reads one word of the prefetched table of per-expert token counts — the count of the
  point's expert — and compares the first row of the point's capacity tile with it. Where the row is below the count it
  loads the seven input blocks (the dispatched tokens' tile, the three weight matrices and the three biases of the
  expert) and stores the gated feed-forward tile computed from them into the output block; where it is not, it stores
  zeros. The second guard is the first one's bit flipped, so at every point exactly one of the two stores happens and
  the output block is a function of the count and the seven blocks alone, whatever it held before.

  First the body's run at one point over any staging memrefs; then the obligation: at every grid point, from the table
  held, the seven inputs' staging buffers at their blocks and the result's staging buffer at anything, the body runs to
  the same with the result's staging buffer at that function of the count and the blocks. An input window that is not
  fetched at a point has the block index it had at the point before, so its buffer holds the point's block whether or
  not it was fetched there; the output window is written back at every point and is idle at none.
-/
import proofs.«427358_j7456063225884_2_alg».proof.Proof.KData
import proofs.«427358_j7456063225884_2_alg».proof.Proof.KCond
import Idealize.ShloMosaic.Lib.Tactic
import Idealize.ShloMosaic.Lib.Pipeline.Kit
import Idealize.ShloMosaic.Lib.Pipeline.TableIdle
import Idealize.ShloMosaic.Lib.Pipeline.Value

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

section Run

variable {R : Type} [URA R]

local notation "𝕄" => MT nD τ sig Unit (Elt F) ℕ R ℕ

/-- A buffer held on a memref's own elements at contents that read `X` is held at the canonical contents of `X`. -/
theorem pts_rep_of_read (c : Dev nD) {sp : Space} {sh : Shape} {e : EltTy} (m : Memref sig .tc sp sh e) (q : PosShare TreeShare)
    (f : m.view.ty.Contents (Elt F)) (X : sh.Idx → Elt F e) (h : m.view.read (Elt F) f = X) :
    (m.view.loc (c : Thread nD τ) ↦[m.view.set]{q} f : sProp 𝕄) ⊢ (m.view.loc (c : Thread nD τ) ↦[m.view.set]{q} m.view.rep X) := by
  refine BIBase.Entails.trans ?_ (rep_of_owns (c : Thread nD τ) m q X)
  unfold owns
  iintro H; iexists f; isplitr
  · ipureintro; exact h
  iexact H

/-- A load of a whole block, through the block-sized rectangle at zero offsets, of the canonical contents of `X` reads `X`. -/
theorem readAt_rep_unit_zero {κ : Kind} {sp : Space} {S : Shape} {e : EltTy} (v : View sig κ sp S e) {off : Fin S.rank → Nat}
    (h : off = fun _ => 0) (inb : ∀ a, off a + S.size a ≤ S.size a) (X : S.Idx → Elt F e) :
    v.readAt (Elt F) (Rect.unit off S.size inb).toLoadRect (v.rep X) = X := by
  rw [View.readAt_eq_ld, View.read_rep, View.ld_unit_zero h]

/-- One store of a whole block, through the block-sized rectangle at zero offsets, leaves a buffer that reads the payload. -/
theorem read_writes_unit_zero {κ : Kind} {sp : Space} {S : Shape} {e : EltTy} (v : View sig κ sp S e) {off : Fin S.rank → Nat}
    (h : off = fun _ => 0) (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The body at a grid point, over any staging memrefs: from the table of counts held at any share, the seven input
    blocks and the output block held whole, it reads the point's expert's count; where the tile's first row is below
    it, it stores the gated feed-forward tile of the seven blocks into the output block, and elsewhere zeros — the
    two guards are complementary, so exactly one store happens — and hands everything else back as it found it.
    Stated with a continuation, so that whatever else is held passes through. -/
theorem kernelRun_k (c : Dev nD) (i : grid0.Coords)
    (arg2 : Memref sig .tc .smem S32 .i32) (harg2 : arg2.IsWhole)
    (arg3 : Memref sig .tc .vmem S1x256x2048 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1x1024x2048 .bf16) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x2048 .f32) (harg9 : arg9.IsWhole)
    (arg10 : Memref sig .tc .vmem S1x256x2048 .f32) (harg10 : arg10.IsWhole)
    (q : PosShare TreeShare) (T : S32.Idx → Elt F .i32)
    (X3 : Vec F S1x256x2048 .bf16) (X4 X5 : Vec F S1x2048x1024 .bf16) (X6 : Vec F S1x1024x2048 .bf16)
    (X7 X8 : Vec F S1x1x1024 .f32) (X9 : Vec F S1x1x2048 .f32) (O : Vec F S1x256x2048 .f32)
    (Q : PUnit → sProp 𝕄) :
    (iprop(owns (c : Thread nD τ) arg2 q T
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare O
        ∗ (iprop(owns (c : Thread nD τ) arg2 q T
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare (outOf T i X3 X4 X5 X6 X7 X8 X9)) -∗ Q ⟨⟩)) : sProp 𝕄)
      ⊢ wp frame (wpE (defs₀ (F := F)) Variants.none c none) Set.univ
          (cc0__moe_ffn_kernel i arg2 harg2 arg3 harg3 arg4 harg4 arg5 harg5 arg6 harg6 arg7 harg7 arg8 harg8 arg9 harg9 arg10 harg10) Q := by
  simp only [owns_eq_rep]
  iintro ⟨H2, H3, H4, H5, H6, H7, H8, H9, H10, Hk⟩
  sl_unfold [cc0__moe_ffn_kernel]
  sl_exec
  sl_step
  -- the word the body read is the expert's count
  have hr : kernelRun_k.sl.r i arg2 T = cntWord T i := by
    unfold kernelRun_k.sl.r cntWord
    rw [View.readAt_rep]; rfl
  have z3 : (![0, 0, 0] : Fin 3 → Nat) = fun _ => 0 := by decide
  -- the output block reads the one payload stored: the first guard's where it holds, else the second's
  ihave H10' := (pts_rep_of_read c arg10 fullShare _ (outOf T i X3 X4 X5 X6 X7 X8 X9) ?_) $$ H10
  · rw [hr]; unfold outOf
    by_cases h1 : k0_cond1 i (cntWord T i) = 1#1
    · rw [dif_neg (not_cond2_of_cond1 i _ h1), dif_pos h1, if_pos h1, read_writes_unit_zero _ z3,
        readAt_rep_unit_zero _ z3, readAt_rep_unit_zero _ z3, readAt_rep_unit_zero _ z3, readAt_rep_unit_zero _ z3,
        readAt_rep_unit_zero _ z3, readAt_rep_unit_zero _ z3, readAt_rep_unit_zero _ z3]
    · rw [dif_pos (cond2_of_not_cond1 i _ h1), if_neg h1, read_writes_unit_zero _ z3]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10'

/-- The same as a plain triple. -/
theorem kernelRun (c : Dev nD) (i : grid0.Coords)
    (arg2 : Memref sig .tc .smem S32 .i32) (harg2 : arg2.IsWhole)
    (arg3 : Memref sig .tc .vmem S1x256x2048 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1x1024x2048 .bf16) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x2048 .f32) (harg9 : arg9.IsWhole)
    (arg10 : Memref sig .tc .vmem S1x256x2048 .f32) (harg10 : arg10.IsWhole)
    (q : PosShare TreeShare) (T : S32.Idx → Elt F .i32)
    (X3 : Vec F S1x256x2048 .bf16) (X4 X5 : Vec F S1x2048x1024 .bf16) (X6 : Vec F S1x1024x2048 .bf16)
    (X7 X8 : Vec F S1x1x1024 .f32) (X9 : Vec F S1x1x2048 .f32) (O : Vec F S1x256x2048 .f32) :
    (iprop(owns (c : Thread nD τ) arg2 q T
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare O) : sProp 𝕄)
      ⊢ wp frame (wpE (defs₀ (F := F)) Variants.none c none) Set.univ
          (cc0__moe_ffn_kernel i arg2 harg2 arg3 harg3 arg4 harg4 arg5 harg5 arg6 harg6 arg7 harg7 arg8 harg8 arg9 harg9 arg10 harg10)
          fun _ => iprop(owns (c : Thread nD τ) arg2 q T
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare (outOf T i X3 X4 X5 X6 X7 X8 X9)) := by
  iintro ⟨H2, H3, H4, H5, H6, H7, H8, H9, H10⟩
  iapply (kernelRun_k c i arg2 harg2 arg3 harg3 arg4 harg4 arg5 harg5 arg6 harg6 arg7 harg7 arg8 harg8 arg9 harg9 arg10 harg10 q T X3 X4 X5 X6 X7 X8 X9 O)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro H; iexact H

end Run

section Obligation

local notation "𝕄" => MT nD τ sig Unit (Elt F) ℕ U ℕ

variable (m : (ℓ : Loc nD τ sig) → Buf (Elt F) ℓ)

theorem before_0' (c : Dev nD) (t : Fin grid0.N) (d) : (dats m 0 c).before 0 t d = inBlk m c 0 t := by
  have hkeep : ∀ t, ((cfgA m).win 0).cut ((cfgA m).grid.coords t) ((dats m 0 c).after 0 t) = (dats m 0 c).blockOf 0 t := fun _ => rfl
  rw [Dat.before_in_eq_fetched (dats m 0 c) 0 rfl (fun _ => rfl) (fun _ _ _ => rfl) hkeep t d]
  unfold Dat.fetched
  rw [← hkeep t, Pipeline.fill_of_clip_none 0 _ (fun _ => rfl) d ((dats m 0 c).after 0 t), Window.fill_cut, after_0]

theorem before_0 (c : Dev nD) (t : Fin (cfgA m).N) (d) : (dats m 0 c).before (0 : Fin 8) t d = inBlk m c 0 t :=
  before_0' m c t d

theorem before_1' (c : Dev nD) (t : Fin grid0.N) (d) : (dats m 0 c).before 1 t d = inBlk m c 1 t := by
  have hkeep : ∀ t, ((cfgA m).win 1).cut ((cfgA m).grid.coords t) ((dats m 0 c).after 1 t) = (dats m 0 c).blockOf 1 t := fun _ => rfl
  rw [Dat.before_in_eq_fetched (dats m 0 c) 1 rfl (fun _ => rfl) (fun _ _ _ => rfl) hkeep t d]
  unfold Dat.fetched
  rw [← hkeep t, Pipeline.fill_of_clip_none 1 _ (fun _ => rfl) d ((dats m 0 c).after 1 t), Window.fill_cut, after_1]

theorem before_1 (c : Dev nD) (t : Fin (cfgA m).N) (d) : (dats m 0 c).before (1 : Fin 8) t d = inBlk m c 1 t :=
  before_1' m c t d

theorem before_2' (c : Dev nD) (t : Fin grid0.N) (d) : (dats m 0 c).before 2 t d = inBlk m c 2 t := by
  have hkeep : ∀ t, ((cfgA m).win 2).cut ((cfgA m).grid.coords t) ((dats m 0 c).after 2 t) = (dats m 0 c).blockOf 2 t := fun _ => rfl
  rw [Dat.before_in_eq_fetched (dats m 0 c) 2 rfl (fun _ => rfl) (fun _ _ _ => rfl) hkeep t d]
  unfold Dat.fetched
  rw [← hkeep t, Pipeline.fill_of_clip_none 2 _ (fun _ => rfl) d ((dats m 0 c).after 2 t), Window.fill_cut, after_2]

theorem before_2 (c : Dev nD) (t : Fin (cfgA m).N) (d) : (dats m 0 c).before (2 : Fin 8) t d = inBlk m c 2 t :=
  before_2' m c t d

theorem before_3' (c : Dev nD) (t : Fin grid0.N) (d) : (dats m 0 c).before 3 t d = inBlk m c 3 t := by
  have hkeep : ∀ t, ((cfgA m).win 3).cut ((cfgA m).grid.coords t) ((dats m 0 c).after 3 t) = (dats m 0 c).blockOf 3 t := fun _ => rfl
  rw [Dat.before_in_eq_fetched (dats m 0 c) 3 rfl (fun _ => rfl) (fun _ _ _ => rfl) hkeep t d]
  unfold Dat.fetched
  rw [← hkeep t, Pipeline.fill_of_clip_none 3 _ (fun _ => rfl) d ((dats m 0 c).after 3 t), Window.fill_cut, after_3]

theorem before_3 (c : Dev nD) (t : Fin (cfgA m).N) (d) : (dats m 0 c).before (3 : Fin 8) t d = inBlk m c 3 t :=
  before_3' m c t d

theorem before_4' (c : Dev nD) (t : Fin grid0.N) (d) : (dats m 0 c).before 4 t d = inBlk m c 4 t := by
  have hkeep : ∀ t, ((cfgA m).win 4).cut ((cfgA m).grid.coords t) ((dats m 0 c).after 4 t) = (dats m 0 c).blockOf 4 t := fun _ => rfl
  rw [Dat.before_in_eq_fetched (dats m 0 c) 4 rfl (fun _ => rfl) (fun _ _ _ => rfl) hkeep t d]
  unfold Dat.fetched
  rw [← hkeep t, Pipeline.fill_of_clip_none 4 _ (fun _ => rfl) d ((dats m 0 c).after 4 t), Window.fill_cut, after_4]

theorem before_4 (c : Dev nD) (t : Fin (cfgA m).N) (d) : (dats m 0 c).before (4 : Fin 8) t d = inBlk m c 4 t :=
  before_4' m c t d

theorem before_5' (c : Dev nD) (t : Fin grid0.N) (d) : (dats m 0 c).before 5 t d = inBlk m c 5 t := by
  have hkeep : ∀ t, ((cfgA m).win 5).cut ((cfgA m).grid.coords t) ((dats m 0 c).after 5 t) = (dats m 0 c).blockOf 5 t := fun _ => rfl
  rw [Dat.before_in_eq_fetched (dats m 0 c) 5 rfl (fun _ => rfl) (fun _ _ _ => rfl) hkeep t d]
  unfold Dat.fetched
  rw [← hkeep t, Pipeline.fill_of_clip_none 5 _ (fun _ => rfl) d ((dats m 0 c).after 5 t), Window.fill_cut, after_5]

theorem before_5 (c : Dev nD) (t : Fin (cfgA m).N) (d) : (dats m 0 c).before (5 : Fin 8) t d = inBlk m c 5 t :=
  before_5' m c t d

theorem before_6' (c : Dev nD) (t : Fin grid0.N) (d) : (dats m 0 c).before 6 t d = inBlk m c 6 t := by
  have hkeep : ∀ t, ((cfgA m).win 6).cut ((cfgA m).grid.coords t) ((dats m 0 c).after 6 t) = (dats m 0 c).blockOf 6 t := fun _ => rfl
  rw [Dat.before_in_eq_fetched (dats m 0 c) 6 rfl (fun _ => rfl) (fun _ _ _ => rfl) hkeep t d]
  unfold Dat.fetched
  rw [← hkeep t, Pipeline.fill_of_clip_none 6 _ (fun _ => rfl) d ((dats m 0 c).after 6 t), Window.fill_cut, after_6]

theorem before_6 (c : Dev nD) (t : Fin (cfgA m).N) (d) : (dats m 0 c).before (6 : Fin 8) t d = inBlk m c 6 t :=
  before_6' m c t d

/-- The two guards are complementary, so the body stores into the output block at every point: the output window is
    idle nowhere. -/
theorem idle_7 (pf : pre0.Contents (Elt F)) (i : grid0.Coords) : idle0 (F := F) pf 7 i = false := by
  show (!(k0_cond1 i (pf.atD 0 (k0_off1 i)) == 1#1) && !(k0_cond2 i (pf.atD 0 (k0_off1 i)) == 1#1)) = false
  by_cases h : k0_cond1 i (pf.atD 0 (k0_off1 i)) = 1#1
  · simp [h]
  · simp [h, cond2_of_not_cond1 i _ h]

/-- The one prefetched table held at a share is the table's memref owned at its contents. -/
theorem prefHeld_tbl (c : Dev nD) (q : PosShare TreeShare) (V : pre0.Contents (Elt F)) :
    (Pipeline.prefHeld pre0 c (fun _ => q) V : sProp 𝕄) = owns (c : Thread nD τ) (Memref.whole main_v6) q (V 0) := by
  unfold Pipeline.prefHeld
  rw [show (Finset.univ : Finset (Fin pre0.K)) = {0} from rfl, bigSep_singleton]
  exact (owns_whole (c : Thread nD τ) (pre0.ref 0) q (V 0)).symm

theorem body_obligation (m : (ℓ : Loc nD τ sig) → Buf (Elt F) ℓ) (c : Dev nD) :
    Pipeline.BodyObligation (dats m 0 c) (defs₀ (F := F)) 𝒱₀ () Set.univ := fun t => by
  rw [Gen.bigSep_W0, Gen.bigSep_W0]
  have h7 : (Pipeline.pin pcfgs (adm m) 0).idle (7 : Fin 8) ((Pipeline.pin pcfgs (adm m) 0).grid.coords t) = false := idle_7 _ _
  rw [h7]
  simp only [before_0, before_1, before_2, before_3, before_4, before_5, before_6,
    after_0, after_1, after_2, after_3, after_4, after_5, after_6, after_7, dats_Φ]
  unfold Φc Dat.owesAt Pipeline.owesWithin outBlk
  rw [Gen.scopedRest0_eq, prefHeld_tbl]
  iintro ⟨⟨Hpf, He⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun_k (R := U) c (grid0.coords t) (Memref.whole main_v6) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    fullShare (tbl m c 0) (inBlk m c 0 t) (inBlk m c 1 t) (inBlk m c 2 t) (inBlk m c 3 t) (inBlk m c 4 t) (inBlk m c 5 t) (inBlk m c 6 t)
    ((dats m 0 c).before 7 t d7))
  isplitl [Hpf]; · iexact Hpf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨Hpf, H0, H1, H2, H3, H4, H5, H6, H7⟩
  isplitl [Hpf He]
  · isplitl [Hpf]; · iexact Hpf
    iexact He
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Obligation

end Cert.KernelIdeal.Hand

end
-- ==== Proof.KLaunch.lean ====
/-
  The launch of @main: its run as nine segments.

  @main is five stretches of host operations, the kernel region, and three more stretches. Every stretch runs over the
  core's unscoped buffers held whole at a valuation, and leaves them at the valuation its operations make of it. The
  region is entered from the buffers as the fifth stretch left them: the windows' arrays go to the pipeline, the table of
  per-expert token counts goes into the body's invariant, every other buffer bypasses the region; it is left with the
  result array at what the pipeline wrote and every other buffer as it was, which is what the sixth stretch runs from.
  The final state has every unscoped buffer at the valuation the last stretch left.
-/
import proofs.«427358_j7456063225884_2_alg».proof.Proof.KBody
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after launchContents)

variable {F : FTy → Type} [FloatOps F]

local notation "𝕄" => MT nD τ sig Unit (Elt F) ℕ U ℕ

/-- The pipeline library's algebra is the whole of the user algebra. -/
abbrev EP : Emb (UR sig nD τ) (MT nD τ sig Unit (Elt F) ℕ U ℕ) := emb₁

/-! ## The unscoped buffers as a set held at a valuation -/

/-- The core's unscoped references, as device buffers: the set every host stretch runs within. -/
def ucRefs : Finset (DevRef τ sig) := (StableHlo.tcRefs τ sig).filter fun b => ¬ b.isScoped

omit [FloatOps F] in
/-- That set held at a valuation is the launch's unscoped buffers at it. -/
theorem held_ucRefs (c : Dev nD) (W : Valuation τ sig (Elt F)) :
    (StableHlo.held (c : Thread nD τ) ucRefs W : sProp 𝕄) = unscopedBufs c (fun b => W b) := by
  unfold StableHlo.held unscopedBufs ucRefs StableHlo.tcRefs
  rw [Finset.filter_map, bigSep_map]
  rfl

omit [FloatOps F] in
/-- A host operation names no scoped buffer: one on the core's references touches unscoped ones only. -/
theorem sub_ucRefs (op : HloOp τ sig (Elt F)) (h : op.bufs ⊆ StableHlo.tcRefs τ sig) : op.bufs ⊆ ucRefs := by
  intro b hb
  refine Finset.mem_filter.mpr ⟨h hb, ?_⟩
  rw [op.no_scoped b hb]; exact Bool.false_ne_true

omit [FloatOps F] in
theorem mem_ucRefs (b : Ref sig .tc) (hb : (Proc.devRef (τ := τ) .tc b).isScoped = false) : Proc.devRef (τ := τ) .tc b ∈ ucRefs :=
  Finset.mem_filter.mpr ⟨StableHlo.devRef_mem_tcRefs b, by rw [hb]; exact Bool.false_ne_true⟩

variable (m : (ℓ : Loc nD τ sig) → Buf (Elt F) ℓ) (ρ : Dev nD → PrngReg)

/-! ## The segments -/

/-- No core owes another anything: no level is assigned. -/
abbrev L : GSem nD τ sig → Finset Unit := fun _ => ∅
abbrev lv : GSem nD τ sig → Unit → ℕ := fun _ _ => 0

/-- What rides beside the buffers through every segment: the core owing nothing. -/
abbrev R (c : Dev nD) : sProp 𝕄 := iprop(∃ W, owes (c : Thread nD τ) (0 : CellTallies nD τ sig Unit) W)

/-- A stretch of host operations over the unscoped buffers at the valuation `V`. -/
def hseg (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := U) (pcfgs (F := F)) defs₀ 𝒱₀ L lv :=
  Pipeline.HostSeg.ofOps _ _ _ _ _ ucRefs ops (fun op h => sub_ucRefs op ((List.forall_iff_forall_mem.mp hsub) op h))
    (List.forall_iff_forall_mem.mp hfresh) V R

/-- The valuations between the stretches before the region. -/
abbrev W0 (c : Dev nD) : Valuation τ sig (Elt F) := launchContents m c
abbrev W1 (c : Dev nD) : Valuation τ sig (Elt F) := after hostOps0 (W0 m c)
abbrev W2 (c : Dev nD) : Valuation τ sig (Elt F) := after hostOps0_1 (W1 m c)
abbrev W3 (c : Dev nD) : Valuation τ sig (Elt F) := after hostOps0_2 (W2 m c)
abbrev W4 (c : Dev nD) : Valuation τ sig (Elt F) := after hostOps0_3 (W3 m c)

theorem fresh0 : (hostOps0 : List (HloOp τ sig (Elt F))).Forall fun op => op.fresh = ∅ := by
  simp only [List.Forall, hostOps0]; exact ⟨rfl, rfl, rfl, rfl, rfl, rfl⟩

theorem fresh0_1 : (hostOps0_1 : List (HloOp τ sig (Elt F))).Forall fun op => op.fresh = ∅ := by
  simp only [List.Forall, hostOps0_1]; exact ⟨rfl, rfl, rfl⟩
theorem fresh0_2 : (hostOps0_2 : List (HloOp τ sig (Elt F))).Forall fun op => op.fresh = ∅ := by
  simp only [List.Forall, hostOps0_2]; exact ⟨rfl, rfl⟩
theorem fresh0_3 : (hostOps0_3 : List (HloOp τ sig (Elt F))).Forall fun op => op.fresh = ∅ := by
  simp only [List.Forall, hostOps0_3]; exact ⟨rfl, rfl, rfl, rfl, rfl, rfl, rfl, rfl, rfl, rfl, rfl, rfl, rfl, rfl, rfl, rfl, rfl, rfl, rfl, rfl, rfl, rfl⟩
theorem fresh0_4 : (hostOps0_4 : List (HloOp τ sig (Elt F))).Forall fun op => op.fresh = ∅ := by
  simp only [List.Forall, hostOps0_4]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh1 : (hostOps1 : List (HloOp τ sig (Elt F))).Forall fun op => op.fresh = ∅ := by
  simp only [List.Forall, hostOps1]; exact ⟨rfl, rfl, rfl, rfl, rfl⟩
theorem fresh1_1 : (hostOps1_1 : List (HloOp τ sig (Elt F))).Forall fun op => op.fresh = ∅ := by
  simp only [List.Forall, hostOps1_1]; exact ⟨rfl, rfl, rfl, rfl, rfl, rfl, rfl, rfl, rfl, rfl, rfl, rfl, rfl, rfl, rfl, rfl, rfl, rfl, rfl, rfl, rfl, rfl, rfl⟩
theorem fresh1_2 : (hostOps1_2 : List (HloOp τ sig (Elt F))).Forall fun op => op.fresh = ∅ := by
  simp only [List.Forall, hostOps1_2]; exact rfl

/-- The five stretches before the region. -/
def seg0 := hseg hostOps0 hostOps0_sub fresh0 (W0 m)
def seg1 := hseg hostOps0_1 hostOps0_1_sub fresh0_1 (W1 m)
def seg2 := hseg hostOps0_2 hostOps0_2_sub fresh0_2 (W2 m)
def seg3 := hseg hostOps0_3 hostOps0_3_sub fresh0_3 (W3 m)
def seg4 := hseg hostOps0_4 hostOps0_4_sub fresh0_4 (W4 m)

/-- The buffers no window stages and no table names, as the region finds them: they bypass the region. -/
abbrev Zc (c : Dev nD) : sProp 𝕄 :=
  Pipeline.unscopedRestP (Ix := Unit) (Name := ℕ) (U := U) (Lvl := ℕ) pre0 spec0 c (fun b => Vpre m c b)

/-- The table held whole at its contents on core `c`. -/
abbrev Yc (c : Dev nD) : sProp 𝕄 := Pipeline.prefHeld pre0 c (fun _ => fullShare) (tbl m c)

/-- The core's buffers when the region is left, by reference. -/
abbrev Vout (c : Dev nD) (b : Ref sig .tc) : Buf (Elt F) ((c : Thread nD τ).loc b) := Vmid m c (resultY m c) b

/-- An input window's array is as the region found it at every point. -/
theorem arrAt_input (c : Dev nD) (w : Fin 8) (hw : ((cfgA m).win w).isOut = false) (n : Nat) :
    (dats m 0 c).arrAt w n = Vpre m c (Pipeline.arrRef spec0 w) :=
  ((dats m 0 c).arrAt_in w hw n).trans (dats_A m c w)

/-- Every window but the last is an input, and only the last window's array is the result. -/
theorem isOut_of_ne : ∀ w : Fin 8, w ≠ 7 → (spec0 w).isOut = false := by decide
theorem arrRef_ne : ∀ w : Fin 8, w ≠ 7 → Pipeline.arrRef spec0 w ≠ main_v30 := by decide

/-- The arrays as the pipeline leaves them are the arrays of the valuation the region is left at. -/
theorem arrAt_Vout (c : Dev nD) (w : Fin 8) : (dats m 0 c).arrAt w (cfgA m).N = Vout m c (Pipeline.arrRef spec0 w) := by
  by_cases hw : w = 7
  · subst hw
    exact (Vmid_result m c (resultY m c)).symm
  · have h1 := arrAt_input m c w (isOut_of_ne w hw) (cfgA m).N
    have h2 := Vmid_other m c (resultY m c) (Proc.devRef .tc (Pipeline.arrRef spec0 w)) (StableHlo.devRef_ne_of_ne (arrRef_ne w hw))
    exact h1.trans h2.symm

/-- Off the windows' arrays the region leaves every buffer as it found it. -/
theorem Vout_rest (c : Dev nD) (b : Ref sig .tc) (hb : b ∉ Finset.univ.image (Pipeline.arrRef spec0)) :
    Vout m c b = Vpre m c b :=
  Vmid_other m c _ _ (StableHlo.devRef_ne_of_ne fun h => hb (h ▸ Finset.mem_image.mpr ⟨7, Finset.mem_univ _, rfl⟩))

/-- The buffers by reference, as the region finds them. -/
abbrev Vin (c : Dev nD) (b : Ref sig .tc) : Buf (Elt F) ((c : Thread nD τ).loc b) := Vpre m c b

/-- ENTRY, the buffers' part: the unscoped buffers as the fifth stretch left them are the windows' arrays at the
    proof data's entry contents, the table, and the rest. -/
theorem entry_split (c : Dev nD) :
    (unscopedBufs c (Vin m c) : sProp 𝕄)
      ⊢ iprop((dats m 0 c).arrays ((dats m 0 c).arrAt · 0) ∗ Yc m c ∗ Zc m c) :=
  (Pipeline.arrays_of_unscopedBufs (pcfgs (F := F)) (adm m) (dats m) (launch0 (F := F)).win (launch0 (F := F)).arr_whole c
      ((dats m 0 c).share_full fun _ => rfl) (Vin m c) fun _ => rfl).trans
    (sep_mono .rfl (Entails.of_eq (Pipeline.unscopedRest_split (launch0 (F := F)).pre c (Vin m c))))

/-- EXIT, the buffers' part: the arrays as the pipeline left them, the table and the rest are the unscoped buffers at
    the valuation the region is left at. -/
theorem exit_join (c : Dev nD) :
    iprop((dats m 0 c).arrays ((dats m 0 c).arrAt · (cfgA m).N) ∗ Yc m c ∗ Zc m c)
      ⊢ (unscopedBufs c (Vout m c) : sProp 𝕄) :=
  (sep_mono .rfl (Entails.of_eq (Pipeline.unscopedRest_split (launch0 (F := F)).pre c (Vin m c)).symm)).trans
    (Pipeline.unscopedBufs_of_arrays (pcfgs (F := F)) (adm m) (launch0 (F := F)).win (launch0 (F := F)).arr_whole c (dats m)
      ((dats m 0 c).share_full fun _ => rfl) (Vin m c) (Vout m c) ((dats m 0 c).arrAt · (cfgA m).N)
      (arrAt_Vout m c) (Vout_rest m c))

/-- The core owing nothing, as the pipeline holds it at a point: the tallies are zero and any recorded set is within the
    bound. -/
theorem owesAt_intro (c : Dev nD) (t : Fin ((cfgA m).N + 1)) : R c ⊢ ((dats m 0 c).owesAt () t : sProp 𝕄) := by
  unfold Pipeline.Dat.owesAt Pipeline.owesWithin
  iintro ⟨%W, HO⟩
  iexists W
  isplitr
  · ipureintro; exact Set.subset_union_of_subset_left (Set.subset_univ _) _
  · iexact HO

theorem owesAt_elim (c : Dev nD) (t : Fin ((cfgA m).N + 1)) : ((dats m 0 c).owesAt () t : sProp 𝕄) ⊢ R c := by
  unfold Pipeline.Dat.owesAt Pipeline.owesWithin
  iintro ⟨%W, -, HO⟩
  iexists W
  iexact HO

set_option backward.isDefEq.respectTransparency.types false in
/-- THE REGION: no semaphore of the kernel's own; entered from the buffers as the fifth stretch left them — the arrays to
    the pipeline, the table into the invariant, the rest bypassing —, left with the buffers at `Vmid` of the result. -/
def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := PEmpty
  osem := fun k => k.elim
  ho := ⟨fun k => k.elim, fun k => k.elim, fun k => k.elim⟩
  hbody c := (body_obligation m c).loose
  hwaits := Pipeline.hwaits_of_owed_zero _ _ _ _ L lv 0 fun _ _ => rfl
  pre c := iprop(StableHlo.held (c : Thread nD τ) ucRefs (Vpre m c) ∗ R c)
  post c := iprop(StableHlo.held (c : Thread nD τ) ucRefs (Vmid m c (resultY m c)) ∗ R c)
  X _ := iprop(emp)
  Y c := Yc m c
  Z c := Zc m c
  hentry c := by
    rw [held_ucRefs, show ((adm m 0).1 : pre0.Contents (Elt F)) = tbl m c from (tbl_dev m c).symm]
    iintro ⟨⟨Hub, HO⟩, -, -⟩
    ihave H := (entry_split m c) $$ Hub
    icases H with ⟨Ha, Hy, Hz⟩
    ihave HO' := (owesAt_intro m c 0) $$ HO
    imodintro
    isplitl [Ha]; · iexact Ha
    isplitl [Hy]; · iexact Hy
    isplitl [HO']; · iexact HO'
    isplitr; · iempintro
    iexact Hz
  hin c := by
    rw [dats_Φ, show ((adm m 0).1 : pre0.Contents (Elt F)) = tbl m c from (tbl_dev m c).symm]
    unfold Φc
    iintro ⟨-, Hy, Hs⟩
    isplitl [Hy]; · iexact Hy
    iexact Hs
  hout c := by
    rw [dats_Φ, Pipeline.ownSems0_none]
    unfold Φc
    iintro ⟨Hy, Hs⟩
    isplitl [Hy]; · iexact Hy
    isplitr; · iempintro
    iexact Hs
  hexit c := by
    rw [held_ucRefs]
    iintro ⟨Ha, HO, Hy, Hz⟩
    ihave Hu := (exit_join m c) $$ [Ha Hy Hz]
    · isplitl [Ha]; · iexact Ha
      isplitl [Hy]; · iexact Hy
      iexact Hz
    ihave HR := (owesAt_elim m c (Fin.last (cfgA m).N)) $$ HO
    imodintro
    isplitl [Hu]; · iexact Hu
    iexact HR

/-- The valuations the last three stretches run from. -/
abbrev W5 (c : Dev nD) : Valuation τ sig (Elt F) := Vmid m c (resultY m c)
abbrev W6 (c : Dev nD) : Valuation τ sig (Elt F) := after hostOps1 (W5 m c)
abbrev W7 (c : Dev nD) : Valuation τ sig (Elt F) := after hostOps1_1 (W6 m c)

/-- The three stretches after the region. -/
def seg5 := hseg hostOps1 hostOps1_sub fresh1 (W5 m)
def seg6 := hseg hostOps1_1 hostOps1_1_sub fresh1_1 (W6 m)
def seg7 := hseg hostOps1_2 hostOps1_2_sub fresh1_2 (W7 m)

/-- @main as the list of the nine. -/
abbrev segs : List (Pipeline.Seg (pcfgs (F := F)) (adm m) (dats m) () defs₀ 𝒱₀ L lv) :=
  [.host (seg0 m), .host (seg1 m), .host (seg2 m), .host (seg3 m), .host (seg4 m), .region (reg0 m),
   .host (seg5 m), .host (seg6 m), .host (seg7 m)]

/-- @main is the run of the nine segments: the chain of their fragments. -/
theorem main_run (c : Dev nD) : main (F := F) c = Pipeline.Seg.run (segs m) := by
  rw [main_chain c, Pipeline.Seg.run_eq_chain]; rfl

/-- The launch element: the pipeline library's, at the staging cells. -/
def u₀ : U :=
  initOf (Pipeline.cells (Pipeline.pin (pcfgs (F := F)) (adm m)) (cellOf_inj (adm m)))
    (Pipeline.launchToks (Pipeline.pin (pcfgs (F := F)) (adm m)) (cellOf_inj (adm m)))

/-- What the final memory holds on core `c`: the output and the eight arguments at the last valuation. -/
def QY (c : Dev nD) (s : MemSt nD τ sig (Elt F)) : Prop :=
  s.mem ((c.tc : Thread nD τ).loc main_v36) = Vfin m c (resultY m c) (Proc.devRef .tc main_v36)
      ∧ s.mem ((c.tc : Thread nD τ).loc main_arg0) = Vfin m c (resultY m c) (Proc.devRef .tc main_arg0)
      ∧ s.mem ((c.tc : Thread nD τ).loc main_arg1) = Vfin m c (resultY m c) (Proc.devRef .tc main_arg1)
      ∧ s.mem ((c.tc : Thread nD τ).loc main_arg2) = Vfin m c (resultY m c) (Proc.devRef .tc main_arg2)
      ∧ s.mem ((c.tc : Thread nD τ).loc main_arg3) = Vfin m c (resultY m c) (Proc.devRef .tc main_arg3)
      ∧ s.mem ((c.tc : Thread nD τ).loc main_arg4) = Vfin m c (resultY m c) (Proc.devRef .tc main_arg4)
      ∧ s.mem ((c.tc : Thread nD τ).loc main_arg5) = Vfin m c (resultY m c) (Proc.devRef .tc main_arg5)
      ∧ s.mem ((c.tc : Thread nD τ).loc main_arg6) = Vfin m c (resultY m c) (Proc.devRef .tc main_arg6)
      ∧ s.mem ((c.tc : Thread nD τ).loc main_arg7) = Vfin m c (resultY m c) (Proc.devRef .tc main_arg7)

/-- The last thread state, read against a final state: every unscoped buffer's physical contents. -/
theorem read_final (c : Dev nD) (s' : Phys nD τ sig (Elt F)) :
    iprop(StableHlo.held (c : Thread nD τ) ucRefs (Vfin m c (resultY m c)) ∗ SI s')
      ⊢ (iprop(⌜QY m c s'.mem⌝ ∗ SI s') : sProp 𝕄) := by
  unfold StableHlo.held
  iintro ⟨Hh, HSI⟩
  ihave H := (pointsTo_read_all ucRefs (fun b => ((c : Thread nD τ).1, b)) (fun b => Vfin m c (resultY m c) b) s') $$ [Hh HSI]
  · isplitl [Hh]; · iexact Hh
    iexact HSI
  icases H with ⟨%h, HSI⟩
  isplitr
  · ipureintro
    exact ⟨h _ (mem_ucRefs main_v36 rfl), h _ (mem_ucRefs main_arg0 rfl), h _ (mem_ucRefs main_arg1 rfl), h _ (mem_ucRefs main_arg2 rfl), h _ (mem_ucRefs main_arg3 rfl), h _ (mem_ucRefs main_arg4 rfl), h _ (mem_ucRefs main_arg5 rfl), h _ (mem_ucRefs main_arg6 rfl), h _ (mem_ucRefs main_arg7 rfl)⟩
  · iexact HSI

set_option backward.isDefEq.respectTransparency.types false in
/-- At the compiled mesh, from any memory with zero counters: every weakly fair execution of @main on the TensorCores
    terminates, and every final state has the output array and the eight argument arrays at the valuation the last
    stretch leaves, the region's result being the array the pipeline wrote. -/
theorem run_main : θ_run defs (onTc (τ := τ) (main (F := F))) ⟨m, fun _ => 0, ρ⟩ fun r => ∀ c : Dev nD,
      r.2.mem ((c.tc : Thread nD τ).loc main_v36) = Vfin m c (resultY m c) (Proc.devRef .tc main_v36)
      ∧ r.2.mem ((c.tc : Thread nD τ).loc main_arg0) = Vfin m c (resultY m c) (Proc.devRef .tc main_arg0)
      ∧ r.2.mem ((c.tc : Thread nD τ).loc main_arg1) = Vfin m c (resultY m c) (Proc.devRef .tc main_arg1)
      ∧ r.2.mem ((c.tc : Thread nD τ).loc main_arg2) = Vfin m c (resultY m c) (Proc.devRef .tc main_arg2)
      ∧ r.2.mem ((c.tc : Thread nD τ).loc main_arg3) = Vfin m c (resultY m c) (Proc.devRef .tc main_arg3)
      ∧ r.2.mem ((c.tc : Thread nD τ).loc main_arg4) = Vfin m c (resultY m c) (Proc.devRef .tc main_arg4)
      ∧ r.2.mem ((c.tc : Thread nD τ).loc main_arg5) = Vfin m c (resultY m c) (Proc.devRef .tc main_arg5)
      ∧ r.2.mem ((c.tc : Thread nD τ).loc main_arg6) = Vfin m c (resultY m c) (Proc.devRef .tc main_arg6)
      ∧ r.2.mem ((c.tc : Thread nD τ).loc main_arg7) = Vfin m c (resultY m c) (Proc.devRef .tc main_arg7) :=
  Pipeline.θ_run_regions_kit (pcfgs (F := F)) (adm m) (dats m) () (cellOf_inj (adm m)) EP defs₀ 𝒱₀ L lv m ρ main (segs m)
    (fun c Q => by rw [main_run m c])
    (by simp only [Pipeline.Seg.pipes_host, Pipeline.Seg.pipes_region, Pipeline.Seg.pipes_nil]; decide)
    (O₀ := 0) (hL := fun _ _ => rfl) (G := fun _ => iprop(emp)) (u₀ := u₀ m)
    (hu₀ := by
      rw [ownU_emb₁]
      unfold u₀ EP
      iintro Hu
      imodintro
      isplitl [Hu]; · iexact Hu
      iapply (show (BI.emp : sProp 𝕄) ⊢ BI.bigSep Finset.univ (fun _ : Dev nD => (BI.emp : sProp 𝕄)) from
        Entails.of_eq (BI.bigSep_emp_const _).symm)
      iempintro)
    (T₀ := fun c => iprop(StableHlo.held (c : Thread nD τ) ucRefs (W0 m c) ∗ R c))
    (Tₙ := fun c => StableHlo.held (c : Thread nD τ) ucRefs (Vfin m c (resultY m c)))
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [held_ucRefs]
      iintro ⟨⟨Hb, -, HO, -, -, -⟩, -⟩
      imodintro
      isplitl [Hb]; · iexact Hb
      iexists ∅; iexact HO)
    (QY := QY m)
    (hfin := fun c s' => by
      iintro H
      ihave H' := (read_final m c s') $$ H
      imodintro
      iexact H')
    (hQ := fun _ h => h)

end Cert.KernelIdeal.Hand

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.LibColGather.lean ====
/-
  Reading a column gather and a four-column join at an index.
  A column gather takes, for every `t`, the column `idx[t]` of a two-axis operand, whole: the start index is read signed
  and clamped into the operand's columns, so result entry `(n, t)` is the operand's entry in row `n` at that column.
  Four one-column arrays joined along the column axis give a four-column array whose column `k` is array `k`.
  Beside them: an index is determined by its coordinates, and a small natural number written as a 32-bit word is
  non-negative as a signed number and reads back as itself.
-/
import Idealize.ShloMosaic.PureOps.Ideal
import Idealize.ShloMosaic.Lib.ValueIdx
import Idealize.ShloMosaic.Lib.Pipeline.Value

noncomputable section

namespace Cert.LibColGather

open Idealize.ShloMosaic Idealize.ShloMosaic.ValueIdx

/-! ## Two indices are equal when their coordinates are -/

/-- Two rank-1 indices with the same coordinate are equal. -/
theorem ext1 {n0 : Nat} {i i' : (⟨1, ![n0]⟩ : Shape).Idx} (h0 : (i 0).val = (i' 0).val) : i = i' := by
  funext a
  match a with
  | ⟨0, _⟩ => exact Fin.ext h0

/-- Two rank-2 indices with the same two coordinates are equal. -/
theorem ext2 {n0 n1 : Nat} {i i' : (⟨2, ![n0, n1]⟩ : Shape).Idx} (h0 : (i 0).val = (i' 0).val)
    (h1 : (i 1).val = (i' 1).val) : i = i' := by
  funext a
  match a with
  | ⟨0, _⟩ => exact Fin.ext h0
  | ⟨1, _⟩ => exact Fin.ext h1

/-- Two rank-3 indices with the same three coordinates are equal. -/
theorem ext3 {n0 n1 n2 : Nat} {i i' : (⟨3, ![n0, n1, n2]⟩ : Shape).Idx} (h0 : (i 0).val = (i' 0).val)
    (h1 : (i 1).val = (i' 1).val) (h2 : (i 2).val = (i' 2).val) : i = i' := by
  funext a
  match a with
  | ⟨0, _⟩ => exact Fin.ext h0
  | ⟨1, _⟩ => exact Fin.ext h1
  | ⟨2, _⟩ => exact Fin.ext h2

/-! ## A gather along the column axis, read at an index

Operand `[N, C]`, start indices `[T, 1]`, result `[N, T]`: result entry `(n, t)` is the operand's entry in row `n` at the
column the start index `idx[t, 0]` names, read signed and clamped into `[0, C − 1]`. -/

/-- The dimension numbers of a column gather: the row axis is the result's one offset axis and is taken whole, the column
    axis is collapsed and is the one the start index names. -/
abbrev colGatherDims (N C T : Nat)
    (wf : GatherDims.WF ⟨2, ![N, C]⟩ ⟨2, ![T, 1]⟩ ⟨2, ![N, T]⟩ [0] [1] [] [1] [] 1 ![N, 1]) :
    GatherDims ⟨2, ![N, C]⟩ ⟨2, ![T, 1]⟩ ⟨2, ![N, T]⟩ where
  offsetDims := [0]
  collapsedSliceDims := [1]
  operandBatchingDims := []
  startIndicesBatchingDims := []
  startIndexMap := [1]
  indexVectorDim := 1
  sliceSizes := ![N, 1]
  wf := wf

section Gather
variable {N C T w : Nat}
  (wf : GatherDims.WF ⟨2, ![N, C]⟩ ⟨2, ![T, 1]⟩ ⟨2, ![N, T]⟩ [0] [1] [] [1] [] 1 ![N, 1])

/-- Result position `(n, t)` reads its start index at `(t, 0)`: the result's one batch axis (axis 1) supplies the
    indices' axis 0, and the index vector (axis 1, of extent 1) has only the component `0`. -/
theorem colGather_siIdx (n : Fin N) (t : Fin T) (c : Fin (colGatherDims N C T wf).startIndexMap.length) :
    (colGatherDims N C T wf).siIdx (ix2 n t) c = ix2 t (0 : Fin 1) := by
  funext b
  refine Fin.ext ?_
  match b with
  | ⟨0, _⟩ => rfl
  | ⟨1, _⟩ =>
    have hc : c.val < 1 := c.isLt
    show c.val = 0
    omega

/-- On the column axis the slice starts at the start index read signed and clamped into `[0, C - 1]`: the axis is the one
    the start index map names, and the slice there has one column. -/
theorem colGather_col_start (idx : IVec ⟨2, ![T, 1]⟩ w) (n : Fin N) (t : Fin T) :
    (colGatherDims N C T wf).start (ix2 n t) idx 1 = min (idx (ix2 t (0 : Fin 1))).toInt.toNat (C - 1) := by
  unfold GatherDims.start
  rw [dif_pos (show (1 : Fin 2) ∈ (colGatherDims N C T wf).startIndexMap from List.mem_singleton.mpr rfl),
    colGather_siIdx]
  rfl

/-- The column axis is collapsed, so the result gives it no offset. -/
theorem colGather_col_off (n : Fin N) (t : Fin T) : (colGatherDims N C T wf).offCoord (ix2 n t) 1 = 0 :=
  GatherDims.offCoord_eq_zero _ _ _ (fun h => ((GatherDims.mem_sKept _ _).mp h).1 (List.mem_singleton.mpr rfl))

/-- The row axis is not named by the start index map: its slice starts at `0`. -/
theorem colGather_row_start (idx : IVec ⟨2, ![T, 1]⟩ w) (n : Fin N) (t : Fin T) :
    (colGatherDims N C T wf).start (ix2 n t) idx 0 = 0 := by
  unfold GatherDims.start
  rw [dif_neg]
  intro h
  exact absurd (congrArg Fin.val (List.mem_singleton.mp h)) Nat.zero_ne_one

/-- The row axis is the operand's one kept axis, read by the result's one offset axis (axis 0): the offset is `n`. -/
theorem colGather_row_off (n : Fin N) (t : Fin T) :
    (colGatherDims N C T wf).offCoord (ix2 n t) 0 = n.val := rfl

end Gather

/-- THE COLUMN GATHER READ AT `(n, t)`: the operand in row `n` at column `idx[t, 0]` (read signed, clamped into
    `[0, C − 1]`). -/
theorem colGather_apply {α : Type} {N C T w : Nat} (hC : 0 < C)
    (wf : GatherDims.WF ⟨2, ![N, C]⟩ ⟨2, ![T, 1]⟩ ⟨2, ![N, T]⟩ [0] [1] [] [1] [] 1 ![N, 1])
    (x : (⟨2, ![N, C]⟩ : Shape).Idx → α) (idx : IVec ⟨2, ![T, 1]⟩ w) (n : Fin N) (t : Fin T) :
    Host.gather (colGatherDims N C T wf) x idx (ix2 n t)
      = x (ix2 n (⟨min (idx (ix2 t (0 : Fin 1))).toInt.toNat (C - 1), by omega⟩ : Fin C)) := by
  -- the operand position's coordinate on each axis is slice start + batching coordinate + offset;
  -- there is no batching axis, so the middle term is 0 on both axes
  have hb : ∀ a, (colGatherDims N C T wf).batchCoord (ix2 n t) a = 0 :=
    fun a => GatherDims.batchCoord_eq_zero _ _ a List.not_mem_nil
  unfold Host.gather
  congr 1
  funext a
  refine Fin.ext ?_
  match a with
  | ⟨0, _⟩ =>
    -- row axis: 0 + 0 + n
    show (colGatherDims N C T wf).start (ix2 n t) idx 0 + (colGatherDims N C T wf).batchCoord (ix2 n t) 0
        + (colGatherDims N C T wf).offCoord (ix2 n t) 0 = n.val
    rw [hb, colGather_row_off, colGather_row_start]
    omega
  | ⟨1, _⟩ =>
    -- column axis: clamped start index + 0 + 0
    show (colGatherDims N C T wf).start (ix2 n t) idx 1 + (colGatherDims N C T wf).batchCoord (ix2 n t) 1
        + (colGatherDims N C T wf).offCoord (ix2 n t) 1 = min (idx (ix2 t (0 : Fin 1))).toInt.toNat (C - 1)
    rw [hb, colGather_col_off, colGather_col_start]
    rfl

/-- A natural number below `2 ^ 31` written as a 32-bit word reads back, signed, as itself. -/
theorem toInt_ofNat_small (l : Nat) (hl : l < 2147483648) : (BitVec.ofNat 32 l).toInt = (l : Int) := by
  rw [BitVec.toInt_eq_toNat_of_lt (by rw [BitVec.toNat_ofNat, Nat.mod_eq_of_lt (by omega)]; omega),
    BitVec.toNat_ofNat, Nat.mod_eq_of_lt (by omega)]

/-- Such a word is not below zero as a signed number. -/
theorem slt_zero_ofNat_small (l : Nat) (hl : l < 2147483648) : IntOp.cmpi .slt (BitVec.ofNat 32 l) 0#32 = 0#1 := by
  show BitVec.ofBool ((BitVec.ofNat 32 l).slt 0#32) = 0#1
  rw [BitVec.slt_eq_decide, toInt_ofNat_small l hl, BitVec.toInt_zero, decide_eq_false (by omega)]
  rfl

/-! ## Four one-column arrays joined along the column axis, read at an index -/

/-- Column `k` of the join is array `k`, at its only column. -/
theorem concat4_apply {α : Type} {N : Nat} (f0 f1 f2 f3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1)
    (n : Fin N) (k : Fin 4) :
    concatenate (⟨2, ![N, 4]⟩ : Shape) 1 [⟨⟨2, ![N, 1]⟩, f0⟩, ⟨⟨2, ![N, 1]⟩, f1⟩, ⟨⟨2, ![N, 1]⟩, f2⟩, ⟨⟨2, ![N, 1]⟩, f3⟩] h (ix2 n k)
      = (![f0, f1, f2, f3] k) (ix2 n (0 : Fin 1)) := by
  -- off the joined axis (the row axis) the piece is read at the same coordinate
  have hi : ∀ (k : Fin 4) (b : Fin (⟨2, ![N, 1]⟩ : Shape).rank), b.cast (rfl : (⟨2, ![N, 1]⟩ : Shape).rank = (⟨2, ![N, 4]⟩ : Shape).rank) ≠ (1 : Fin 2) →
      ((ix2 n (0 : Fin 1) : (⟨2, ![N, 1]⟩ : Shape).Idx) b).val = ((ix2 n k : (⟨2, ![N, 4]⟩ : Shape).Idx) (b.cast rfl)).val := by
    intro k b hb
    match b with
    | ⟨0, _⟩ => rfl
    | ⟨1, _⟩ => exact absurd rfl hb
  -- piece k spans column k alone: the k pieces before it have one column each
  match k with
  | ⟨0, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨0, hk⟩) 0 (show 0 < 4 by omega)
      ⟨2, ![N, 1]⟩ f0 rfl rfl 0 rfl (ix2 n (0 : Fin 1)) (hi _) rfl
  | ⟨1, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨1, hk⟩) 1 (show 1 < 4 by omega)
      ⟨2, ![N, 1]⟩ f1 rfl rfl 1 rfl (ix2 n (0 : Fin 1)) (hi _) rfl
  | ⟨2, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨2, hk⟩) 2 (show 2 < 4 by omega)
      ⟨2, ![N, 1]⟩ f2 rfl rfl 2 rfl (ix2 n (0 : Fin 1)) (hi _) rfl
  | ⟨3, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨3, hk⟩) 3 (show 3 < 4 by omega)
      ⟨2, ![N, 1]⟩ f3 rfl rfl 3 rfl (ix2 n (0 : Fin 1)) (hi _) rfl

end Cert.LibColGather

end
-- ==== Proof.KHost.lean ====
/-
  What the host operations around the kernel region compute, as pure terms of @main's arguments.

  Before the region @main builds, from the expert index of every token, the one-hot matrix, its running sum down the
  tokens, every token's position among the tokens of its own expert (a gather of the running sum less the one-hot at the
  token's expert), the per-expert token counts, and the dispatch buffer (the tokens' rows scattered to their
  (expert, position) slots); it re-types the weights and re-shapes the biases. After the region it reads, for every
  token, row expert * 512 + position of the region's result viewed as [16384, 2048], and re-shapes to [4, 2048, 2048].
  The staged definitions below are those terms; the theorems say that the buffers hold them when the region is entered
  and at the end, and read the final gather at an entry when the expert and the position are in range.
-/
import proofs.«427358_j7456063225884_2_alg».proof.Proof.KVal
import proofs.«427358_j7456063225884_2_alg».proof.Proof.LibIndex
import proofs.«427358_j7456063225884_2_alg».proof.Proof.LibColGather
import Idealize.ShloMosaic.Lib.StableHlo.Run
import Idealize.ShloMosaic.Lib.ValueIdx
import Idealize.ShloMosaic.Lib.Pipeline.Value
import Idealize.ShloMosaic.PureOps.Reduce
import Idealize.ShloMosaic.Lib.Affine

noncomputable section

namespace Cert.KernelIdeal.Hand

open Cert.KernelIdeal Cert.KernelIdeal.Gen Idealize.ShloMosaic Idealize.ShloMosaic.TcCoe Idealize.SL.Sem
open Idealize.ShloMosaic.StableHlo (after launchContents after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)
open Idealize.ShloMosaic.ValueIdx

variable {F : FTy → Type} [FloatOps F]

/-! ## Before the region: the routing tables -/

/-- The one-hot matrix of the expert indices: entry (t, e) is 1 when token t's expert is e, else 0. -/
def ohK (a7 : IVec S8192 32) : IVec S8192x32 32 :=
  extui 32 (cmpi .eq
    (broadcastInDim S8192x32 ![0, 1] bcast_S8192x1_S8192x32_0_1 (broadcastInDim S8192x1 ![0] bcast_S8192_S8192x1_0 a7))
    (broadcastInDim S8192x32 ![0, 1] bcast_S1x32_S8192x32_0_1 (iotaInDim S1x32 32 1))) natLt_1_32

/-- The running sum of a matrix down the tokens (inclusive). -/
def csK (oh : IVec S8192x32 32) : IVec S8192x32 32 :=
  Host.reduceWindow IntOp.addi ![8192, 1] ![1, 1] ![8191, 0] ![0, 0] oh
    (broadcastInDim S_ ![] bcast_S_S_ (constantI S_ 32 0#32))
    reduceWindows_S8192x32_S8192x32_w8192s1p8191_0_w1s1p0_0 h_S_

/-- The column index of the gather along axis 1: a negative index wrapped by + 32, as [8192, 1, 1]. -/
def wrapK (i : IVec S8192x1 32) : IVec S8192x1x1 32 :=
  shapeCast S8192x1x1
    (select (cmpi .slt i (broadcastInDim S8192x1 ![] bcast_S_S8192x1 (constantI S_ 32 0#32)))
      (addi i (broadcastInDim S8192x1 ![] bcast_S_S8192x1 (constantI S_ 32 32#32))) i)
    shapeCasts_S8192x1_S8192x1x1

/-- The gather's in-range mask: 0 ≤ index ≤ 31, reduced over the unit axis. -/
def maskK (i3 : IVec S8192x1x1 32) : IVec S8192x1 1 :=
  Host.reduce IntOp.andi
    (andi (cmpi .sge i3 (broadcastInDim S8192x1x1 ![] bcast_S_S8192x1x1 (constantI S_ 32 0#32)))
      (cmpi .sle i3 (broadcastInDim S8192x1x1 ![0, 1, 2] bcast_S1x1x1_S8192x1x1_0_1_2
        (broadcastInDim S1x1x1 ![2] bcast_S1_S1x1x1_2 (constantI S1 32 31#32)))))
    (constantI S_ 1 1#1) reducesTo_S8192x1x1_S8192x1_d2 h_S_

/-- The gather along axis 1 of x by the column of indices i: x[t, i_t], filled with the least i32 where the mask
    fails. -/
def takeK (x : IVec S8192x32 32) (i : IVec S8192x1 32) : IVec S8192x1 32 :=
  select (maskK (wrapK i))
    (Host.gather gather_S8192x32_S8192x1x1_S8192x1_n_1_0_0_1_2_11 x (wrapK i))
    (broadcastInDim S8192x1 ![] bcast_S_S8192x1 (constantI S_ 32 2147483648#32))

/-- Every token's position among the tokens of its expert: the running sum less the one-hot (how many earlier tokens
    chose expert e, at (t, e)), gathered at the token's own expert. -/
def posK (a7 : IVec S8192 32) : IVec S8192 32 :=
  shapeCast S8192
    (takeK (subi (csK (ohK a7)) (ohK a7)) (broadcastInDim S8192x1 ![0] bcast_S8192_S8192x1_0 a7))
    shapeCasts_S8192x1_S8192

/-- The number of tokens of every expert. -/
def cntK (a7 : IVec S8192 32) : IVec S32 32 :=
  Host.reduce IntOp.addi (ohK a7) (constantI S_ 32 0#32) reducesTo_S8192x32_S32_d0 h_S_

/-! ## Before the region: the dispatch buffer, the weights, the biases -/

/-- An index vector with its negative entries wrapped by + n. -/
def wrapIK (n : BitVec 32) (v : IVec S8192 32) : IVec S8192 32 :=
  select (cmpi .slt v (broadcastInDim S8192 ![] bcast_S_S8192 (constantI S_ 32 0#32)))
    (addi v (broadcastInDim S8192 ![] bcast_S_S8192 (constantI S_ 32 n))) v

/-- The (expert, position) pair of every token, each wrapped, as [8192, 2]. -/
def pairK (a7 pos : IVec S8192 32) : IVec S8192x2 32 :=
  concatenate S8192x2 1
    [⟨S8192x1, broadcastInDim S8192x1 ![0] bcast_S8192_S8192x1_0 (wrapIK 32#32 a7)⟩,
     ⟨S8192x1, broadcastInDim S8192x1 ![0] bcast_S8192_S8192x1_0 (wrapIK 512#32 pos)⟩]
    concatenates_S8192x1_S8192x1_S8192x2_d1

/-- The dispatch buffer: zeros, with every token's row (the tokens as rows, re-typed) set at its (expert, position)
    slot. -/
def xdK (a0 : FVec F S4x2048x2048 .f32) (a7 : IVec S8192 32) : FVec F S32x512x2048 .bf16 :=
  Host.scatter scatter_S32x512x2048_S8192x2_S8192x2048_1_01_01_1 (fun _ b => b)
    (broadcastInDim S32x512x2048 ![] bcast_S_S32x512x2048 (constant (F := F) S_ .bf16 0x0000#16))
    (pairK a7 (posK a7))
    (truncf .bf16 (shapeCast S8192x2048 a0 shapeCasts_S4x2048x2048_S8192x2048) bitsLt_bf16_f32)

def w1K (a1 : FVec F S32x2048x1024 .f32) : FVec F S32x2048x1024 .bf16 := truncf .bf16 a1 bitsLt_bf16_f32
def w3K (a5 : FVec F S32x2048x1024 .f32) : FVec F S32x2048x1024 .bf16 := truncf .bf16 a5 bitsLt_bf16_f32
def w2K (a3 : FVec F S32x1024x2048 .f32) : FVec F S32x1024x2048 .bf16 := truncf .bf16 a3 bitsLt_bf16_f32
def b1K (a2 : FVec F S32x1024 .f32) : FVec F S32x1x1024 .f32 := shapeCast S32x1x1024 a2 shapeCasts_S32x1024_S32x1x1024
def b3K (a6 : FVec F S32x1024 .f32) : FVec F S32x1x1024 .f32 := shapeCast S32x1x1024 a6 shapeCasts_S32x1024_S32x1x1024
def b2K (a4 : FVec F S32x2048 .f32) : FVec F S32x1x2048 .f32 := shapeCast S32x1x2048 a4 shapeCasts_S32x2048_S32x1x2048

/-! ## After the region: the combine gather -/

/-- The flat row of every token in the [16384, 2048] view: expert * 512 + position. -/
def flatK (a7 pos : IVec S8192 32) : IVec S8192 32 :=
  addi (muli a7 (broadcastInDim S8192 ![] bcast_S_S8192 (constantI S_ 32 512#32))) pos

/-- The row index of the gather: a negative flat row wrapped by + 16384, as a column. -/
def rowIdxK (fl : IVec S8192 32) : IVec S8192x1 32 :=
  broadcastInDim S8192x1 ![0] bcast_S8192_S8192x1_0
    (select (cmpi .slt fl (broadcastInDim S8192 ![] bcast_S_S8192 (constantI S_ 32 0#32)))
      (addi fl (broadcastInDim S8192 ![] bcast_S_S8192 (constantI S_ 32 16384#32))) fl)

/-- The gather's in-range mask: 0 ≤ row ≤ 16383, reduced over the unit axis. -/
def rowOkK (i : IVec S8192x1 32) : IVec S8192 1 :=
  Host.reduce IntOp.andi
    (andi (cmpi .sge i (broadcastInDim S8192x1 ![] bcast_S_S8192x1 (constantI S_ 32 0#32)))
      (cmpi .sle i (broadcastInDim S8192x1 ![0, 1] bcast_S1x1_S8192x1_0_1
        (broadcastInDim S1x1 ![1] bcast_S1_S1x1_1 (constantI S1 32 16383#32)))))
    (constantI S_ 1 1#1) reducesTo_S8192x1_S8192_d1 h_S_

/-- The rows of y at the flat rows fl, a row NaN where the mask fails. -/
def takeRowsK (y : FVec F S16384x2048 .f32) (fl : IVec S8192 32) : FVec F S8192x2048 .f32 :=
  select (broadcastInDim S8192x2048 ![0] bcast_S8192_S8192x2048_0 (rowOkK (rowIdxK fl)))
    (Host.gather gather_S16384x2048_S8192x1_S8192x2048_1_0_n_n_0_1_12048 y (rowIdxK fl))
    (broadcastInDim S8192x2048 ![] bcast_S_S8192x2048 (constant (F := F) S_ .f32 0x7FC00000#32))

/-- @main's result from the region's result Y, the expert indices and the positions. -/
def tailK (Y : FVec F S32x512x2048 .f32) (a7 pos : IVec S8192 32) : FVec F S4x2048x2048 .f32 :=
  shapeCast S4x2048x2048
    (takeRowsK (shapeCast S16384x2048 Y shapeCasts_S32x512x2048_S16384x2048) (flatK a7 pos))
    shapeCasts_S8192x2048_S4x2048x2048

section Stretches

attribute [local irreducible] Host.reduce Host.reduceWindow Host.gather Host.scatter

/-! ## What each stretch writes, and what it leaves

Every operation writes its one result buffer; a buffer that is no operation's result keeps its contents through the
stretch. -/

/-- The result buffers of stretch hostOps0. -/
abbrev Wr0 : List (Ref sig .tc) := [main_call0_v0, main_call0_v1, main_call0_v2, main_call0_v3, main_call0_v4, main_v0]
theorem Wr0_writes : (hostOps0 : List (HloOp τ sig (Elt F))).Forall fun op =>
    op.writes ⊆ (Wr0.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0 (V : Valuation τ sig (Elt F)) (r : Ref sig .tc) (h : r ∉ Wr0) :
    after hostOps0 V (Proc.devRef .tc r) = V (Proc.devRef .tc r) :=
  StableHlo.after_of_writes_sub hostOps0 V Wr0_writes h

/-- The result buffers of stretch hostOps1. -/
abbrev Wr1 : List (Ref sig .tc) := [main_v31, main_c_4, main_v32, main_v33, main_v34]
theorem Wr1_writes : (hostOps1 : List (HloOp τ sig (Elt F))).Forall fun op =>
    op.writes ⊆ (Wr1.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep1 (V : Valuation τ sig (Elt F)) (r : Ref sig .tc) (h : r ∉ Wr1) :
    after hostOps1 V (Proc.devRef .tc r) = V (Proc.devRef .tc r) :=
  StableHlo.after_of_writes_sub hostOps1 V Wr1_writes h

/-- The result buffers of stretch hostOps0_1. -/
abbrev Wr0_1 : List (Ref sig .tc) := [main_call1_call0_c, main_call1_call0_v0, main_v1]
theorem Wr0_1_writes : (hostOps0_1 : List (HloOp τ sig (Elt F))).Forall fun op =>
    op.writes ⊆ (Wr0_1.map (Proc.devRef (τ := τ) .tc)).toFinset := by
  simp only [List.Forall]
  refine ⟨?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0_1 (V : Valuation τ sig (Elt F)) (r : Ref sig .tc) (h : r ∉ Wr0_1) :
    after hostOps0_1 V (Proc.devRef .tc r) = V (Proc.devRef .tc r) :=
  StableHlo.after_of_writes_sub hostOps0_1 V Wr0_1_writes h

/-- The result buffers of stretch hostOps0_2. -/
abbrev Wr0_2 : List (Ref sig .tc) := [main_v2, main_v3]
theorem Wr0_2_writes : (hostOps0_2 : List (HloOp τ sig (Elt F))).Forall fun op =>
    op.writes ⊆ (Wr0_2.map (Proc.devRef (τ := τ) .tc)).toFinset := by
  simp only [List.Forall]
  refine ⟨?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0_2 (V : Valuation τ sig (Elt F)) (r : Ref sig .tc) (h : r ∉ Wr0_2) :
    after hostOps0_2 V (Proc.devRef .tc r) = V (Proc.devRef .tc r) :=
  StableHlo.after_of_writes_sub hostOps0_2 V Wr0_2_writes h

/-- The result buffers of stretch hostOps0_3. -/
abbrev Wr0_3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v4]
theorem Wr0_3_writes : (hostOps0_3 : List (HloOp τ sig (Elt F))).Forall fun op =>
    op.writes ⊆ (Wr0_3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0_3 (V : Valuation τ sig (Elt F)) (r : Ref sig .tc) (h : r ∉ Wr0_3) :
    after hostOps0_3 V (Proc.devRef .tc r) = V (Proc.devRef .tc r) :=
  StableHlo.after_of_writes_sub hostOps0_3 V Wr0_3_writes h

/-- The result buffers of stretch hostOps0_4. -/
abbrev Wr0_4 : List (Ref sig .tc) := [main_v5, main_c, main_v6, main_v7, main_v8, main_cst, main_v9, main_c_0, main_v10, main_v11, main_c_1, main_v12, main_v13, main_v14, main_c_2, main_v15, main_v16, main_c_3, main_v17, main_v18, main_v19, main_v20, main_v21, main_v22, main_v23, main_v24, main_v25, main_v26, main_v27, main_v28, main_v29]
theorem Wr0_4_writes : (hostOps0_4 : List (HloOp τ sig (Elt F))).Forall fun op =>
    op.writes ⊆ (Wr0_4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0_4 (V : Valuation τ sig (Elt F)) (r : Ref sig .tc) (h : r ∉ Wr0_4) :
    after hostOps0_4 V (Proc.devRef .tc r) = V (Proc.devRef .tc r) :=
  StableHlo.after_of_writes_sub hostOps0_4 V Wr0_4_writes h

/-- The result buffers of stretch hostOps1_1. -/
abbrev Wr1_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v35]
theorem Wr1_1_writes : (hostOps1_1 : List (HloOp τ sig (Elt F))).Forall fun op =>
    op.writes ⊆ (Wr1_1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep1_1 (V : Valuation τ sig (Elt F)) (r : Ref sig .tc) (h : r ∉ Wr1_1) :
    after hostOps1_1 V (Proc.devRef .tc r) = V (Proc.devRef .tc r) :=
  StableHlo.after_of_writes_sub hostOps1_1 V Wr1_1_writes h

/-- The result buffers of stretch hostOps1_2. -/
abbrev Wr1_2 : List (Ref sig .tc) := [main_v36]
theorem Wr1_2_writes : (hostOps1_2 : List (HloOp τ sig (Elt F))).Forall fun op =>
    op.writes ⊆ (Wr1_2.map (Proc.devRef (τ := τ) .tc)).toFinset := by
  simp only [List.Forall, StableHlo.reshape_writes, Finset.singleton_subset_iff, List.mem_toFinset]
  exact List.mem_map_of_mem (by decide)
theorem keep1_2 (V : Valuation τ sig (Elt F)) (r : Ref sig .tc) (h : r ∉ Wr1_2) :
    after hostOps1_2 V (Proc.devRef .tc r) = V (Proc.devRef .tc r) :=
  StableHlo.after_of_writes_sub hostOps1_2 V Wr1_2_writes h

/-! ## What each stretch computes, from any contents -/

theorem s0_v0 (V : Valuation τ sig (Elt F)) :
    (after hostOps0 V (Proc.devRef .tc main_v0) : IVec S8192x32 32) = ohK (V (Proc.devRef .tc main_arg7)) := by
  after_results <;> rfl

theorem s1_v1 (V : Valuation τ sig (Elt F)) :
    (after hostOps0_1 V (Proc.devRef .tc main_v1) : IVec S8192x32 32) = csK (V (Proc.devRef .tc main_v0)) := by
  after_results <;> rfl

theorem s2_v2 (V : Valuation τ sig (Elt F)) :
    (after hostOps0_2 V (Proc.devRef .tc main_v2) : IVec S8192x32 32)
      = subi (V (Proc.devRef .tc main_v1)) (V (Proc.devRef .tc main_v0)) := by
  after_results <;> rfl

theorem s2_v3 (V : Valuation τ sig (Elt F)) :
    (after hostOps0_2 V (Proc.devRef .tc main_v3) : IVec S8192x1 32)
      = broadcastInDim S8192x1 ![0] bcast_S8192_S8192x1_0 (V (Proc.devRef .tc main_arg7)) := by
  after_results <;> rfl

theorem s3_v4 (V : Valuation τ sig (Elt F)) :
    (after hostOps0_3 V (Proc.devRef .tc main_v4) : IVec S8192x1 32) = takeK (V (Proc.devRef .tc main_v2)) (V (Proc.devRef .tc main_v3)) := by
  after_results_simp <;> rfl

theorem s4_v5 (V : Valuation τ sig (Elt F)) :
    (after hostOps0_4 V (Proc.devRef .tc main_v5) : IVec S8192 32) = shapeCast S8192 (V (Proc.devRef .tc main_v4)) shapeCasts_S8192x1_S8192 := by
  after_results <;> rfl

theorem s4_v6 (V : Valuation τ sig (Elt F)) :
    (after hostOps0_4 V (Proc.devRef .tc main_v6) : IVec S32 32)
      = Host.reduce IntOp.addi (V (Proc.devRef .tc main_v0)) (constantI S_ 32 0#32) reducesTo_S8192x32_S32_d0 h_S_ := by
  after_results <;> rfl

theorem s4_v23 (V : Valuation τ sig (Elt F)) :
    (after hostOps0_4 V (Proc.devRef .tc main_v23) : FVec F S32x512x2048 .bf16)
      = Host.scatter scatter_S32x512x2048_S8192x2_S8192x2048_1_01_01_1 (fun _ b => b)
          (broadcastInDim S32x512x2048 ![] bcast_S_S32x512x2048 (constant (F := F) S_ .bf16 0x0000#16))
          (pairK (V (Proc.devRef .tc main_arg7)) (shapeCast S8192 (V (Proc.devRef .tc main_v4)) shapeCasts_S8192x1_S8192))
          (truncf .bf16 (shapeCast S8192x2048 (V (Proc.devRef .tc main_arg0)) shapeCasts_S4x2048x2048_S8192x2048) bitsLt_bf16_f32) := by
  after_results_simp <;> rfl

theorem s4_v24 (V : Valuation τ sig (Elt F)) :
    (after hostOps0_4 V (Proc.devRef .tc main_v24) : FVec F S32x2048x1024 .bf16) = w1K (V (Proc.devRef .tc main_arg1)) := by
  after_results <;> rfl
theorem s4_v25 (V : Valuation τ sig (Elt F)) :
    (after hostOps0_4 V (Proc.devRef .tc main_v25) : FVec F S32x2048x1024 .bf16) = w3K (V (Proc.devRef .tc main_arg5)) := by
  after_results <;> rfl
theorem s4_v26 (V : Valuation τ sig (Elt F)) :
    (after hostOps0_4 V (Proc.devRef .tc main_v26) : FVec F S32x1024x2048 .bf16) = w2K (V (Proc.devRef .tc main_arg3)) := by
  after_results <;> rfl
theorem s4_v27 (V : Valuation τ sig (Elt F)) :
    (after hostOps0_4 V (Proc.devRef .tc main_v27) : FVec F S32x1x1024 .f32) = b1K (V (Proc.devRef .tc main_arg2)) := by
  after_results <;> rfl
theorem s4_v28 (V : Valuation τ sig (Elt F)) :
    (after hostOps0_4 V (Proc.devRef .tc main_v28) : FVec F S32x1x1024 .f32) = b3K (V (Proc.devRef .tc main_arg6)) := by
  after_results <;> rfl
theorem s4_v29 (V : Valuation τ sig (Elt F)) :
    (after hostOps0_4 V (Proc.devRef .tc main_v29) : FVec F S32x1x2048 .f32) = b2K (V (Proc.devRef .tc main_arg4)) := by
  after_results <;> rfl

theorem t0_v31 (V : Valuation τ sig (Elt F)) :
    (after hostOps1 V (Proc.devRef .tc main_v31) : FVec F S16384x2048 .f32)
      = shapeCast S16384x2048 (V (Proc.devRef .tc main_v30)) shapeCasts_S32x512x2048_S16384x2048 := by
  after_results <;> rfl

theorem t0_v34 (V : Valuation τ sig (Elt F)) :
    (after hostOps1 V (Proc.devRef .tc main_v34) : IVec S8192 32) = flatK (V (Proc.devRef .tc main_arg7)) (V (Proc.devRef .tc main_v5)) := by
  after_results <;> rfl

theorem t1_v35 (V : Valuation τ sig (Elt F)) :
    (after hostOps1_1 V (Proc.devRef .tc main_v35) : FVec F S8192x2048 .f32) = takeRowsK (V (Proc.devRef .tc main_v31)) (V (Proc.devRef .tc main_v34)) := by
  after_results_simp <;> rfl

theorem t2_v36 (V : Valuation τ sig (Elt F)) :
    (after hostOps1_2 V (Proc.devRef .tc main_v36) : FVec F S4x2048x2048 .f32)
      = shapeCast S4x2048x2048 (V (Proc.devRef .tc main_v35)) shapeCasts_S8192x2048_S4x2048x2048 := by
  after_results <;> rfl

/-! ## The first four stretches together -/

/-- A buffer none of the first four stretches writes keeps its contents through them. -/
theorem pre4_keep (V : Valuation τ sig (Elt F)) (r : Ref sig .tc) (h0 : r ∉ Wr0) (h1 : r ∉ Wr0_1) (h2 : r ∉ Wr0_2) (h3 : r ∉ Wr0_3) :
    after hostOps0_3 (after hostOps0_2 (after hostOps0_1 (after hostOps0 V))) (Proc.devRef .tc r) = V (Proc.devRef .tc r) := by
  rw [keep0_3 _ r h3, keep0_2 _ r h2, keep0_1 _ r h1, keep0 _ r h0]

/-- After them the one-hot's buffer holds the one-hot of the expert indices. -/
theorem pre4_v0 (V : Valuation τ sig (Elt F)) :
    (after hostOps0_3 (after hostOps0_2 (after hostOps0_1 (after hostOps0 V))) (Proc.devRef .tc main_v0) : IVec S8192x32 32)
      = ohK (V (Proc.devRef .tc main_arg7)) := by
  rw [keep0_3 _ main_v0 (by decide), keep0_2 _ main_v0 (by decide), keep0_1 _ main_v0 (by decide), s0_v0]

/-- After them the gather's result buffer holds the positions, as a column. -/
theorem pre4_v4 (V : Valuation τ sig (Elt F)) :
    (after hostOps0_3 (after hostOps0_2 (after hostOps0_1 (after hostOps0 V))) (Proc.devRef .tc main_v4) : IVec S8192x1 32)
      = takeK (subi (csK (ohK (V (Proc.devRef .tc main_arg7)))) (ohK (V (Proc.devRef .tc main_arg7))))
          (broadcastInDim S8192x1 ![0] bcast_S8192_S8192x1_0 (V (Proc.devRef .tc main_arg7))) := by
  rw [s3_v4, s2_v2, s2_v3, s1_v1, keep0_1 _ main_v0 (by decide), keep0_1 _ main_arg7 (by decide), s0_v0,
    keep0 _ main_arg7 (by decide)]

/-! ## What the buffers hold when the region is entered -/

theorem Vpre_v5 (m : (ℓ : Loc nD τ sig) → Buf (Elt F) ℓ) (c : Dev nD) :
    (Vpre m c (Proc.devRef .tc main_v5) : IVec S8192 32) = posK (m ((c.tc : Thread nD τ).loc main_arg7)) := by
  unfold Vpre
  rw [s4_v5, pre4_v4]
  rfl

theorem Vpre_v6 (m : (ℓ : Loc nD τ sig) → Buf (Elt F) ℓ) (c : Dev nD) :
    (Vpre m c (Proc.devRef .tc main_v6) : IVec S32 32) = cntK (m ((c.tc : Thread nD τ).loc main_arg7)) := by
  unfold Vpre
  rw [s4_v6, pre4_v0]
  rfl

theorem Vpre_v23 (m : (ℓ : Loc nD τ sig) → Buf (Elt F) ℓ) (c : Dev nD) :
    (Vpre m c (Proc.devRef .tc main_v23) : FVec F S32x512x2048 .bf16)
      = xdK (m ((c.tc : Thread nD τ).loc main_arg0)) (m ((c.tc : Thread nD τ).loc main_arg7)) := by
  unfold Vpre
  rw [s4_v23, pre4_v4, pre4_keep _ main_arg7 (by decide) (by decide) (by decide) (by decide), pre4_keep _ main_arg0 (by decide) (by decide) (by decide) (by decide)]
  rfl

theorem Vpre_v24 (m : (ℓ : Loc nD τ sig) → Buf (Elt F) ℓ) (c : Dev nD) :
    (Vpre m c (Proc.devRef .tc main_v24) : FVec F S32x2048x1024 .bf16) = w1K (m ((c.tc : Thread nD τ).loc main_arg1)) := by
  unfold Vpre
  rw [s4_v24, pre4_keep _ main_arg1 (by decide) (by decide) (by decide) (by decide)]

theorem Vpre_v25 (m : (ℓ : Loc nD τ sig) → Buf (Elt F) ℓ) (c : Dev nD) :
    (Vpre m c (Proc.devRef .tc main_v25) : FVec F S32x2048x1024 .bf16) = w3K (m ((c.tc : Thread nD τ).loc main_arg5)) := by
  unfold Vpre
  rw [s4_v25, pre4_keep _ main_arg5 (by decide) (by decide) (by decide) (by decide)]

theorem Vpre_v26 (m : (ℓ : Loc nD τ sig) → Buf (Elt F) ℓ) (c : Dev nD) :
    (Vpre m c (Proc.devRef .tc main_v26) : FVec F S32x1024x2048 .bf16) = w2K (m ((c.tc : Thread nD τ).loc main_arg3)) := by
  unfold Vpre
  rw [s4_v26, pre4_keep _ main_arg3 (by decide) (by decide) (by decide) (by decide)]

theorem Vpre_v27 (m : (ℓ : Loc nD τ sig) → Buf (Elt F) ℓ) (c : Dev nD) :
    (Vpre m c (Proc.devRef .tc main_v27) : FVec F S32x1x1024 .f32) = b1K (m ((c.tc : Thread nD τ).loc main_arg2)) := by
  unfold Vpre
  rw [s4_v27, pre4_keep _ main_arg2 (by decide) (by decide) (by decide) (by decide)]

theorem Vpre_v28 (m : (ℓ : Loc nD τ sig) → Buf (Elt F) ℓ) (c : Dev nD) :
    (Vpre m c (Proc.devRef .tc main_v28) : FVec F S32x1x1024 .f32) = b3K (m ((c.tc : Thread nD τ).loc main_arg6)) := by
  unfold Vpre
  rw [s4_v28, pre4_keep _ main_arg6 (by decide) (by decide) (by decide) (by decide)]

theorem Vpre_v29 (m : (ℓ : Loc nD τ sig) → Buf (Elt F) ℓ) (c : Dev nD) :
    (Vpre m c (Proc.devRef .tc main_v29) : FVec F S32x1x2048 .f32) = b2K (m ((c.tc : Thread nD τ).loc main_arg4)) := by
  unfold Vpre
  rw [s4_v29, pre4_keep _ main_arg4 (by decide) (by decide) (by decide) (by decide)]

theorem Vpre_arg0 (m : (ℓ : Loc nD τ sig) → Buf (Elt F) ℓ) (c : Dev nD) :
    Vpre m c (Proc.devRef .tc main_arg0) = m ((c.tc : Thread nD τ).loc main_arg0) := by
  unfold Vpre
  rw [keep0_4 _ main_arg0 (by decide), pre4_keep _ main_arg0 (by decide) (by decide) (by decide) (by decide)]
theorem Vpre_arg1 (m : (ℓ : Loc nD τ sig) → Buf (Elt F) ℓ) (c : Dev nD) :
    Vpre m c (Proc.devRef .tc main_arg1) = m ((c.tc : Thread nD τ).loc main_arg1) := by
  unfold Vpre
  rw [keep0_4 _ main_arg1 (by decide), pre4_keep _ main_arg1 (by decide) (by decide) (by decide) (by decide)]
theorem Vpre_arg2 (m : (ℓ : Loc nD τ sig) → Buf (Elt F) ℓ) (c : Dev nD) :
    Vpre m c (Proc.devRef .tc main_arg2) = m ((c.tc : Thread nD τ).loc main_arg2) := by
  unfold Vpre
  rw [keep0_4 _ main_arg2 (by decide), pre4_keep _ main_arg2 (by decide) (by decide) (by decide) (by decide)]
theorem Vpre_arg3 (m : (ℓ : Loc nD τ sig) → Buf (Elt F) ℓ) (c : Dev nD) :
    Vpre m c (Proc.devRef .tc main_arg3) = m ((c.tc : Thread nD τ).loc main_arg3) := by
  unfold Vpre
  rw [keep0_4 _ main_arg3 (by decide), pre4_keep _ main_arg3 (by decide) (by decide) (by decide) (by decide)]
theorem Vpre_arg4 (m : (ℓ : Loc nD τ sig) → Buf (Elt F) ℓ) (c : Dev nD) :
    Vpre m c (Proc.devRef .tc main_arg4) = m ((c.tc : Thread nD τ).loc main_arg4) := by
  unfold Vpre
  rw [keep0_4 _ main_arg4 (by decide), pre4_keep _ main_arg4 (by decide) (by decide) (by decide) (by decide)]
theorem Vpre_arg5 (m : (ℓ : Loc nD τ sig) → Buf (Elt F) ℓ) (c : Dev nD) :
    Vpre m c (Proc.devRef .tc main_arg5) = m ((c.tc : Thread nD τ).loc main_arg5) := by
  unfold Vpre
  rw [keep0_4 _ main_arg5 (by decide), pre4_keep _ main_arg5 (by decide) (by decide) (by decide) (by decide)]
theorem Vpre_arg6 (m : (ℓ : Loc nD τ sig) → Buf (Elt F) ℓ) (c : Dev nD) :
    Vpre m c (Proc.devRef .tc main_arg6) = m ((c.tc : Thread nD τ).loc main_arg6) := by
  unfold Vpre
  rw [keep0_4 _ main_arg6 (by decide), pre4_keep _ main_arg6 (by decide) (by decide) (by decide) (by decide)]
theorem Vpre_arg7 (m : (ℓ : Loc nD τ sig) → Buf (Elt F) ℓ) (c : Dev nD) :
    Vpre m c (Proc.devRef .tc main_arg7) = m ((c.tc : Thread nD τ).loc main_arg7) := by
  unfold Vpre
  rw [keep0_4 _ main_arg7 (by decide), pre4_keep _ main_arg7 (by decide) (by decide) (by decide) (by decide)]

/-! ## What the buffers hold at the end -/

theorem Vfin_v36 (m : (ℓ : Loc nD τ sig) → Buf (Elt F) ℓ) (c : Dev nD)
    (Y : (Proc.devRef .tc main_v30 : DevRef τ sig).ty.Contents (Elt F)) :
    (Vfin m c Y (Proc.devRef .tc main_v36) : FVec F S4x2048x2048 .f32)
      = tailK Y (m ((c.tc : Thread nD τ).loc main_arg7)) (posK (m ((c.tc : Thread nD τ).loc main_arg7))) := by
  unfold Vfin
  rw [t2_v36, t1_v35, t0_v31, t0_v34, Vmid_result,
    Vmid_other m c Y _ (StableHlo.devRef_ne_of_ne (by decide : main_arg7 ≠ main_v30)),
    Vmid_other m c Y _ (StableHlo.devRef_ne_of_ne (by decide : main_v5 ≠ main_v30)), Vpre_arg7, Vpre_v5]
  rfl

theorem Vfin_arg0 (m : (ℓ : Loc nD τ sig) → Buf (Elt F) ℓ) (c : Dev nD)
    (Y : (Proc.devRef .tc main_v30 : DevRef τ sig).ty.Contents (Elt F)) :
    Vfin m c Y (Proc.devRef .tc main_arg0) = m ((c.tc : Thread nD τ).loc main_arg0) := by
  unfold Vfin
  rw [keep1_2 _ main_arg0 (by decide), keep1_1 _ main_arg0 (by decide), keep1 _ main_arg0 (by decide),
    Vmid_other m c Y _ (StableHlo.devRef_ne_of_ne (by decide : main_arg0 ≠ main_v30)), Vpre_arg0]
theorem Vfin_arg1 (m : (ℓ : Loc nD τ sig) → Buf (Elt F) ℓ) (c : Dev nD)
    (Y : (Proc.devRef .tc main_v30 : DevRef τ sig).ty.Contents (Elt F)) :
    Vfin m c Y (Proc.devRef .tc main_arg1) = m ((c.tc : Thread nD τ).loc main_arg1) := by
  unfold Vfin
  rw [keep1_2 _ main_arg1 (by decide), keep1_1 _ main_arg1 (by decide), keep1 _ main_arg1 (by decide),
    Vmid_other m c Y _ (StableHlo.devRef_ne_of_ne (by decide : main_arg1 ≠ main_v30)), Vpre_arg1]
theorem Vfin_arg2 (m : (ℓ : Loc nD τ sig) → Buf (Elt F) ℓ) (c : Dev nD)
    (Y : (Proc.devRef .tc main_v30 : DevRef τ sig).ty.Contents (Elt F)) :
    Vfin m c Y (Proc.devRef .tc main_arg2) = m ((c.tc : Thread nD τ).loc main_arg2) := by
  unfold Vfin
  rw [keep1_2 _ main_arg2 (by decide), keep1_1 _ main_arg2 (by decide), keep1 _ main_arg2 (by decide),
    Vmid_other m c Y _ (StableHlo.devRef_ne_of_ne (by decide : main_arg2 ≠ main_v30)), Vpre_arg2]
theorem Vfin_arg3 (m : (ℓ : Loc nD τ sig) → Buf (Elt F) ℓ) (c : Dev nD)
    (Y : (Proc.devRef .tc main_v30 : DevRef τ sig).ty.Contents (Elt F)) :
    Vfin m c Y (Proc.devRef .tc main_arg3) = m ((c.tc : Thread nD τ).loc main_arg3) := by
  unfold Vfin
  rw [keep1_2 _ main_arg3 (by decide), keep1_1 _ main_arg3 (by decide), keep1 _ main_arg3 (by decide),
    Vmid_other m c Y _ (StableHlo.devRef_ne_of_ne (by decide : main_arg3 ≠ main_v30)), Vpre_arg3]
theorem Vfin_arg4 (m : (ℓ : Loc nD τ sig) → Buf (Elt F) ℓ) (c : Dev nD)
    (Y : (Proc.devRef .tc main_v30 : DevRef τ sig).ty.Contents (Elt F)) :
    Vfin m c Y (Proc.devRef .tc main_arg4) = m ((c.tc : Thread nD τ).loc main_arg4) := by
  unfold Vfin
  rw [keep1_2 _ main_arg4 (by decide), keep1_1 _ main_arg4 (by decide), keep1 _ main_arg4 (by decide),
    Vmid_other m c Y _ (StableHlo.devRef_ne_of_ne (by decide : main_arg4 ≠ main_v30)), Vpre_arg4]
theorem Vfin_arg5 (m : (ℓ : Loc nD τ sig) → Buf (Elt F) ℓ) (c : Dev nD)
    (Y : (Proc.devRef .tc main_v30 : DevRef τ sig).ty.Contents (Elt F)) :
    Vfin m c Y (Proc.devRef .tc main_arg5) = m ((c.tc : Thread nD τ).loc main_arg5) := by
  unfold Vfin
  rw [keep1_2 _ main_arg5 (by decide), keep1_1 _ main_arg5 (by decide), keep1 _ main_arg5 (by decide),
    Vmid_other m c Y _ (StableHlo.devRef_ne_of_ne (by decide : main_arg5 ≠ main_v30)), Vpre_arg5]
theorem Vfin_arg6 (m : (ℓ : Loc nD τ sig) → Buf (Elt F) ℓ) (c : Dev nD)
    (Y : (Proc.devRef .tc main_v30 : DevRef τ sig).ty.Contents (Elt F)) :
    Vfin m c Y (Proc.devRef .tc main_arg6) = m ((c.tc : Thread nD τ).loc main_arg6) := by
  unfold Vfin
  rw [keep1_2 _ main_arg6 (by decide), keep1_1 _ main_arg6 (by decide), keep1 _ main_arg6 (by decide),
    Vmid_other m c Y _ (StableHlo.devRef_ne_of_ne (by decide : main_arg6 ≠ main_v30)), Vpre_arg6]
theorem Vfin_arg7 (m : (ℓ : Loc nD τ sig) → Buf (Elt F) ℓ) (c : Dev nD)
    (Y : (Proc.devRef .tc main_v30 : DevRef τ sig).ty.Contents (Elt F)) :
    Vfin m c Y (Proc.devRef .tc main_arg7) = m ((c.tc : Thread nD τ).loc main_arg7) := by
  unfold Vfin
  rw [keep1_2 _ main_arg7 (by decide), keep1_1 _ main_arg7 (by decide), keep1 _ main_arg7 (by decide),
    Vmid_other m c Y _ (StableHlo.devRef_ne_of_ne (by decide : main_arg7 ≠ main_v30)), Vpre_arg7]

end Stretches

/-! ## The combine gather read at an entry -/

/-- A 32-bit integer that is non-negative as a signed number and below n reads, unsigned, below n. -/
theorem toNat_lt_of_toInt {x : BitVec 32} {n : Nat} (h0 : 0 ≤ x.toInt) (h1 : x.toInt < (n : Int)) : x.toNat < n := by
  rw [BitVec.toInt_eq_toNat_cond] at h0 h1
  split at h0 <;> omega

/-- A fold over a range of one element is the operation applied once. -/
theorem fold_fin_unit {n : Nat} (hn : n = 1) {β : Type} (op : β → β → β) [Std.Commutative op] [Std.Associative op] (b : β)
    (g : Fin n → β) : (Finset.univ : Finset (Fin n)).fold op b g = op (g ⟨0, by omega⟩) b := by
  subst hn
  rw [Finset.univ_unique, Finset.fold_singleton]
  rfl

/-- A reduction by "and", from 1, over a unit axis is 1 wherever the one element it covers is. -/
theorem reduce_andi_unit_one (x : IVec S8192x1 1) (t : Fin 8192) (hx : x (ix2 t (0 : Fin 1)) = 1#1) :
    Host.reduce IntOp.andi x (constantI S_ 1 1#1) reducesTo_S8192x1_S8192_d1 h_S_ (ix1 t) = 1#1 := by
  have hR : S8192x1.Reduces [1] S8192 := by decide
  rw [Host.reduce_eq_fold_single IntOp.andi x _ reducesTo_S8192x1_S8192_d1 hR h_S_ (ix1 t),
    fold_fin_unit (rfl : S8192x1.size 1 = 1)]
  have hl : hR.lift (ix1 t) (⟨0, by decide⟩ : Fin (S8192x1.size 1)) = ix2 t (0 : Fin 1) := Cert.LibColGather.ext2 rfl rfl
  show IntOp.andi (x (hR.lift (ix1 t) (⟨0, by decide⟩ : Fin (S8192x1.size 1)))) 1#1 = 1#1
  rw [hl]
  exact IntOp.andi_eq_one.2 ⟨hx, rfl⟩

/-- With token t's expert in [0, 32) and its position in [0, 512), @main's result at token t (row t / 2048, column
    t % 2048 of the [4, 2048, 2048] result) is the region's result at (expert, position): the flat row
    expert * 512 + position does not wrap, is in range for the mask, is not clamped by the gather, and is where the
    [16384, 2048] view keeps entry (expert, position). -/
theorem tailK_apply (Y : FVec F S32x512x2048 .f32) (a7 pos : IVec S8192 32) (t : Fin 8192) (d : Fin 2048)
    (he : 0 ≤ (a7 (ix1 t)).toInt ∧ (a7 (ix1 t)).toInt < 32)
    (hq : 0 ≤ (pos (ix1 t)).toInt ∧ (pos (ix1 t)).toInt < 512) :
    tailK Y a7 pos (ix3 (⟨t.val / 2048, by have := t.isLt; omega⟩ : Fin 4) (⟨t.val % 2048, Nat.mod_lt _ (by decide)⟩ : Fin 2048) d)
      = Y (ix3 (⟨(a7 (ix1 t)).toNat, toNat_lt_of_toInt he.1 he.2⟩ : Fin 32)
            (⟨(pos (ix1 t)).toNat, toNat_lt_of_toInt hq.1 hq.2⟩ : Fin 512) d) := by
  have hen : (a7 (ix1 t)).toNat < 32 := toNat_lt_of_toInt he.1 he.2
  have hqn : (pos (ix1 t)).toNat < 512 := toNat_lt_of_toInt hq.1 hq.2
  -- the flat row is the word of expert * 512 + position: below 2 ^ 31, so the 32-bit product and sum do not wrap
  have hfl : flatK a7 pos (ix1 t) = BitVec.ofNat 32 ((a7 (ix1 t)).toNat * 512 + (pos (ix1 t)).toNat) := by
    show (a7 (ix1 t)) * 512#32 + pos (ix1 t) = _
    apply BitVec.eq_of_toNat_eq
    rw [BitVec.toNat_add, BitVec.toNat_mul, BitVec.toNat_ofNat, BitVec.toNat_ofNat]
    omega
  generalize hn : (a7 (ix1 t)).toNat * 512 + (pos (ix1 t)).toNat = n at hfl
  have hn16 : n < 16384 := by omega
  -- it is not negative, so the gather's row index is that word
  have hidx : rowIdxK (flatK a7 pos) (ix2 t (0 : Fin 1)) = BitVec.ofNat 32 n := by
    unfold rowIdxK
    rw [broadcastInDim_apply _ _ _ _ (ix1 t) (fun a => match a with
      | ⟨0, _⟩ => by show t.val = if (8192 : Nat) = 1 then 0 else t.val; rw [if_neg (by decide)])]
    show Scalar.select (IntOp.cmpi .slt (flatK a7 pos (ix1 t)) 0#32) (IntOp.addi (flatK a7 pos (ix1 t)) 16384#32)
      (flatK a7 pos (ix1 t)) = _
    rw [hfl, Cert.LibColGather.slt_zero_ofNat_small n (by omega), select_zero]
  -- the mask: 0 ≤ row ≤ 16383
  have hok : rowOkK (rowIdxK (flatK a7 pos)) (ix1 t) = 1#1 := by
    unfold rowOkK
    refine reduce_andi_unit_one _ t ?_
    show IntOp.andi (IntOp.cmpi .sge (rowIdxK (flatK a7 pos) (ix2 t (0 : Fin 1))) 0#32)
      (IntOp.cmpi .sle (rowIdxK (flatK a7 pos) (ix2 t (0 : Fin 1))) 16383#32) = 1#1
    rw [hidx]
    refine IntOp.andi_eq_one.2 ⟨?_, ?_⟩
    · show BitVec.ofBool ((0#32).sle (BitVec.ofNat 32 n)) = 1#1
      rw [BitVec.sle_eq_decide, Cert.LibColGather.toInt_ofNat_small n (by omega), BitVec.toInt_zero, decide_eq_true (by omega)]
      rfl
    · show BitVec.ofBool ((BitVec.ofNat 32 n).sle 16383#32) = 1#1
      rw [BitVec.sle_eq_decide, Cert.LibColGather.toInt_ofNat_small n (by omega),
        show (16383#32 : BitVec 32) = BitVec.ofNat 32 16383 from rfl,
        Cert.LibColGather.toInt_ofNat_small 16383 (by decide), decide_eq_true (by omega)]
      rfl
  unfold tailK
  -- the final reshape: token t of [8192, 2048] sits at (t / 2048, t % 2048) of [4, 2048, 2048]
  refine (shapeCast_apply _ shapeCasts_S8192x2048_S4x2048x2048 _ (ix2 t d) ?_).trans ?_
  · rw [Shape.rowMajor_val_two, Shape.rowMajor_val_three]
    show t.val * 2048 + d.val = (t.val / 2048 * 2048 + t.val % 2048) * 2048 + d.val
    omega
  -- the select takes the gathered row: the mask is 1 at token t
  unfold takeRowsK
  rw [select_apply, broadcastInDim_apply _ _ _ _ (ix1 t) (fun a => match a with
      | ⟨0, _⟩ => by show t.val = if (8192 : Nat) = 1 then 0 else t.val; rw [if_neg (by decide)]), hok, select_one]
  -- the gather reads row n of the [16384, 2048] view: the clamp into [0, 16383] does not bind
  refine (Cert.LibIndex.rowGather_apply (N := 16384) (T := 8192) (C := 2048) (by decide)
    gather_S16384x2048_S8192x1_S8192x2048_1_0_n_n_0_1_12048_wf _ (rowIdxK (flatK a7 pos)) t d).trans ?_
  -- and row e * 512 + q of the view is entry (e, q) of [32, 512, 2048]
  refine shapeCast_apply _ shapeCasts_S32x512x2048_S16384x2048 _ _ ?_
  rw [Shape.rowMajor_val_two, Shape.rowMajor_val_three]
  show ((a7 (ix1 t)).toNat * 512 + (pos (ix1 t)).toNat) * 2048 + d.val
    = min (rowIdxK (flatK a7 pos) (ix2 t (0 : Fin 1))).toInt.toNat (16384 - 1) * 2048 + d.val
  rw [hidx, Cert.LibColGather.toInt_ofNat_small n (by omega), Int.toNat_natCast, Nat.min_eq_left (by omega), hn]

end Cert.KernelIdeal.Hand

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.LibSlice.lean ====
/-
  Reading a layer's slice of a stacked weight array at an index.
  The five layers' weights are stacked along a leading axis; a layer's matrix is cut out by a unit-stride slice
  `[l : l+1, off : off+a, 0 : b]` and a reshape that drops the leading axis of extent one, and a layer's bias vector
  by `[l : l+1, 0 : a]` and the same reshape, possibly reshaped again to a one-row matrix. Each of these, read at an
  index, is the stacked array at layer `l` and the shifted position.
-/
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

/-- A layer's matrix: rows `off … off + a − 1` of layer `l`'s `[r, b]` matrix, read at `(d, k)`. -/
theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by
  -- the reshape keeps the row-major position: (0, d, k) of [1, a, b] and (d, k) of [a, b] both sit at d * b + k
  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]
  -- the slice shifts each coordinate by its offset: (0, d, k) reads the stacked array at (l + 0, off + d, 0 + k)
  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

/-- A layer's bias vector, read at `k`. -/
theorem vec_slice_apply {α : Type} {L a : Nat} (B : (⟨2, ![L, a]⟩ : Shape).Idx → α) (l : Fin L)
    (hs : (⟨2, ![L, a]⟩ : Shape).Slices ![l.val, 0] ⟨2, ![1, a]⟩)
    (hc : (⟨2, ![1, a]⟩ : Shape).ShapeCasts ⟨1, ![a]⟩) (k : Fin a) :
    shapeCast ⟨1, ![a]⟩ (extractStridedSlice ⟨2, ![1, a]⟩ ![l.val, 0] B hs) hc (ix1 k) = B (ix2 l k) := by
  -- the reshape: (0, k) of [1, a] and k of [a] both sit at position k
  refine (shapeCast_apply _ hc (ix1 k) (ix2 (0 : Fin 1) k) ?_).trans ?_
  · rw [Shape.rowMajor_val_two, Shape.rowMajor_val_one]
    show (0 : Nat) * a + k.val = k.val
    rw [Nat.zero_mul, Nat.zero_add]
  -- the slice: (0, k) reads the stacked array at (l + 0, 0 + k)
  · exact extractStridedSlice_apply _ B hs _ _ (fun x => match x with
      | ⟨0, _⟩ => by show l.val = l.val + 0; omega
      | ⟨1, _⟩ => by show k.val = 0 + k.val; omega)

/-- A vector reshaped to a one-row matrix, read at `(0, k)`. -/
theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by
  -- k of [a] and (0, k) of [1, a] both sit at position k
  refine shapeCast_apply v hc (ix2 (0 : Fin 1) k) (ix1 k) ?_
  rw [Shape.rowMajor_val_two, Shape.rowMajor_val_one]
  show k.val = (0 : Nat) * a + k.val
  rw [Nat.zero_mul, Nat.zero_add]

/-- A vector reshaped to a one-column matrix, read at `(n, 0)`. -/
theorem col_of_vec_apply {α : Type} {a : Nat} (v : (⟨1, ![a]⟩ : Shape).Idx → α)
    (hc : (⟨1, ![a]⟩ : Shape).ShapeCasts ⟨2, ![a, 1]⟩) (n : Fin a) :
    shapeCast ⟨2, ![a, 1]⟩ v hc (ix2 n (0 : Fin 1)) = v (ix1 n) := by
  -- n of [a] and (n, 0) of [a, 1] both sit at position n
  refine shapeCast_apply v hc (ix2 n (0 : Fin 1)) (ix1 n) ?_
  rw [Shape.rowMajor_val_two, Shape.rowMajor_val_one]
  show n.val = n.val * 1 + (0 : Nat)
  rw [Nat.mul_one, Nat.add_zero]

/-- One column of a two-column word array, reshaped to a vector, read at `t`. -/
theorem col_slice_apply {α : Type} {T : Nat} (e : (⟨2, ![T, 2]⟩ : Shape).Idx → α) (j : Fin 2)
    (hs : (⟨2, ![T, 2]⟩ : Shape).Slices ![0, j.val] ⟨2, ![T, 1]⟩)
    (hc : (⟨2, ![T, 1]⟩ : Shape).ShapeCasts ⟨1, ![T]⟩) (t : Fin T) :
    shapeCast ⟨1, ![T]⟩ (extractStridedSlice ⟨2, ![T, 1]⟩ ![0, j.val] e hs) hc (ix1 t) = e (ix2 t j) := by
  -- the reshape: (t, 0) of [T, 1] and t of [T] both sit at position t
  refine (shapeCast_apply _ hc (ix1 t) (ix2 t (0 : Fin 1)) ?_).trans ?_
  · rw [Shape.rowMajor_val_two, Shape.rowMajor_val_one]
    show t.val * 1 + (0 : Nat) = t.val
    rw [Nat.mul_one, Nat.add_zero]
  -- the slice: (t, 0) reads the two-column array at (0 + t, j + 0)
  · exact extractStridedSlice_apply _ e hs _ _ (fun x => match x with
      | ⟨0, _⟩ => by show t.val = 0 + t.val; omega
      | ⟨1, _⟩ => by show j.val = j.val + 0; omega)

/-- At the ideal instance a change of float format is the identity. -/
theorem truncf_ideal {s : Shape} {φ ψ : FTy} (x : FVec Ideal s φ) (h : ψ.bits < φ.bits) :
    (truncf ψ x h : s.Idx → EReal) = x := by
  -- element by element the ideal instance's format change returns its operand
  funext i
  rfl

end Cert.LibSlice

end
-- ==== Proof.KPayload.lean ====
/-
  The value one grid point of the kernel region stores, at the ideal instance, read at an index.

  At the ideal instance a float is an extended real, every operation is exact and a change of format is the identity.
  One grid point of the region works on one expert e and one tile of 256 capacity rows. From the tile x of dispatched
  tokens, the expert's three weight matrices w1, w3, w2 and its three bias rows b1, b3, b2 the body forms

      s1 = x · w1 + b1,   s3 = x · w3 + b3,   h = (s1 · logistic s1) · s3,   y = h · w2 + b2,

  each product a plain matrix product accumulated from zero. Read at row r and column d,

      y[r, d] = (∑ f, h[r, f] · w2[f, d]) + b2[d],   h[r, f] = (s1[r, f] · logistic s1[r, f]) · s3[r, f],
      s1[r, f] = (∑ k, x[r, k] · w1[k, f]) + b1[f],  s3[r, f] = (∑ k, x[r, k] · w3[k, f]) + b3[f].

  This file proves exactly that for the body's stored value, and that the other branch stores zero; then it writes the
  same formulas over the whole operand arrays, at expert e and capacity row q, and shows that a tile whose blocks are cut
  from the arrays holds the arrays' formula at the tile's rows.
-/
import proofs.«427358_j7456063225884_2_alg».proof.Proof.Gen.KernelIdeal.Skeleton
import proofs.«427358_j7456063225884_2_alg».proof.Proof.LibPlainDot
import proofs.«427358_j7456063225884_2_alg».proof.Proof.LibSlice
import Idealize.ShloMosaic.Lib.ValueLayout
import Idealize.ShloMosaic.PureOps.Ideal.Laws

noncomputable section

namespace Cert.KernelIdeal.Value

open Cert.KernelIdeal Cert.KernelIdeal.Gen Idealize.ShloMosaic Idealize.ShloMosaic.ValueIdx

/-! ## One tile: the stored value read at (r, d) -/

/-- An affine layer's output at row r and feature f: the row of x against column f of w, plus the bias. -/
def affine (x : Vec Ideal S1x256x2048 .bf16) (w : Vec Ideal S1x2048x1024 .bf16) (b : Vec Ideal S1x1x1024 .f32)
    (r : Fin 256) (f : Fin 1024) : EReal :=
  (∑ k : Fin 2048, x (ix3 (0 : Fin 1) r k) * w (ix3 (0 : Fin 1) k f)) + b (ix3 (0 : Fin 1) (0 : Fin 1) f)

/-- The gated hidden activation at row r and feature f: (s1 · logistic s1) · s3. -/
def gate (x : Vec Ideal S1x256x2048 .bf16) (w1 w3 : Vec Ideal S1x2048x1024 .bf16) (b1 b3 : Vec Ideal S1x1x1024 .f32)
    (r : Fin 256) (f : Fin 1024) : EReal :=
  (affine x w1 b1 r f * Ideal.logistic (affine x w1 b1 r f)) * affine x w3 b3 r f

/-- The logistic function of a vector reads the logistic function of the element. -/
theorem logistic_apply {s : Shape} {φ : FTy} (a : FVec Ideal s φ) (i : s.Idx) : logistic a i = Ideal.logistic (a i) := rfl

/-- The first two products, [256, 2048] × [2048, 1024] from zero, at (p, q). -/
theorem mm_in_apply (l : FVec Ideal S256x2048 .bf16) (r : FVec Ideal S2048x1024 .bf16) (p : Fin 256) (q : Fin 1024) :
    matmul dot_S256x2048_S2048x1024_S256x1024_1_0_0_1_n_n none l r (constant S256x1024 .f32 0x00000000#32) (ix2 p q)
      = ∑ k : Fin 2048, l (ix2 p k) * r (ix2 k q) :=
  Cert.LibPlainDot.matmul_zero_apply dot_S256x2048_S2048x1024_S256x1024_1_0_0_1_n_n_wf none l r p q

/-- The last product, [256, 1024] × [1024, 2048] from zero, at (p, q). -/
theorem mm_out_apply (l : FVec Ideal S256x1024 .bf16) (r : FVec Ideal S1024x2048 .bf16) (p : Fin 256) (q : Fin 2048) :
    matmul dot_S256x1024_S1024x2048_S256x2048_1_0_0_1_n_n none l r (constant S256x2048 .f32 0x00000000#32) (ix2 p q)
      = ∑ k : Fin 1024, l (ix2 p k) * r (ix2 k q) :=
  Cert.LibPlainDot.matmul_zero_apply dot_S256x1024_S1024x2048_S256x2048_1_0_0_1_n_n_wf none l r p q

/-- An affine layer as the body writes it — both operands and the bias stripped of their unit axis, the product from
    zero, the bias row repeated down the rows — read at (r, f). -/
theorem affine_apply (x : Vec Ideal S1x256x2048 .bf16) (w : Vec Ideal S1x2048x1024 .bf16) (b : Vec Ideal S1x1x1024 .f32)
    (h1 : S1x256x2048.ShapeCasts S256x2048) (h2 : S1x2048x1024.ShapeCasts S2048x1024)
    (h3 : S1x1x1024.ShapeCasts S1x1024) (h4 : S1x1024.Broadcasts S256x1024) (r : Fin 256) (f : Fin 1024) :
    addf (F := Ideal) (matmul dot_S256x2048_S2048x1024_S256x1024_1_0_0_1_n_n none
        (shapeCast S256x2048 x h1 : FVec Ideal S256x2048 .bf16) (shapeCast S2048x1024 w h2 : FVec Ideal S2048x1024 .bf16)
        (constant S256x1024 .f32 0x00000000#32)) (broadcastTo S256x1024 (shapeCast S1x1024 b h3 : FVec Ideal S1x1024 .f32) h4) (ix2 r f)
      = affine x w b r f := by
  rw [addf_apply, mm_in_apply, broadcastTo_1b_ab_apply, shapeCast_1ab_ab_apply]
  unfold affine
  congr 1
  refine Finset.sum_congr rfl fun k _ => ?_
  rw [shapeCast_1ab_ab_apply, shapeCast_1ab_ab_apply]

/-- THE COMPUTING BRANCH'S STORED TILE at (r, d). -/
theorem pay1_apply (x : Vec Ideal S1x256x2048 .bf16) (w1 w3 : Vec Ideal S1x2048x1024 .bf16)
    (w2 : Vec Ideal S1x1024x2048 .bf16) (b1 b3 : Vec Ideal S1x1x1024 .f32) (b2 : Vec Ideal S1x1x2048 .f32)
    (r : Fin 256) (d : Fin 2048) :
    Gen.k0_pay1 (F := Ideal) x w1 w3 w2 b1 b3 b2 (ix3 (0 : Fin 1) r d)
      = (∑ f : Fin 1024, gate x w1 w3 b1 b3 r f * w2 (ix3 (0 : Fin 1) f d)) + b2 (ix3 (0 : Fin 1) (0 : Fin 1) d) := by
  unfold Gen.k0_pay1
  rw [shapeCast_ab_1ab_apply, addf_apply, mm_out_apply, broadcastTo_1b_ab_apply, shapeCast_1ab_ab_apply]
  congr 1
  refine Finset.sum_congr rfl fun f _ => ?_
  rw [truncf_apply, shapeCast_1ab_ab_apply, mulf_apply, mulf_apply, logistic_apply, affine_apply, affine_apply]
  rfl

/-- THE OTHER BRANCH'S STORED TILE is zero everywhere. -/
theorem pay2_apply (j : S1x256x2048.Idx) : Gen.k0_pay2 (F := Ideal) j = 0 := by
  obtain ⟨u, r, d, rfl⟩ : ∃ (u : Fin 1) (r : Fin 256) (d : Fin 2048), j = ix3 u r d := ⟨j 0, j 1, j 2, eq_ix3 j⟩
  unfold Gen.k0_pay2
  rw [shapeCast_ab_1ab_apply, broadcast_apply]
  exact Ideal.ofBits_zero_f32

/-! ## The whole arrays: the same formulas at expert e and capacity row q

The region's operands are the dispatched tokens X : [32, 512, 2048], the weights W1, W3 : [32, 2048, 1024] and
W2 : [32, 1024, 2048], and the biases B1, B3 : [32, 1, 1024] and B2 : [32, 1, 2048]. The tile of grid point (e, c) is rows
c · 256 … c · 256 + 255 of expert e, and the weight and bias blocks are expert e's: row r of the tile is capacity row
c · 256 + r. -/

/-- An affine layer of expert e at capacity row q and feature f. -/
def affineAt (X : Vec Ideal S32x512x2048 .bf16) (W : Vec Ideal S32x2048x1024 .bf16) (B : Vec Ideal S32x1x1024 .f32)
    (e : Fin 32) (q : Fin 512) (f : Fin 1024) : EReal :=
  (∑ k : Fin 2048, X (ix3 e q k) * W (ix3 e k f)) + B (ix3 e (0 : Fin 1) f)

/-- The gated hidden activation of expert e at capacity row q and feature f. -/
def gateAt (X : Vec Ideal S32x512x2048 .bf16) (W1 W3 : Vec Ideal S32x2048x1024 .bf16) (B1 B3 : Vec Ideal S32x1x1024 .f32)
    (e : Fin 32) (q : Fin 512) (f : Fin 1024) : EReal :=
  (affineAt X W1 B1 e q f * Ideal.logistic (affineAt X W1 B1 e q f)) * affineAt X W3 B3 e q f

/-- Expert e's feed-forward output at capacity row q and column d. -/
def ffnAt (X : Vec Ideal S32x512x2048 .bf16) (W1 W3 : Vec Ideal S32x2048x1024 .bf16) (W2 : Vec Ideal S32x1024x2048 .bf16)
    (B1 B3 : Vec Ideal S32x1x1024 .f32) (B2 : Vec Ideal S32x1x2048 .f32) (e : Fin 32) (q : Fin 512) (d : Fin 2048) : EReal :=
  (∑ f : Fin 1024, gateAt X W1 W3 B1 B3 e q f * W2 (ix3 e f d)) + B2 (ix3 e (0 : Fin 1) d)

/-- Capacity row c · 256 + r: row r of tile c. -/
def tileRow (c : Fin 2) (r : Fin 256) : Fin 512 := ⟨c.val * 256 + r.val, by omega⟩

/-- An affine layer on a tile whose blocks are cut from the arrays is the arrays' affine layer at the tile's row. -/
theorem affine_of_blocks (X : Vec Ideal S32x512x2048 .bf16) (W : Vec Ideal S32x2048x1024 .bf16) (B : Vec Ideal S32x1x1024 .f32)
    (e : Fin 32) (c : Fin 2) (x : Vec Ideal S1x256x2048 .bf16) (w : Vec Ideal S1x2048x1024 .bf16) (b : Vec Ideal S1x1x1024 .f32)
    (hx : ∀ (r : Fin 256) (k : Fin 2048), x (ix3 (0 : Fin 1) r k) = X (ix3 e (tileRow c r) k))
    (hw : ∀ (k : Fin 2048) (f : Fin 1024), w (ix3 (0 : Fin 1) k f) = W (ix3 e k f))
    (hb : ∀ f : Fin 1024, b (ix3 (0 : Fin 1) (0 : Fin 1) f) = B (ix3 e (0 : Fin 1) f)) (r : Fin 256) (f : Fin 1024) :
    affine x w b r f = affineAt X W B e (tileRow c r) f := by
  unfold affine affineAt
  rw [hb f]
  congr 1
  exact Finset.sum_congr rfl fun k _ => by rw [hx r k, hw k f]

/-- The computing branch's tile, its seven blocks cut from the arrays, is the arrays' feed-forward output at the
    tile's rows. -/
theorem pay1_of_blocks (X : Vec Ideal S32x512x2048 .bf16) (W1 W3 : Vec Ideal S32x2048x1024 .bf16)
    (W2 : Vec Ideal S32x1024x2048 .bf16) (B1 B3 : Vec Ideal S32x1x1024 .f32) (B2 : Vec Ideal S32x1x2048 .f32)
    (e : Fin 32) (c : Fin 2)
    (x : Vec Ideal S1x256x2048 .bf16) (w1 w3 : Vec Ideal S1x2048x1024 .bf16) (w2 : Vec Ideal S1x1024x2048 .bf16)
    (b1 b3 : Vec Ideal S1x1x1024 .f32) (b2 : Vec Ideal S1x1x2048 .f32)
    (hx : ∀ (r : Fin 256) (k : Fin 2048), x (ix3 (0 : Fin 1) r k) = X (ix3 e (tileRow c r) k))
    (hw1 : ∀ (k : Fin 2048) (f : Fin 1024), w1 (ix3 (0 : Fin 1) k f) = W1 (ix3 e k f))
    (hw3 : ∀ (k : Fin 2048) (f : Fin 1024), w3 (ix3 (0 : Fin 1) k f) = W3 (ix3 e k f))
    (hw2 : ∀ (f : Fin 1024) (d : Fin 2048), w2 (ix3 (0 : Fin 1) f d) = W2 (ix3 e f d))
    (hb1 : ∀ f : Fin 1024, b1 (ix3 (0 : Fin 1) (0 : Fin 1) f) = B1 (ix3 e (0 : Fin 1) f))
    (hb3 : ∀ f : Fin 1024, b3 (ix3 (0 : Fin 1) (0 : Fin 1) f) = B3 (ix3 e (0 : Fin 1) f))
    (hb2 : ∀ d : Fin 2048, b2 (ix3 (0 : Fin 1) (0 : Fin 1) d) = B2 (ix3 e (0 : Fin 1) d))
    (r : Fin 256) (d : Fin 2048) :
    Gen.k0_pay1 (F := Ideal) x w1 w3 w2 b1 b3 b2 (ix3 (0 : Fin 1) r d)
      = ffnAt X W1 W3 W2 B1 B3 B2 e (tileRow c r) d := by
  rw [pay1_apply]
  unfold ffnAt
  rw [hb2 d]
  congr 1
  refine Finset.sum_congr rfl fun f _ => ?_
  rw [hw2 f d]
  unfold gate gateAt
  rw [affine_of_blocks X W1 B1 e c x w1 b1 hx hw1 hb1, affine_of_blocks X W3 B3 e c x w3 b3 hx hw3 hb3]

end Cert.KernelIdeal.Value

end
-- ==== Proof.KValue.lean ====
/-
  The kernel region's result array at the ideal instance, read at an index.

  The region runs the 64 points of the grid 32 experts × 2 capacity tiles in order; point t is expert t / 2 and tile
  t % 2. At each point the result's block — rows (t % 2) · 256 … (t % 2) · 256 + 255 of expert t / 2 — is written back
  with what the body left: the gated feed-forward of the point's seven input blocks where the tile starts below the
  expert's token count, zeros elsewhere. The input blocks are cut from the operand arrays where the index maps say: the
  tokens' block at (expert, tile), the weights' and biases' blocks at the expert. So what point t writes back is block t
  of ONE function of the operand arrays,

      R[e, q, d] = if (q / 256) · 256 < count[e] then (∑ f, G[e, q, f] · W2[e, f, d]) + B2[e, d] else 0,

  and the 64 blocks tile the array: capacity row q of expert e lies in the block of point e · 2 + q / 256. Hence the
  array the region leaves is R.
-/
import proofs.«427358_j7456063225884_2_alg».proof.Proof.KPayload
import proofs.«427358_j7456063225884_2_alg».proof.Proof.KData
import proofs.«427358_j7456063225884_2_alg».proof.Proof.KCond
import Idealize.ShloMosaic.Lib.Pipeline.Value
import Idealize.ShloMosaic.Lib.ValueLayout

noncomputable section

namespace Cert.KernelIdeal.Value

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The grid: point t is expert t / 2, tile t % 2 -/

theorem coords_eq : ∀ t : Fin grid0.N, (grid0.coords t 0).val = t.val / 2 ∧ (grid0.coords t 1).val = t.val % 2 := by
  decide +kernel

/-- The tokens' and the result's index maps follow (expert, tile). -/
theorem ix_tile : ∀ i : grid0.Coords, cc0_transform_0 i = ![(i 0).val, (i 1).val, 0] ∧ cc0_transform_7 i = ![(i 0).val, (i 1).val, 0] := by
  decide +kernel

/-- The weights' and biases' index maps follow the expert. -/
theorem ix_expert : ∀ i : grid0.Coords, cc0_transform_1 i = ![(i 0).val, 0, 0] ∧ cc0_transform_2 i = ![(i 0).val, 0, 0]
    ∧ cc0_transform_3 i = ![(i 0).val, 0, 0] ∧ cc0_transform_4 i = ![(i 0).val, 0, 0] ∧ cc0_transform_5 i = ![(i 0).val, 0, 0]
    ∧ cc0_transform_6 i = ![(i 0).val, 0, 0] := by
  decide +kernel

/-- The expert of point t. -/
def expertOf (t : Fin grid0.N) : Fin 32 := ⟨t.val / 2, by have hN : grid0.N = 64 := N_0; have := t.isLt; omega⟩

/-- The capacity tile of point t. -/
def tileIdx (t : Fin grid0.N) : Fin 2 := ⟨t.val % 2, by omega⟩

/-- The point whose block holds capacity row q of expert e. -/
def tileOf (e : Fin 32) (q : Fin 512) : Fin grid0.N :=
  ⟨e.val * 2 + q.val / 256, by have hN : grid0.N = 64 := N_0; have := e.isLt; have := q.isLt; omega⟩

theorem tileOf_row (t : Fin grid0.N) (r : Fin 256) : tileOf (expertOf t) (tileRow (tileIdx t) r) = t :=
  Fin.ext (by
    show t.val / 2 * 2 + (t.val % 2 * 256 + r.val) / 256 = t.val
    have := r.isLt
    omega)

variable (m : (ℓ : Loc nD τ sig) → Buf (Elt Ideal) ℓ)

/-! ## The windows' block indices at point t -/

theorem index_tokens (t : Fin grid0.N) : ((cfgA m).win 0).index t (0 : Fin 3) = t.val / 2
    ∧ ((cfgA m).win 0).index t (1 : Fin 3) = t.val % 2 ∧ ((cfgA m).win 0).index t (2 : Fin 3) = 0 := by
  have h : ((cfgA m).win 0).index t = ![t.val / 2, t.val % 2, 0] := by
    show cc0_transform_0 (grid0.coords t) = _
    rw [(ix_tile _).1, (coords_eq t).1, (coords_eq t).2]
  exact ⟨congrFun h (0 : Fin 3), congrFun h (1 : Fin 3), congrFun h (2 : Fin 3)⟩

theorem index_out (t : Fin grid0.N) : ((cfgA m).win 7).index t (0 : Fin 3) = t.val / 2
    ∧ ((cfgA m).win 7).index t (1 : Fin 3) = t.val % 2 ∧ ((cfgA m).win 7).index t (2 : Fin 3) = 0 := by
  have h : ((cfgA m).win 7).index t = ![t.val / 2, t.val % 2, 0] := by
    show cc0_transform_7 (grid0.coords t) = _
    rw [(ix_tile _).2, (coords_eq t).1, (coords_eq t).2]
  exact ⟨congrFun h (0 : Fin 3), congrFun h (1 : Fin 3), congrFun h (2 : Fin 3)⟩

theorem index_w1 (t : Fin grid0.N) : ((cfgA m).win 1).index t (0 : Fin 3) = t.val / 2
    ∧ ((cfgA m).win 1).index t (1 : Fin 3) = 0 ∧ ((cfgA m).win 1).index t (2 : Fin 3) = 0 := by
  have h : ((cfgA m).win 1).index t = ![t.val / 2, 0, 0] := by
    show cc0_transform_1 (grid0.coords t) = _
    rw [(ix_expert _).1, (coords_eq t).1]
  exact ⟨congrFun h (0 : Fin 3), congrFun h (1 : Fin 3), congrFun h (2 : Fin 3)⟩

theorem index_w3 (t : Fin grid0.N) : ((cfgA m).win 2).index t (0 : Fin 3) = t.val / 2
    ∧ ((cfgA m).win 2).index t (1 : Fin 3) = 0 ∧ ((cfgA m).win 2).index t (2 : Fin 3) = 0 := by
  have h : ((cfgA m).win 2).index t = ![t.val / 2, 0, 0] := by
    show cc0_transform_2 (grid0.coords t) = _
    rw [(ix_expert _).2.1, (coords_eq t).1]
  exact ⟨congrFun h (0 : Fin 3), congrFun h (1 : Fin 3), congrFun h (2 : Fin 3)⟩

theorem index_w2 (t : Fin grid0.N) : ((cfgA m).win 3).index t (0 : Fin 3) = t.val / 2
    ∧ ((cfgA m).win 3).index t (1 : Fin 3) = 0 ∧ ((cfgA m).win 3).index t (2 : Fin 3) = 0 := by
  have h : ((cfgA m).win 3).index t = ![t.val / 2, 0, 0] := by
    show cc0_transform_3 (grid0.coords t) = _
    rw [(ix_expert _).2.2.1, (coords_eq t).1]
  exact ⟨congrFun h (0 : Fin 3), congrFun h (1 : Fin 3), congrFun h (2 : Fin 3)⟩

theorem index_b1 (t : Fin grid0.N) : ((cfgA m).win 4).index t (0 : Fin 3) = t.val / 2
    ∧ ((cfgA m).win 4).index t (1 : Fin 3) = 0 ∧ ((cfgA m).win 4).index t (2 : Fin 3) = 0 := by
  have h : ((cfgA m).win 4).index t = ![t.val / 2, 0, 0] := by
    show cc0_transform_4 (grid0.coords t) = _
    rw [(ix_expert _).2.2.2.1, (coords_eq t).1]
  exact ⟨congrFun h (0 : Fin 3), congrFun h (1 : Fin 3), congrFun h (2 : Fin 3)⟩

theorem index_b3 (t : Fin grid0.N) : ((cfgA m).win 5).index t (0 : Fin 3) = t.val / 2
    ∧ ((cfgA m).win 5).index t (1 : Fin 3) = 0 ∧ ((cfgA m).win 5).index t (2 : Fin 3) = 0 := by
  have h : ((cfgA m).win 5).index t = ![t.val / 2, 0, 0] := by
    show cc0_transform_5 (grid0.coords t) = _
    rw [(ix_expert _).2.2.2.2.1, (coords_eq t).1]
  exact ⟨congrFun h (0 : Fin 3), congrFun h (1 : Fin 3), congrFun h (2 : Fin 3)⟩

theorem index_b2 (t : Fin grid0.N) : ((cfgA m).win 6).index t (0 : Fin 3) = t.val / 2
    ∧ ((cfgA m).win 6).index t (1 : Fin 3) = 0 ∧ ((cfgA m).win 6).index t (2 : Fin 3) = 0 := by
  have h : ((cfgA m).win 6).index t = ![t.val / 2, 0, 0] := by
    show cc0_transform_6 (grid0.coords t) = _
    rw [(ix_expert _).2.2.2.2.2, (coords_eq t).1]
  exact ⟨congrFun h (0 : Fin 3), congrFun h (1 : Fin 3), congrFun h (2 : Fin 3)⟩

/-! ## The result's blocks: every point writes its block back, and the blocks tile the array -/

/-- Every point writes the result's block back: the next point's block is another one. -/
theorem flush_out (t : Fin grid0.N) : ((cfgA m).win 7).flush t = true := by
  unfold Pipeline.Window.flush
  rw [Bool.and_eq_true]
  refine ⟨rfl, ?_⟩
  rw [Bool.or_eq_true, decide_eq_true_eq, decide_eq_true_eq]
  have hN : (cfgA m).grid.N = 64 := N_0
  by_cases h : t.val + 1 = (cfgA m).grid.N
  · exact Or.inl h
  · have hlt : t.val + 1 < (cfgA m).grid.N := by have := t.isLt; have hN' : grid0.N = 64 := N_0; omega
    refine Or.inr ⟨hlt, fun heq => ?_⟩
    have h1 := congrFun heq (1 : Fin 3)
    rw [(index_out m t).2.1, (index_out m ⟨t.val + 1, hlt⟩).2.1] at h1
    have h1' : (t.val + 1) % 2 = t.val % 2 := h1
    omega

/-- An index of the result array is in point t's block iff each coordinate is in the block's range on its axis. -/
theorem mem_blk_out (t : Fin grid0.N) (i : S32x512x2048.Idx) :
    i ∈ (((cfgA m).win 7).blk t).view.set ↔ ∀ a : Fin 3, ((cfgA m).win 7).index t a * S1x256x2048.size a ≤ (i a).val
      ∧ (i a).val < ((cfgA m).win 7).index t a * S1x256x2048.size a + S1x256x2048.size a := by
  have e : (((cfgA m).win 7).blk t).view.set = (((cfgA m).win 7).rect t).set :=
    View.set_slice_whole main_v30 (((cfgA m).win 7).rect t)
  exact (Eq.to_iff (congrArg (fun s => i ∈ s) e)).trans Rect.mem_set_unit

/-- THE COVER: capacity row q of expert e lies in the block of point e · 2 + q / 256. -/
theorem cover_out (i : S32x512x2048.Idx) :
    ∃ t : Fin (cfgA m).N, ((cfgA m).win 7).flush t = true ∧ i ∈ (((cfgA m).win 7).blk t).view.set := by
  have h0 : (i 0).val < 32 := (i 0).isLt
  have h1 : (i 1).val < 512 := (i 1).isLt
  have h2 : (i 2).val < 2048 := (i 2).isLt
  have hN : grid0.N = 64 := N_0
  refine ⟨(⟨(i 0).val * 2 + (i 1).val / 256, by omega⟩ : Fin grid0.N), flush_out m _, ?_⟩
  rw [mem_blk_out]
  intro a
  match a with
  | ⟨0, _⟩ =>
    show ((cfgA m).win 7).index _ (0 : Fin 3) * 1 ≤ (i 0).val ∧ (i 0).val < ((cfgA m).win 7).index _ (0 : Fin 3) * 1 + 1
    rw [(index_out m _).1]
    show ((i 0).val * 2 + (i 1).val / 256) / 2 * 1 ≤ (i 0).val ∧ (i 0).val < ((i 0).val * 2 + (i 1).val / 256) / 2 * 1 + 1
    omega
  | ⟨1, _⟩ =>
    show ((cfgA m).win 7).index _ (1 : Fin 3) * 256 ≤ (i 1).val ∧ (i 1).val < ((cfgA m).win 7).index _ (1 : Fin 3) * 256 + 256
    rw [(index_out m _).2.1]
    show ((i 0).val * 2 + (i 1).val / 256) % 2 * 256 ≤ (i 1).val ∧ (i 1).val < ((i 0).val * 2 + (i 1).val / 256) % 2 * 256 + 256
    omega
  | ⟨2, _⟩ =>
    show ((cfgA m).win 7).index _ (2 : Fin 3) * 2048 ≤ (i 2).val ∧ (i 2).val < ((cfgA m).win 7).index _ (2 : Fin 3) * 2048 + 2048
    rw [(index_out m _).2.2]
    omega

/-! ## A window's block at point t, read from any contents of its array

A block's coordinate in its array is always block index × block size + the coordinate inside the block. The array's
contents are a variable here: nothing below depends on what the operations before the region computed. -/

theorem read_tokens (A : Vec Ideal S32x512x2048 .bf16) (t : Fin grid0.N) (r : Fin 256) (k : Fin 2048) :
    ((((cfgA m).win 0).blk t).view.read (Elt Ideal) A : Vec Ideal S1x256x2048 .bf16) (ix3 (0 : Fin 1) r k)
      = A (ix3 (expertOf t) (tileRow (tileIdx t) r) k) := by
  show A _ = A _
  refine congrArg A (funext fun a => Fin.ext ?_)
  match a with
  | ⟨0, _⟩ =>
    show ((cfgA m).win 0).index t (0 : Fin 3) * 1 + 1 * 0 = t.val / 2
    rw [(index_tokens m t).1]; omega
  | ⟨1, _⟩ =>
    show ((cfgA m).win 0).index t (1 : Fin 3) * 256 + 1 * r.val = t.val % 2 * 256 + r.val
    rw [(index_tokens m t).2.1]; omega
  | ⟨2, _⟩ =>
    show ((cfgA m).win 0).index t (2 : Fin 3) * 2048 + 1 * k.val = k.val
    rw [(index_tokens m t).2.2]; omega

theorem read_w1 (A : Vec Ideal S32x2048x1024 .bf16) (t : Fin grid0.N) (k : Fin 2048) (f : Fin 1024) :
    ((((cfgA m).win 1).blk t).view.read (Elt Ideal) A : Vec Ideal S1x2048x1024 .bf16) (ix3 (0 : Fin 1) k f)
      = A (ix3 (expertOf t) k f) := by
  show A _ = A _
  refine congrArg A (funext fun a => Fin.ext ?_)
  match a with
  | ⟨0, _⟩ =>
    show ((cfgA m).win 1).index t (0 : Fin 3) * 1 + 1 * 0 = t.val / 2
    rw [(index_w1 m t).1]; omega
  | ⟨1, _⟩ =>
    show ((cfgA m).win 1).index t (1 : Fin 3) * 2048 + 1 * k.val = k.val
    rw [(index_w1 m t).2.1]; omega
  | ⟨2, _⟩ =>
    show ((cfgA m).win 1).index t (2 : Fin 3) * 1024 + 1 * f.val = f.val
    rw [(index_w1 m t).2.2]; omega

theorem read_w3 (A : Vec Ideal S32x2048x1024 .bf16) (t : Fin grid0.N) (k : Fin 2048) (f : Fin 1024) :
    ((((cfgA m).win 2).blk t).view.read (Elt Ideal) A : Vec Ideal S1x2048x1024 .bf16) (ix3 (0 : Fin 1) k f)
      = A (ix3 (expertOf t) k f) := by
  show A _ = A _
  refine congrArg A (funext fun a => Fin.ext ?_)
  match a with
  | ⟨0, _⟩ =>
    show ((cfgA m).win 2).index t (0 : Fin 3) * 1 + 1 * 0 = t.val / 2
    rw [(index_w3 m t).1]; omega
  | ⟨1, _⟩ =>
    show ((cfgA m).win 2).index t (1 : Fin 3) * 2048 + 1 * k.val = k.val
    rw [(index_w3 m t).2.1]; omega
  | ⟨2, _⟩ =>
    show ((cfgA m).win 2).index t (2 : Fin 3) * 1024 + 1 * f.val = f.val
    rw [(index_w3 m t).2.2]; omega

theorem read_w2 (A : Vec Ideal S32x1024x2048 .bf16) (t : Fin grid0.N) (f : Fin 1024) (d : Fin 2048) :
    ((((cfgA m).win 3).blk t).view.read (Elt Ideal) A : Vec Ideal S1x1024x2048 .bf16) (ix3 (0 : Fin 1) f d)
      = A (ix3 (expertOf t) f d) := by
  show A _ = A _
  refine congrArg A (funext fun a => Fin.ext ?_)
  match a with
  | ⟨0, _⟩ =>
    show ((cfgA m).win 3).index t (0 : Fin 3) * 1 + 1 * 0 = t.val / 2
    rw [(index_w2 m t).1]; omega
  | ⟨1, _⟩ =>
    show ((cfgA m).win 3).index t (1 : Fin 3) * 1024 + 1 * f.val = f.val
    rw [(index_w2 m t).2.1]; omega
  | ⟨2, _⟩ =>
    show ((cfgA m).win 3).index t (2 : Fin 3) * 2048 + 1 * d.val = d.val
    rw [(index_w2 m t).2.2]; omega

theorem read_b1 (A : Vec Ideal S32x1x1024 .f32) (t : Fin grid0.N) (f : Fin 1024) :
    ((((cfgA m).win 4).blk t).view.read (Elt Ideal) A : Vec Ideal S1x1x1024 .f32) (ix3 (0 : Fin 1) (0 : Fin 1) f)
      = A (ix3 (expertOf t) (0 : Fin 1) f) := by
  show A _ = A _
  refine congrArg A (funext fun a => Fin.ext ?_)
  match a with
  | ⟨0, _⟩ =>
    show ((cfgA m).win 4).index t (0 : Fin 3) * 1 + 1 * 0 = t.val / 2
    rw [(index_b1 m t).1]; omega
  | ⟨1, _⟩ =>
    show ((cfgA m).win 4).index t (1 : Fin 3) * 1 + 1 * 0 = 0
    rw [(index_b1 m t).2.1]
  | ⟨2, _⟩ =>
    show ((cfgA m).win 4).index t (2 : Fin 3) * 1024 + 1 * f.val = f.val
    rw [(index_b1 m t).2.2]; omega

theorem read_b3 (A : Vec Ideal S32x1x1024 .f32) (t : Fin grid0.N) (f : Fin 1024) :
    ((((cfgA m).win 5).blk t).view.read (Elt Ideal) A : Vec Ideal S1x1x1024 .f32) (ix3 (0 : Fin 1) (0 : Fin 1) f)
      = A (ix3 (expertOf t) (0 : Fin 1) f) := by
  show A _ = A _
  refine congrArg A (funext fun a => Fin.ext ?_)
  match a with
  | ⟨0, _⟩ =>
    show ((cfgA m).win 5).index t (0 : Fin 3) * 1 + 1 * 0 = t.val / 2
    rw [(index_b3 m t).1]; omega
  | ⟨1, _⟩ =>
    show ((cfgA m).win 5).index t (1 : Fin 3) * 1 + 1 * 0 = 0
    rw [(index_b3 m t).2.1]
  | ⟨2, _⟩ =>
    show ((cfgA m).win 5).index t (2 : Fin 3) * 1024 + 1 * f.val = f.val
    rw [(index_b3 m t).2.2]; omega

theorem read_b2 (A : Vec Ideal S32x1x2048 .f32) (t : Fin grid0.N) (d : Fin 2048) :
    ((((cfgA m).win 6).blk t).view.read (Elt Ideal) A : Vec Ideal S1x1x2048 .f32) (ix3 (0 : Fin 1) (0 : Fin 1) d)
      = A (ix3 (expertOf t) (0 : Fin 1) d) := by
  show A _ = A _
  refine congrArg A (funext fun a => Fin.ext ?_)
  match a with
  | ⟨0, _⟩ =>
    show ((cfgA m).win 6).index t (0 : Fin 3) * 1 + 1 * 0 = t.val / 2
    rw [(index_b2 m t).1]; omega
  | ⟨1, _⟩ =>
    show ((cfgA m).win 6).index t (1 : Fin 3) * 1 + 1 * 0 = 0
    rw [(index_b2 m t).2.1]
  | ⟨2, _⟩ =>
    show ((cfgA m).win 6).index t (2 : Fin 3) * 2048 + 1 * d.val = d.val
    rw [(index_b2 m t).2.2]; omega

/-- The result's block at point t, read from any contents of the result array, at an index of the block. -/
theorem read_out (G : Vec Ideal S32x512x2048 .f32) (t : Fin grid0.N) (r : Fin 256) (d : Fin 2048) :
    ((((cfgA m).win 7).blk t).view.read (Elt Ideal) G : Vec Ideal S1x256x2048 .f32) (ix3 (0 : Fin 1) r d)
      = G (ix3 (expertOf t) (tileRow (tileIdx t) r) d) := by
  show G _ = G _
  refine congrArg G (funext fun a => Fin.ext ?_)
  match a with
  | ⟨0, _⟩ =>
    show ((cfgA m).win 7).index t (0 : Fin 3) * 1 + 1 * 0 = t.val / 2
    rw [(index_out m t).1]; omega
  | ⟨1, _⟩ =>
    show ((cfgA m).win 7).index t (1 : Fin 3) * 256 + 1 * r.val = t.val % 2 * 256 + r.val
    rw [(index_out m t).2.1]; omega
  | ⟨2, _⟩ =>
    show ((cfgA m).win 7).index t (2 : Fin 3) * 2048 + 1 * d.val = d.val
    rw [(index_out m t).2.2]; omega

/-! ## The body's block as a function of any operand arrays and any count table -/

/-- The result at expert e, capacity row q and column d, for count table T and operand arrays X … B2: the feed-forward
    output where row q's tile starts below the expert's count, zero elsewhere. -/
def resultOf (T : IVec S32 32) (X : Vec Ideal S32x512x2048 .bf16) (W1 W3 : Vec Ideal S32x2048x1024 .bf16)
    (W2 : Vec Ideal S32x1024x2048 .bf16) (B1 B3 : Vec Ideal S32x1x1024 .f32) (B2 : Vec Ideal S32x1x2048 .f32)
    (e : Fin 32) (q : Fin 512) (d : Fin 2048) : EReal :=
  if k0_cond1 (grid0.coords (tileOf e q)) (cntWord (F := Ideal) T (grid0.coords (tileOf e q))) = 1#1
  then ffnAt X W1 W3 W2 B1 B3 B2 e q d
  else 0

/-- What the body leaves at point t, its seven blocks cut from the arrays, at row r and column d of the tile. -/
theorem outOf_apply (T : IVec S32 32) (X : Vec Ideal S32x512x2048 .bf16) (W1 W3 : Vec Ideal S32x2048x1024 .bf16)
    (W2 : Vec Ideal S32x1024x2048 .bf16) (B1 B3 : Vec Ideal S32x1x1024 .f32) (B2 : Vec Ideal S32x1x2048 .f32)
    (t : Fin grid0.N)
    (x : Vec Ideal S1x256x2048 .bf16) (w1 w3 : Vec Ideal S1x2048x1024 .bf16) (w2 : Vec Ideal S1x1024x2048 .bf16)
    (b1 b3 : Vec Ideal S1x1x1024 .f32) (b2 : Vec Ideal S1x1x2048 .f32)
    (hx : ∀ (r : Fin 256) (k : Fin 2048), x (ix3 (0 : Fin 1) r k) = X (ix3 (expertOf t) (tileRow (tileIdx t) r) k))
    (hw1 : ∀ (k : Fin 2048) (f : Fin 1024), w1 (ix3 (0 : Fin 1) k f) = W1 (ix3 (expertOf t) k f))
    (hw3 : ∀ (k : Fin 2048) (f : Fin 1024), w3 (ix3 (0 : Fin 1) k f) = W3 (ix3 (expertOf t) k f))
    (hw2 : ∀ (f : Fin 1024) (d : Fin 2048), w2 (ix3 (0 : Fin 1) f d) = W2 (ix3 (expertOf t) f d))
    (hb1 : ∀ f : Fin 1024, b1 (ix3 (0 : Fin 1) (0 : Fin 1) f) = B1 (ix3 (expertOf t) (0 : Fin 1) f))
    (hb3 : ∀ f : Fin 1024, b3 (ix3 (0 : Fin 1) (0 : Fin 1) f) = B3 (ix3 (expertOf t) (0 : Fin 1) f))
    (hb2 : ∀ d : Fin 2048, b2 (ix3 (0 : Fin 1) (0 : Fin 1) d) = B2 (ix3 (expertOf t) (0 : Fin 1) d))
    (r : Fin 256) (d : Fin 2048) :
    outOf (F := Ideal) T (grid0.coords t) x w1 w3 w2 b1 b3 b2 (ix3 (0 : Fin 1) r d)
      = resultOf T X W1 W3 W2 B1 B3 B2 (expertOf t) (tileRow (tileIdx t) r) d := by
  unfold resultOf outOf
  rw [tileOf_row]
  by_cases h : k0_cond1 (grid0.coords t) (cntWord (F := Ideal) T (grid0.coords t)) = 1#1
  · rw [if_pos h, if_pos h]
    exact pay1_of_blocks X W1 W3 W2 B1 B3 B2 (expertOf t) (tileIdx t) x w1 w3 w2 b1 b3 b2 hx hw1 hw3 hw2 hb1 hb3 hb2 r d
  · rw [if_neg h, if_neg h]
    exact pay2_apply _

/-- The word a count table holds for the point of capacity row q of expert e is its entry for expert e. -/
theorem cntWord_tileOf (T : IVec S32 32) (e : Fin 32) (q : Fin 512) :
    cntWord (F := Ideal) T (grid0.coords (tileOf e q)) = T (ix1 e) := by
  unfold cntWord
  refine congrArg T (funext fun a => Fin.ext ?_)
  match a with
  | ⟨0, _⟩ =>
    show k0_off1 (grid0.coords (tileOf e q)) 0 + 1 * 0 = e.val
    rw [k0_off1_eq]
    show (grid0.coords (tileOf e q) 0).val + 1 * 0 = e.val
    rw [(coords_eq _).1]
    show (e.val * 2 + q.val / 256) / 2 + 1 * 0 = e.val
    have := q.isLt
    omega

/-- A capacity row below the expert's count: its tile starts at or below it, so the computing branch ran there. -/
theorem resultOf_of_lt (T : IVec S32 32) (X : Vec Ideal S32x512x2048 .bf16) (W1 W3 : Vec Ideal S32x2048x1024 .bf16)
    (W2 : Vec Ideal S32x1024x2048 .bf16) (B1 B3 : Vec Ideal S32x1x1024 .f32) (B2 : Vec Ideal S32x1x2048 .f32)
    (e : Fin 32) (q : Fin 512) (d : Fin 2048) (h : (q.val : Int) < (T (ix1 e)).toInt) :
    resultOf T X W1 W3 W2 B1 B3 B2 e q d = ffnAt X W1 W3 W2 B1 B3 B2 e q d := by
  unfold resultOf
  refine if_pos (cond1_of_lt _ _ ?_)
  rw [cntWord_tileOf, (coords_eq _).2]
  show (((e.val * 2 + q.val / 256) % 2 : Nat) : Int) * 256 < _
  have := q.isLt
  omega

/-! ## The region at the arrays it finds -/

theorem inBlk_tokens (c : Dev nD) (t : Fin grid0.N) (r : Fin 256) (k : Fin 2048) :
    (inBlk m c 0 t : Vec Ideal S1x256x2048 .bf16) (ix3 (0 : Fin 1) r k)
      = (Vpre m c main_v23 : Vec Ideal S32x512x2048 .bf16) (ix3 (expertOf t) (tileRow (tileIdx t) r) k) := by
  unfold inBlk
  exact read_tokens m (Vpre m c main_v23) t r k

theorem inBlk_w1 (c : Dev nD) (t : Fin grid0.N) (k : Fin 2048) (f : Fin 1024) :
    (inBlk m c 1 t : Vec Ideal S1x2048x1024 .bf16) (ix3 (0 : Fin 1) k f)
      = (Vpre m c main_v24 : Vec Ideal S32x2048x1024 .bf16) (ix3 (expertOf t) k f) := by
  unfold inBlk
  exact read_w1 m (Vpre m c main_v24) t k f

theorem inBlk_w3 (c : Dev nD) (t : Fin grid0.N) (k : Fin 2048) (f : Fin 1024) :
    (inBlk m c 2 t : Vec Ideal S1x2048x1024 .bf16) (ix3 (0 : Fin 1) k f)
      = (Vpre m c main_v25 : Vec Ideal S32x2048x1024 .bf16) (ix3 (expertOf t) k f) := by
  unfold inBlk
  exact read_w3 m (Vpre m c main_v25) t k f

theorem inBlk_w2 (c : Dev nD) (t : Fin grid0.N) (f : Fin 1024) (d : Fin 2048) :
    (inBlk m c 3 t : Vec Ideal S1x1024x2048 .bf16) (ix3 (0 : Fin 1) f d)
      = (Vpre m c main_v26 : Vec Ideal S32x1024x2048 .bf16) (ix3 (expertOf t) f d) := by
  unfold inBlk
  exact read_w2 m (Vpre m c main_v26) t f d

theorem inBlk_b1 (c : Dev nD) (t : Fin grid0.N) (f : Fin 1024) :
    (inBlk m c 4 t : Vec Ideal S1x1x1024 .f32) (ix3 (0 : Fin 1) (0 : Fin 1) f)
      = (Vpre m c main_v27 : Vec Ideal S32x1x1024 .f32) (ix3 (expertOf t) (0 : Fin 1) f) := by
  unfold inBlk
  exact read_b1 m (Vpre m c main_v27) t f

theorem inBlk_b3 (c : Dev nD) (t : Fin grid0.N) (f : Fin 1024) :
    (inBlk m c 5 t : Vec Ideal S1x1x1024 .f32) (ix3 (0 : Fin 1) (0 : Fin 1) f)
      = (Vpre m c main_v28 : Vec Ideal S32x1x1024 .f32) (ix3 (expertOf t) (0 : Fin 1) f) := by
  unfold inBlk
  exact read_b3 m (Vpre m c main_v28) t f

theorem inBlk_b2 (c : Dev nD) (t : Fin grid0.N) (d : Fin 2048) :
    (inBlk m c 6 t : Vec Ideal S1x1x2048 .f32) (ix3 (0 : Fin 1) (0 : Fin 1) d)
      = (Vpre m c main_v29 : Vec Ideal S32x1x2048 .f32) (ix3 (expertOf t) (0 : Fin 1) d) := by
  unfold inBlk
  exact read_b2 m (Vpre m c main_v29) t d

/-- The result at (e, q, d) for the table and the operand arrays the region finds on core c. -/
def resultAt (c : Dev nD) : Fin 32 → Fin 512 → Fin 2048 → EReal :=
  resultOf (tbl m c 0) (Vpre m c main_v23) (Vpre m c main_v24) (Vpre m c main_v25) (Vpre m c main_v26) (Vpre m c main_v27)
    (Vpre m c main_v28) (Vpre m c main_v29)

/-- The same as an array. -/
def resultFn (c : Dev nD) : Vec Ideal S32x512x2048 .f32 := fun i => resultAt m c (i 0) (i 1) (i 2)

/-- What the body leaves at point t, at row r and column d of the tile, is the array function at the tile's row. -/
theorem outBlk_apply (c : Dev nD) (t : Fin grid0.N) (r : Fin 256) (d : Fin 2048) :
    outBlk m c t (ix3 (0 : Fin 1) r d) = resultAt m c (expertOf t) (tileRow (tileIdx t) r) d := by
  unfold outBlk resultAt
  exact outOf_apply (tbl m c 0) (Vpre m c main_v23) (Vpre m c main_v24) (Vpre m c main_v25) (Vpre m c main_v26) (Vpre m c main_v27)
    (Vpre m c main_v28) (Vpre m c main_v29) t
    (inBlk m c 0 t) (inBlk m c 1 t) (inBlk m c 2 t) (inBlk m c 3 t) (inBlk m c 4 t) (inBlk m c 5 t) (inBlk m c 6 t)
    (inBlk_tokens m c t) (inBlk_w1 m c t) (inBlk_w3 m c t) (inBlk_w2 m c t) (inBlk_b1 m c t) (inBlk_b3 m c t) (inBlk_b2 m c t) r d

/-- The same at an index of the block: the array function read through the block's rectangle. -/
theorem outBlk_eq_read (c : Dev nD) (t : Fin grid0.N) (j : S1x256x2048.Idx) :
    outBlk m c t j = ((((cfgA m).win 7).blk t).view.read (Elt Ideal) (resultFn m c) : Vec Ideal S1x256x2048 .f32) j := by
  obtain ⟨u, r, d, rfl⟩ : ∃ (u : Fin 1) (r : Fin 256) (d : Fin 2048), j = ix3 u r d := ⟨j 0, j 1, j 2, eq_ix3 j⟩
  obtain rfl : u = 0 := Subsingleton.elim _ _
  exact (outBlk_apply m c t r d).trans (read_out m (resultFn m c) t r d).symm

/-- WHAT POINT t WRITES BACK is block t of the array function. -/
theorem flushed_eq (c : Dev nD) (t : Fin (cfgA m).N) :
    (dats m 0 c).flushed 7 t = (((cfgA m).win 7).blk t).view.read (Elt Ideal) (resultFn m c) := by
  have h : (dats m 0 c).flushed 7 t = ((cfgA m).win 7).cut ((cfgA m).grid.coords t) (outBlk m c t) := by
    show ((cfgA m).win 7).cut ((cfgA m).grid.coords t) ((dats m 0 c).after 7 t) = _
    rw [after_7]
  exact h.trans (funext fun j => outBlk_eq_read m c t j)

/-- THE ARRAY THE REGION LEAVES is the array function: every point writes its block of it back, and the blocks tile
    the array. -/
theorem resultY_eq (c : Dev nD) : resultY m c = resultFn m c := by
  unfold resultY
  exact (dats m 0 c).arrAt_eq_of_cover 7 (resultFn m c) (fun t _ => flushed_eq m c t) (cover_out m)

/-- THE RESULT ARRAY READ AT (e, q, d). -/
theorem resultY_apply (c : Dev nD) (e : Fin 32) (q : Fin 512) (d : Fin 2048) :
    (resultY m c : Vec Ideal S32x512x2048 .f32) (ix3 e q d)
      = if k0_cond1 (grid0.coords (tileOf e q)) (cntAt m c (tileOf e q)) = 1#1
        then ffnAt (Vpre m c main_v23) (Vpre m c main_v24) (Vpre m c main_v25) (Vpre m c main_v26) (Vpre m c main_v27)
    (Vpre m c main_v28) (Vpre m c main_v29) e q d
        else 0 := by
  refine (congrFun (resultY_eq m c) (ix3 e q d)).trans ?_
  show resultAt m c e q d = _
  unfold resultAt resultOf cntAt
  rfl

/-- A CAPACITY ROW BELOW THE EXPERT'S COUNT holds the feed-forward output: its tile starts at or below it, so the
    computing branch ran there. -/
theorem resultY_of_lt (c : Dev nD) (e : Fin 32) (q : Fin 512) (d : Fin 2048)
    (h : (q.val : Int) < ((Vpre m c (Proc.devRef .tc main_v6) : IVec S32 32) (ix1 e)).toInt) :
    (resultY m c : Vec Ideal S32x512x2048 .f32) (ix3 e q d)
      = ffnAt (Vpre m c main_v23) (Vpre m c main_v24) (Vpre m c main_v25) (Vpre m c main_v26) (Vpre m c main_v27)
    (Vpre m c main_v28) (Vpre m c main_v29) e q d := by
  refine (congrFun (resultY_eq m c) (ix3 e q d)).trans ?_
  show resultAt m c e q d = _
  unfold resultAt
  exact resultOf_of_lt (tbl m c 0) (Vpre m c main_v23) (Vpre m c main_v24) (Vpre m c main_v25) (Vpre m c main_v26) (Vpre m c main_v27)
    (Vpre m c main_v28) (Vpre m c main_v29) e q d h

end Cert.KernelIdeal.Value

end
-- ==== Proof.BitsKVal.lean ====
/-
  The contents of a core's buffers around the kernel region.

  @main runs five stretches of host operations (the one-hot of the expert indices, its running sum, each token's
  position inside its expert's capacity buffer, the per-expert token counts, the dispatch scatter, the weights' and
  biases' re-typing and re-shaping), then the kernel region, then three more stretches (the flattened index
  `expert · 512 + position`, the row gather with its in-range mask, the final reshape). The region reads the arrays
  the first five stretches left and writes one array, its result; the last three read that array.
-/
import proofs.«427358_j7456063225884_2_alg».proof.Proof.Gen.Kernel.Launch
import Idealize.ShloMosaic.Lib.StableHlo.Run

noncomputable section

namespace Cert.Kernel.Hand

open Cert.Kernel Cert.Kernel.Gen Idealize.ShloMosaic Idealize.ShloMosaic.TcCoe Idealize.SL.Sem
open Idealize.ShloMosaic.StableHlo (after launchContents)

variable {F : FTy → Type} [FloatOps F]

/-- Core `c`'s buffers when the region is entered: the five stretches before it have run, in order, from the
    launch contents. -/
def Vpre (m : (ℓ : Loc nD τ sig) → Buf (Elt F) ℓ) (c : Dev nD) : Valuation τ sig (Elt F) :=
  after hostOps0_4 (after hostOps0_3 (after hostOps0_2 (after hostOps0_1 (after hostOps0 (launchContents m c)))))

open Classical in
/-- Core `c`'s buffers when the region is left with its result array at `Y`: every other buffer as the region found
    it. -/
def Vmid (m : (ℓ : Loc nD τ sig) → Buf (Elt F) ℓ) (c : Dev nD)
    (Y : (Proc.devRef .tc main_v30 : DevRef τ sig).ty.Contents (Elt F)) : Valuation τ sig (Elt F) :=
  Function.update (Vpre m c) (Proc.devRef .tc main_v30) Y

/-- Core `c`'s buffers at the end: the three stretches after the region have run. -/
def Vfin (m : (ℓ : Loc nD τ sig) → Buf (Elt F) ℓ) (c : Dev nD)
    (Y : (Proc.devRef .tc main_v30 : DevRef τ sig).ty.Contents (Elt F)) : Valuation τ sig (Elt F) :=
  after hostOps1_2 (after hostOps1_1 (after hostOps1 (Vmid m c Y)))

open Classical in
theorem Vmid_result (m : (ℓ : Loc nD τ sig) → Buf (Elt F) ℓ) (c : Dev nD)
    (Y : (Proc.devRef .tc main_v30 : DevRef τ sig).ty.Contents (Elt F)) :
    Vmid m c Y (Proc.devRef .tc main_v30) = Y := by
  unfold Vmid; exact Function.update_self _ _ _

open Classical in
theorem Vmid_other (m : (ℓ : Loc nD τ sig) → Buf (Elt F) ℓ) (c : Dev nD)
    (Y : (Proc.devRef .tc main_v30 : DevRef τ sig).ty.Contents (Elt F)) (b : DevRef τ sig)
    (hb : b ≠ Proc.devRef .tc main_v30) : Vmid m c Y b = Vpre m c b := by
  unfold Vmid; exact Function.update_of_ne hb _ _

end Cert.Kernel.Hand

end
-- ==== Proof.BitsKData.lean ====
/-
  The proof data of the kernel region of @main.

  The region is one pipeline over the grid of 32 experts × 2 capacity tiles. Its eight windows are the dispatched
  tokens' block (expert, tile), the three weight blocks and three bias blocks of the expert, and the result's block
  (expert, tile), written back at every point. The per-expert token counts are a table held in scalar memory through
  the whole region: at point (expert, tile) the body loads the expert's count and, where tile · 256 is below it,
  stores the gated feed-forward of the seven input blocks, and zeros elsewhere.

  Stated here: the table as the operations before the region left it, the blocks the windows stage at each point, the
  block the body leaves, the proof data these make on each core, and the result array the region leaves.
-/
import proofs.«427358_j7456063225884_2_alg».proof.Proof.BitsKVal
import proofs.«427358_j7456063225884_2_alg».proof.Proof.Gen.Kernel.Launch
import proofs.«427358_j7456063225884_2_alg».proof.Proof.Gen.Kernel.Skeleton
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: one copy of the rounds algebra over the machine's cells, which funds the staging cells. The
    kernel names no semaphore of its own, so nothing rides beside it. -/
abbrev U : Type := UR sig nD τ

local notation "𝕄" => MT nD τ sig Unit (Elt F) ℕ U ℕ

/-- The kernel's functions have no loop: no variant. -/
abbrev 𝒱₀ : Variants := Variants.none

/-! ## The table and the body's two cases -/

/-- The word of a 32-entry table that the body's scalar load reads at the point of coordinates `i`: the entry of the
    point's expert. -/
def cntWord (T : S32.Idx → Elt F .i32) (i : grid0.Coords) : Elt F .i32 :=
  T ((Rect.unit (s := S32) (k0_off1 i) S1.size (Facts₀.k0_off1_inb i)).emb (Shape.Idx.first (numel1_S1.symm ▸ Nat.one_pos)))

/-- What the body leaves in the result's staging buffer at the point of coordinates `i`, the table at `T` and the
    seven inputs' staging buffers at `X3 … X9`: the gated feed-forward of the inputs where the tile starts below the
    expert's count, zeros elsewhere. -/
def outOf (T : S32.Idx → Elt F .i32) (i : grid0.Coords) (X3 : Vec F S1x256x2048 .bf16) (X4 X5 : Vec F S1x2048x1024 .bf16)
    (X6 : Vec F S1x1024x2048 .bf16) (X7 X8 : Vec F S1x1x1024 .f32) (X9 : Vec F S1x1x2048 .f32) : Vec F S1x256x2048 .f32 :=
  if k0_cond1 i (cntWord T i) = 1#1 then k0_pay1 X3 X4 X5 X6 X7 X8 X9 else k0_pay2

variable (m : (ℓ : Loc nD τ sig) → Buf (Elt F) ℓ)

/-- The table on core `c` when the region is entered: the per-expert token counts the operations before it computed. -/
def tbl (c : Dev nD) : pre0.Contents (Elt F) := fun k => Vpre m c (Proc.devRef .tc (pre0.ref k))

/-- The contents the pipeline is run at: the one device's table (the side condition on a table is void here). -/
def adm : (p : Fin 1) → (pcfgs (F := F) p).Adm := fun _ => ⟨tbl m 0, trivial⟩

/-- The pipeline at those contents. -/
abbrev cfgA : Cfg sig Λ₀ := Pipeline.pin (pcfgs (F := F)) (adm m) 0

/-- The count the body loads at point `t`: the table's entry for the point's expert. -/
def cntAt (c : Dev nD) (t : Fin grid0.N) : BitVec 32 := cntWord (tbl m c 0) (grid0.coords t)

/-- Input window `w`'s block at point `t`, read off the window's array as the region finds it. -/
def inBlk (c : Dev nD) (w : Fin 8) (t : Fin grid0.N) : (((cfgA m).win w).xblock ((cfgA m).grid.coords t)).Idx → Elt F ((cfgA m).win w).elt :=
  (((cfgA m).win w).blk t).view.read (Elt F) (Vpre m c (Pipeline.arrRef spec0 w))

/-- What the body leaves in the result's staging buffer at point `t`. -/
def outBlk (c : Dev nD) (t : Fin grid0.N) : Vec F S1x256x2048 .f32 :=
  outOf (tbl m c 0) (grid0.coords t) (inBlk m c 0 t) (inBlk m c 1 t) (inBlk m c 2 t) (inBlk m c 3 t) (inBlk m c 4 t) (inBlk m c 5 t) (inBlk m c 6 t)

/-! ## The proof data -/

/-- The invariant between points: the table held whole at its contents (nothing writes it), and the scoped buffers no
    window stages. -/
def Φc (c : Dev nD) : sProp 𝕄 :=
  iprop(Pipeline.prefHeld pre0 c (fun _ => fullShare) (tbl m c)
    ∗ Pipeline.scopedRest (Ix := Unit) (Name := ℕ) (U := U) (Lvl := ℕ) (Val := Elt F) spec0 c)

/-- The proof data on core `c`: the windows' arrays as the region finds them; after the body at point `t` each input's
    staging buffer at its block and the result's at `outBlk`; the invariant `Φc`; full shares; nothing owed. -/
def dats : (p : Fin 1) → (c : Dev nD) → Dat τ (Elt F) Unit ℕ U ℕ (Pipeline.pin (pcfgs (F := F)) (adm m) p) c := fun _ c =>
  { A := fun w => Vpre m c (Pipeline.arrRef spec0 w)
    after := fun w t => match w with
      | ⟨0, _⟩ => inBlk m c 0 t
      | ⟨1, _⟩ => inBlk m c 1 t
      | ⟨2, _⟩ => inBlk m c 2 t
      | ⟨3, _⟩ => inBlk m c 3 t
      | ⟨4, _⟩ => inBlk m c 4 t
      | ⟨5, _⟩ => inBlk m c 5 t
      | ⟨6, _⟩ => inBlk m c 6 t
      | ⟨7, _⟩ => outBlk m c t
    Φ := fun _ => Φc m c
    q := fun _ => fullShare
    owed := fun _ => 0 }

/-- The result array as the region leaves it: every write-back done. -/
def resultY (c : Dev nD) : (Proc.devRef .tc main_v30 : DevRef τ sig).ty.Contents (Elt F) :=
  (dats m 0 c).arrAt 7 (cfgA m).N

/-! ## The proof data projected -/

theorem dats_A (c : Dev nD) (w : Fin 8) : (dats m 0 c).A w = Vpre m c (Pipeline.arrRef spec0 w) := by
  dsimp only [dats]

theorem dats_Φ (c : Dev nD) (t : Fin ((cfgA m).N + 1)) : (dats m 0 c).Φ t = Φc m c := by
  dsimp only [dats]

theorem dats_owed (c : Dev nD) (t : Fin ((cfgA m).N + 1)) : (dats m 0 c).owed t = 0 := by
  dsimp only [dats]

theorem dats_q (c : Dev nD) (w : Fin 8) : (dats m 0 c).q w = fullShare := by
  dsimp only [dats]

theorem after_0 (c : Dev nD) (t : Fin grid0.N) : (dats m 0 c).after 0 t = inBlk m c 0 t := by dsimp only [dats]; rfl
theorem after_1 (c : Dev nD) (t : Fin grid0.N) : (dats m 0 c).after 1 t = inBlk m c 1 t := by dsimp only [dats]; rfl
theorem after_2 (c : Dev nD) (t : Fin grid0.N) : (dats m 0 c).after 2 t = inBlk m c 2 t := by dsimp only [dats]; rfl
theorem after_3 (c : Dev nD) (t : Fin grid0.N) : (dats m 0 c).after 3 t = inBlk m c 3 t := by dsimp only [dats]; rfl
theorem after_4 (c : Dev nD) (t : Fin grid0.N) : (dats m 0 c).after 4 t = inBlk m c 4 t := by dsimp only [dats]; rfl
theorem after_5 (c : Dev nD) (t : Fin grid0.N) : (dats m 0 c).after 5 t = inBlk m c 5 t := by dsimp only [dats]; rfl
theorem after_6 (c : Dev nD) (t : Fin grid0.N) : (dats m 0 c).after 6 t = inBlk m c 6 t := by dsimp only [dats]; rfl
theorem after_7 (c : Dev nD) (t : Fin grid0.N) : (dats m 0 c).after 7 t = outBlk m c t := by dsimp only [dats]; rfl

/-- One device: every core's table is the one the pipeline is run at. -/
theorem tbl_dev (c : Dev nD) : tbl m c = (adm m 0).1 := by
  rw [Subsingleton.elim c 0]; rfl

/-- The word the body loads is the table's entry at the load's offsets, as the configuration's idle table spells it. -/
theorem cntAt_eq_atD (c : Dev nD) (t : Fin grid0.N) :
    cntAt m c t = (tbl m c).atD 0 (k0_off1 (grid0.coords t)) := by
  unfold cntAt cntWord Pipeline.Prefetch.Contents.atD
  split
  · -- the unit rectangle's one element sits at the load's offsets
    refine congrArg _ (funext fun a => Fin.ext ?_)
    exact Nat.add_zero _
  · -- and the offsets are inside the table: the point's expert is below 32
    next hn =>
    refine absurd (fun a => ?_) hn
    obtain ⟨a, ha⟩ := a
    have ha' : a < 1 := ha
    obtain rfl : a = 0 := by omega
    exact Facts₀.k0_off1_inb (grid0.coords t) 0

end Cert.Kernel.Hand

end
-- ==== Proof.BitsKCond.lean ====
/-
  The two branch conditions of the kernel body, as comparisons of words.

  At the grid point (e, c) the body loads the count n of tokens routed to expert e and computes the one-bit word
  b = (c · 256 <ₛ n). The first branch is taken when b, widened, is not zero — that is when b is set — and the
  second when b's complement, widened, is not zero — that is when b is clear. So exactly one of the two is taken,
  and the first one is taken as soon as c · 256 is below n as signed integers.
-/
import proofs.«427358_j7456063225884_2_alg».proof.Proof.Gen.Kernel

namespace Cert.Kernel.Hand

open Cert.Kernel Idealize.ShloMosaic

/-- A one-bit word widened to 32 bits differs from zero exactly when it is set. -/
theorem ne_zero_of_bit (b : BitVec 1) : Scalar.cmpi .ne (Scalar.extui b) 0#32 = b := by
  have hb : b = 0#1 ∨ b = 1#1 := by
    rcases b with ⟨⟨v, hv⟩⟩
    have : v = 0 ∨ v = 1 := by omega
    rcases this with rfl | rfl
    · exact Or.inl rfl
    · exact Or.inr rfl
  rcases hb with rfl | rfl <;> rfl

/-- The complement of a one-bit word is set exactly when the word is clear. -/
theorem xor_one_eq_one_iff (b : BitVec 1) : Scalar.xori b 1#1 = 1#1 ↔ b ≠ 1#1 := by
  have hb : b = 0#1 ∨ b = 1#1 := by
    rcases b with ⟨⟨v, hv⟩⟩
    have : v = 0 ∨ v = 1 := by omega
    rcases this with rfl | rfl
    · exact Or.inl rfl
    · exact Or.inr rfl
  rcases hb with rfl | rfl <;> decide

/-- The compared bit: is c · 256 below the count, as signed words. -/
def tileBit (i : grid0.Coords) (n : BitVec 32) : BitVec 1 :=
  Scalar.cmpi .slt (Scalar.muli (BitVec.ofNat 32 (i 1).val) 256#32) n

theorem cond1_eq (i : grid0.Coords) (n : BitVec 32) : k0_cond1 i n = tileBit i n := by
  unfold k0_cond1 tileBit
  exact ne_zero_of_bit _

theorem cond2_eq (i : grid0.Coords) (n : BitVec 32) : k0_cond2 i n = Scalar.xori (tileBit i n) 1#1 := by
  unfold k0_cond2 tileBit
  exact ne_zero_of_bit _

/-- The second branch is taken exactly when the first is not. -/
theorem cond2_iff_not_cond1 (i : grid0.Coords) (n : BitVec 32) : k0_cond2 i n = 1#1 ↔ ¬ k0_cond1 i n = 1#1 := by
  rw [cond1_eq, cond2_eq]; exact xor_one_eq_one_iff _

theorem cond2_of_not_cond1 (i : grid0.Coords) (n : BitVec 32) (h : ¬ k0_cond1 i n = 1#1) : k0_cond2 i n = 1#1 :=
  (cond2_iff_not_cond1 i n).mpr h

theorem not_cond2_of_cond1 (i : grid0.Coords) (n : BitVec 32) (h : k0_cond1 i n = 1#1) : ¬ k0_cond2 i n = 1#1 :=
  fun h2 => (cond2_iff_not_cond1 i n).mp h2 h

/-- The first branch is taken when c · 256 is below the count as signed integers. -/
theorem cond1_of_lt (i : grid0.Coords) (n : BitVec 32) (h : ((i 1).val : Int) * 256 < n.toInt) : k0_cond1 i n = 1#1 := by
  rw [cond1_eq]; unfold tileBit Scalar.cmpi IntOp.cmpi Scalar.muli IntOp.muli
  have hc : (i 1).val = 0 ∨ (i 1).val = 1 := by
    have := (i 1).isLt
    have h2 : (i 1).val < 2 := this
    omega
  have hs : (BitVec.ofNat 32 (i 1).val * 256#32).slt n = true := by
    rw [BitVec.slt_iff_toInt_lt]
    rcases hc with h0 | h1
    · rw [h0] at h ⊢
      have : (BitVec.ofNat 32 0 * 256#32).toInt = 0 := by decide
      rw [this]; simpa using h
    · rw [h1] at h ⊢
      have : (BitVec.ofNat 32 1 * 256#32).toInt = 256 := by decide
      rw [this]; simpa using h
  simp only [hs]; rfl

end Cert.Kernel.Hand
-- ==== Proof.BitsKBody.lean ====
/-
  The body obligation of the kernel region's pipeline.

  At a grid point the body reads one word of the prefetched table of per-expert token counts — the count of the
  point's expert — and compares the first row of the point's capacity tile with it. Where the row is below the count it
  loads the seven input blocks (the dispatched tokens' tile, the three weight matrices and the three biases of the
  expert) and stores the gated feed-forward tile computed from them into the output block; where it is not, it stores
  zeros. The second guard is the first one's bit flipped, so at every point exactly one of the two stores happens and
  the output block is a function of the count and the seven blocks alone, whatever it held before.

  First the body's run at one point over any staging memrefs; then the obligation: at every grid point, from the table
  held, the seven inputs' staging buffers at their blocks and the result's staging buffer at anything, the body runs to
  the same with the result's staging buffer at that function of the count and the blocks. An input window that is not
  fetched at a point has the block index it had at the point before, so its buffer holds the point's block whether or
  not it was fetched there; the output window is written back at every point and is idle at none.
-/
import proofs.«427358_j7456063225884_2_alg».proof.Proof.BitsKData
import proofs.«427358_j7456063225884_2_alg».proof.Proof.BitsKCond
import Idealize.ShloMosaic.Lib.Tactic
import Idealize.ShloMosaic.Lib.Pipeline.Kit
import Idealize.ShloMosaic.Lib.Pipeline.TableIdle
import Idealize.ShloMosaic.Lib.Pipeline.Value

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

section Run

variable {R : Type} [URA R]

local notation "𝕄" => MT nD τ sig Unit (Elt F) ℕ R ℕ

/-- A buffer held on a memref's own elements at contents that read `X` is held at the canonical contents of `X`. -/
theorem pts_rep_of_read (c : Dev nD) {sp : Space} {sh : Shape} {e : EltTy} (m : Memref sig .tc sp sh e) (q : PosShare TreeShare)
    (f : m.view.ty.Contents (Elt F)) (X : sh.Idx → Elt F e) (h : m.view.read (Elt F) f = X) :
    (m.view.loc (c : Thread nD τ) ↦[m.view.set]{q} f : sProp 𝕄) ⊢ (m.view.loc (c : Thread nD τ) ↦[m.view.set]{q} m.view.rep X) := by
  refine BIBase.Entails.trans ?_ (rep_of_owns (c : Thread nD τ) m q X)
  unfold owns
  iintro H; iexists f; isplitr
  · ipureintro; exact h
  iexact H

/-- A load of a whole block, through the block-sized rectangle at zero offsets, of the canonical contents of `X` reads `X`. -/
theorem readAt_rep_unit_zero {κ : Kind} {sp : Space} {S : Shape} {e : EltTy} (v : View sig κ sp S e) {off : Fin S.rank → Nat}
    (h : off = fun _ => 0) (inb : ∀ a, off a + S.size a ≤ S.size a) (X : S.Idx → Elt F e) :
    v.readAt (Elt F) (Rect.unit off S.size inb).toLoadRect (v.rep X) = X := by
  rw [View.readAt_eq_ld, View.read_rep, View.ld_unit_zero h]

/-- One store of a whole block, through the block-sized rectangle at zero offsets, leaves a buffer that reads the payload. -/
theorem read_writes_unit_zero {κ : Kind} {sp : Space} {S : Shape} {e : EltTy} (v : View sig κ sp S e) {off : Fin S.rank → Nat}
    (h : off = fun _ => 0) (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The body at a grid point, over any staging memrefs: from the table of counts held at any share, the seven input
    blocks and the output block held whole, it reads the point's expert's count; where the tile's first row is below
    it, it stores the gated feed-forward tile of the seven blocks into the output block, and elsewhere zeros — the
    two guards are complementary, so exactly one store happens — and hands everything else back as it found it.
    Stated with a continuation, so that whatever else is held passes through. -/
theorem kernelRun_k (c : Dev nD) (i : grid0.Coords)
    (arg2 : Memref sig .tc .smem S32 .i32) (harg2 : arg2.IsWhole)
    (arg3 : Memref sig .tc .vmem S1x256x2048 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1x1024x2048 .bf16) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x2048 .f32) (harg9 : arg9.IsWhole)
    (arg10 : Memref sig .tc .vmem S1x256x2048 .f32) (harg10 : arg10.IsWhole)
    (q : PosShare TreeShare) (T : S32.Idx → Elt F .i32)
    (X3 : Vec F S1x256x2048 .bf16) (X4 X5 : Vec F S1x2048x1024 .bf16) (X6 : Vec F S1x1024x2048 .bf16)
    (X7 X8 : Vec F S1x1x1024 .f32) (X9 : Vec F S1x1x2048 .f32) (O : Vec F S1x256x2048 .f32)
    (Q : PUnit → sProp 𝕄) :
    (iprop(owns (c : Thread nD τ) arg2 q T
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare O
        ∗ (iprop(owns (c : Thread nD τ) arg2 q T
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare (outOf T i X3 X4 X5 X6 X7 X8 X9)) -∗ Q ⟨⟩)) : sProp 𝕄)
      ⊢ wp frame (wpE (defs₀ (F := F)) Variants.none c none) Set.univ
          (cc0__moe_ffn_kernel i arg2 harg2 arg3 harg3 arg4 harg4 arg5 harg5 arg6 harg6 arg7 harg7 arg8 harg8 arg9 harg9 arg10 harg10) Q := by
  simp only [owns_eq_rep]
  iintro ⟨H2, H3, H4, H5, H6, H7, H8, H9, H10, Hk⟩
  sl_unfold [cc0__moe_ffn_kernel]
  sl_exec
  sl_step
  -- the word the body read is the expert's count
  have hr : kernelRun_k.sl.r i arg2 T = cntWord T i := by
    unfold kernelRun_k.sl.r cntWord
    rw [View.readAt_rep]; rfl
  have z3 : (![0, 0, 0] : Fin 3 → Nat) = fun _ => 0 := by decide
  -- the output block reads the one payload stored: the first guard's where it holds, else the second's
  ihave H10' := (pts_rep_of_read c arg10 fullShare _ (outOf T i X3 X4 X5 X6 X7 X8 X9) ?_) $$ H10
  · rw [hr]; unfold outOf
    by_cases h1 : k0_cond1 i (cntWord T i) = 1#1
    · rw [dif_neg (not_cond2_of_cond1 i _ h1), dif_pos h1, if_pos h1, read_writes_unit_zero _ z3,
        readAt_rep_unit_zero _ z3, readAt_rep_unit_zero _ z3, readAt_rep_unit_zero _ z3, readAt_rep_unit_zero _ z3,
        readAt_rep_unit_zero _ z3, readAt_rep_unit_zero _ z3, readAt_rep_unit_zero _ z3]
    · rw [dif_pos (cond2_of_not_cond1 i _ h1), if_neg h1, read_writes_unit_zero _ z3]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10'

/-- The same as a plain triple. -/
theorem kernelRun (c : Dev nD) (i : grid0.Coords)
    (arg2 : Memref sig .tc .smem S32 .i32) (harg2 : arg2.IsWhole)
    (arg3 : Memref sig .tc .vmem S1x256x2048 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1x1024x2048 .bf16) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x2048 .f32) (harg9 : arg9.IsWhole)
    (arg10 : Memref sig .tc .vmem S1x256x2048 .f32) (harg10 : arg10.IsWhole)
    (q : PosShare TreeShare) (T : S32.Idx → Elt F .i32)
    (X3 : Vec F S1x256x2048 .bf16) (X4 X5 : Vec F S1x2048x1024 .bf16) (X6 : Vec F S1x1024x2048 .bf16)
    (X7 X8 : Vec F S1x1x1024 .f32) (X9 : Vec F S1x1x2048 .f32) (O : Vec F S1x256x2048 .f32) :
    (iprop(owns (c : Thread nD τ) arg2 q T
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare O) : sProp 𝕄)
      ⊢ wp frame (wpE (defs₀ (F := F)) Variants.none c none) Set.univ
          (cc0__moe_ffn_kernel i arg2 harg2 arg3 harg3 arg4 harg4 arg5 harg5 arg6 harg6 arg7 harg7 arg8 harg8 arg9 harg9 arg10 harg10)
          fun _ => iprop(owns (c : Thread nD τ) arg2 q T
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare (outOf T i X3 X4 X5 X6 X7 X8 X9)) := by
  iintro ⟨H2, H3, H4, H5, H6, H7, H8, H9, H10⟩
  iapply (kernelRun_k c i arg2 harg2 arg3 harg3 arg4 harg4 arg5 harg5 arg6 harg6 arg7 harg7 arg8 harg8 arg9 harg9 arg10 harg10 q T X3 X4 X5 X6 X7 X8 X9 O)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro H; iexact H

end Run

section Obligation

local notation "𝕄" => MT nD τ sig Unit (Elt F) ℕ U ℕ

variable (m : (ℓ : Loc nD τ sig) → Buf (Elt F) ℓ)

theorem before_0' (c : Dev nD) (t : Fin grid0.N) (d) : (dats m 0 c).before 0 t d = inBlk m c 0 t := by
  have hkeep : ∀ t, ((cfgA m).win 0).cut ((cfgA m).grid.coords t) ((dats m 0 c).after 0 t) = (dats m 0 c).blockOf 0 t := fun _ => rfl
  rw [Dat.before_in_eq_fetched (dats m 0 c) 0 rfl (fun _ => rfl) (fun _ _ _ => rfl) hkeep t d]
  unfold Dat.fetched
  rw [← hkeep t, Pipeline.fill_of_clip_none 0 _ (fun _ => rfl) d ((dats m 0 c).after 0 t), Window.fill_cut, after_0]

theorem before_0 (c : Dev nD) (t : Fin (cfgA m).N) (d) : (dats m 0 c).before (0 : Fin 8) t d = inBlk m c 0 t :=
  before_0' m c t d

theorem before_1' (c : Dev nD) (t : Fin grid0.N) (d) : (dats m 0 c).before 1 t d = inBlk m c 1 t := by
  have hkeep : ∀ t, ((cfgA m).win 1).cut ((cfgA m).grid.coords t) ((dats m 0 c).after 1 t) = (dats m 0 c).blockOf 1 t := fun _ => rfl
  rw [Dat.before_in_eq_fetched (dats m 0 c) 1 rfl (fun _ => rfl) (fun _ _ _ => rfl) hkeep t d]
  unfold Dat.fetched
  rw [← hkeep t, Pipeline.fill_of_clip_none 1 _ (fun _ => rfl) d ((dats m 0 c).after 1 t), Window.fill_cut, after_1]

theorem before_1 (c : Dev nD) (t : Fin (cfgA m).N) (d) : (dats m 0 c).before (1 : Fin 8) t d = inBlk m c 1 t :=
  before_1' m c t d

theorem before_2' (c : Dev nD) (t : Fin grid0.N) (d) : (dats m 0 c).before 2 t d = inBlk m c 2 t := by
  have hkeep : ∀ t, ((cfgA m).win 2).cut ((cfgA m).grid.coords t) ((dats m 0 c).after 2 t) = (dats m 0 c).blockOf 2 t := fun _ => rfl
  rw [Dat.before_in_eq_fetched (dats m 0 c) 2 rfl (fun _ => rfl) (fun _ _ _ => rfl) hkeep t d]
  unfold Dat.fetched
  rw [← hkeep t, Pipeline.fill_of_clip_none 2 _ (fun _ => rfl) d ((dats m 0 c).after 2 t), Window.fill_cut, after_2]

theorem before_2 (c : Dev nD) (t : Fin (cfgA m).N) (d) : (dats m 0 c).before (2 : Fin 8) t d = inBlk m c 2 t :=
  before_2' m c t d

theorem before_3' (c : Dev nD) (t : Fin grid0.N) (d) : (dats m 0 c).before 3 t d = inBlk m c 3 t := by
  have hkeep : ∀ t, ((cfgA m).win 3).cut ((cfgA m).grid.coords t) ((dats m 0 c).after 3 t) = (dats m 0 c).blockOf 3 t := fun _ => rfl
  rw [Dat.before_in_eq_fetched (dats m 0 c) 3 rfl (fun _ => rfl) (fun _ _ _ => rfl) hkeep t d]
  unfold Dat.fetched
  rw [← hkeep t, Pipeline.fill_of_clip_none 3 _ (fun _ => rfl) d ((dats m 0 c).after 3 t), Window.fill_cut, after_3]

theorem before_3 (c : Dev nD) (t : Fin (cfgA m).N) (d) : (dats m 0 c).before (3 : Fin 8) t d = inBlk m c 3 t :=
  before_3' m c t d

theorem before_4' (c : Dev nD) (t : Fin grid0.N) (d) : (dats m 0 c).before 4 t d = inBlk m c 4 t := by
  have hkeep : ∀ t, ((cfgA m).win 4).cut ((cfgA m).grid.coords t) ((dats m 0 c).after 4 t) = (dats m 0 c).blockOf 4 t := fun _ => rfl
  rw [Dat.before_in_eq_fetched (dats m 0 c) 4 rfl (fun _ => rfl) (fun _ _ _ => rfl) hkeep t d]
  unfold Dat.fetched
  rw [← hkeep t, Pipeline.fill_of_clip_none 4 _ (fun _ => rfl) d ((dats m 0 c).after 4 t), Window.fill_cut, after_4]

theorem before_4 (c : Dev nD) (t : Fin (cfgA m).N) (d) : (dats m 0 c).before (4 : Fin 8) t d = inBlk m c 4 t :=
  before_4' m c t d

theorem before_5' (c : Dev nD) (t : Fin grid0.N) (d) : (dats m 0 c).before 5 t d = inBlk m c 5 t := by
  have hkeep : ∀ t, ((cfgA m).win 5).cut ((cfgA m).grid.coords t) ((dats m 0 c).after 5 t) = (dats m 0 c).blockOf 5 t := fun _ => rfl
  rw [Dat.before_in_eq_fetched (dats m 0 c) 5 rfl (fun _ => rfl) (fun _ _ _ => rfl) hkeep t d]
  unfold Dat.fetched
  rw [← hkeep t, Pipeline.fill_of_clip_none 5 _ (fun _ => rfl) d ((dats m 0 c).after 5 t), Window.fill_cut, after_5]

theorem before_5 (c : Dev nD) (t : Fin (cfgA m).N) (d) : (dats m 0 c).before (5 : Fin 8) t d = inBlk m c 5 t :=
  before_5' m c t d

theorem before_6' (c : Dev nD) (t : Fin grid0.N) (d) : (dats m 0 c).before 6 t d = inBlk m c 6 t := by
  have hkeep : ∀ t, ((cfgA m).win 6).cut ((cfgA m).grid.coords t) ((dats m 0 c).after 6 t) = (dats m 0 c).blockOf 6 t := fun _ => rfl
  rw [Dat.before_in_eq_fetched (dats m 0 c) 6 rfl (fun _ => rfl) (fun _ _ _ => rfl) hkeep t d]
  unfold Dat.fetched
  rw [← hkeep t, Pipeline.fill_of_clip_none 6 _ (fun _ => rfl) d ((dats m 0 c).after 6 t), Window.fill_cut, after_6]

theorem before_6 (c : Dev nD) (t : Fin (cfgA m).N) (d) : (dats m 0 c).before (6 : Fin 8) t d = inBlk m c 6 t :=
  before_6' m c t d

/-- The two guards are complementary, so the body stores into the output block at every point: the output window is
    idle nowhere. -/
theorem idle_7 (pf : pre0.Contents (Elt F)) (i : grid0.Coords) : idle0 (F := F) pf 7 i = false := by
  show (!(k0_cond1 i (pf.atD 0 (k0_off1 i)) == 1#1) && !(k0_cond2 i (pf.atD 0 (k0_off1 i)) == 1#1)) = false
  by_cases h : k0_cond1 i (pf.atD 0 (k0_off1 i)) = 1#1
  · simp [h]
  · simp [h, cond2_of_not_cond1 i _ h]

/-- The one prefetched table held at a share is the table's memref owned at its contents. -/
theorem prefHeld_tbl (c : Dev nD) (q : PosShare TreeShare) (V : pre0.Contents (Elt F)) :
    (Pipeline.prefHeld pre0 c (fun _ => q) V : sProp 𝕄) = owns (c : Thread nD τ) (Memref.whole main_v6) q (V 0) := by
  unfold Pipeline.prefHeld
  rw [show (Finset.univ : Finset (Fin pre0.K)) = {0} from rfl, bigSep_singleton]
  exact (owns_whole (c : Thread nD τ) (pre0.ref 0) q (V 0)).symm

theorem body_obligation (m : (ℓ : Loc nD τ sig) → Buf (Elt F) ℓ) (c : Dev nD) :
    Pipeline.BodyObligation (dats m 0 c) (defs₀ (F := F)) 𝒱₀ () Set.univ := fun t => by
  rw [Gen.bigSep_W0, Gen.bigSep_W0]
  have h7 : (Pipeline.pin pcfgs (adm m) 0).idle (7 : Fin 8) ((Pipeline.pin pcfgs (adm m) 0).grid.coords t) = false := idle_7 _ _
  rw [h7]
  simp only [before_0, before_1, before_2, before_3, before_4, before_5, before_6,
    after_0, after_1, after_2, after_3, after_4, after_5, after_6, after_7, dats_Φ]
  unfold Φc Dat.owesAt Pipeline.owesWithin outBlk
  rw [Gen.scopedRest0_eq, prefHeld_tbl]
  iintro ⟨⟨Hpf, He⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun_k (R := U) c (grid0.coords t) (Memref.whole main_v6) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    fullShare (tbl m c 0) (inBlk m c 0 t) (inBlk m c 1 t) (inBlk m c 2 t) (inBlk m c 3 t) (inBlk m c 4 t) (inBlk m c 5 t) (inBlk m c 6 t)
    ((dats m 0 c).before 7 t d7))
  isplitl [Hpf]; · iexact Hpf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨Hpf, H0, H1, H2, H3, H4, H5, H6, H7⟩
  isplitl [Hpf He]
  · isplitl [Hpf]; · iexact Hpf
    iexact He
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Obligation

end Cert.Kernel.Hand

end
-- ==== Proof.BitsKLaunch.lean ====
/-
  The launch of @main: its run as nine segments.

  @main is five stretches of host operations, the kernel region, and three more stretches. Every stretch runs over the
  core's unscoped buffers held whole at a valuation, and leaves them at the valuation its operations make of it. The
  region is entered from the buffers as the fifth stretch left them: the windows' arrays go to the pipeline, the table of
  per-expert token counts goes into the body's invariant, every other buffer bypasses the region; it is left with the
  result array at what the pipeline wrote and every other buffer as it was, which is what the sixth stretch runs from.
  The final state has every unscoped buffer at the valuation the last stretch left.
-/
import proofs.«427358_j7456063225884_2_alg».proof.Proof.BitsKBody
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after launchContents)

variable {F : FTy → Type} [FloatOps F]

local notation "𝕄" => MT nD τ sig Unit (Elt F) ℕ U ℕ

/-- The pipeline library's algebra is the whole of the user algebra. -/
abbrev EP : Emb (UR sig nD τ) (MT nD τ sig Unit (Elt F) ℕ U ℕ) := emb₁

/-! ## The unscoped buffers as a set held at a valuation -/

/-- The core's unscoped references, as device buffers: the set every host stretch runs within. -/
def ucRefs : Finset (DevRef τ sig) := (StableHlo.tcRefs τ sig).filter fun b => ¬ b.isScoped

omit [FloatOps F] in
/-- That set held at a valuation is the launch's unscoped buffers at it. -/
theorem held_ucRefs (c : Dev nD) (W : Valuation τ sig (Elt F)) :
    (StableHlo.held (c : Thread nD τ) ucRefs W : sProp 𝕄) = unscopedBufs c (fun b => W b) := by
  unfold StableHlo.held unscopedBufs ucRefs StableHlo.tcRefs
  rw [Finset.filter_map, bigSep_map]
  rfl

omit [FloatOps F] in
/-- A host operation names no scoped buffer: one on the core's references touches unscoped ones only. -/
theorem sub_ucRefs (op : HloOp τ sig (Elt F)) (h : op.bufs ⊆ StableHlo.tcRefs τ sig) : op.bufs ⊆ ucRefs := by
  intro b hb
  refine Finset.mem_filter.mpr ⟨h hb, ?_⟩
  rw [op.no_scoped b hb]; exact Bool.false_ne_true

omit [FloatOps F] in
theorem mem_ucRefs (b : Ref sig .tc) (hb : (Proc.devRef (τ := τ) .tc b).isScoped = false) : Proc.devRef (τ := τ) .tc b ∈ ucRefs :=
  Finset.mem_filter.mpr ⟨StableHlo.devRef_mem_tcRefs b, by rw [hb]; exact Bool.false_ne_true⟩

variable (m : (ℓ : Loc nD τ sig) → Buf (Elt F) ℓ) (ρ : Dev nD → PrngReg)

/-! ## The segments -/

/-- No core owes another anything: no level is assigned. -/
abbrev L : GSem nD τ sig → Finset Unit := fun _ => ∅
abbrev lv : GSem nD τ sig → Unit → ℕ := fun _ _ => 0

/-- What rides beside the buffers through every segment: the core owing nothing. -/
abbrev R (c : Dev nD) : sProp 𝕄 := iprop(∃ W, owes (c : Thread nD τ) (0 : CellTallies nD τ sig Unit) W)

/-- A stretch of host operations over the unscoped buffers at the valuation `V`. -/
def hseg (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := U) (pcfgs (F := F)) defs₀ 𝒱₀ L lv :=
  Pipeline.HostSeg.ofOps _ _ _ _ _ ucRefs ops (fun op h => sub_ucRefs op ((List.forall_iff_forall_mem.mp hsub) op h))
    (List.forall_iff_forall_mem.mp hfresh) V R

/-- The valuations between the stretches before the region. -/
abbrev W0 (c : Dev nD) : Valuation τ sig (Elt F) := launchContents m c
abbrev W1 (c : Dev nD) : Valuation τ sig (Elt F) := after hostOps0 (W0 m c)
abbrev W2 (c : Dev nD) : Valuation τ sig (Elt F) := after hostOps0_1 (W1 m c)
abbrev W3 (c : Dev nD) : Valuation τ sig (Elt F) := after hostOps0_2 (W2 m c)
abbrev W4 (c : Dev nD) : Valuation τ sig (Elt F) := after hostOps0_3 (W3 m c)

theorem fresh0 : (hostOps0 : List (HloOp τ sig (Elt F))).Forall fun op => op.fresh = ∅ := by
  simp only [List.Forall, hostOps0]; exact ⟨rfl, rfl, rfl, rfl, rfl, rfl⟩

theorem fresh0_1 : (hostOps0_1 : List (HloOp τ sig (Elt F))).Forall fun op => op.fresh = ∅ := by
  simp only [List.Forall, hostOps0_1]; exact ⟨rfl, rfl, rfl⟩
theorem fresh0_2 : (hostOps0_2 : List (HloOp τ sig (Elt F))).Forall fun op => op.fresh = ∅ := by
  simp only [List.Forall, hostOps0_2]; exact ⟨rfl, rfl⟩
theorem fresh0_3 : (hostOps0_3 : List (HloOp τ sig (Elt F))).Forall fun op => op.fresh = ∅ := by
  simp only [List.Forall, hostOps0_3]; exact ⟨rfl, rfl, rfl, rfl, rfl, rfl, rfl, rfl, rfl, rfl, rfl, rfl, rfl, rfl, rfl, rfl, rfl, rfl, rfl, rfl, rfl, rfl⟩
theorem fresh0_4 : (hostOps0_4 : List (HloOp τ sig (Elt F))).Forall fun op => op.fresh = ∅ := by
  simp only [List.Forall, hostOps0_4]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh1 : (hostOps1 : List (HloOp τ sig (Elt F))).Forall fun op => op.fresh = ∅ := by
  simp only [List.Forall, hostOps1]; exact ⟨rfl, rfl, rfl, rfl, rfl⟩
theorem fresh1_1 : (hostOps1_1 : List (HloOp τ sig (Elt F))).Forall fun op => op.fresh = ∅ := by
  simp only [List.Forall, hostOps1_1]; exact ⟨rfl, rfl, rfl, rfl, rfl, rfl, rfl, rfl, rfl, rfl, rfl, rfl, rfl, rfl, rfl, rfl, rfl, rfl, rfl, rfl, rfl, rfl, rfl⟩
theorem fresh1_2 : (hostOps1_2 : List (HloOp τ sig (Elt F))).Forall fun op => op.fresh = ∅ := by
  simp only [List.Forall, hostOps1_2]; exact rfl

/-- The five stretches before the region. -/
def seg0 := hseg hostOps0 hostOps0_sub fresh0 (W0 m)
def seg1 := hseg hostOps0_1 hostOps0_1_sub fresh0_1 (W1 m)
def seg2 := hseg hostOps0_2 hostOps0_2_sub fresh0_2 (W2 m)
def seg3 := hseg hostOps0_3 hostOps0_3_sub fresh0_3 (W3 m)
def seg4 := hseg hostOps0_4 hostOps0_4_sub fresh0_4 (W4 m)

/-- The buffers no window stages and no table names, as the region finds them: they bypass the region. -/
abbrev Zc (c : Dev nD) : sProp 𝕄 :=
  Pipeline.unscopedRestP (Ix := Unit) (Name := ℕ) (U := U) (Lvl := ℕ) pre0 spec0 c (fun b => Vpre m c b)

/-- The table held whole at its contents on core `c`. -/
abbrev Yc (c : Dev nD) : sProp 𝕄 := Pipeline.prefHeld pre0 c (fun _ => fullShare) (tbl m c)

/-- The core's buffers when the region is left, by reference. -/
abbrev Vout (c : Dev nD) (b : Ref sig .tc) : Buf (Elt F) ((c : Thread nD τ).loc b) := Vmid m c (resultY m c) b

/-- An input window's array is as the region found it at every point. -/
theorem arrAt_input (c : Dev nD) (w : Fin 8) (hw : ((cfgA m).win w).isOut = false) (n : Nat) :
    (dats m 0 c).arrAt w n = Vpre m c (Pipeline.arrRef spec0 w) :=
  ((dats m 0 c).arrAt_in w hw n).trans (dats_A m c w)

/-- Every window but the last is an input, and only the last window's array is the result. -/
theorem isOut_of_ne : ∀ w : Fin 8, w ≠ 7 → (spec0 w).isOut = false := by decide
theorem arrRef_ne : ∀ w : Fin 8, w ≠ 7 → Pipeline.arrRef spec0 w ≠ main_v30 := by decide

/-- The arrays as the pipeline leaves them are the arrays of the valuation the region is left at. -/
theorem arrAt_Vout (c : Dev nD) (w : Fin 8) : (dats m 0 c).arrAt w (cfgA m).N = Vout m c (Pipeline.arrRef spec0 w) := by
  by_cases hw : w = 7
  · subst hw
    exact (Vmid_result m c (resultY m c)).symm
  · have h1 := arrAt_input m c w (isOut_of_ne w hw) (cfgA m).N
    have h2 := Vmid_other m c (resultY m c) (Proc.devRef .tc (Pipeline.arrRef spec0 w)) (StableHlo.devRef_ne_of_ne (arrRef_ne w hw))
    exact h1.trans h2.symm

/-- Off the windows' arrays the region leaves every buffer as it found it. -/
theorem Vout_rest (c : Dev nD) (b : Ref sig .tc) (hb : b ∉ Finset.univ.image (Pipeline.arrRef spec0)) :
    Vout m c b = Vpre m c b :=
  Vmid_other m c _ _ (StableHlo.devRef_ne_of_ne fun h => hb (h ▸ Finset.mem_image.mpr ⟨7, Finset.mem_univ _, rfl⟩))

/-- The buffers by reference, as the region finds them. -/
abbrev Vin (c : Dev nD) (b : Ref sig .tc) : Buf (Elt F) ((c : Thread nD τ).loc b) := Vpre m c b

/-- ENTRY, the buffers' part: the unscoped buffers as the fifth stretch left them are the windows' arrays at the
    proof data's entry contents, the table, and the rest. -/
theorem entry_split (c : Dev nD) :
    (unscopedBufs c (Vin m c) : sProp 𝕄)
      ⊢ iprop((dats m 0 c).arrays ((dats m 0 c).arrAt · 0) ∗ Yc m c ∗ Zc m c) :=
  (Pipeline.arrays_of_unscopedBufs (pcfgs (F := F)) (adm m) (dats m) (launch0 (F := F)).win (launch0 (F := F)).arr_whole c
      ((dats m 0 c).share_full fun _ => rfl) (Vin m c) fun _ => rfl).trans
    (sep_mono .rfl (Entails.of_eq (Pipeline.unscopedRest_split (launch0 (F := F)).pre c (Vin m c))))

/-- EXIT, the buffers' part: the arrays as the pipeline left them, the table and the rest are the unscoped buffers at
    the valuation the region is left at. -/
theorem exit_join (c : Dev nD) :
    iprop((dats m 0 c).arrays ((dats m 0 c).arrAt · (cfgA m).N) ∗ Yc m c ∗ Zc m c)
      ⊢ (unscopedBufs c (Vout m c) : sProp 𝕄) :=
  (sep_mono .rfl (Entails.of_eq (Pipeline.unscopedRest_split (launch0 (F := F)).pre c (Vin m c)).symm)).trans
    (Pipeline.unscopedBufs_of_arrays (pcfgs (F := F)) (adm m) (launch0 (F := F)).win (launch0 (F := F)).arr_whole c (dats m)
      ((dats m 0 c).share_full fun _ => rfl) (Vin m c) (Vout m c) ((dats m 0 c).arrAt · (cfgA m).N)
      (arrAt_Vout m c) (Vout_rest m c))

/-- The core owing nothing, as the pipeline holds it at a point: the tallies are zero and any recorded set is within the
    bound. -/
theorem owesAt_intro (c : Dev nD) (t : Fin ((cfgA m).N + 1)) : R c ⊢ ((dats m 0 c).owesAt () t : sProp 𝕄) := by
  unfold Pipeline.Dat.owesAt Pipeline.owesWithin
  iintro ⟨%W, HO⟩
  iexists W
  isplitr
  · ipureintro; exact Set.subset_union_of_subset_left (Set.subset_univ _) _
  · iexact HO

theorem owesAt_elim (c : Dev nD) (t : Fin ((cfgA m).N + 1)) : ((dats m 0 c).owesAt () t : sProp 𝕄) ⊢ R c := by
  unfold Pipeline.Dat.owesAt Pipeline.owesWithin
  iintro ⟨%W, -, HO⟩
  iexists W
  iexact HO

set_option backward.isDefEq.respectTransparency.types false in
/-- THE REGION: no semaphore of the kernel's own; entered from the buffers as the fifth stretch left them — the arrays to
    the pipeline, the table into the invariant, the rest bypassing —, left with the buffers at `Vmid` of the result. -/
def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := PEmpty
  osem := fun k => k.elim
  ho := ⟨fun k => k.elim, fun k => k.elim, fun k => k.elim⟩
  hbody c := (body_obligation m c).loose
  hwaits := Pipeline.hwaits_of_owed_zero _ _ _ _ L lv 0 fun _ _ => rfl
  pre c := iprop(StableHlo.held (c : Thread nD τ) ucRefs (Vpre m c) ∗ R c)
  post c := iprop(StableHlo.held (c : Thread nD τ) ucRefs (Vmid m c (resultY m c)) ∗ R c)
  X _ := iprop(emp)
  Y c := Yc m c
  Z c := Zc m c
  hentry c := by
    rw [held_ucRefs, show ((adm m 0).1 : pre0.Contents (Elt F)) = tbl m c from (tbl_dev m c).symm]
    iintro ⟨⟨Hub, HO⟩, -, -⟩
    ihave H := (entry_split m c) $$ Hub
    icases H with ⟨Ha, Hy, Hz⟩
    ihave HO' := (owesAt_intro m c 0) $$ HO
    imodintro
    isplitl [Ha]; · iexact Ha
    isplitl [Hy]; · iexact Hy
    isplitl [HO']; · iexact HO'
    isplitr; · iempintro
    iexact Hz
  hin c := by
    rw [dats_Φ, show ((adm m 0).1 : pre0.Contents (Elt F)) = tbl m c from (tbl_dev m c).symm]
    unfold Φc
    iintro ⟨-, Hy, Hs⟩
    isplitl [Hy]; · iexact Hy
    iexact Hs
  hout c := by
    rw [dats_Φ, Pipeline.ownSems0_none]
    unfold Φc
    iintro ⟨Hy, Hs⟩
    isplitl [Hy]; · iexact Hy
    isplitr; · iempintro
    iexact Hs
  hexit c := by
    rw [held_ucRefs]
    iintro ⟨Ha, HO, Hy, Hz⟩
    ihave Hu := (exit_join m c) $$ [Ha Hy Hz]
    · isplitl [Ha]; · iexact Ha
      isplitl [Hy]; · iexact Hy
      iexact Hz
    ihave HR := (owesAt_elim m c (Fin.last (cfgA m).N)) $$ HO
    imodintro
    isplitl [Hu]; · iexact Hu
    iexact HR

/-- The valuations the last three stretches run from. -/
abbrev W5 (c : Dev nD) : Valuation τ sig (Elt F) := Vmid m c (resultY m c)
abbrev W6 (c : Dev nD) : Valuation τ sig (Elt F) := after hostOps1 (W5 m c)
abbrev W7 (c : Dev nD) : Valuation τ sig (Elt F) := after hostOps1_1 (W6 m c)

/-- The three stretches after the region. -/
def seg5 := hseg hostOps1 hostOps1_sub fresh1 (W5 m)
def seg6 := hseg hostOps1_1 hostOps1_1_sub fresh1_1 (W6 m)
def seg7 := hseg hostOps1_2 hostOps1_2_sub fresh1_2 (W7 m)

/-- @main as the list of the nine. -/
abbrev segs : List (Pipeline.Seg (pcfgs (F := F)) (adm m) (dats m) () defs₀ 𝒱₀ L lv) :=
  [.host (seg0 m), .host (seg1 m), .host (seg2 m), .host (seg3 m), .host (seg4 m), .region (reg0 m),
   .host (seg5 m), .host (seg6 m), .host (seg7 m)]

/-- @main is the run of the nine segments: the chain of their fragments. -/
theorem main_run (c : Dev nD) : main (F := F) c = Pipeline.Seg.run (segs m) := by
  rw [main_chain c, Pipeline.Seg.run_eq_chain]; rfl

/-- The launch element: the pipeline library's, at the staging cells. -/
def u₀ : U :=
  initOf (Pipeline.cells (Pipeline.pin (pcfgs (F := F)) (adm m)) (cellOf_inj (adm m)))
    (Pipeline.launchToks (Pipeline.pin (pcfgs (F := F)) (adm m)) (cellOf_inj (adm m)))

/-- What the final memory holds on core `c`: the output and the eight arguments at the last valuation. -/
def QY (c : Dev nD) (s : MemSt nD τ sig (Elt F)) : Prop :=
  s.mem ((c.tc : Thread nD τ).loc main_v36) = Vfin m c (resultY m c) (Proc.devRef .tc main_v36)
      ∧ s.mem ((c.tc : Thread nD τ).loc main_arg0) = Vfin m c (resultY m c) (Proc.devRef .tc main_arg0)
      ∧ s.mem ((c.tc : Thread nD τ).loc main_arg1) = Vfin m c (resultY m c) (Proc.devRef .tc main_arg1)
      ∧ s.mem ((c.tc : Thread nD τ).loc main_arg2) = Vfin m c (resultY m c) (Proc.devRef .tc main_arg2)
      ∧ s.mem ((c.tc : Thread nD τ).loc main_arg3) = Vfin m c (resultY m c) (Proc.devRef .tc main_arg3)
      ∧ s.mem ((c.tc : Thread nD τ).loc main_arg4) = Vfin m c (resultY m c) (Proc.devRef .tc main_arg4)
      ∧ s.mem ((c.tc : Thread nD τ).loc main_arg5) = Vfin m c (resultY m c) (Proc.devRef .tc main_arg5)
      ∧ s.mem ((c.tc : Thread nD τ).loc main_arg6) = Vfin m c (resultY m c) (Proc.devRef .tc main_arg6)
      ∧ s.mem ((c.tc : Thread nD τ).loc main_arg7) = Vfin m c (resultY m c) (Proc.devRef .tc main_arg7)

/-- The last thread state, read against a final state: every unscoped buffer's physical contents. -/
theorem read_final (c : Dev nD) (s' : Phys nD τ sig (Elt F)) :
    iprop(StableHlo.held (c : Thread nD τ) ucRefs (Vfin m c (resultY m c)) ∗ SI s')
      ⊢ (iprop(⌜QY m c s'.mem⌝ ∗ SI s') : sProp 𝕄) := by
  unfold StableHlo.held
  iintro ⟨Hh, HSI⟩
  ihave H := (pointsTo_read_all ucRefs (fun b => ((c : Thread nD τ).1, b)) (fun b => Vfin m c (resultY m c) b) s') $$ [Hh HSI]
  · isplitl [Hh]; · iexact Hh
    iexact HSI
  icases H with ⟨%h, HSI⟩
  isplitr
  · ipureintro
    exact ⟨h _ (mem_ucRefs main_v36 rfl), h _ (mem_ucRefs main_arg0 rfl), h _ (mem_ucRefs main_arg1 rfl), h _ (mem_ucRefs main_arg2 rfl), h _ (mem_ucRefs main_arg3 rfl), h _ (mem_ucRefs main_arg4 rfl), h _ (mem_ucRefs main_arg5 rfl), h _ (mem_ucRefs main_arg6 rfl), h _ (mem_ucRefs main_arg7 rfl)⟩
  · iexact HSI

set_option backward.isDefEq.respectTransparency.types false in
/-- At the compiled mesh, from any memory with zero counters: every weakly fair execution of @main on the TensorCores
    terminates, and every final state has the output array and the eight argument arrays at the valuation the last
    stretch leaves, the region's result being the array the pipeline wrote. -/
theorem run_main : θ_run defs (onTc (τ := τ) (main (F := F))) ⟨m, fun _ => 0, ρ⟩ fun r => ∀ c : Dev nD,
      r.2.mem ((c.tc : Thread nD τ).loc main_v36) = Vfin m c (resultY m c) (Proc.devRef .tc main_v36)
      ∧ r.2.mem ((c.tc : Thread nD τ).loc main_arg0) = Vfin m c (resultY m c) (Proc.devRef .tc main_arg0)
      ∧ r.2.mem ((c.tc : Thread nD τ).loc main_arg1) = Vfin m c (resultY m c) (Proc.devRef .tc main_arg1)
      ∧ r.2.mem ((c.tc : Thread nD τ).loc main_arg2) = Vfin m c (resultY m c) (Proc.devRef .tc main_arg2)
      ∧ r.2.mem ((c.tc : Thread nD τ).loc main_arg3) = Vfin m c (resultY m c) (Proc.devRef .tc main_arg3)
      ∧ r.2.mem ((c.tc : Thread nD τ).loc main_arg4) = Vfin m c (resultY m c) (Proc.devRef .tc main_arg4)
      ∧ r.2.mem ((c.tc : Thread nD τ).loc main_arg5) = Vfin m c (resultY m c) (Proc.devRef .tc main_arg5)
      ∧ r.2.mem ((c.tc : Thread nD τ).loc main_arg6) = Vfin m c (resultY m c) (Proc.devRef .tc main_arg6)
      ∧ r.2.mem ((c.tc : Thread nD τ).loc main_arg7) = Vfin m c (resultY m c) (Proc.devRef .tc main_arg7) :=
  Pipeline.θ_run_regions_kit (pcfgs (F := F)) (adm m) (dats m) () (cellOf_inj (adm m)) EP defs₀ 𝒱₀ L lv m ρ main (segs m)
    (fun c Q => by rw [main_run m c])
    (by simp only [Pipeline.Seg.pipes_host, Pipeline.Seg.pipes_region, Pipeline.Seg.pipes_nil]; decide)
    (O₀ := 0) (hL := fun _ _ => rfl) (G := fun _ => iprop(emp)) (u₀ := u₀ m)
    (hu₀ := by
      rw [ownU_emb₁]
      unfold u₀ EP
      iintro Hu
      imodintro
      isplitl [Hu]; · iexact Hu
      iapply (show (BI.emp : sProp 𝕄) ⊢ BI.bigSep Finset.univ (fun _ : Dev nD => (BI.emp : sProp 𝕄)) from
        Entails.of_eq (BI.bigSep_emp_const _).symm)
      iempintro)
    (T₀ := fun c => iprop(StableHlo.held (c : Thread nD τ) ucRefs (W0 m c) ∗ R c))
    (Tₙ := fun c => StableHlo.held (c : Thread nD τ) ucRefs (Vfin m c (resultY m c)))
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [held_ucRefs]
      iintro ⟨⟨Hb, -, HO, -, -, -⟩, -⟩
      imodintro
      isplitl [Hb]; · iexact Hb
      iexists ∅; iexact HO)
    (QY := QY m)
    (hfin := fun c s' => by
      iintro H
      ihave H' := (read_final m c s') $$ H
      imodintro
      iexact H')
    (hQ := fun _ h => h)

end Cert.Kernel.Hand

end
-- ==== Proof.BitsKHost.lean ====
/-
  What the host operations around the kernel region compute, as pure terms of @main's arguments.

  Before the region @main builds, from the expert index of every token, the one-hot matrix, its running sum down the
  tokens, every token's position among the tokens of its own expert (a gather of the running sum less the one-hot at the
  token's expert), the per-expert token counts, and the dispatch buffer (the tokens' rows scattered to their
  (expert, position) slots); it re-types the weights and re-shapes the biases. After the region it reads, for every
  token, row expert * 512 + position of the region's result viewed as [16384, 2048], and re-shapes to [4, 2048, 2048].
  The staged definitions below are those terms; the theorems say that the buffers hold them when the region is entered
  and at the end, and read the final gather at an entry when the expert and the position are in range.
-/
import proofs.«427358_j7456063225884_2_alg».proof.Proof.BitsKVal
import proofs.«427358_j7456063225884_2_alg».proof.Proof.LibIndex
import proofs.«427358_j7456063225884_2_alg».proof.Proof.LibColGather
import Idealize.ShloMosaic.Lib.StableHlo.Run
import Idealize.ShloMosaic.Lib.ValueIdx
import Idealize.ShloMosaic.Lib.Pipeline.Value
import Idealize.ShloMosaic.PureOps.Reduce
import Idealize.ShloMosaic.Lib.Affine

noncomputable section

namespace Cert.Kernel.Hand

open Cert.Kernel Cert.Kernel.Gen Idealize.ShloMosaic Idealize.ShloMosaic.TcCoe Idealize.SL.Sem
open Idealize.ShloMosaic.StableHlo (after launchContents after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)
open Idealize.ShloMosaic.ValueIdx

variable {F : FTy → Type} [FloatOps F]

/-! ## Before the region: the routing tables -/

/-- The one-hot matrix of the expert indices: entry (t, e) is 1 when token t's expert is e, else 0. -/
def ohK (a7 : IVec S8192 32) : IVec S8192x32 32 :=
  extui 32 (cmpi .eq
    (broadcastInDim S8192x32 ![0, 1] bcast_S8192x1_S8192x32_0_1 (broadcastInDim S8192x1 ![0] bcast_S8192_S8192x1_0 a7))
    (broadcastInDim S8192x32 ![0, 1] bcast_S1x32_S8192x32_0_1 (iotaInDim S1x32 32 1))) natLt_1_32

/-- The running sum of a matrix down the tokens (inclusive). -/
def csK (oh : IVec S8192x32 32) : IVec S8192x32 32 :=
  Host.reduceWindow IntOp.addi ![8192, 1] ![1, 1] ![8191, 0] ![0, 0] oh
    (broadcastInDim S_ ![] bcast_S_S_ (constantI S_ 32 0#32))
    reduceWindows_S8192x32_S8192x32_w8192s1p8191_0_w1s1p0_0 h_S_

/-- The column index of the gather along axis 1: a negative index wrapped by + 32, as [8192, 1, 1]. -/
def wrapK (i : IVec S8192x1 32) : IVec S8192x1x1 32 :=
  shapeCast S8192x1x1
    (select (cmpi .slt i (broadcastInDim S8192x1 ![] bcast_S_S8192x1 (constantI S_ 32 0#32)))
      (addi i (broadcastInDim S8192x1 ![] bcast_S_S8192x1 (constantI S_ 32 32#32))) i)
    shapeCasts_S8192x1_S8192x1x1

/-- The gather's in-range mask: 0 ≤ index ≤ 31, reduced over the unit axis. -/
def maskK (i3 : IVec S8192x1x1 32) : IVec S8192x1 1 :=
  Host.reduce IntOp.andi
    (andi (cmpi .sge i3 (broadcastInDim S8192x1x1 ![] bcast_S_S8192x1x1 (constantI S_ 32 0#32)))
      (cmpi .sle i3 (broadcastInDim S8192x1x1 ![0, 1, 2] bcast_S1x1x1_S8192x1x1_0_1_2
        (broadcastInDim S1x1x1 ![2] bcast_S1_S1x1x1_2 (constantI S1 32 31#32)))))
    (constantI S_ 1 1#1) reducesTo_S8192x1x1_S8192x1_d2 h_S_

/-- The gather along axis 1 of x by the column of indices i: x[t, i_t], filled with the least i32 where the mask
    fails. -/
def takeK (x : IVec S8192x32 32) (i : IVec S8192x1 32) : IVec S8192x1 32 :=
  select (maskK (wrapK i))
    (Host.gather gather_S8192x32_S8192x1x1_S8192x1_n_1_0_0_1_2_11 x (wrapK i))
    (broadcastInDim S8192x1 ![] bcast_S_S8192x1 (constantI S_ 32 2147483648#32))

/-- Every token's position among the tokens of its expert: the running sum less the one-hot (how many earlier tokens
    chose expert e, at (t, e)), gathered at the token's own expert. -/
def posK (a7 : IVec S8192 32) : IVec S8192 32 :=
  shapeCast S8192
    (takeK (subi (csK (ohK a7)) (ohK a7)) (broadcastInDim S8192x1 ![0] bcast_S8192_S8192x1_0 a7))
    shapeCasts_S8192x1_S8192

/-- The number of tokens of every expert. -/
def cntK (a7 : IVec S8192 32) : IVec S32 32 :=
  Host.reduce IntOp.addi (ohK a7) (constantI S_ 32 0#32) reducesTo_S8192x32_S32_d0 h_S_

/-! ## Before the region: the dispatch buffer, the weights, the biases -/

/-- An index vector with its negative entries wrapped by + n. -/
def wrapIK (n : BitVec 32) (v : IVec S8192 32) : IVec S8192 32 :=
  select (cmpi .slt v (broadcastInDim S8192 ![] bcast_S_S8192 (constantI S_ 32 0#32)))
    (addi v (broadcastInDim S8192 ![] bcast_S_S8192 (constantI S_ 32 n))) v

/-- The (expert, position) pair of every token, each wrapped, as [8192, 2]. -/
def pairK (a7 pos : IVec S8192 32) : IVec S8192x2 32 :=
  concatenate S8192x2 1
    [⟨S8192x1, broadcastInDim S8192x1 ![0] bcast_S8192_S8192x1_0 (wrapIK 32#32 a7)⟩,
     ⟨S8192x1, broadcastInDim S8192x1 ![0] bcast_S8192_S8192x1_0 (wrapIK 512#32 pos)⟩]
    concatenates_S8192x1_S8192x1_S8192x2_d1

/-- The dispatch buffer: zeros, with every token's row (the tokens as rows, re-typed) set at its (expert, position)
    slot. -/
def xdK (a0 : FVec F S4x2048x2048 .f32) (a7 : IVec S8192 32) : FVec F S32x512x2048 .bf16 :=
  Host.scatter scatter_S32x512x2048_S8192x2_S8192x2048_1_01_01_1 (fun _ b => b)
    (broadcastInDim S32x512x2048 ![] bcast_S_S32x512x2048 (constant (F := F) S_ .bf16 0x0000#16))
    (pairK a7 (posK a7))
    (truncf .bf16 (shapeCast S8192x2048 a0 shapeCasts_S4x2048x2048_S8192x2048) bitsLt_bf16_f32)

def w1K (a1 : FVec F S32x2048x1024 .f32) : FVec F S32x2048x1024 .bf16 := truncf .bf16 a1 bitsLt_bf16_f32
def w3K (a5 : FVec F S32x2048x1024 .f32) : FVec F S32x2048x1024 .bf16 := truncf .bf16 a5 bitsLt_bf16_f32
def w2K (a3 : FVec F S32x1024x2048 .f32) : FVec F S32x1024x2048 .bf16 := truncf .bf16 a3 bitsLt_bf16_f32
def b1K (a2 : FVec F S32x1024 .f32) : FVec F S32x1x1024 .f32 := shapeCast S32x1x1024 a2 shapeCasts_S32x1024_S32x1x1024
def b3K (a6 : FVec F S32x1024 .f32) : FVec F S32x1x1024 .f32 := shapeCast S32x1x1024 a6 shapeCasts_S32x1024_S32x1x1024
def b2K (a4 : FVec F S32x2048 .f32) : FVec F S32x1x2048 .f32 := shapeCast S32x1x2048 a4 shapeCasts_S32x2048_S32x1x2048

/-! ## After the region: the combine gather -/

/-- The flat row of every token in the [16384, 2048] view: expert * 512 + position. -/
def flatK (a7 pos : IVec S8192 32) : IVec S8192 32 :=
  addi (muli a7 (broadcastInDim S8192 ![] bcast_S_S8192 (constantI S_ 32 512#32))) pos

/-- The row index of the gather: a negative flat row wrapped by + 16384, as a column. -/
def rowIdxK (fl : IVec S8192 32) : IVec S8192x1 32 :=
  broadcastInDim S8192x1 ![0] bcast_S8192_S8192x1_0
    (select (cmpi .slt fl (broadcastInDim S8192 ![] bcast_S_S8192 (constantI S_ 32 0#32)))
      (addi fl (broadcastInDim S8192 ![] bcast_S_S8192 (constantI S_ 32 16384#32))) fl)

/-- The gather's in-range mask: 0 ≤ row ≤ 16383, reduced over the unit axis. -/
def rowOkK (i : IVec S8192x1 32) : IVec S8192 1 :=
  Host.reduce IntOp.andi
    (andi (cmpi .sge i (broadcastInDim S8192x1 ![] bcast_S_S8192x1 (constantI S_ 32 0#32)))
      (cmpi .sle i (broadcastInDim S8192x1 ![0, 1] bcast_S1x1_S8192x1_0_1
        (broadcastInDim S1x1 ![1] bcast_S1_S1x1_1 (constantI S1 32 16383#32)))))
    (constantI S_ 1 1#1) reducesTo_S8192x1_S8192_d1 h_S_

/-- The rows of y at the flat rows fl, a row NaN where the mask fails. -/
def takeRowsK (y : FVec F S16384x2048 .f32) (fl : IVec S8192 32) : FVec F S8192x2048 .f32 :=
  select (broadcastInDim S8192x2048 ![0] bcast_S8192_S8192x2048_0 (rowOkK (rowIdxK fl)))
    (Host.gather gather_S16384x2048_S8192x1_S8192x2048_1_0_n_n_0_1_12048 y (rowIdxK fl))
    (broadcastInDim S8192x2048 ![] bcast_S_S8192x2048 (constant (F := F) S_ .f32 0x7FC00000#32))

/-- @main's result from the region's result Y, the expert indices and the positions. -/
def tailK (Y : FVec F S32x512x2048 .f32) (a7 pos : IVec S8192 32) : FVec F S4x2048x2048 .f32 :=
  shapeCast S4x2048x2048
    (takeRowsK (shapeCast S16384x2048 Y shapeCasts_S32x512x2048_S16384x2048) (flatK a7 pos))
    shapeCasts_S8192x2048_S4x2048x2048

section Stretches

attribute [local irreducible] Host.reduce Host.reduceWindow Host.gather Host.scatter

/-! ## What each stretch writes, and what it leaves

Every operation writes its one result buffer; a buffer that is no operation's result keeps its contents through the
stretch. -/

/-- The result buffers of stretch hostOps0. -/
abbrev Wr0 : List (Ref sig .tc) := [main_call0_v0, main_call0_v1, main_call0_v2, main_call0_v3, main_call0_v4, main_v0]
theorem Wr0_writes : (hostOps0 : List (HloOp τ sig (Elt F))).Forall fun op =>
    op.writes ⊆ (Wr0.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0 (V : Valuation τ sig (Elt F)) (r : Ref sig .tc) (h : r ∉ Wr0) :
    after hostOps0 V (Proc.devRef .tc r) = V (Proc.devRef .tc r) :=
  StableHlo.after_of_writes_sub hostOps0 V Wr0_writes h

/-- The result buffers of stretch hostOps1. -/
abbrev Wr1 : List (Ref sig .tc) := [main_v31, main_c_4, main_v32, main_v33, main_v34]
theorem Wr1_writes : (hostOps1 : List (HloOp τ sig (Elt F))).Forall fun op =>
    op.writes ⊆ (Wr1.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep1 (V : Valuation τ sig (Elt F)) (r : Ref sig .tc) (h : r ∉ Wr1) :
    after hostOps1 V (Proc.devRef .tc r) = V (Proc.devRef .tc r) :=
  StableHlo.after_of_writes_sub hostOps1 V Wr1_writes h

/-- The result buffers of stretch hostOps0_1. -/
abbrev Wr0_1 : List (Ref sig .tc) := [main_call1_call0_c, main_call1_call0_v0, main_v1]
theorem Wr0_1_writes : (hostOps0_1 : List (HloOp τ sig (Elt F))).Forall fun op =>
    op.writes ⊆ (Wr0_1.map (Proc.devRef (τ := τ) .tc)).toFinset := by
  simp only [List.Forall]
  refine ⟨?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0_1 (V : Valuation τ sig (Elt F)) (r : Ref sig .tc) (h : r ∉ Wr0_1) :
    after hostOps0_1 V (Proc.devRef .tc r) = V (Proc.devRef .tc r) :=
  StableHlo.after_of_writes_sub hostOps0_1 V Wr0_1_writes h

/-- The result buffers of stretch hostOps0_2. -/
abbrev Wr0_2 : List (Ref sig .tc) := [main_v2, main_v3]
theorem Wr0_2_writes : (hostOps0_2 : List (HloOp τ sig (Elt F))).Forall fun op =>
    op.writes ⊆ (Wr0_2.map (Proc.devRef (τ := τ) .tc)).toFinset := by
  simp only [List.Forall]
  refine ⟨?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0_2 (V : Valuation τ sig (Elt F)) (r : Ref sig .tc) (h : r ∉ Wr0_2) :
    after hostOps0_2 V (Proc.devRef .tc r) = V (Proc.devRef .tc r) :=
  StableHlo.after_of_writes_sub hostOps0_2 V Wr0_2_writes h

/-- The result buffers of stretch hostOps0_3. -/
abbrev Wr0_3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v4]
theorem Wr0_3_writes : (hostOps0_3 : List (HloOp τ sig (Elt F))).Forall fun op =>
    op.writes ⊆ (Wr0_3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0_3 (V : Valuation τ sig (Elt F)) (r : Ref sig .tc) (h : r ∉ Wr0_3) :
    after hostOps0_3 V (Proc.devRef .tc r) = V (Proc.devRef .tc r) :=
  StableHlo.after_of_writes_sub hostOps0_3 V Wr0_3_writes h

/-- The result buffers of stretch hostOps0_4. -/
abbrev Wr0_4 : List (Ref sig .tc) := [main_v5, main_c, main_v6, main_v7, main_v8, main_cst, main_v9, main_c_0, main_v10, main_v11, main_c_1, main_v12, main_v13, main_v14, main_c_2, main_v15, main_v16, main_c_3, main_v17, main_v18, main_v19, main_v20, main_v21, main_v22, main_v23, main_v24, main_v25, main_v26, main_v27, main_v28, main_v29]
theorem Wr0_4_writes : (hostOps0_4 : List (HloOp τ sig (Elt F))).Forall fun op =>
    op.writes ⊆ (Wr0_4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep0_4 (V : Valuation τ sig (Elt F)) (r : Ref sig .tc) (h : r ∉ Wr0_4) :
    after hostOps0_4 V (Proc.devRef .tc r) = V (Proc.devRef .tc r) :=
  StableHlo.after_of_writes_sub hostOps0_4 V Wr0_4_writes h

/-- The result buffers of stretch hostOps1_1. -/
abbrev Wr1_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v35]
theorem Wr1_1_writes : (hostOps1_1 : List (HloOp τ sig (Elt F))).Forall fun op =>
    op.writes ⊆ (Wr1_1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
       StableHlo.reshape_writes, Finset.singleton_subset_iff, List.mem_toFinset]
     exact List.mem_map_of_mem (by decide))
theorem keep1_1 (V : Valuation τ sig (Elt F)) (r : Ref sig .tc) (h : r ∉ Wr1_1) :
    after hostOps1_1 V (Proc.devRef .tc r) = V (Proc.devRef .tc r) :=
  StableHlo.after_of_writes_sub hostOps1_1 V Wr1_1_writes h

/-- The result buffers of stretch hostOps1_2. -/
abbrev Wr1_2 : List (Ref sig .tc) := [main_v36]
theorem Wr1_2_writes : (hostOps1_2 : List (HloOp τ sig (Elt F))).Forall fun op =>
    op.writes ⊆ (Wr1_2.map (Proc.devRef (τ := τ) .tc)).toFinset := by
  simp only [List.Forall, StableHlo.reshape_writes, Finset.singleton_subset_iff, List.mem_toFinset]
  exact List.mem_map_of_mem (by decide)
theorem keep1_2 (V : Valuation τ sig (Elt F)) (r : Ref sig .tc) (h : r ∉ Wr1_2) :
    after hostOps1_2 V (Proc.devRef .tc r) = V (Proc.devRef .tc r) :=
  StableHlo.after_of_writes_sub hostOps1_2 V Wr1_2_writes h

/-! ## What each stretch computes, from any contents -/

theorem s0_v0 (V : Valuation τ sig (Elt F)) :
    (after hostOps0 V (Proc.devRef .tc main_v0) : IVec S8192x32 32) = ohK (V (Proc.devRef .tc main_arg7)) := by
  after_results <;> rfl

theorem s1_v1 (V : Valuation τ sig (Elt F)) :
    (after hostOps0_1 V (Proc.devRef .tc main_v1) : IVec S8192x32 32) = csK (V (Proc.devRef .tc main_v0)) := by
  after_results <;> rfl

theorem s2_v2 (V : Valuation τ sig (Elt F)) :
    (after hostOps0_2 V (Proc.devRef .tc main_v2) : IVec S8192x32 32)
      = subi (V (Proc.devRef .tc main_v1)) (V (Proc.devRef .tc main_v0)) := by
  after_results <;> rfl

theorem s2_v3 (V : Valuation τ sig (Elt F)) :
    (after hostOps0_2 V (Proc.devRef .tc main_v3) : IVec S8192x1 32)
      = broadcastInDim S8192x1 ![0] bcast_S8192_S8192x1_0 (V (Proc.devRef .tc main_arg7)) := by
  after_results <;> rfl

theorem s3_v4 (V : Valuation τ sig (Elt F)) :
    (after hostOps0_3 V (Proc.devRef .tc main_v4) : IVec S8192x1 32) = takeK (V (Proc.devRef .tc main_v2)) (V (Proc.devRef .tc main_v3)) := by
  after_results_simp <;> rfl

theorem s4_v5 (V : Valuation τ sig (Elt F)) :
    (after hostOps0_4 V (Proc.devRef .tc main_v5) : IVec S8192 32) = shapeCast S8192 (V (Proc.devRef .tc main_v4)) shapeCasts_S8192x1_S8192 := by
  after_results <;> rfl

theorem s4_v6 (V : Valuation τ sig (Elt F)) :
    (after hostOps0_4 V (Proc.devRef .tc main_v6) : IVec S32 32)
      = Host.reduce IntOp.addi (V (Proc.devRef .tc main_v0)) (constantI S_ 32 0#32) reducesTo_S8192x32_S32_d0 h_S_ := by
  after_results <;> rfl

theorem s4_v23 (V : Valuation τ sig (Elt F)) :
    (after hostOps0_4 V (Proc.devRef .tc main_v23) : FVec F S32x512x2048 .bf16)
      = Host.scatter scatter_S32x512x2048_S8192x2_S8192x2048_1_01_01_1 (fun _ b => b)
          (broadcastInDim S32x512x2048 ![] bcast_S_S32x512x2048 (constant (F := F) S_ .bf16 0x0000#16))
          (pairK (V (Proc.devRef .tc main_arg7)) (shapeCast S8192 (V (Proc.devRef .tc main_v4)) shapeCasts_S8192x1_S8192))
          (truncf .bf16 (shapeCast S8192x2048 (V (Proc.devRef .tc main_arg0)) shapeCasts_S4x2048x2048_S8192x2048) bitsLt_bf16_f32) := by
  after_results_simp <;> rfl

theorem s4_v24 (V : Valuation τ sig (Elt F)) :
    (after hostOps0_4 V (Proc.devRef .tc main_v24) : FVec F S32x2048x1024 .bf16) = w1K (V (Proc.devRef .tc main_arg1)) := by
  after_results <;> rfl
theorem s4_v25 (V : Valuation τ sig (Elt F)) :
    (after hostOps0_4 V (Proc.devRef .tc main_v25) : FVec F S32x2048x1024 .bf16) = w3K (V (Proc.devRef .tc main_arg5)) := by
  after_results <;> rfl
theorem s4_v26 (V : Valuation τ sig (Elt F)) :
    (after hostOps0_4 V (Proc.devRef .tc main_v26) : FVec F S32x1024x2048 .bf16) = w2K (V (Proc.devRef .tc main_arg3)) := by
  after_results <;> rfl
theorem s4_v27 (V : Valuation τ sig (Elt F)) :
    (after hostOps0_4 V (Proc.devRef .tc main_v27) : FVec F S32x1x1024 .f32) = b1K (V (Proc.devRef .tc main_arg2)) := by
  after_results <;> rfl
theorem s4_v28 (V : Valuation τ sig (Elt F)) :
    (after hostOps0_4 V (Proc.devRef .tc main_v28) : FVec F S32x1x1024 .f32) = b3K (V (Proc.devRef .tc main_arg6)) := by
  after_results <;> rfl
theorem s4_v29 (V : Valuation τ sig (Elt F)) :
    (after hostOps0_4 V (Proc.devRef .tc main_v29) : FVec F S32x1x2048 .f32) = b2K (V (Proc.devRef .tc main_arg4)) := by
  after_results <;> rfl

theorem t0_v31 (V : Valuation τ sig (Elt F)) :
    (after hostOps1 V (Proc.devRef .tc main_v31) : FVec F S16384x2048 .f32)
      = shapeCast S16384x2048 (V (Proc.devRef .tc main_v30)) shapeCasts_S32x512x2048_S16384x2048 := by
  after_results <;> rfl

theorem t0_v34 (V : Valuation τ sig (Elt F)) :
    (after hostOps1 V (Proc.devRef .tc main_v34) : IVec S8192 32) = flatK (V (Proc.devRef .tc main_arg7)) (V (Proc.devRef .tc main_v5)) := by
  after_results <;> rfl

theorem t1_v35 (V : Valuation τ sig (Elt F)) :
    (after hostOps1_1 V (Proc.devRef .tc main_v35) : FVec F S8192x2048 .f32) = takeRowsK (V (Proc.devRef .tc main_v31)) (V (Proc.devRef .tc main_v34)) := by
  after_results_simp <;> rfl

theorem t2_v36 (V : Valuation τ sig (Elt F)) :
    (after hostOps1_2 V (Proc.devRef .tc main_v36) : FVec F S4x2048x2048 .f32)
      = shapeCast S4x2048x2048 (V (Proc.devRef .tc main_v35)) shapeCasts_S8192x2048_S4x2048x2048 := by
  after_results <;> rfl

/-! ## The first four stretches together -/

/-- A buffer none of the first four stretches writes keeps its contents through them. -/
theorem pre4_keep (V : Valuation τ sig (Elt F)) (r : Ref sig .tc) (h0 : r ∉ Wr0) (h1 : r ∉ Wr0_1) (h2 : r ∉ Wr0_2) (h3 : r ∉ Wr0_3) :
    after hostOps0_3 (after hostOps0_2 (after hostOps0_1 (after hostOps0 V))) (Proc.devRef .tc r) = V (Proc.devRef .tc r) := by
  rw [keep0_3 _ r h3, keep0_2 _ r h2, keep0_1 _ r h1, keep0 _ r h0]

/-- After them the one-hot's buffer holds the one-hot of the expert indices. -/
theorem pre4_v0 (V : Valuation τ sig (Elt F)) :
    (after hostOps0_3 (after hostOps0_2 (after hostOps0_1 (after hostOps0 V))) (Proc.devRef .tc main_v0) : IVec S8192x32 32)
      = ohK (V (Proc.devRef .tc main_arg7)) := by
  rw [keep0_3 _ main_v0 (by decide), keep0_2 _ main_v0 (by decide), keep0_1 _ main_v0 (by decide), s0_v0]

/-- After them the gather's result buffer holds the positions, as a column. -/
theorem pre4_v4 (V : Valuation τ sig (Elt F)) :
    (after hostOps0_3 (after hostOps0_2 (after hostOps0_1 (after hostOps0 V))) (Proc.devRef .tc main_v4) : IVec S8192x1 32)
      = takeK (subi (csK (ohK (V (Proc.devRef .tc main_arg7)))) (ohK (V (Proc.devRef .tc main_arg7))))
          (broadcastInDim S8192x1 ![0] bcast_S8192_S8192x1_0 (V (Proc.devRef .tc main_arg7))) := by
  rw [s3_v4, s2_v2, s2_v3, s1_v1, keep0_1 _ main_v0 (by decide), keep0_1 _ main_arg7 (by decide), s0_v0,
    keep0 _ main_arg7 (by decide)]

/-! ## What the buffers hold when the region is entered -/

theorem Vpre_v5 (m : (ℓ : Loc nD τ sig) → Buf (Elt F) ℓ) (c : Dev nD) :
    (Vpre m c (Proc.devRef .tc main_v5) : IVec S8192 32) = posK (m ((c.tc : Thread nD τ).loc main_arg7)) := by
  unfold Vpre
  rw [s4_v5, pre4_v4]
  rfl

theorem Vpre_v6 (m : (ℓ : Loc nD τ sig) → Buf (Elt F) ℓ) (c : Dev nD) :
    (Vpre m c (Proc.devRef .tc main_v6) : IVec S32 32) = cntK (m ((c.tc : Thread nD τ).loc main_arg7)) := by
  unfold Vpre
  rw [s4_v6, pre4_v0]
  rfl

theorem Vpre_v23 (m : (ℓ : Loc nD τ sig) → Buf (Elt F) ℓ) (c : Dev nD) :
    (Vpre m c (Proc.devRef .tc main_v23) : FVec F S32x512x2048 .bf16)
      = xdK (m ((c.tc : Thread nD τ).loc main_arg0)) (m ((c.tc : Thread nD τ).loc main_arg7)) := by
  unfold Vpre
  rw [s4_v23, pre4_v4, pre4_keep _ main_arg7 (by decide) (by decide) (by decide) (by decide), pre4_keep _ main_arg0 (by decide) (by decide) (by decide) (by decide)]
  rfl

theorem Vpre_v24 (m : (ℓ : Loc nD τ sig) → Buf (Elt F) ℓ) (c : Dev nD) :
    (Vpre m c (Proc.devRef .tc main_v24) : FVec F S32x2048x1024 .bf16) = w1K (m ((c.tc : Thread nD τ).loc main_arg1)) := by
  unfold Vpre
  rw [s4_v24, pre4_keep _ main_arg1 (by decide) (by decide) (by decide) (by decide)]

theorem Vpre_v25 (m : (ℓ : Loc nD τ sig) → Buf (Elt F) ℓ) (c : Dev nD) :
    (Vpre m c (Proc.devRef .tc main_v25) : FVec F S32x2048x1024 .bf16) = w3K (m ((c.tc : Thread nD τ).loc main_arg5)) := by
  unfold Vpre
  rw [s4_v25, pre4_keep _ main_arg5 (by decide) (by decide) (by decide) (by decide)]

theorem Vpre_v26 (m : (ℓ : Loc nD τ sig) → Buf (Elt F) ℓ) (c : Dev nD) :
    (Vpre m c (Proc.devRef .tc main_v26) : FVec F S32x1024x2048 .bf16) = w2K (m ((c.tc : Thread nD τ).loc main_arg3)) := by
  unfold Vpre
  rw [s4_v26, pre4_keep _ main_arg3 (by decide) (by decide) (by decide) (by decide)]

theorem Vpre_v27 (m : (ℓ : Loc nD τ sig) → Buf (Elt F) ℓ) (c : Dev nD) :
    (Vpre m c (Proc.devRef .tc main_v27) : FVec F S32x1x1024 .f32) = b1K (m ((c.tc : Thread nD τ).loc main_arg2)) := by
  unfold Vpre
  rw [s4_v27, pre4_keep _ main_arg2 (by decide) (by decide) (by decide) (by decide)]

theorem Vpre_v28 (m : (ℓ : Loc nD τ sig) → Buf (Elt F) ℓ) (c : Dev nD) :
    (Vpre m c (Proc.devRef .tc main_v28) : FVec F S32x1x1024 .f32) = b3K (m ((c.tc : Thread nD τ).loc main_arg6)) := by
  unfold Vpre
  rw [s4_v28, pre4_keep _ main_arg6 (by decide) (by decide) (by decide) (by decide)]

theorem Vpre_v29 (m : (ℓ : Loc nD τ sig) → Buf (Elt F) ℓ) (c : Dev nD) :
    (Vpre m c (Proc.devRef .tc main_v29) : FVec F S32x1x2048 .f32) = b2K (m ((c.tc : Thread nD τ).loc main_arg4)) := by
  unfold Vpre
  rw [s4_v29, pre4_keep _ main_arg4 (by decide) (by decide) (by decide) (by decide)]

theorem Vpre_arg0 (m : (ℓ : Loc nD τ sig) → Buf (Elt F) ℓ) (c : Dev nD) :
    Vpre m c (Proc.devRef .tc main_arg0) = m ((c.tc : Thread nD τ).loc main_arg0) := by
  unfold Vpre
  rw [keep0_4 _ main_arg0 (by decide), pre4_keep _ main_arg0 (by decide) (by decide) (by decide) (by decide)]
theorem Vpre_arg1 (m : (ℓ : Loc nD τ sig) → Buf (Elt F) ℓ) (c : Dev nD) :
    Vpre m c (Proc.devRef .tc main_arg1) = m ((c.tc : Thread nD τ).loc main_arg1) := by
  unfold Vpre
  rw [keep0_4 _ main_arg1 (by decide), pre4_keep _ main_arg1 (by decide) (by decide) (by decide) (by decide)]
theorem Vpre_arg2 (m : (ℓ : Loc nD τ sig) → Buf (Elt F) ℓ) (c : Dev nD) :
    Vpre m c (Proc.devRef .tc main_arg2) = m ((c.tc : Thread nD τ).loc main_arg2) := by
  unfold Vpre
  rw [keep0_4 _ main_arg2 (by decide), pre4_keep _ main_arg2 (by decide) (by decide) (by decide) (by decide)]
theorem Vpre_arg3 (m : (ℓ : Loc nD τ sig) → Buf (Elt F) ℓ) (c : Dev nD) :
    Vpre m c (Proc.devRef .tc main_arg3) = m ((c.tc : Thread nD τ).loc main_arg3) := by
  unfold Vpre
  rw [keep0_4 _ main_arg3 (by decide), pre4_keep _ main_arg3 (by decide) (by decide) (by decide) (by decide)]
theorem Vpre_arg4 (m : (ℓ : Loc nD τ sig) → Buf (Elt F) ℓ) (c : Dev nD) :
    Vpre m c (Proc.devRef .tc main_arg4) = m ((c.tc : Thread nD τ).loc main_arg4) := by
  unfold Vpre
  rw [keep0_4 _ main_arg4 (by decide), pre4_keep _ main_arg4 (by decide) (by decide) (by decide) (by decide)]
theorem Vpre_arg5 (m : (ℓ : Loc nD τ sig) → Buf (Elt F) ℓ) (c : Dev nD) :
    Vpre m c (Proc.devRef .tc main_arg5) = m ((c.tc : Thread nD τ).loc main_arg5) := by
  unfold Vpre
  rw [keep0_4 _ main_arg5 (by decide), pre4_keep _ main_arg5 (by decide) (by decide) (by decide) (by decide)]
theorem Vpre_arg6 (m : (ℓ : Loc nD τ sig) → Buf (Elt F) ℓ) (c : Dev nD) :
    Vpre m c (Proc.devRef .tc main_arg6) = m ((c.tc : Thread nD τ).loc main_arg6) := by
  unfold Vpre
  rw [keep0_4 _ main_arg6 (by decide), pre4_keep _ main_arg6 (by decide) (by decide) (by decide) (by decide)]
theorem Vpre_arg7 (m : (ℓ : Loc nD τ sig) → Buf (Elt F) ℓ) (c : Dev nD) :
    Vpre m c (Proc.devRef .tc main_arg7) = m ((c.tc : Thread nD τ).loc main_arg7) := by
  unfold Vpre
  rw [keep0_4 _ main_arg7 (by decide), pre4_keep _ main_arg7 (by decide) (by decide) (by decide) (by decide)]

/-! ## What the buffers hold at the end -/

theorem Vfin_v36 (m : (ℓ : Loc nD τ sig) → Buf (Elt F) ℓ) (c : Dev nD)
    (Y : (Proc.devRef .tc main_v30 : DevRef τ sig).ty.Contents (Elt F)) :
    (Vfin m c Y (Proc.devRef .tc main_v36) : FVec F S4x2048x2048 .f32)
      = tailK Y (m ((c.tc : Thread nD τ).loc main_arg7)) (posK (m ((c.tc : Thread nD τ).loc main_arg7))) := by
  unfold Vfin
  rw [t2_v36, t1_v35, t0_v31, t0_v34, Vmid_result,
    Vmid_other m c Y _ (StableHlo.devRef_ne_of_ne (by decide : main_arg7 ≠ main_v30)),
    Vmid_other m c Y _ (StableHlo.devRef_ne_of_ne (by decide : main_v5 ≠ main_v30)), Vpre_arg7, Vpre_v5]
  rfl

theorem Vfin_arg0 (m : (ℓ : Loc nD τ sig) → Buf (Elt F) ℓ) (c : Dev nD)
    (Y : (Proc.devRef .tc main_v30 : DevRef τ sig).ty.Contents (Elt F)) :
    Vfin m c Y (Proc.devRef .tc main_arg0) = m ((c.tc : Thread nD τ).loc main_arg0) := by
  unfold Vfin
  rw [keep1_2 _ main_arg0 (by decide), keep1_1 _ main_arg0 (by decide), keep1 _ main_arg0 (by decide),
    Vmid_other m c Y _ (StableHlo.devRef_ne_of_ne (by decide : main_arg0 ≠ main_v30)), Vpre_arg0]
theorem Vfin_arg1 (m : (ℓ : Loc nD τ sig) → Buf (Elt F) ℓ) (c : Dev nD)
    (Y : (Proc.devRef .tc main_v30 : DevRef τ sig).ty.Contents (Elt F)) :
    Vfin m c Y (Proc.devRef .tc main_arg1) = m ((c.tc : Thread nD τ).loc main_arg1) := by
  unfold Vfin
  rw [keep1_2 _ main_arg1 (by decide), keep1_1 _ main_arg1 (by decide), keep1 _ main_arg1 (by decide),
    Vmid_other m c Y _ (StableHlo.devRef_ne_of_ne (by decide : main_arg1 ≠ main_v30)), Vpre_arg1]
theorem Vfin_arg2 (m : (ℓ : Loc nD τ sig) → Buf (Elt F) ℓ) (c : Dev nD)
    (Y : (Proc.devRef .tc main_v30 : DevRef τ sig).ty.Contents (Elt F)) :
    Vfin m c Y (Proc.devRef .tc main_arg2) = m ((c.tc : Thread nD τ).loc main_arg2) := by
  unfold Vfin
  rw [keep1_2 _ main_arg2 (by decide), keep1_1 _ main_arg2 (by decide), keep1 _ main_arg2 (by decide),
    Vmid_other m c Y _ (StableHlo.devRef_ne_of_ne (by decide : main_arg2 ≠ main_v30)), Vpre_arg2]
theorem Vfin_arg3 (m : (ℓ : Loc nD τ sig) → Buf (Elt F) ℓ) (c : Dev nD)
    (Y : (Proc.devRef .tc main_v30 : DevRef τ sig).ty.Contents (Elt F)) :
    Vfin m c Y (Proc.devRef .tc main_arg3) = m ((c.tc : Thread nD τ).loc main_arg3) := by
  unfold Vfin
  rw [keep1_2 _ main_arg3 (by decide), keep1_1 _ main_arg3 (by decide), keep1 _ main_arg3 (by decide),
    Vmid_other m c Y _ (StableHlo.devRef_ne_of_ne (by decide : main_arg3 ≠ main_v30)), Vpre_arg3]
theorem Vfin_arg4 (m : (ℓ : Loc nD τ sig) → Buf (Elt F) ℓ) (c : Dev nD)
    (Y : (Proc.devRef .tc main_v30 : DevRef τ sig).ty.Contents (Elt F)) :
    Vfin m c Y (Proc.devRef .tc main_arg4) = m ((c.tc : Thread nD τ).loc main_arg4) := by
  unfold Vfin
  rw [keep1_2 _ main_arg4 (by decide), keep1_1 _ main_arg4 (by decide), keep1 _ main_arg4 (by decide),
    Vmid_other m c Y _ (StableHlo.devRef_ne_of_ne (by decide : main_arg4 ≠ main_v30)), Vpre_arg4]
theorem Vfin_arg5 (m : (ℓ : Loc nD τ sig) → Buf (Elt F) ℓ) (c : Dev nD)
    (Y : (Proc.devRef .tc main_v30 : DevRef τ sig).ty.Contents (Elt F)) :
    Vfin m c Y (Proc.devRef .tc main_arg5) = m ((c.tc : Thread nD τ).loc main_arg5) := by
  unfold Vfin
  rw [keep1_2 _ main_arg5 (by decide), keep1_1 _ main_arg5 (by decide), keep1 _ main_arg5 (by decide),
    Vmid_other m c Y _ (StableHlo.devRef_ne_of_ne (by decide : main_arg5 ≠ main_v30)), Vpre_arg5]
theorem Vfin_arg6 (m : (ℓ : Loc nD τ sig) → Buf (Elt F) ℓ) (c : Dev nD)
    (Y : (Proc.devRef .tc main_v30 : DevRef τ sig).ty.Contents (Elt F)) :
    Vfin m c Y (Proc.devRef .tc main_arg6) = m ((c.tc : Thread nD τ).loc main_arg6) := by
  unfold Vfin
  rw [keep1_2 _ main_arg6 (by decide), keep1_1 _ main_arg6 (by decide), keep1 _ main_arg6 (by decide),
    Vmid_other m c Y _ (StableHlo.devRef_ne_of_ne (by decide : main_arg6 ≠ main_v30)), Vpre_arg6]
theorem Vfin_arg7 (m : (ℓ : Loc nD τ sig) → Buf (Elt F) ℓ) (c : Dev nD)
    (Y : (Proc.devRef .tc main_v30 : DevRef τ sig).ty.Contents (Elt F)) :
    Vfin m c Y (Proc.devRef .tc main_arg7) = m ((c.tc : Thread nD τ).loc main_arg7) := by
  unfold Vfin
  rw [keep1_2 _ main_arg7 (by decide), keep1_1 _ main_arg7 (by decide), keep1 _ main_arg7 (by decide),
    Vmid_other m c Y _ (StableHlo.devRef_ne_of_ne (by decide : main_arg7 ≠ main_v30)), Vpre_arg7]

end Stretches

/-! ## The combine gather read at an entry -/

/-- A 32-bit integer that is non-negative as a signed number and below n reads, unsigned, below n. -/
theorem toNat_lt_of_toInt {x : BitVec 32} {n : Nat} (h0 : 0 ≤ x.toInt) (h1 : x.toInt < (n : Int)) : x.toNat < n := by
  rw [BitVec.toInt_eq_toNat_cond] at h0 h1
  split at h0 <;> omega

/-- A fold over a range of one element is the operation applied once. -/
theorem fold_fin_unit {n : Nat} (hn : n = 1) {β : Type} (op : β → β → β) [Std.Commutative op] [Std.Associative op] (b : β)
    (g : Fin n → β) : (Finset.univ : Finset (Fin n)).fold op b g = op (g ⟨0, by omega⟩) b := by
  subst hn
  rw [Finset.univ_unique, Finset.fold_singleton]
  rfl

/-- A reduction by "and", from 1, over a unit axis is 1 wherever the one element it covers is. -/
theorem reduce_andi_unit_one (x : IVec S8192x1 1) (t : Fin 8192) (hx : x (ix2 t (0 : Fin 1)) = 1#1) :
    Host.reduce IntOp.andi x (constantI S_ 1 1#1) reducesTo_S8192x1_S8192_d1 h_S_ (ix1 t) = 1#1 := by
  have hR : S8192x1.Reduces [1] S8192 := by decide
  rw [Host.reduce_eq_fold_single IntOp.andi x _ reducesTo_S8192x1_S8192_d1 hR h_S_ (ix1 t),
    fold_fin_unit (rfl : S8192x1.size 1 = 1)]
  have hl : hR.lift (ix1 t) (⟨0, by decide⟩ : Fin (S8192x1.size 1)) = ix2 t (0 : Fin 1) := Cert.LibColGather.ext2 rfl rfl
  show IntOp.andi (x (hR.lift (ix1 t) (⟨0, by decide⟩ : Fin (S8192x1.size 1)))) 1#1 = 1#1
  rw [hl]
  exact IntOp.andi_eq_one.2 ⟨hx, rfl⟩

/-- With token t's expert in [0, 32) and its position in [0, 512), @main's result at token t (row t / 2048, column
    t % 2048 of the [4, 2048, 2048] result) is the region's result at (expert, position): the flat row
    expert * 512 + position does not wrap, is in range for the mask, is not clamped by the gather, and is where the
    [16384, 2048] view keeps entry (expert, position). -/
theorem tailK_apply (Y : FVec F S32x512x2048 .f32) (a7 pos : IVec S8192 32) (t : Fin 8192) (d : Fin 2048)
    (he : 0 ≤ (a7 (ix1 t)).toInt ∧ (a7 (ix1 t)).toInt < 32)
    (hq : 0 ≤ (pos (ix1 t)).toInt ∧ (pos (ix1 t)).toInt < 512) :
    tailK Y a7 pos (ix3 (⟨t.val / 2048, by have := t.isLt; omega⟩ : Fin 4) (⟨t.val % 2048, Nat.mod_lt _ (by decide)⟩ : Fin 2048) d)
      = Y (ix3 (⟨(a7 (ix1 t)).toNat, toNat_lt_of_toInt he.1 he.2⟩ : Fin 32)
            (⟨(pos (ix1 t)).toNat, toNat_lt_of_toInt hq.1 hq.2⟩ : Fin 512) d) := by
  have hen : (a7 (ix1 t)).toNat < 32 := toNat_lt_of_toInt he.1 he.2
  have hqn : (pos (ix1 t)).toNat < 512 := toNat_lt_of_toInt hq.1 hq.2
  -- the flat row is the word of expert * 512 + position: below 2 ^ 31, so the 32-bit product and sum do not wrap
  have hfl : flatK a7 pos (ix1 t) = BitVec.ofNat 32 ((a7 (ix1 t)).toNat * 512 + (pos (ix1 t)).toNat) := by
    show (a7 (ix1 t)) * 512#32 + pos (ix1 t) = _
    apply BitVec.eq_of_toNat_eq
    rw [BitVec.toNat_add, BitVec.toNat_mul, BitVec.toNat_ofNat, BitVec.toNat_ofNat]
    omega
  generalize hn : (a7 (ix1 t)).toNat * 512 + (pos (ix1 t)).toNat = n at hfl
  have hn16 : n < 16384 := by omega
  -- it is not negative, so the gather's row index is that word
  have hidx : rowIdxK (flatK a7 pos) (ix2 t (0 : Fin 1)) = BitVec.ofNat 32 n := by
    unfold rowIdxK
    rw [broadcastInDim_apply _ _ _ _ (ix1 t) (fun a => match a with
      | ⟨0, _⟩ => by show t.val = if (8192 : Nat) = 1 then 0 else t.val; rw [if_neg (by decide)])]
    show Scalar.select (IntOp.cmpi .slt (flatK a7 pos (ix1 t)) 0#32) (IntOp.addi (flatK a7 pos (ix1 t)) 16384#32)
      (flatK a7 pos (ix1 t)) = _
    rw [hfl, Cert.LibColGather.slt_zero_ofNat_small n (by omega), select_zero]
  -- the mask: 0 ≤ row ≤ 16383
  have hok : rowOkK (rowIdxK (flatK a7 pos)) (ix1 t) = 1#1 := by
    unfold rowOkK
    refine reduce_andi_unit_one _ t ?_
    show IntOp.andi (IntOp.cmpi .sge (rowIdxK (flatK a7 pos) (ix2 t (0 : Fin 1))) 0#32)
      (IntOp.cmpi .sle (rowIdxK (flatK a7 pos) (ix2 t (0 : Fin 1))) 16383#32) = 1#1
    rw [hidx]
    refine IntOp.andi_eq_one.2 ⟨?_, ?_⟩
    · show BitVec.ofBool ((0#32).sle (BitVec.ofNat 32 n)) = 1#1
      rw [BitVec.sle_eq_decide, Cert.LibColGather.toInt_ofNat_small n (by omega), BitVec.toInt_zero, decide_eq_true (by omega)]
      rfl
    · show BitVec.ofBool ((BitVec.ofNat 32 n).sle 16383#32) = 1#1
      rw [BitVec.sle_eq_decide, Cert.LibColGather.toInt_ofNat_small n (by omega),
        show (16383#32 : BitVec 32) = BitVec.ofNat 32 16383 from rfl,
        Cert.LibColGather.toInt_ofNat_small 16383 (by decide), decide_eq_true (by omega)]
      rfl
  unfold tailK
  -- the final reshape: token t of [8192, 2048] sits at (t / 2048, t % 2048) of [4, 2048, 2048]
  refine (shapeCast_apply _ shapeCasts_S8192x2048_S4x2048x2048 _ (ix2 t d) ?_).trans ?_
  · rw [Shape.rowMajor_val_two, Shape.rowMajor_val_three]
    show t.val * 2048 + d.val = (t.val / 2048 * 2048 + t.val % 2048) * 2048 + d.val
    omega
  -- the select takes the gathered row: the mask is 1 at token t
  unfold takeRowsK
  rw [select_apply, broadcastInDim_apply _ _ _ _ (ix1 t) (fun a => match a with
      | ⟨0, _⟩ => by show t.val = if (8192 : Nat) = 1 then 0 else t.val; rw [if_neg (by decide)]), hok, select_one]
  -- the gather reads row n of the [16384, 2048] view: the clamp into [0, 16383] does not bind
  refine (Cert.LibIndex.rowGather_apply (N := 16384) (T := 8192) (C := 2048) (by decide)
    gather_S16384x2048_S8192x1_S8192x2048_1_0_n_n_0_1_12048_wf _ (rowIdxK (flatK a7 pos)) t d).trans ?_
  -- and row e * 512 + q of the view is entry (e, q) of [32, 512, 2048]
  refine shapeCast_apply _ shapeCasts_S32x512x2048_S16384x2048 _ _ ?_
  rw [Shape.rowMajor_val_two, Shape.rowMajor_val_three]
  show ((a7 (ix1 t)).toNat * 512 + (pos (ix1 t)).toNat) * 2048 + d.val
    = min (rowIdxK (flatK a7 pos) (ix2 t (0 : Fin 1))).toInt.toNat (16384 - 1) * 2048 + d.val
  rw [hidx, Cert.LibColGather.toInt_ofNat_small n (by omega), Int.toNat_natCast, Nat.min_eq_left (by omega), hn]

end Cert.Kernel.Hand

end
-- ==== Proof.RefRun.lean ====
/-
  The reference program's run and its result as a pure term of the argument arrays.

  The reference is a straight line of host operations: a reshape of the tokens to [8192, 2048]; the one-hot table of
  the expert indices, its running sum down the token axis, minus the table itself; the entry of that difference at
  each token's own expert (a batched gather under an in-range mask), which is the token's position inside its expert's
  capacity buffer; the dispatch scatter of the token rows into a zero [32, 512, 2048] array at (expert, position);
  the expert network on every row of that array, three batched contractions with their biases, the first gated
  through x / (1 + exp (-x)) and multiplied by the third; and the gather of the result's rows back at
  (expert, position), reshaped to [4, 2048, 2048].  Module-local functions are run at their call sites, each
  operation on the buffers of that call.

  `ops` is the line as a list, in four stretches (the positions, the dispatch, the expert network, the combine);
  `main_eq` says @main is that list run in order, `run_main` that every execution ends with each buffer at the fold
  of the operations over the launch contents, and `out_eq` names the fold at the result buffer, stretch by stretch:
  `outR (yR (xdR x idx) W1 b1 W2 b2 W3 b3) idx (posR idx)`.
-/
import proofs.«427358_j7456063225884_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- The first stretch, 35 operations: the token rows as [8192, 2048]; the one-hot table of the expert indices (six
    operations into `main_call0`'s buffers), its running sum down the token axis (three into `main_call1.call0`'s: the
    zero, its broadcast, the windowed sum), the difference, and that difference read at each token's own expert
    (twenty-two into `main_call2`'s), reshaped to a vector: each token's position. -/
abbrev opsA : List (HloOp τ sig (Elt F)) :=
  [
    reshape main_arg0 main_v0 rfl shapeCasts_S4x2048x2048_S8192x2048,
    TRef.unary (.of main_arg7 : TRef sig ⟨S8192, .i32⟩) main_call0.v0 (broadcastInDim S8192x1 ![0] bcast_S8192_S8192x1_0),
    TRef.nullary main_call0.v1 (iotaInDim S1x32 32 1),
    TRef.unary main_call0.v0 main_call0.v2 (broadcastInDim S8192x32 ![0, 1] bcast_S8192x1_S8192x32_0_1),
    TRef.unary main_call0.v1 main_call0.v3 (broadcastInDim S8192x32 ![0, 1] bcast_S1x32_S8192x32_0_1),
    TRef.binary main_call0.v2 main_call0.v3 main_call0.v4 (cmpi .eq),
    TRef.unary main_call0.v4 main_call0.v5 (extui 32 · natLt_1_32),
    TRef.nullary main_call1.call0.c (constantI S_ 32 0#32),
    TRef.unary main_call1.call0.c main_call1.call0.v0 (broadcastInDim S_ ![] bcast_S_S_),
    TRef.binary (.of main_v1 : TRef sig ⟨S8192x32, .i32⟩) main_call1.call0.v0 main_call1.call0.v1 (fun x v => Host.reduceWindow IntOp.addi ![8192, 1] ![1, 1] ![8191, 0] ![0, 0] x v reduceWindows_S8192x32_S8192x32_w8192s1p8191_0_w1s1p0_0 h_S_),
    binary main_v2 main_v1 main_v3 (subi : (⟨S8192x32, .i32⟩ : BufTy).Contents (Elt F) → (⟨S8192x32, .i32⟩ : BufTy).Contents (Elt F) → (⟨S8192x32, .i32⟩ : BufTy).Contents (Elt F)),
    unary main_arg7 main_v4 (broadcastInDim S8192x1 ![0] bcast_S8192_S8192x1_0 : (⟨S8192, .i32⟩ : BufTy).Contents (Elt F) → (⟨S8192x1, .i32⟩ : BufTy).Contents (Elt F)),
    TRef.nullary main_call2.c (constantI S_ 32 0#32),
    TRef.unary main_call2.c main_call2.v0 (broadcastInDim S8192x1 ![] bcast_S_S8192x1),
    TRef.binary (.of main_v4 : TRef sig ⟨S8192x1, .i32⟩) main_call2.v0 main_call2.v1 (cmpi .slt),
    TRef.nullary main_call2.c_0 (constantI S_ 32 32#32),
    TRef.unary main_call2.c_0 main_call2.v2 (broadcastInDim S8192x1 ![] bcast_S_S8192x1),
    TRef.binary (.of main_v4 : TRef sig ⟨S8192x1, .i32⟩) main_call2.v2 main_call2.v3 addi,
    TRef.ternary main_call2.v1 main_call2.v3 (.of main_v4 : TRef sig ⟨S8192x1, .i32⟩) main_call2.v4 select,
    TRef.reshape main_call2.v4 main_call2.v5 rfl shapeCasts_S8192x1_S8192x1x1,
    TRef.nullary main_call2.c_1 (constantI S1 32 31#32),
    TRef.nullary main_call2.c_2 (constantI S_ 32 0#32),
    TRef.unary main_call2.c_2 main_call2.v6 (broadcastInDim S8192x1x1 ![] bcast_S_S8192x1x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S8192x1x1 ![0, 1, 2] bcast_S1x1x1_S8192x1x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8192x1x1_S8192x1_d2 h_S_),
    TRef.binary (.of main_v3 : TRef sig ⟨S8192x32, .i32⟩) main_call2.v5 main_call2.v13 (fun x i => Host.gather gather_S8192x32_S8192x1x1_S8192x1_n_1_0_0_1_2_11 x i),
    TRef.nullary main_call2.c_4 (constantI S_ 32 2147483648#32),
    TRef.unary main_call2.c_4 main_call2.v14 (broadcastInDim S8192x1 ![] bcast_S_S8192x1),
    TRef.ternary main_call2.v12 main_call2.v13 main_call2.v14 main_call2.v15 select,
    reshape main_v5 main_v6 rfl shapeCasts_S8192x1_S8192 ]

/-- The second stretch, 20 operations: the zero [32, 512, 2048] array, the index pairs (expert, position) with negative
    entries wrapped, and the scatter of the token rows at those pairs. -/
abbrev opsB : List (HloOp τ sig (Elt F)) :=
  [
    nullary main_cst (constant S_ .f32 0x00000000#32),
    unary main_cst main_v7 (broadcastInDim S32x512x2048 ![] bcast_S_S32x512x2048 : (⟨S_, .f32⟩ : BufTy).Contents (Elt F) → (⟨S32x512x2048, .f32⟩ : BufTy).Contents (Elt F)),
    nullary main_c (constantI S_ 32 0#32),
    unary main_c main_v8 (broadcastInDim S8192 ![] bcast_S_S8192 : (⟨S_, .i32⟩ : BufTy).Contents (Elt F) → (⟨S8192, .i32⟩ : BufTy).Contents (Elt F)),
    binary main_arg7 main_v8 main_v9 (cmpi .slt : (⟨S8192, .i32⟩ : BufTy).Contents (Elt F) → (⟨S8192, .i32⟩ : BufTy).Contents (Elt F) → (⟨S8192, .i1⟩ : BufTy).Contents (Elt F)),
    nullary main_c_0 (constantI S_ 32 32#32),
    unary main_c_0 main_v10 (broadcastInDim S8192 ![] bcast_S_S8192 : (⟨S_, .i32⟩ : BufTy).Contents (Elt F) → (⟨S8192, .i32⟩ : BufTy).Contents (Elt F)),
    binary main_arg7 main_v10 main_v11 (addi : (⟨S8192, .i32⟩ : BufTy).Contents (Elt F) → (⟨S8192, .i32⟩ : BufTy).Contents (Elt F) → (⟨S8192, .i32⟩ : BufTy).Contents (Elt F)),
    ternary main_v9 main_v11 main_arg7 main_v12 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v13 (broadcastInDim S8192 ![] bcast_S_S8192 : (⟨S_, .i32⟩ : BufTy).Contents (Elt F) → (⟨S8192, .i32⟩ : BufTy).Contents (Elt F)),
    binary main_v6 main_v13 main_v14 (cmpi .slt : (⟨S8192, .i32⟩ : BufTy).Contents (Elt F) → (⟨S8192, .i32⟩ : BufTy).Contents (Elt F) → (⟨S8192, .i1⟩ : BufTy).Contents (Elt F)),
    nullary main_c_2 (constantI S_ 32 512#32),
    unary main_c_2 main_v15 (broadcastInDim S8192 ![] bcast_S_S8192 : (⟨S_, .i32⟩ : BufTy).Contents (Elt F) → (⟨S8192, .i32⟩ : BufTy).Contents (Elt F)),
    binary main_v6 main_v15 main_v16 (addi : (⟨S8192, .i32⟩ : BufTy).Contents (Elt F) → (⟨S8192, .i32⟩ : BufTy).Contents (Elt F) → (⟨S8192, .i32⟩ : BufTy).Contents (Elt F)),
    ternary main_v14 main_v16 main_v6 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v12 main_v18 (broadcastInDim S8192x1 ![0] bcast_S8192_S8192x1_0 : (⟨S8192, .i32⟩ : BufTy).Contents (Elt F) → (⟨S8192x1, .i32⟩ : BufTy).Contents (Elt F)),
    unary main_v17 main_v19 (broadcastInDim S8192x1 ![0] bcast_S8192_S8192x1_0 : (⟨S8192, .i32⟩ : BufTy).Contents (Elt F) → (⟨S8192x1, .i32⟩ : BufTy).Contents (Elt F)),
    binary main_v18 main_v19 main_v20 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    ternary main_v7 main_v20 main_v0 main_v21 ((fun x i u => Host.scatter scatter_S32x512x2048_S8192x2_S8192x2048_1_01_01_1 (fun _ b => b) x i u) : (⟨S32x512x2048, .f32⟩ : BufTy).Contents (Elt F) → (⟨S8192x2, .i32⟩ : BufTy).Contents (Elt F) → (⟨S8192x2048, .f32⟩ : BufTy).Contents (Elt F) → (⟨S32x512x2048, .f32⟩ : BufTy).Contents (Elt F)) ]

/-- The third stretch, 22 operations: the expert network on every row of the dispatched array (the gate's
    x / (1 + exp (-x)) is nine operations into `main_call3`'s buffers). -/
abbrev opsC : List (HloOp τ sig (Elt F)) :=
  [
    binary main_v21 main_arg1 main_v22 ((fun l r => Host.dotGeneral dot_S32x512x2048_S32x2048x1024_S32x512x1024_2_1_1_2_0_0 none l r) : (⟨S32x512x2048, .f32⟩ : BufTy).Contents (Elt F) → (⟨S32x2048x1024, .f32⟩ : BufTy).Contents (Elt F) → (⟨S32x512x1024, .f32⟩ : BufTy).Contents (Elt F)),
    unary main_arg2 main_v23 (broadcastInDim S32x1x1024 ![0, 2] bcast_S32x1024_S32x1x1024_0_2 : (⟨S32x1024, .f32⟩ : BufTy).Contents (Elt F) → (⟨S32x1x1024, .f32⟩ : BufTy).Contents (Elt F)),
    unary main_v23 main_v24 (broadcastInDim S32x512x1024 ![0, 1, 2] bcast_S32x1x1024_S32x512x1024_0_1_2 : (⟨S32x1x1024, .f32⟩ : BufTy).Contents (Elt F) → (⟨S32x512x1024, .f32⟩ : BufTy).Contents (Elt F)),
    binary main_v22 main_v24 main_v25 (addf : (⟨S32x512x1024, .f32⟩ : BufTy).Contents (Elt F) → (⟨S32x512x1024, .f32⟩ : BufTy).Contents (Elt F) → (⟨S32x512x1024, .f32⟩ : BufTy).Contents (Elt F)),
    TRef.unary (.of main_v25 : TRef sig ⟨S32x512x1024, .f32⟩) main_call3.v0 Host.negf,
    TRef.unary main_call3.v0 main_call3.v1 Host.exp,
    TRef.nullary main_call3.cst (constant S_ .f32 0x3F800000#32),
    TRef.unary main_call3.cst main_call3.v2 (broadcastInDim S32x512x1024 ![] bcast_S_S32x512x1024),
    TRef.binary main_call3.v2 main_call3.v1 main_call3.v3 addf,
    TRef.nullary main_call3.cst_0 (constant S_ .f32 0x3F800000#32),
    TRef.unary main_call3.cst_0 main_call3.v4 (broadcastInDim S32x512x1024 ![] bcast_S_S32x512x1024),
    TRef.binary main_call3.v4 main_call3.v3 main_call3.v5 Host.divf,
    TRef.binary (.of main_v25 : TRef sig ⟨S32x512x1024, .f32⟩) main_call3.v5 main_call3.v6 mulf,
    binary main_v21 main_arg5 main_v27 ((fun l r => Host.dotGeneral dot_S32x512x2048_S32x2048x1024_S32x512x1024_2_1_1_2_0_0 none l r) : (⟨S32x512x2048, .f32⟩ : BufTy).Contents (Elt F) → (⟨S32x2048x1024, .f32⟩ : BufTy).Contents (Elt F) → (⟨S32x512x1024, .f32⟩ : BufTy).Contents (Elt F)),
    unary main_arg6 main_v28 (broadcastInDim S32x1x1024 ![0, 2] bcast_S32x1024_S32x1x1024_0_2 : (⟨S32x1024, .f32⟩ : BufTy).Contents (Elt F) → (⟨S32x1x1024, .f32⟩ : BufTy).Contents (Elt F)),
    unary main_v28 main_v29 (broadcastInDim S32x512x1024 ![0, 1, 2] bcast_S32x1x1024_S32x512x1024_0_1_2 : (⟨S32x1x1024, .f32⟩ : BufTy).Contents (Elt F) → (⟨S32x512x1024, .f32⟩ : BufTy).Contents (Elt F)),
    binary main_v27 main_v29 main_v30 (addf : (⟨S32x512x1024, .f32⟩ : BufTy).Contents (Elt F) → (⟨S32x512x1024, .f32⟩ : BufTy).Contents (Elt F) → (⟨S32x512x1024, .f32⟩ : BufTy).Contents (Elt F)),
    binary main_v26 main_v30 main_v31 (mulf : (⟨S32x512x1024, .f32⟩ : BufTy).Contents (Elt F) → (⟨S32x512x1024, .f32⟩ : BufTy).Contents (Elt F) → (⟨S32x512x1024, .f32⟩ : BufTy).Contents (Elt F)),
    binary main_v31 main_arg3 main_v32 ((fun l r => Host.dotGeneral dot_S32x512x1024_S32x1024x2048_S32x512x2048_2_1_1_2_0_0 none l r) : (⟨S32x512x1024, .f32⟩ : BufTy).Contents (Elt F) → (⟨S32x1024x2048, .f32⟩ : BufTy).Contents (Elt F) → (⟨S32x512x2048, .f32⟩ : BufTy).Contents (Elt F)),
    unary main_arg4 main_v33 (broadcastInDim S32x1x2048 ![0, 2] bcast_S32x2048_S32x1x2048_0_2 : (⟨S32x2048, .f32⟩ : BufTy).Contents (Elt F) → (⟨S32x1x2048, .f32⟩ : BufTy).Contents (Elt F)),
    unary main_v33 main_v34 (broadcastInDim S32x512x2048 ![0, 1, 2] bcast_S32x1x2048_S32x512x2048_0_1_2 : (⟨S32x1x2048, .f32⟩ : BufTy).Contents (Elt F) → (⟨S32x512x2048, .f32⟩ : BufTy).Contents (Elt F)),
    binary main_v32 main_v34 main_v35 (addf : (⟨S32x512x2048, .f32⟩ : BufTy).Contents (Elt F) → (⟨S32x512x2048, .f32⟩ : BufTy).Contents (Elt F) → (⟨S32x512x2048, .f32⟩ : BufTy).Contents (Elt F)) ]

/-- The fourth stretch, 19 operations: the index pairs once more, the gather of the result's rows at them, and the
    reshape to [4, 2048, 2048]. -/
abbrev opsD : List (HloOp τ sig (Elt F)) :=
  [
    nullary main_c_3 (constantI S_ 32 0#32),
    unary main_c_3 main_v36 (broadcastInDim S8192 ![] bcast_S_S8192 : (⟨S_, .i32⟩ : BufTy).Contents (Elt F) → (⟨S8192, .i32⟩ : BufTy).Contents (Elt F)),
    binary main_arg7 main_v36 main_v37 (cmpi .slt : (⟨S8192, .i32⟩ : BufTy).Contents (Elt F) → (⟨S8192, .i32⟩ : BufTy).Contents (Elt F) → (⟨S8192, .i1⟩ : BufTy).Contents (Elt F)),
    nullary main_c_4 (constantI S_ 32 32#32),
    unary main_c_4 main_v38 (broadcastInDim S8192 ![] bcast_S_S8192 : (⟨S_, .i32⟩ : BufTy).Contents (Elt F) → (⟨S8192, .i32⟩ : BufTy).Contents (Elt F)),
    binary main_arg7 main_v38 main_v39 (addi : (⟨S8192, .i32⟩ : BufTy).Contents (Elt F) → (⟨S8192, .i32⟩ : BufTy).Contents (Elt F) → (⟨S8192, .i32⟩ : BufTy).Contents (Elt F)),
    ternary main_v37 main_v39 main_arg7 main_v40 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v41 (broadcastInDim S8192 ![] bcast_S_S8192 : (⟨S_, .i32⟩ : BufTy).Contents (Elt F) → (⟨S8192, .i32⟩ : BufTy).Contents (Elt F)),
    binary main_v6 main_v41 main_v42 (cmpi .slt : (⟨S8192, .i32⟩ : BufTy).Contents (Elt F) → (⟨S8192, .i32⟩ : BufTy).Contents (Elt F) → (⟨S8192, .i1⟩ : BufTy).Contents (Elt F)),
    nullary main_c_6 (constantI S_ 32 512#32),
    unary main_c_6 main_v43 (broadcastInDim S8192 ![] bcast_S_S8192 : (⟨S_, .i32⟩ : BufTy).Contents (Elt F) → (⟨S8192, .i32⟩ : BufTy).Contents (Elt F)),
    binary main_v6 main_v43 main_v44 (addi : (⟨S8192, .i32⟩ : BufTy).Contents (Elt F) → (⟨S8192, .i32⟩ : BufTy).Contents (Elt F) → (⟨S8192, .i32⟩ : BufTy).Contents (Elt F)),
    ternary main_v42 main_v44 main_v6 main_v45 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v40 main_v46 (broadcastInDim S8192x1 ![0] bcast_S8192_S8192x1_0 : (⟨S8192, .i32⟩ : BufTy).Contents (Elt F) → (⟨S8192x1, .i32⟩ : BufTy).Contents (Elt F)),
    unary main_v45 main_v47 (broadcastInDim S8192x1 ![0] bcast_S8192_S8192x1_0 : (⟨S8192, .i32⟩ : BufTy).Contents (Elt F) → (⟨S8192x1, .i32⟩ : BufTy).Contents (Elt F)),
    binary main_v46 main_v47 main_v48 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v35 main_v48 main_v49 ((fun x i => Host.gather gather_S32x512x2048_S8192x2_S8192x2048_1_01_n_n_01_1_112048 x i) : (⟨S32x512x2048, .f32⟩ : BufTy).Contents (Elt F) → (⟨S8192x2, .i32⟩ : BufTy).Contents (Elt F) → (⟨S8192x2048, .f32⟩ : BufTy).Contents (Elt F)),
    reshape main_v49 main_v50 rfl shapeCasts_S8192x2048_S4x2048x2048 ]

/-- @main's 96 operations in order, the calls run in place. -/
abbrev ops : List (HloOp τ sig (Elt F)) := opsA ++ opsB ++ opsC ++ opsD

-- ninety-six binds and four list appends unfolded in one definitional check
set_option maxRecDepth 8192 in
set_option maxHeartbeats 4000000 in
/-- @main is that straight line: with the functions unfolded at their calls and the records at their fields, both
    sides are the same chain of host steps, sequencing reassociated by computation. -/
theorem main_eq (c : Dev nD) : main (F := F) c = seq ops := by rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨reshape_bufs_sub .., unary_bufs_sub .., nullary_bufs_sub .., unary_bufs_sub .., unary_bufs_sub .., binary_bufs_sub ..,
    unary_bufs_sub .., nullary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub ..⟩
theorem opsB_sub : (opsB : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub ..⟩
theorem opsC_sub : (opsC : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., binary_bufs_sub .., binary_bufs_sub ..,
    binary_bufs_sub .., unary_bufs_sub .., unary_bufs_sub .., binary_bufs_sub ..⟩
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    reshape_bufs_sub ..⟩

/-- Every buffer an operation of the line touches is one of the core's references. -/
theorem ops_sub : (ops : List (HloOp τ sig (Elt F))).Forall fun op => op.bufs ⊆ tcRefs τ sig := by
  rw [List.forall_iff_forall_mem]
  intro op h
  simp only [ops, List.mem_append] at h
  rcases h with ((h | h) | h) | h
  · exact List.forall_iff_forall_mem.mp opsA_sub op h
  · exact List.forall_iff_forall_mem.mp opsB_sub op h
  · exact List.forall_iff_forall_mem.mp opsC_sub op h
  · exact List.forall_iff_forall_mem.mp opsD_sub op h

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h

/-- No operation of the line leaves a result undetermined. -/
theorem ops_fresh : ∀ op ∈ (ops : List (HloOp τ sig (Elt F))), op.fresh = ∅ := by
  intro op h
  simp only [ops, List.mem_append] at h
  rcases h with ((h | h) | h) | h
  · exact opsA_fresh op h
  · exact opsB_fresh op h
  · exact opsC_fresh op h
  · exact opsD_fresh op h

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The result as a pure term of the argument arrays -/

/-- The one-hot table of the expert indices: entry (t, e) is 1 when token t's index is e, else 0. -/
def ohR (a7 : IVec S8192 32) : IVec S8192x32 32 :=
  extui 32 (cmpi .eq
      (broadcastInDim S8192x32 ![0, 1] bcast_S8192x1_S8192x32_0_1 (broadcastInDim S8192x1 ![0] bcast_S8192_S8192x1_0 a7))
      (broadcastInDim S8192x32 ![0, 1] bcast_S1x32_S8192x32_0_1 (iotaInDim S1x32 32 1))) natLt_1_32

/-- The running sum of a table down the token axis, row t itself included: a windowed sum over 8192 rows ending at t,
    the rows before the first padded with zero. -/
def csR (oh : IVec S8192x32 32) : IVec S8192x32 32 :=
  Host.reduceWindow IntOp.addi ![8192, 1] ![1, 1] ![8191, 0] ![0, 0] oh
    (broadcastInDim S_ ![] bcast_S_S_ (constantI S_ 32 0#32)) reduceWindows_S8192x32_S8192x32_w8192s1p8191_0_w1s1p0_0 h_S_

/-- Column indices as start indices [8192, 1, 1], a negative one counted from the end (plus 32). -/
def wrapR (i : IVec S8192x1 32) : IVec S8192x1x1 32 :=
  shapeCast S8192x1x1
    (select (cmpi .slt i (broadcastInDim S8192x1 ![] bcast_S_S8192x1 (constantI S_ 32 0#32)))
      (addi i (broadcastInDim S8192x1 ![] bcast_S_S8192x1 (constantI S_ 32 32#32))) i)
    shapeCasts_S8192x1_S8192x1x1

/-- Which start indices lie in [0, 31]. -/
def maskR (j : IVec S8192x1x1 32) : IVec S8192x1 1 :=
  Host.reduce IntOp.andi
    (andi (cmpi .sge j (broadcastInDim S8192x1x1 ![] bcast_S_S8192x1x1 (constantI S_ 32 0#32)))
      (cmpi .sle j (broadcastInDim S8192x1x1 ![0, 1, 2] bcast_S1x1x1_S8192x1x1_0_1_2
        (broadcastInDim S1x1x1 ![2] bcast_S1_S1x1x1_2 (constantI S1 32 31#32)))))
    (constantI S_ 1 1#1) reducesTo_S8192x1x1_S8192x1_d2 h_S_

/-- Row t of `x` read at column `i t`; where that column is out of range, the most negative integer. -/
def takeR (x : IVec S8192x32 32) (i : IVec S8192x1 32) : IVec S8192x1 32 :=
  select (maskR (wrapR i)) (Host.gather gather_S8192x32_S8192x1x1_S8192x1_n_1_0_0_1_2_11 x (wrapR i))
    (broadcastInDim S8192x1 ![] bcast_S_S8192x1 (constantI S_ 32 2147483648#32))

/-- Each token's position inside its expert's capacity buffer: the running sum of the one-hot table minus the table,
    read at the token's own expert — how many earlier tokens chose the same expert. -/
def posR (a7 : IVec S8192 32) : IVec S8192 32 :=
  shapeCast S8192 (takeR (subi (csR (ohR a7)) (ohR a7)) (broadcastInDim S8192x1 ![0] bcast_S8192_S8192x1_0 a7))
    shapeCasts_S8192x1_S8192

/-- An index vector with its negative entries counted from the end of an axis of length `n`. -/
def wrapI (n : BitVec 32) (i : IVec S8192 32) : IVec S8192 32 :=
  select (cmpi .slt i (broadcastInDim S8192 ![] bcast_S_S8192 (constantI S_ 32 0#32)))
    (addi i (broadcastInDim S8192 ![] bcast_S_S8192 (constantI S_ 32 n))) i

/-- The index pairs (expert, position), one row per token: the experts wrapped on an axis of 32, the positions on an
    axis of 512, side by side. -/
def pairR (a7 pos : IVec S8192 32) : IVec S8192x2 32 :=
  concatenate S8192x2 1
    [⟨S8192x1, broadcastInDim S8192x1 ![0] bcast_S8192_S8192x1_0 (wrapI 32#32 a7)⟩,
     ⟨S8192x1, broadcastInDim S8192x1 ![0] bcast_S8192_S8192x1_0 (wrapI 512#32 pos)⟩]
    concatenates_S8192x1_S8192x1_S8192x2_d1

/-- The dispatched tokens: a zero [32, 512, 2048] array with token t's row set at (expert, position). -/
def xdR (a0 : FVec F S4x2048x2048 .f32) (a7 : IVec S8192 32) : FVec F S32x512x2048 .f32 :=
  Host.scatter scatter_S32x512x2048_S8192x2_S8192x2048_1_01_01_1 (fun _ b => b)
    (broadcastInDim S32x512x2048 ![] bcast_S_S32x512x2048 (constant (F := F) S_ .f32 0x00000000#32))
    (pairR a7 (posR a7))
    (shapeCast S8192x2048 a0 shapeCasts_S4x2048x2048_S8192x2048)

/-- x / (1 + exp (-x)) times x's own factor: x · (1 / (1 + exp (-x))), entry by entry. -/
def siluR (x : FVec F S32x512x1024 .f32) : FVec F S32x512x1024 .f32 :=
  mulf x (Host.divf (F := F) (broadcastInDim S32x512x1024 ![] bcast_S_S32x512x1024 (constant (F := F) S_ .f32 0x3F800000#32))
    (addf (broadcastInDim S32x512x1024 ![] bcast_S_S32x512x1024 (constant (F := F) S_ .f32 0x3F800000#32))
      (Host.exp (F := F) (Host.negf (F := F) x))))

/-- A bias [32, 1024] laid along the rows of [32, 512, 1024]. -/
def biasF (b : FVec F S32x1024 .f32) : FVec F S32x512x1024 .f32 :=
  broadcastInDim S32x512x1024 ![0, 1, 2] bcast_S32x1x1024_S32x512x1024_0_1_2
    (broadcastInDim S32x1x1024 ![0, 2] bcast_S32x1024_S32x1x1024_0_2 b)

/-- A bias [32, 2048] laid along the rows of [32, 512, 2048]. -/
def biasD (b : FVec F S32x2048 .f32) : FVec F S32x512x2048 .f32 :=
  broadcastInDim S32x512x2048 ![0, 1, 2] bcast_S32x1x2048_S32x512x2048_0_1_2
    (broadcastInDim S32x1x2048 ![0, 2] bcast_S32x2048_S32x1x2048_0_2 b)

/-- The expert network on every row of the dispatched array, expert by expert:
    (silu (xd · W1 + b1) ⊙ (xd · W3 + b3)) · W2 + b2. -/
def yR (xd : FVec F S32x512x2048 .f32) (a1 : FVec F S32x2048x1024 .f32) (a2 : FVec F S32x1024 .f32)
    (a3 : FVec F S32x1024x2048 .f32) (a4 : FVec F S32x2048 .f32) (a5 : FVec F S32x2048x1024 .f32)
    (a6 : FVec F S32x1024 .f32) : FVec F S32x512x2048 .f32 :=
  addf
    (Host.dotGeneral (F := F) dot_S32x512x1024_S32x1024x2048_S32x512x2048_2_1_1_2_0_0 none
      (mulf
        (siluR (addf (Host.dotGeneral (F := F) dot_S32x512x2048_S32x2048x1024_S32x512x1024_2_1_1_2_0_0 none xd a1) (biasF a2)))
        (addf (Host.dotGeneral (F := F) dot_S32x512x2048_S32x2048x1024_S32x512x1024_2_1_1_2_0_0 none xd a5) (biasF a6)))
      a3)
    (biasD a4)

/-- The combine: row t of the result is the row of `y` at token t's (expert, position), as [4, 2048, 2048]. -/
def outR (y : FVec F S32x512x2048 .f32) (a7 pos : IVec S8192 32) : FVec F S4x2048x2048 .f32 :=
  shapeCast S4x2048x2048
    (Host.gather gather_S32x512x2048_S8192x2_S8192x2048_1_01_n_n_01_1_112048 y (pairR a7 pos))
    shapeCasts_S8192x2048_S4x2048x2048

/-! ## The fold, stretch by stretch -/

/-- Two lines folded one after the other are their concatenation folded. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The arguments and the position vector: the buffers later stretches read and no stretch but the first writes. -/
abbrev keptRefs : List (Ref sig .tc) :=
  [main_arg0, main_arg1, main_arg2, main_arg3, main_arg4, main_arg5, main_arg6, main_arg7, main_v6]

theorem stageA_pos (W : Valuation τ sig (Elt F)) :
    after opsA W (main_v6 : DevRef τ sig) = posR (W (main_arg7 : DevRef τ sig)) := by
  after_results_simp
  simp only [TRef.toBuf, TRef.ofBuf, cast_eq]
  rfl

theorem stageA_rows (W : Valuation τ sig (Elt F)) :
    after opsA W (main_v0 : DevRef τ sig)
      = shapeCast S8192x2048 (W (main_arg0 : DevRef τ sig)) shapeCasts_S4x2048x2048_S8192x2048 := by
  after_results_simp
  rfl

theorem stageA_arg (W : Valuation τ sig (Elt F)) (r : Ref sig .tc)
    (hr : r ∈ [main_arg0, main_arg1, main_arg2, main_arg3, main_arg4, main_arg5, main_arg6, main_arg7]) :
    after opsA W (Proc.devRef .tc r) = W (Proc.devRef .tc r) := by
  simp only [List.mem_cons, List.not_mem_nil, or_false] at hr
  rcases hr with rfl | rfl | rfl | rfl | rfl | rfl | rfl | rfl <;> after_results_simp

theorem stageB_xd (W : Valuation τ sig (Elt F)) :
    after opsB W (main_v21 : DevRef τ sig)
      = Host.scatter scatter_S32x512x2048_S8192x2_S8192x2048_1_01_01_1 (fun _ b => b)
          (broadcastInDim S32x512x2048 ![] bcast_S_S32x512x2048 (constant (F := F) S_ .f32 0x00000000#32))
          (pairR (W (main_arg7 : DevRef τ sig)) (W (main_v6 : DevRef τ sig))) (W (main_v0 : DevRef τ sig)) := by
  after_results_simp
  rfl

theorem stageB_keep (W : Valuation τ sig (Elt F)) (r : Ref sig .tc) (hr : r ∈ keptRefs) :
    after opsB W (Proc.devRef .tc r) = W (Proc.devRef .tc r) := by
  simp only [keptRefs, List.mem_cons, List.not_mem_nil, or_false] at hr
  rcases hr with rfl | rfl | rfl | rfl | rfl | rfl | rfl | rfl | rfl <;> after_results_simp

theorem stageC_y (W : Valuation τ sig (Elt F)) :
    after opsC W (main_v35 : DevRef τ sig)
      = yR (W (main_v21 : DevRef τ sig)) (W (main_arg1 : DevRef τ sig)) (W (main_arg2 : DevRef τ sig))
          (W (main_arg3 : DevRef τ sig)) (W (main_arg4 : DevRef τ sig)) (W (main_arg5 : DevRef τ sig))
          (W (main_arg6 : DevRef τ sig)) := by
  after_results_simp
  simp only [TRef.toBuf, TRef.ofBuf, cast_eq]
  rfl

theorem stageC_keep (W : Valuation τ sig (Elt F)) (r : Ref sig .tc) (hr : r ∈ keptRefs) :
    after opsC W (Proc.devRef .tc r) = W (Proc.devRef .tc r) := by
  simp only [keptRefs, List.mem_cons, List.not_mem_nil, or_false] at hr
  rcases hr with rfl | rfl | rfl | rfl | rfl | rfl | rfl | rfl | rfl <;> after_results_simp

theorem stageD_out (W : Valuation τ sig (Elt F)) :
    after opsD W (main_v50 : DevRef τ sig)
      = outR (W (main_v35 : DevRef τ sig)) (W (main_arg7 : DevRef τ sig)) (W (main_v6 : DevRef τ sig)) := by
  after_results_simp
  rfl

theorem stageD_keep (W : Valuation τ sig (Elt F)) (r : Ref sig .tc) (hr : r ∈ keptRefs) :
    after opsD W (Proc.devRef .tc r) = W (Proc.devRef .tc r) := by
  simp only [keptRefs, List.mem_cons, List.not_mem_nil, or_false] at hr
  rcases hr with rfl | rfl | rfl | rfl | rfl | rfl | rfl | rfl | rfl <;> after_results_simp

/-- The fold at the result buffer is the staged term of the argument arrays: stretch by stretch, each stretch's result
    in terms of the buffers it reads, the arguments and the position vector carried through the later stretches. -/
theorem out_eq (V : Valuation τ sig (Elt F)) :
    after ops V (main_v50 : DevRef τ sig)
      = outR (yR (xdR (V (main_arg0 : DevRef τ sig)) (V (main_arg7 : DevRef τ sig))) (V (main_arg1 : DevRef τ sig))
            (V (main_arg2 : DevRef τ sig)) (V (main_arg3 : DevRef τ sig)) (V (main_arg4 : DevRef τ sig))
            (V (main_arg5 : DevRef τ sig)) (V (main_arg6 : DevRef τ sig)))
          (V (main_arg7 : DevRef τ sig)) (posR (V (main_arg7 : DevRef τ sig))) := by
  simp only [ops, after_append]
  rw [stageD_out, stageC_y, stageC_keep _ main_arg7 (by decide), stageC_keep _ main_v6 (by decide),
    stageB_xd, stageB_keep _ main_arg1 (by decide), stageB_keep _ main_arg2 (by decide),
    stageB_keep _ main_arg3 (by decide), stageB_keep _ main_arg4 (by decide), stageB_keep _ main_arg5 (by decide),
    stageB_keep _ main_arg6 (by decide), stageB_keep _ main_arg7 (by decide), stageB_keep _ main_v6 (by decide),
    stageA_pos, stageA_rows, stageA_arg _ main_arg1 (by decide), stageA_arg _ main_arg2 (by decide),
    stageA_arg _ main_arg3 (by decide), stageA_arg _ main_arg4 (by decide), stageA_arg _ main_arg5 (by decide),
    stageA_arg _ main_arg6 (by decide), stageA_arg _ main_arg7 (by decide)]
  rfl

/-- An argument buffer is written by no operation: it ends as it was launched. -/
theorem arg_eq (V : Valuation τ sig (Elt F)) (r : Ref sig .tc)
    (hr : r ∈ [main_arg0, main_arg1, main_arg2, main_arg3, main_arg4, main_arg5, main_arg6, main_arg7]) :
    after ops V (Proc.devRef .tc r) = V (Proc.devRef .tc r) := by
  have hk : r ∈ keptRefs := by
    simp only [List.mem_cons, List.not_mem_nil, or_false] at hr
    rcases hr with rfl | rfl | rfl | rfl | rfl | rfl | rfl | rfl <;> decide
  simp only [ops, after_append]
  rw [stageD_keep _ r hk, stageC_keep _ r hk, stageB_keep _ r hk, stageA_arg _ r hr]

theorem arg0_eq (V : Valuation τ sig (Elt F)) :
    after ops V (main_arg0 : DevRef τ sig) = V (main_arg0 : DevRef τ sig) := arg_eq V main_arg0 (by decide)
theorem arg1_eq (V : Valuation τ sig (Elt F)) :
    after ops V (main_arg1 : DevRef τ sig) = V (main_arg1 : DevRef τ sig) := arg_eq V main_arg1 (by decide)
theorem arg2_eq (V : Valuation τ sig (Elt F)) :
    after ops V (main_arg2 : DevRef τ sig) = V (main_arg2 : DevRef τ sig) := arg_eq V main_arg2 (by decide)
theorem arg3_eq (V : Valuation τ sig (Elt F)) :
    after ops V (main_arg3 : DevRef τ sig) = V (main_arg3 : DevRef τ sig) := arg_eq V main_arg3 (by decide)
theorem arg4_eq (V : Valuation τ sig (Elt F)) :
    after ops V (main_arg4 : DevRef τ sig) = V (main_arg4 : DevRef τ sig) := arg_eq V main_arg4 (by decide)
theorem arg5_eq (V : Valuation τ sig (Elt F)) :
    after ops V (main_arg5 : DevRef τ sig) = V (main_arg5 : DevRef τ sig) := arg_eq V main_arg5 (by decide)
theorem arg6_eq (V : Valuation τ sig (Elt F)) :
    after ops V (main_arg6 : DevRef τ sig) = V (main_arg6 : DevRef τ sig) := arg_eq V main_arg6 (by decide)
theorem arg7_eq (V : Valuation τ sig (Elt F)) :
    after ops V (main_arg7 : DevRef τ sig) = V (main_arg7 : DevRef τ sig) := arg_eq V main_arg7 (by decide)

end Cert.ReferenceIdeal.Hand

end
-- ==== Proof.RefValue.lean ====
/-
  The reference's result read at an index, at the ideal values.

  At the ideal values a float is an extended real and a contraction is a plain sum.  The expert network's result at
  (expert e, capacity row q, column d) is the sum over the 1024 hidden units f of the gated unit
  (s₁ · logistic s₁) · s₃ times W2[e, f, d], plus b2[e, d], where s₁ and s₃ are the two input contractions of row (e, q)
  of the dispatched array with column f of W1[e] and of W3[e], plus their biases.  The combine reads, for token t, the
  row of that result at (expert of t, position of t): when both lie inside their axes nothing wraps and no clamp binds.

  The first two sections read the two dimension-number records involved at an index, for any sizes: a batched matrix
  product, and a gather of whole rows of a three-axis operand by index pairs.
-/
import proofs.«427358_j7456063225884_2_alg».proof.Proof.RefRun
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.Value

open Cert.ReferenceIdeal Cert.ReferenceIdeal.Gen Cert.ReferenceIdeal.Hand Idealize.ShloMosaic Idealize.ShloMosaic.ValueIdx

/-! ## A batched matrix product read at an entry

The dimension numbers "axis 0 of both operands is a batch axis; contract the left operand's axis 2 with the right
operand's axis 1" describe B independent products of an [M, K] matrix with a [K, N] matrix. At the ideal values
entry (e, p, q) is the sum over k of l[e, p, k] * r[e, k, q]. -/

/-- The dimension numbers of the batched product [B, M, K] × [B, K, N] → [B, M, N], over any proof that they are
    well formed. -/
abbrev batchDims (B M K N : Nat)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

section BatchDot
variable {B M K N : Nat} (wf : DotDims.WF ⟨3, ![B, M, K]⟩ ⟨3, ![B, K, N]⟩ ⟨3, ![B, M, N]⟩ [2] [1] [1] [2] [0] [0])

/-- The left operand's batch coordinate is the result's. -/
theorem lhs_batch (j : (⟨3, ![B, M, N]⟩ : Shape).Idx) (k : (batchDims B M K N wf).contr.Idx) :
    ((batchDims B M K N wf).lhsIdx j k 0).val = (j 0).val := by
  unfold DotDims.lhsIdx
  rw [dif_pos (show (0 : Fin (⟨3, ![B, M, K]⟩ : Shape).rank) ∈ (batchDims B M K N wf).lhsBatch from List.mem_singleton.mpr rfl)]
  rfl

/-- The left operand's row is the result's row: its axis 1 is its one free axis, after the batch axis. -/
theorem lhs_row (j : (⟨3, ![B, M, N]⟩ : Shape).Idx) (k : (batchDims B M K N wf).contr.Idx) :
    ((batchDims B M K N wf).lhsIdx j k 1).val = (j 1).val := by
  unfold DotDims.lhsIdx
  rw [dif_neg (show ¬(1 : Fin 3) ∈ ([0] : List (Fin 3)) by decide),
    dif_pos (show (1 : Fin (⟨3, ![B, M, K]⟩ : Shape).rank) ∈ (batchDims B M K N wf).lhsNonContracting from List.mem_singleton.mpr rfl)]
  rfl

/-- The left operand's column is the contraction index. -/
theorem lhs_col (j : (⟨3, ![B, M, N]⟩ : Shape).Idx) (k : (batchDims B M K N wf).contr.Idx) :
    ((batchDims B M K N wf).lhsIdx j k 2).val = (k ⟨0, Nat.one_pos⟩).val :=
  (batchDims B M K N wf).lhsIdx_val_of_single rfl j k

/-- The right operand's batch coordinate is the result's. -/
theorem rhs_batch (j : (⟨3, ![B, M, N]⟩ : Shape).Idx) (k : (batchDims B M K N wf).contr.Idx) :
    ((batchDims B M K N wf).rhsIdx j k 0).val = (j 0).val := by
  unfold DotDims.rhsIdx
  rw [dif_pos (show (0 : Fin (⟨3, ![B, K, N]⟩ : Shape).rank) ∈ (batchDims B M K N wf).rhsBatch from List.mem_singleton.mpr rfl)]
  rfl

/-- The right operand's row is the contraction index. -/
theorem rhs_row (j : (⟨3, ![B, M, N]⟩ : Shape).Idx) (k : (batchDims B M K N wf).contr.Idx) :
    ((batchDims B M K N wf).rhsIdx j k 1).val = (k ⟨0, Nat.one_pos⟩).val :=
  (batchDims B M K N wf).rhsIdx_val_of_single rfl j k

/-- The right operand's column is the result's column: its axis 2 is its one free axis, after the batch axis and the
    left operand's free axis. -/
theorem rhs_col (j : (⟨3, ![B, M, N]⟩ : Shape).Idx) (k : (batchDims B M K N wf).contr.Idx) :
    ((batchDims B M K N wf).rhsIdx j k 2).val = (j 2).val := by
  unfold DotDims.rhsIdx
  rw [dif_neg (show ¬(2 : Fin 3) ∈ ([0] : List (Fin 3)) by decide),
    dif_pos (show (2 : Fin (⟨3, ![B, K, N]⟩ : Shape).rank) ∈ (batchDims B M K N wf).rhsNonContracting from List.mem_singleton.mpr rfl)]
  rfl

/-- The contraction's sum over the one contracted axis, re-indexed by its coordinate k : Fin K: the operands are read
    at (e, p, k) and (e, k, q). -/
theorem sum_contr {α : Type} [AddCommMonoid α]
    (f : (⟨3, ![B, M, K]⟩ : Shape).Idx → (⟨3, ![B, K, N]⟩ : Shape).Idx → α) (e : Fin B) (p : Fin M) (q : Fin N) :
    ∑ k : (batchDims B M K N wf).contr.Idx,
        f ((batchDims B M K N wf).lhsIdx (ix3 e p q) k) ((batchDims B M K N wf).rhsIdx (ix3 e p q) k)
      = ∑ k : Fin K, f (ix3 e p k) (ix3 e k q) := by
  rw [← Equiv.sum_comp (contrEquiv1 (batchDims B M K N wf) K rfl rfl).symm]
  refine Finset.sum_congr rfl fun k _ => ?_
  have hk := contrEquiv1_symm_val (batchDims B M K N wf) K rfl rfl k
  have el : (batchDims B M K N wf).lhsIdx (ix3 e p q) ((contrEquiv1 (batchDims B M K N wf) K rfl rfl).symm k) = ix3 e p k :=
    funext fun a => Fin.ext (by
      match a with
      | ⟨0, _⟩ => exact lhs_batch wf _ _
      | ⟨1, _⟩ => exact lhs_row wf _ _
      | ⟨2, _⟩ => exact (lhs_col wf _ _).trans hk)
  have er : (batchDims B M K N wf).rhsIdx (ix3 e p q) ((contrEquiv1 (batchDims B M K N wf) K rfl rfl).symm k) = ix3 e k q :=
    funext fun a => Fin.ext (by
      match a with
      | ⟨0, _⟩ => exact rhs_batch wf _ _
      | ⟨1, _⟩ => exact (rhs_row wf _ _).trans hk
      | ⟨2, _⟩ => exact rhs_col wf _ _)
  rw [el, er]

/-- The host's batched dot_general, at the ideal values, read at (e, p, q). -/
theorem batchDot_apply {φ₁ φ₂ : FTy} (prec : Option ContractPrecision) (sched : HostSchedule)
    (l : FVec Ideal ⟨3, ![B, M, K]⟩ φ₁) (r : FVec Ideal ⟨3, ![B, K, N]⟩ φ₂) (e : Fin B) (p : Fin M) (q : Fin N) :
    FloatOps.dotGeneral (batchDims B M K N wf) prec sched l r (ix3 e p q)
      = ∑ k : Fin K, l (ix3 e p k) * r (ix3 e k q) := by
  rw [Ideal.dotGeneral_apply]
  exact sum_contr wf (fun a b => l a * r b) e p q

end BatchDot

/-! ## A gather of rows of a three-axis operand by index pairs, read at an entry

For an operand [R, C, D] and one pair of indices per result row, idx : [T, 2], the gather with offset_dims [1],
collapsed_slice_dims [0, 1], start_index_map [0, 1], index_vector_dim 1 and slice_sizes [1, 1, D] takes, for every t,
the whole row of D entries at (idx[t, 0], idx[t, 1]): each component is read signed and clamped into its axis, the
slice covers all of axis 2 so its start there is 0, and the result's column is the offset on that axis. -/

/-- The dimension numbers of the row gather by index pairs, over any proof that they are well formed. -/
abbrev rowPairDims (R C D T : Nat)
    (wf : GatherDims.WF ⟨3, ![R, C, D]⟩ ⟨2, ![T, 2]⟩ ⟨2, ![T, D]⟩ [1] [0, 1] [] [0, 1] [] 1 ![1, 1, D]) :
    GatherDims ⟨3, ![R, C, D]⟩ ⟨2, ![T, 2]⟩ ⟨2, ![T, D]⟩ where
  offsetDims := [1]
  collapsedSliceDims := [0, 1]
  operandBatchingDims := []
  startIndicesBatchingDims := []
  startIndexMap := [0, 1]
  indexVectorDim := 1
  sliceSizes := ![1, 1, D]
  wf := wf

section RowPair
variable {R C D T w : Nat}
  (wf : GatherDims.WF ⟨3, ![R, C, D]⟩ ⟨2, ![T, 2]⟩ ⟨2, ![T, D]⟩ [1] [0, 1] [] [0, 1] [] 1 ![1, 1, D])

/-- Result entry (t, d) reads component c of its start index at (t, c): the result's axis 0 is its one batch axis and
    supplies the indices' axis 0; the index vector lies along the indices' axis 1. -/
theorem rowPair_siIdx (t : Fin T) (d : Fin D) (c : Fin (rowPairDims R C D T wf).startIndexMap.length) :
    (rowPairDims R C D T wf).siIdx (ix2 t d) c = ix2 t (⟨c.val, c.isLt⟩ : Fin 2) := by
  funext b
  refine Fin.ext ?_
  match b with
  | ⟨0, _⟩ => rfl
  | ⟨1, _⟩ => rfl

/-- On axis 0 the slice starts at the first component of the start index, read signed and clamped into [0, R - 1]. -/
theorem rowPair_start0 (idx : IVec ⟨2, ![T, 2]⟩ w) (t : Fin T) (d : Fin D) :
    (rowPairDims R C D T wf).start (ix2 t d) idx 0 = min (idx (ix2 t (0 : Fin 2))).toInt.toNat (R - 1) := by
  unfold GatherDims.start
  rw [dif_pos (show (0 : Fin 3) ∈ (rowPairDims R C D T wf).startIndexMap from List.mem_cons_self), rowPair_siIdx]
  rfl

/-- On axis 1 the slice starts at the second component, read signed and clamped into [0, C - 1]. -/
theorem rowPair_start1 (idx : IVec ⟨2, ![T, 2]⟩ w) (t : Fin T) (d : Fin D) :
    (rowPairDims R C D T wf).start (ix2 t d) idx 1 = min (idx (ix2 t (1 : Fin 2))).toInt.toNat (C - 1) := by
  unfold GatherDims.start
  rw [dif_pos (show (1 : Fin 3) ∈ (rowPairDims R C D T wf).startIndexMap from
      List.mem_cons_of_mem _ List.mem_cons_self), rowPair_siIdx]
  rfl

/-- The start index map does not name axis 2: the slice starts at 0 there. -/
theorem rowPair_start2 (idx : IVec ⟨2, ![T, 2]⟩ w) (t : Fin T) (d : Fin D) :
    (rowPairDims R C D T wf).start (ix2 t d) idx 2 = 0 := by
  unfold GatherDims.start
  rw [dif_neg (show ¬(2 : Fin 3) ∈ ([0, 1] : List (Fin 3)) by decide)]

/-- Axes 0 and 1 are collapsed: the result gives them no offset. -/
theorem rowPair_off01 (t : Fin T) (d : Fin D) (a : Fin 3) (ha : a = 0 ∨ a = 1) :
    (rowPairDims R C D T wf).offCoord (ix2 t d) a = 0 :=
  GatherDims.offCoord_eq_zero _ _ _ (fun h => ((GatherDims.mem_sKept _ _).mp h).1 (by
    rcases ha with rfl | rfl
    · exact List.mem_cons_self
    · exact List.mem_cons_of_mem _ List.mem_cons_self))

/-- Axis 2 is the one kept axis: its offset is the result's column. -/
theorem rowPair_off2 (t : Fin T) (d : Fin D) : (rowPairDims R C D T wf).offCoord (ix2 t d) 2 = d.val := by
  unfold GatherDims.offCoord
  rw [dif_pos ((GatherDims.mem_sKept _ _).mpr ⟨(show ¬(2 : Fin 3) ∈ ([0, 1] : List (Fin 3)) by decide), List.not_mem_nil⟩)]
  rfl

end RowPair

/-- The row gather by index pairs read at (t, d): the operand at (idx[t, 0], idx[t, 1], d), the two components read
    signed and clamped into their axes. -/
theorem rowPairGather_apply {α : Type} {R C D T w : Nat} (hR : 0 < R) (hC : 0 < C)
    (wf : GatherDims.WF ⟨3, ![R, C, D]⟩ ⟨2, ![T, 2]⟩ ⟨2, ![T, D]⟩ [1] [0, 1] [] [0, 1] [] 1 ![1, 1, D])
    (x : (⟨3, ![R, C, D]⟩ : Shape).Idx → α) (idx : IVec ⟨2, ![T, 2]⟩ w) (t : Fin T) (d : Fin D) :
    Host.gather (rowPairDims R C D T wf) x idx (ix2 t d)
      = x (ix3 (⟨min (idx (ix2 t (0 : Fin 2))).toInt.toNat (R - 1), by omega⟩ : Fin R)
               (⟨min (idx (ix2 t (1 : Fin 2))).toInt.toNat (C - 1), by omega⟩ : Fin C) d) := by
  have hb : ∀ a, (rowPairDims R C D T wf).batchCoord (ix2 t d) a = 0 :=
    fun a => GatherDims.batchCoord_eq_zero _ _ a List.not_mem_nil
  unfold Host.gather
  congr 1
  funext a
  refine Fin.ext ?_
  match a with
  | ⟨0, _⟩ =>
    show (rowPairDims R C D T wf).start (ix2 t d) idx 0 + (rowPairDims R C D T wf).batchCoord (ix2 t d) 0
        + (rowPairDims R C D T wf).offCoord (ix2 t d) 0 = min (idx (ix2 t (0 : Fin 2))).toInt.toNat (R - 1)
    rw [hb, rowPair_off01 wf t d 0 (Or.inl rfl), rowPair_start0]
    rfl
  | ⟨1, _⟩ =>
    show (rowPairDims R C D T wf).start (ix2 t d) idx 1 + (rowPairDims R C D T wf).batchCoord (ix2 t d) 1
        + (rowPairDims R C D T wf).offCoord (ix2 t d) 1 = min (idx (ix2 t (1 : Fin 2))).toInt.toNat (C - 1)
    rw [hb, rowPair_off01 wf t d 1 (Or.inr rfl), rowPair_start1]
    rfl
  | ⟨2, _⟩ =>
    show (rowPairDims R C D T wf).start (ix2 t d) idx 2 + (rowPairDims R C D T wf).batchCoord (ix2 t d) 2
        + (rowPairDims R C D T wf).offCoord (ix2 t d) 2 = d.val
    rw [hb, rowPair_off2, rowPair_start2]
    omega

/-! ## The reference's stages at an index -/

/-- A bias [32, 1024] laid along the rows reads, at (e, q, f), the bias at (e, f). -/
theorem biasF_apply {F : FTy → Type} [FloatOps F] (b : FVec F S32x1024 .f32) (e : Fin 32) (q : Fin 512) (f : Fin 1024) :
    biasF b (ix3 e q f) = b (ix2 e f) := by
  unfold biasF
  rw [broadcastInDim_apply _ _ _ (ix3 e q f) (ix3 e (0 : Fin 1) f)
    (by intro a; match a with | ⟨0, _⟩ => rfl | ⟨1, _⟩ => rfl | ⟨2, _⟩ => rfl)]
  exact broadcastInDim_apply _ _ _ _ (ix2 e f) (by intro a; match a with | ⟨0, _⟩ => rfl | ⟨1, _⟩ => rfl)

/-- A bias [32, 2048] laid along the rows reads, at (e, q, d), the bias at (e, d). -/
theorem biasD_apply {F : FTy → Type} [FloatOps F] (b : FVec F S32x2048 .f32) (e : Fin 32) (q : Fin 512) (d : Fin 2048) :
    biasD b (ix3 e q d) = b (ix2 e d) := by
  unfold biasD
  rw [broadcastInDim_apply _ _ _ (ix3 e q d) (ix3 e (0 : Fin 1) d)
    (by intro a; match a with | ⟨0, _⟩ => rfl | ⟨1, _⟩ => rfl | ⟨2, _⟩ => rfl)]
  exact broadcastInDim_apply _ _ _ _ (ix2 e d) (by intro a; match a with | ⟨0, _⟩ => rfl | ⟨1, _⟩ => rfl)

/-- x · (1 / (1 + exp (-x))) is x times the logistic of x, for every extended real: the logistic is that quotient
    by definition, and the constant's pattern is the real one. -/
theorem siluR_apply (x : FVec Ideal S32x512x1024 .f32) (i : S32x512x1024.Idx) :
    siluR (F := Ideal) x i = x i * Ideal.logistic (x i) := by
  show x i * Ideal.div (Ideal.ofBits .f32 0x3F800000#32) (Ideal.ofBits .f32 0x3F800000#32 + Ideal.exp (-(x i))) = _
  rw [Ideal.ofBits_one_f32]
  rfl

/-- The two input contractions at (e, q, f): a sum over the 2048 input columns. -/
theorem dotIn_apply (l : FVec Ideal S32x512x2048 .f32) (r : FVec Ideal S32x2048x1024 .f32) (e : Fin 32) (q : Fin 512)
    (f : Fin 1024) :
    Host.dotGeneral (F := Ideal) dot_S32x512x2048_S32x2048x1024_S32x512x1024_2_1_1_2_0_0 none l r (ix3 e q f)
      = ∑ k : Fin 2048, l (ix3 e q k) * r (ix3 e k f) :=
  batchDot_apply dot_S32x512x2048_S32x2048x1024_S32x512x1024_2_1_1_2_0_0_wf none .single l r e q f

/-- The output contraction at (e, q, d): a sum over the 1024 hidden units. -/
theorem dotOut_apply (l : FVec Ideal S32x512x1024 .f32) (r : FVec Ideal S32x1024x2048 .f32) (e : Fin 32) (q : Fin 512)
    (d : Fin 2048) :
    Host.dotGeneral (F := Ideal) dot_S32x512x1024_S32x1024x2048_S32x512x2048_2_1_1_2_0_0 none l r (ix3 e q d)
      = ∑ f : Fin 1024, l (ix3 e q f) * r (ix3 e f d) :=
  batchDot_apply dot_S32x512x1024_S32x1024x2048_S32x512x2048_2_1_1_2_0_0_wf none .single l r e q d

/-- The gated hidden unit f of row (e, q): with s₁ and s₃ the two input contractions plus their biases,
    (s₁ · logistic s₁) · s₃. -/
def gateR (xd : FVec Ideal S32x512x2048 .f32) (a1 : FVec Ideal S32x2048x1024 .f32) (a2 : FVec Ideal S32x1024 .f32)
    (a5 : FVec Ideal S32x2048x1024 .f32) (a6 : FVec Ideal S32x1024 .f32) (e : Fin 32) (q : Fin 512) (f : Fin 1024) : EReal :=
  let s1 : EReal := (∑ k : Fin 2048, xd (ix3 e q k) * a1 (ix3 e k f)) + a2 (ix2 e f)
  let s3 : EReal := (∑ k : Fin 2048, xd (ix3 e q k) * a5 (ix3 e k f)) + a6 (ix2 e f)
  (s1 * Ideal.logistic s1) * s3

/-- The expert network's result at (e, q, d). -/
theorem yR_apply (xd : FVec Ideal S32x512x2048 .f32) (a1 : FVec Ideal S32x2048x1024 .f32) (a2 : FVec Ideal S32x1024 .f32)
    (a3 : FVec Ideal S32x1024x2048 .f32) (a4 : FVec Ideal S32x2048 .f32) (a5 : FVec Ideal S32x2048x1024 .f32)
    (a6 : FVec Ideal S32x1024 .f32) (e : Fin 32) (q : Fin 512) (d : Fin 2048) :
    yR (F := Ideal) xd a1 a2 a3 a4 a5 a6 (ix3 e q d)
      = (∑ f : Fin 1024, gateR xd a1 a2 a5 a6 e q f * a3 (ix3 e f d)) + a4 (ix2 e d) := by
  unfold yR
  rw [addf_apply, biasD_apply, dotOut_apply]
  congr 1
  refine Finset.sum_congr rfl fun f _ => ?_
  rw [mulf_apply, siluR_apply, addf_apply, addf_apply, dotIn_apply, dotIn_apply, biasF_apply, biasF_apply]
  rfl

/-! ### The combine -/

/-- A word that is not negative as a signed number is not below zero. -/
theorem slt_zero_of_nonneg (x : BitVec 32) (h : 0 ≤ x.toInt) : IntOp.cmpi .slt x 0#32 = 0#1 := by
  show BitVec.ofBool (x.slt 0#32) = 0#1
  rw [BitVec.slt_eq_decide, BitVec.toInt_zero, decide_eq_false (by omega)]
  rfl

/-- An index that is not negative is left as it is by the wrap. -/
theorem wrapI_apply_of_nonneg (n : BitVec 32) (v : IVec S8192 32) (t : Fin 8192) (h : 0 ≤ (v (ix1 t)).toInt) :
    wrapI n v (ix1 t) = v (ix1 t) := by
  show Scalar.select (IntOp.cmpi .slt (v (ix1 t)) 0#32) _ (v (ix1 t)) = _
  rw [slt_zero_of_nonneg _ h, select_zero]

/-- A word whose signed value lies in [0, n) with n at most 2³¹, read signed and clamped into [0, n - 1], is its
    unsigned value. -/
theorem clamp_of_range (x : BitVec 32) (n : Nat) (h0 : 0 ≤ x.toInt) (h1 : x.toInt < n) :
    min x.toInt.toNat (n - 1) = x.toNat := by
  rw [BitVec.toInt_eq_toNat_cond] at h0 h1
  rw [BitVec.toInt_eq_toNat_cond]
  have := x.isLt
  split at h0 <;> split <;> omega

/-- Column 0 of the index pairs is the wrapped expert, column 1 the wrapped position. -/
theorem pairR_apply0 (a7 pos : IVec S8192 32) (t : Fin 8192) :
    pairR a7 pos (ix2 t (0 : Fin 2)) = wrapI 32#32 a7 (ix1 t) := by
  unfold pairR
  rw [concatenate_pair_apply_left (t := S8192x2) (s₁ := S8192x1) (s₂ := S8192x1) (1 : Fin 2) _ _ _ (ix2 t (0 : Fin 2)) rfl (ix2 t (0 : Fin 1))
    (by intro b; match b with | ⟨0, _⟩ => rfl | ⟨1, _⟩ => rfl)]
  exact broadcastInDim_apply _ _ _ _ (ix1 t) (by intro a; match a with | ⟨0, _⟩ => rfl)

theorem pairR_apply1 (a7 pos : IVec S8192 32) (t : Fin 8192) :
    pairR a7 pos (ix2 t (1 : Fin 2)) = wrapI 512#32 pos (ix1 t) := by
  unfold pairR
  rw [concatenate_pair_apply_right (t := S8192x2) (s₁ := S8192x1) (s₂ := S8192x1) (1 : Fin 2) _ _ _ (ix2 t (1 : Fin 2)) rfl rfl (ix2 t (0 : Fin 1))
    (by intro b hb; match b with | ⟨0, _⟩ => rfl | ⟨1, _⟩ => exact absurd rfl hb) rfl]
  exact broadcastInDim_apply _ _ _ _ (ix1 t) (by intro a; match a with | ⟨0, _⟩ => rfl)

/-- The combine at token t (as (t / 2048, t % 2048)) and column d, when the token's expert and position lie inside
    their axes: the row of `y` at (expert, position). -/
theorem outR_apply (y : FVec Ideal S32x512x2048 .f32) (a7 pos : IVec S8192 32) (t : Fin 8192) (d : Fin 2048)
    (he : 0 ≤ (a7 (ix1 t)).toInt ∧ (a7 (ix1 t)).toInt < 32) (hq : 0 ≤ (pos (ix1 t)).toInt ∧ (pos (ix1 t)).toInt < 512) :
    outR (F := Ideal) y a7 pos
        (ix3 (⟨t.val / 2048, by have := t.isLt; omega⟩ : Fin 4) (⟨t.val % 2048, Nat.mod_lt _ (by decide)⟩ : Fin 2048) d)
      = y (ix3 (⟨(a7 (ix1 t)).toNat, by
              have h := he.2; have h0 := he.1
              rw [BitVec.toInt_eq_toNat_cond] at h h0; split at h <;> omega⟩ : Fin 32)
            (⟨(pos (ix1 t)).toNat, by
              have h := hq.2; have h0 := hq.1
              rw [BitVec.toInt_eq_toNat_cond] at h h0; split at h <;> omega⟩ : Fin 512) d) := by
  unfold outR
  rw [shapeCast_apply _ _ _ (ix2 t d) (by
    rw [Shape.rowMajor_val_two, Shape.rowMajor_val_three]
    show t.val * 2048 + d.val = (t.val / 2048 * 2048 + t.val % 2048) * 2048 + d.val
    have := Nat.div_add_mod t.val 2048; omega)]
  rw [show gather_S32x512x2048_S8192x2_S8192x2048_1_01_n_n_01_1_112048
      = rowPairDims 32 512 2048 8192 gather_S32x512x2048_S8192x2_S8192x2048_1_01_n_n_01_1_112048_wf from rfl,
    rowPairGather_apply (by decide) (by decide)]
  refine congrArg y (funext fun a => Fin.ext ?_)
  match a with
  | ⟨0, _⟩ =>
    show min (pairR a7 pos (ix2 t (0 : Fin 2))).toInt.toNat (32 - 1) = (a7 (ix1 t)).toNat
    rw [pairR_apply0, wrapI_apply_of_nonneg _ _ _ he.1]
    exact clamp_of_range _ 32 he.1 he.2
  | ⟨1, _⟩ =>
    show min (pairR a7 pos (ix2 t (1 : Fin 2))).toInt.toNat (512 - 1) = (pos (ix1 t)).toNat
    rw [pairR_apply1, wrapI_apply_of_nonneg _ _ _ hq.1]
    exact clamp_of_range _ 512 hq.1 hq.2
  | ⟨2, _⟩ => rfl

end Cert.ReferenceIdeal.Value

end
-- ==== Proof.PreDecode.lean ====
/-
  The precondition, read back as arithmetic.

  The precondition is a conjunction of ten universally quantified tests. Seven say that a float argument is finite; the last
  three speak of the expert indices alone: every index is at least 0, every index is below 32, and every expert receives
  at most 512 tokens, where an expert's count is the column sum of the one-hot of the indices. This file extracts those
  three facts as inequalities between signed values, first from the predicate applied to any eight arrays, then from the
  precondition as the claims state it of a memory.
-/
import proofs.«427358_j7456063225884_2_alg».proof.Defs
import proofs.«427358_j7456063225884_2_alg».proof.Proof.Gen.Pre_finite_inputs
import Idealize.ShloMosaic.Lib.StableHlo.Predicate
import Idealize.ShloMosaic.Lib.ReduceAll
import Idealize.ShloMosaic.Lib.ValueIdx

noncomputable section

namespace Cert.Proof.PreDecode

open Idealize.ShloMosaic Idealize.ShloMosaic.ValueIdx Idealize.SL.Sem
open Cert.Pre_finite_inputs Cert.Pre_finite_inputs.Facts

variable [Cert.Pre_finite_inputs.Facts]
variable {F : FTy → Type} [FloatOps F]

/-- The per-expert token counts as the precondition spells them: the one-hot of the indices (index `t` against column
    `e`), widened to 32 bits and summed down each column. -/
def cntPre (a7 : IVec S8192 32) : IVec S32 32 :=
  Host.reduce IntOp.addi
    (extui 32 (cmpi .eq (broadcastInDim S8192x32 ![0, 1] bcast_S8192x1_S8192x32_0_1
        (broadcastInDim S8192x1 ![0] bcast_S8192_S8192x1_0 a7)) (iotaInDim S8192x32 32 1)) natLt_1_32)
    (constantI S_ 32 0#32) reducesTo_S8192x32_S32_d0 h_S_

/-! ## Signed word comparisons that came out 1, as inequalities between the signed values -/

theorem sge_toInt {w : Nat} {x y : BitVec w} (h : IntOp.cmpi .sge x y = 1#1) : y.toInt ≤ x.toInt := by
  have h' : BitVec.ofBool (y.sle x) = 1#1 := h
  rw [StableHlo.Predicate.ofBool_eq_one_iff] at h'
  simpa only [BitVec.sle, decide_eq_true_eq] using h'

theorem sle_toInt {w : Nat} {x y : BitVec w} (h : IntOp.cmpi .sle x y = 1#1) : x.toInt ≤ y.toInt := by
  have h' : BitVec.ofBool (x.sle y) = 1#1 := h
  rw [StableHlo.Predicate.ofBool_eq_one_iff] at h'
  simpa only [BitVec.sle, decide_eq_true_eq] using h'

theorem slt_toInt {w : Nat} {x y : BitVec w} (h : IntOp.cmpi .slt x y = 1#1) : x.toInt < y.toInt := by
  have h' : BitVec.ofBool (x.slt y) = 1#1 := h
  rw [StableHlo.Predicate.ofBool_eq_one_iff] at h'
  simpa only [BitVec.slt, decide_eq_true_eq] using h'

/-! ## The conjunction taken apart -/

/-- The scalar shape has one index. -/
local instance : Subsingleton S_.Idx := ⟨fun a b => funext fun d => d.elim0⟩

/-- The three conjuncts about the indices, each at every element: index ≥ 0, index < 32, count ≤ 512. -/
theorem conjuncts {a0 : FVec F S4x2048x2048 .f32} {a1 : FVec F S32x2048x1024 .f32} {a2 : FVec F S32x1024 .f32}
    {a3 : FVec F S32x1024x2048 .f32} {a4 : FVec F S32x2048 .f32} {a5 : FVec F S32x2048x1024 .f32}
    {a6 : FVec F S32x1024 .f32} (a7 : IVec S8192 32)
    (h : fn (F := F) a0 a1 a2 a3 a4 a5 a6 a7 = fun _ => 1#1) :
    (∀ i, IntOp.cmpi .sge (a7 i) 0#32 = 1#1) ∧ (∀ i, IntOp.cmpi .slt (a7 i) 32#32 = 1#1)
      ∧ (∀ j, IntOp.cmpi .sle (cntPre a7 j) 512#32 = 1#1) := by
  obtain ⟨h41, h50⟩ := IntOp.andi_eq_one.1 (show IntOp.andi _ _ = 1#1 from congrFun h ix0)
  obtain ⟨h37, h40⟩ := IntOp.andi_eq_one.1 (show IntOp.andi _ _ = 1#1 from h41)
  obtain ⟨-, h36⟩ := IntOp.andi_eq_one.1 (show IntOp.andi _ _ = 1#1 from h37)
  clear h41 h37
  have e36 := Host.reduce_andi_all _ _ _ _ ix0 h36
  have e40 := Host.reduce_andi_all _ _ _ _ ix0 h40
  have e50 := Host.reduce_andi_all _ _ _ _ ix0 h50
  exact ⟨fun i => e36 i, fun i => e40 i, fun j => e50 j⟩

/-! ## The three facts -/

/-- Every expert index lies in [0, 32), as a signed value. -/
theorem idx_range {a0 : FVec F S4x2048x2048 .f32} {a1 : FVec F S32x2048x1024 .f32} {a2 : FVec F S32x1024 .f32}
    {a3 : FVec F S32x1024x2048 .f32} {a4 : FVec F S32x2048 .f32} {a5 : FVec F S32x2048x1024 .f32}
    {a6 : FVec F S32x1024 .f32} (a7 : IVec S8192 32)
    (h : fn (F := F) a0 a1 a2 a3 a4 a5 a6 a7 = fun _ => 1#1) (t : Fin 8192) :
    0 ≤ (a7 (ix1 t)).toInt ∧ (a7 (ix1 t)).toInt < 32 := by
  obtain ⟨h0, h32, -⟩ := conjuncts a7 h
  have z : (0#32 : BitVec 32).toInt = 0 := by decide
  have c : (32#32 : BitVec 32).toInt = 32 := by decide
  have lo := sge_toInt (h0 (ix1 t))
  have hi := slt_toInt (h32 (ix1 t))
  rw [z] at lo
  rw [c] at hi
  exact ⟨lo, hi⟩

/-- Every expert's token count is at most 512, as a signed value. -/
theorem counts_le {a0 : FVec F S4x2048x2048 .f32} {a1 : FVec F S32x2048x1024 .f32} {a2 : FVec F S32x1024 .f32}
    {a3 : FVec F S32x1024x2048 .f32} {a4 : FVec F S32x2048 .f32} {a5 : FVec F S32x2048x1024 .f32}
    {a6 : FVec F S32x1024 .f32} (a7 : IVec S8192 32)
    (h : fn (F := F) a0 a1 a2 a3 a4 a5 a6 a7 = fun _ => 1#1) (e : Fin 32) :
    (cntPre a7 (ix1 e)).toInt ≤ 512 := by
  obtain ⟨-, -, h512⟩ := conjuncts a7 h
  have c : (512#32 : BitVec 32).toInt = 512 := by decide
  have le := sle_toInt (h512 (ix1 e))
  rw [c] at le
  exact le

/-! ## The same, from the precondition of a memory -/

/-- Every expert index in core `c`'s index array lies in [0, 32). -/
theorem idx_range_pre (m : (ℓ : Loc Cert.KernelIdeal.nD Cert.KernelIdeal.τ Cert.KernelIdeal.sig) → Buf (Elt Ideal) ℓ)
    (h : Cert.Pre_KernelIdeal m) (c : Dev Cert.KernelIdeal.nD) (t : Fin 8192) :
    0 ≤ ((m ((c.tc : Thread Cert.KernelIdeal.nD Cert.KernelIdeal.τ).loc Cert.KernelIdeal.main_arg7) : IVec S8192 32) (ix1 t)).toInt
      ∧ ((m ((c.tc : Thread Cert.KernelIdeal.nD Cert.KernelIdeal.τ).loc Cert.KernelIdeal.main_arg7) : IVec S8192 32) (ix1 t)).toInt < 32 :=
  idx_range (F := Ideal) _ (h c) t

/-- Every expert's token count over core `c`'s index array is at most 512. -/
theorem counts_le_pre (m : (ℓ : Loc Cert.KernelIdeal.nD Cert.KernelIdeal.τ Cert.KernelIdeal.sig) → Buf (Elt Ideal) ℓ)
    (h : Cert.Pre_KernelIdeal m) (c : Dev Cert.KernelIdeal.nD) (e : Fin 32) :
    (cntPre (m ((c.tc : Thread Cert.KernelIdeal.nD Cert.KernelIdeal.τ).loc Cert.KernelIdeal.main_arg7)) (ix1 e)).toInt ≤ 512 :=
  counts_le (F := Ideal) _ (h c) e

/-- The same two facts for the kernel over floats as bit patterns: the predicate does not depend on how floats are read. -/
theorem idx_range_preBits (m : (ℓ : Loc Cert.Kernel.nD Cert.Kernel.τ Cert.Kernel.sig) → Buf (Elt Bits) ℓ)
    (h : Cert.Pre_Kernel m) (c : Dev Cert.Kernel.nD) (t : Fin 8192) :
    0 ≤ ((m ((c.tc : Thread Cert.Kernel.nD Cert.Kernel.τ).loc Cert.Kernel.main_arg7) : IVec S8192 32) (ix1 t)).toInt
      ∧ ((m ((c.tc : Thread Cert.Kernel.nD Cert.Kernel.τ).loc Cert.Kernel.main_arg7) : IVec S8192 32) (ix1 t)).toInt < 32 :=
  idx_range (F := Bits) _ (h c) t

theorem counts_le_preBits (m : (ℓ : Loc Cert.Kernel.nD Cert.Kernel.τ Cert.Kernel.sig) → Buf (Elt Bits) ℓ)
    (h : Cert.Pre_Kernel m) (c : Dev Cert.Kernel.nD) (e : Fin 32) :
    (cntPre (m ((c.tc : Thread Cert.Kernel.nD Cert.Kernel.τ).loc Cert.Kernel.main_arg7)) (ix1 e)).toInt ≤ 512 :=
  counts_le (F := Bits) _ (h c) e

end Cert.Proof.PreDecode

end
-- ==== Proof.LibTakeAlong.lean ====
/-
  `stablehlo.gather` as `jnp.take_along_axis(x, idx, axis=1)` lowers it, read at an entry.

  For a matrix `x : [N, C]` and one column index per row, `idx : [N, 1]`, the lowering reshapes the indices to
  `[N, 1, 1]` and gathers with offset_dims `[]`, collapsed_slice_dims `[1]`, operand_batching_dims `[0]`,
  start_indices_batching_dims `[0]`, start_index_map `[1]`, index_vector_dim 2 and slice_sizes `[1, 1]`; the result
  is `[N, 1]`.  Axis 0 of the operand is a batching axis: result entry `(r, 0)` reads row `r` of the operand, the
  row of its own start index.  Axis 1 is the one the start index names: the column is the start index `idx[r, 0, 0]`,
  read as a signed integer and clamped into `[0, C - 1]`, as StableHLO clamps every start index so that the slice
  (here one element) fits.  Both slice sizes are 1, so no offset is added on either axis.

  `takeAlongDims N C wf` is that record of dimension numbers for any `N` and `C`; `gather_takeAlong_apply` reads
  `Host.gather` of it at a result index, and `gather_takeAlong_ix2` is the same at an index given by coordinates.
-/
import Idealize.ShloMosaic.Lib.ValueIdx

noncomputable section

namespace Cert.Proof.LibTakeAlong

open Idealize.ShloMosaic Idealize.ShloMosaic.ValueIdx

variable {α : Type}

/-- The dimension numbers of the batched gather for an operand `[N, C]`, start indices `[N, 1, 1]` and result
    `[N, 1]`. The well-formedness conditions are taken as a hypothesis `wf`, so the record exists for every `N` and `C`
    for which they hold. -/
abbrev takeAlongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index `[r, 0, 0]` at which result index `(r, 0)` reads its column. -/
abbrev takeAlongIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- On the batching axis the operand coordinate is the result's row. -/
theorem takeAlong_coord0 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 0 + (takeAlongDims N C wf).batchCoord y 0 + (takeAlongDims N C wf).offCoord y 0
      = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (takeAlongDims N C wf).operandBatchingDims from List.mem_singleton.mpr rfl)]
  rfl

/-- On the indexed axis the operand coordinate is the clamped start index. -/
theorem takeAlong_coord1 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 1 + (takeAlongDims N C wf).batchCoord y 1 + (takeAlongDims N C wf).offCoord y 1
      = min (idx (takeAlongIdx y)).toInt.toNat (C - 1) := by
  rw [GatherDims.batchCoord_eq_zero _ _ _ (show (1 : Fin 2) ∉ ([0] : List (Fin 2)) by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (takeAlongDims N C wf).startIndexMap from List.mem_singleton.mpr rfl)]
  have hsi : (takeAlongDims N C wf).siIdx y ⟨List.idxOf (1 : Fin 2) (takeAlongDims N C wf).startIndexMap,
      List.idxOf_lt_length_iff.2 (List.mem_singleton.mpr rfl)⟩ = takeAlongIdx y := by
    funext b; refine Fin.ext ?_
    match b with
    | ⟨0, _⟩ => rfl
    | ⟨1, hb⟩ =>
      have h1 : (y 1).val < 1 := idx2_lt1 y
      show (y 1).val = 0
      omega
    | ⟨2, _⟩ => rfl
  rw [hsi]
  rfl

/-- The batched gather at result index `y` is the operand at row `y 0` and at the column given by the start index
    `idx[y 0, 0, 0]`, taken as a signed integer and clamped into `[0, C − 1]`. -/
theorem gather_takeAlong_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (takeAlongDims N C wf) x idx y
      = x (ix2 (⟨(y 0).val, idx2_lt0 y⟩ : Fin N)
            (⟨min (idx (takeAlongIdx y)).toInt.toNat (C - 1), by omega⟩ : Fin C)) := by
  unfold Host.gather
  congr 1
  funext a
  refine Fin.ext ?_
  match a with
  | ⟨0, _⟩ => exact takeAlong_coord0 wf idx y
  | ⟨1, _⟩ => exact takeAlong_coord1 wf idx y

/-- The same at a result index given by its coordinates: row `r`, and the one column. -/
theorem gather_takeAlong_ix2 {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (r : Fin N) (c : Fin 1) :
    Host.gather (takeAlongDims N C wf) x idx (ix2 r c)
      = x (ix2 r (⟨min (idx (ix3 r (0 : Fin 1) (0 : Fin 1))).toInt.toNat (C - 1), by omega⟩ : Fin C)) := by
  rw [gather_takeAlong_apply hC wf x idx (ix2 r c)]
  have h : takeAlongIdx (ix2 r c) = ix3 r (0 : Fin 1) (0 : Fin 1) := by
    funext b; match b with | ⟨0, _⟩ => rfl | ⟨1, _⟩ => rfl | ⟨2, _⟩ => rfl
  refine congrArg x (funext fun a => Fin.ext ?_)
  match a with
  | ⟨0, _⟩ => rfl
  | ⟨1, _⟩ =>
    show min (idx (takeAlongIdx (ix2 r c))).toInt.toNat (C - 1) = min (idx (ix3 r (0 : Fin 1) (0 : Fin 1))).toInt.toNat (C - 1)
    rw [h]

end Cert.Proof.LibTakeAlong

end
-- ==== Proof.Count.lean ====
/-
  The integer combinatorics of top-1 routing over 32-bit words: 8192 tokens, 32 experts.

  From a vector of expert ids idx : [8192] the routing forms
    * the one-hot matrix      oh[t, e]  = 1 if idx[t] = e, else 0                      ([8192, 32]),
    * its running column sums cs[t, e]  = sum over s ≤ t of oh[s, e]   (a padded window sum of height 8192),
    * the column totals       cnt[e]    = sum over s of oh[s, e],
    * each token's position   pos[t]    = (cs − oh)[t, idx[t]] = #{s < t | idx[s] = idx[t]}.
  This file reads each of these arrays at an entry and proves the one inequality everything downstream rests on:
  0 ≤ pos[t] < cnt[idx[t]], since token t itself is one of the tokens counted by cnt[idx[t]] and is not among the
  earlier ones. Nothing wraps: every count is at most 8192. The last section reads the take_along_axis lowering
  (negative-index wrap, range mask, batched gather, fill) at an entry whose index is in range.
-/
import Mathlib.Data.BitVec
import Idealize.ShloMosaic.PureOps
import Idealize.ShloMosaic.PureOps.Reduce
import Idealize.ShloMosaic.Lib.ValueIdx
import Idealize.ShloMosaic.Lib.StableHlo.Predicate
import proofs.«427358_j7456063225884_2_alg».proof.Proof.LibTakeAlong
import proofs.«427358_j7456063225884_2_alg».proof.Proof.LibColGather

noncomputable section

namespace Cert.Count

open Idealize.ShloMosaic Idealize.ShloMosaic.ValueIdx
open scoped BigOperators

/-! ## Shapes -/

abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S32 : Shape := ⟨1, ![32]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

/-! ## The one-hot matrix -/

/-- x is the one-hot matrix of idx: entry (t, e) is the word 1 when token t's expert id is the word e, else 0. -/
def IsOneHot (idx : IVec S8192 32) (x : IVec S8192x32 32) : Prop :=
  ∀ (t : Fin 8192) (e : Fin 32), x (ix2 t e) = if idx (ix1 t) = BitVec.ofNat 32 e.val then 1#32 else 0#32

/-- An index of a vector built from a position is the index with that coordinate. -/
theorem ofFin_eq_ix1 {n : Nat} (p : Fin n) : (Shape.Idx.ofFin p : (⟨1, ![n]⟩ : Shape).Idx) = ix1 p := by
  funext a; match a with | ⟨0, _⟩ => exact Fin.ext rfl

/-- The two spellings of a rank-2 index by coordinates agree. -/
theorem ij_eq_ix2 {n m : Nat} (p : Fin n) (q : Fin m) : StableHlo.Predicate.ij p q = ix2 p q := by
  funext a; match a with | ⟨0, _⟩ => rfl | ⟨1, _⟩ => rfl

/-- A widened equality bit is the indicator word. -/
theorem setWidth_cmpi_eq (a b : BitVec 32) : (IntOp.cmpi .eq a b).setWidth 32 = if a = b then 1#32 else 0#32 := by
  by_cases h : a = b
  · subst h; simp [IntOp.cmpi]
  · have hb : (a == b) = false := by simpa using h
    simp [IntOp.cmpi, hb, h]

/-- The expert ids laid along the rows, read at an entry. -/
theorem rows_apply (hb1 : S8192.BroadcastsInDim S8192x1 (![0] : Fin 1 → Fin S8192x1.rank))
    (hb2 : S8192x1.BroadcastsInDim S8192x32 (![0, 1] : Fin 2 → Fin S8192x32.rank)) (idx : IVec S8192 32)
    (t : Fin 8192) (e : Fin 32) :
    broadcastInDim S8192x32 ![0, 1] hb2 (broadcastInDim S8192x1 ![0] hb1 idx) (ix2 t e) = idx (ix1 t) := by
  have h := StableHlo.Predicate.bcast_rows (n := 8192) (m := 32) hb1 hb2 idx t e
  rw [ij_eq_ix2, ofFin_eq_ix1] at h
  exact h

/-- The one-hot matrix written with the expert ids laid along the rows and a [1, 32] iota laid down the columns. -/
theorem oh_apply (hb1 : S8192.BroadcastsInDim S8192x1 (![0] : Fin 1 → Fin S8192x1.rank))
    (hb2 : S8192x1.BroadcastsInDim S8192x32 (![0, 1] : Fin 2 → Fin S8192x32.rank))
    (hb3 : S1x32.BroadcastsInDim S8192x32 (![0, 1] : Fin 2 → Fin S8192x32.rank)) (hw : 1 < 32)
    (idx : IVec S8192 32) (t : Fin 8192) (e : Fin 32) :
    extui 32 (cmpi .eq (broadcastInDim S8192x32 ![0, 1] hb2 (broadcastInDim S8192x1 ![0] hb1 idx))
        (broadcastInDim S8192x32 ![0, 1] hb3 (iotaInDim S1x32 32 1))) hw (ix2 t e)
      = if idx (ix1 t) = BitVec.ofNat 32 e.val then 1#32 else 0#32 := by
  have h2 : broadcastInDim S8192x32 ![0, 1] hb3 (iotaInDim S1x32 32 1) (ix2 t e) = BitVec.ofNat 32 e.val := by
    have h := StableHlo.Predicate.bcast_of_row (n := 8192) (m := 32) hb3 (iotaInDim S1x32 32 1) t e
    rw [ij_eq_ix2] at h
    rw [h]; rfl
  show (IntOp.cmpi .eq (broadcastInDim S8192x32 ![0, 1] hb2 (broadcastInDim S8192x1 ![0] hb1 idx) (ix2 t e))
      (broadcastInDim S8192x32 ![0, 1] hb3 (iotaInDim S1x32 32 1) (ix2 t e))).setWidth 32 = _
  rw [rows_apply hb1 hb2 idx t e, h2, setWidth_cmpi_eq]

/-- The same matrix written with a full [8192, 32] iota. -/
theorem ohPre_apply (hb1 : S8192.BroadcastsInDim S8192x1 (![0] : Fin 1 → Fin S8192x1.rank))
    (hb2 : S8192x1.BroadcastsInDim S8192x32 (![0, 1] : Fin 2 → Fin S8192x32.rank)) (hw : 1 < 32)
    (idx : IVec S8192 32) (t : Fin 8192) (e : Fin 32) :
    extui 32 (cmpi .eq (broadcastInDim S8192x32 ![0, 1] hb2 (broadcastInDim S8192x1 ![0] hb1 idx))
        (iotaInDim S8192x32 32 1)) hw (ix2 t e)
      = if idx (ix1 t) = BitVec.ofNat 32 e.val then 1#32 else 0#32 := by
  show (IntOp.cmpi .eq (broadcastInDim S8192x32 ![0, 1] hb2 (broadcastInDim S8192x1 ![0] hb1 idx) (ix2 t e))
      (iotaInDim S8192x32 32 1 (ix2 t e))).setWidth 32 = _
  rw [rows_apply hb1 hb2 idx t e, setWidth_cmpi_eq]
  rfl

theorem oh_isOneHot (hb1 : S8192.BroadcastsInDim S8192x1 (![0] : Fin 1 → Fin S8192x1.rank))
    (hb2 : S8192x1.BroadcastsInDim S8192x32 (![0, 1] : Fin 2 → Fin S8192x32.rank))
    (hb3 : S1x32.BroadcastsInDim S8192x32 (![0, 1] : Fin 2 → Fin S8192x32.rank)) (hw : 1 < 32) (idx : IVec S8192 32) :
    IsOneHot idx (extui 32 (cmpi .eq (broadcastInDim S8192x32 ![0, 1] hb2 (broadcastInDim S8192x1 ![0] hb1 idx))
        (broadcastInDim S8192x32 ![0, 1] hb3 (iotaInDim S1x32 32 1))) hw) :=
  fun t e => oh_apply hb1 hb2 hb3 hw idx t e

theorem ohPre_isOneHot (hb1 : S8192.BroadcastsInDim S8192x1 (![0] : Fin 1 → Fin S8192x1.rank))
    (hb2 : S8192x1.BroadcastsInDim S8192x32 (![0, 1] : Fin 2 → Fin S8192x32.rank)) (hw : 1 < 32) (idx : IVec S8192 32) :
    IsOneHot idx (extui 32 (cmpi .eq (broadcastInDim S8192x32 ![0, 1] hb2 (broadcastInDim S8192x1 ![0] hb1 idx))
        (iotaInDim S8192x32 32 1)) hw) :=
  fun t e => ohPre_apply hb1 hb2 hw idx t e

/-- The two spellings are one array. -/
theorem ohPre_eq_oh (hb1 : S8192.BroadcastsInDim S8192x1 (![0] : Fin 1 → Fin S8192x1.rank))
    (hb2 : S8192x1.BroadcastsInDim S8192x32 (![0, 1] : Fin 2 → Fin S8192x32.rank))
    (hb3 : S1x32.BroadcastsInDim S8192x32 (![0, 1] : Fin 2 → Fin S8192x32.rank)) (hw : 1 < 32) (idx : IVec S8192 32) :
    extui 32 (cmpi .eq (broadcastInDim S8192x32 ![0, 1] hb2 (broadcastInDim S8192x1 ![0] hb1 idx))
        (iotaInDim S8192x32 32 1)) hw
      = extui 32 (cmpi .eq (broadcastInDim S8192x32 ![0, 1] hb2 (broadcastInDim S8192x1 ![0] hb1 idx))
        (broadcastInDim S8192x32 ![0, 1] hb3 (iotaInDim S1x32 32 1))) hw := by
  funext i
  obtain ⟨a, b, rfl⟩ : ∃ (a : Fin 8192) (b : Fin 32), i = ix2 a b := ⟨i 0, i 1, eq_ix2 i⟩
  rw [oh_apply hb1 hb2 hb3 hw idx a b, ohPre_apply hb1 hb2 hw idx a b]

/-! ## The running sum and the totals, of any matrix of words -/

/-- A scalar zero constant, broadcast to a scalar, is zero at the scalar's one index. -/
theorem init_zero (hb : S_.BroadcastsInDim S_ (![] : Fin 0 → Fin S_.rank)) (hu : 0 < S_.numel) :
    broadcastInDim S_ ![] hb (constantI S_ 32 0#32) (Shape.Idx.first hu) = 0#32 := by
  rw [StableHlo.Predicate.bcast_scalar hb hu]
  rfl

/-- A scalar zero constant is zero at the scalar's one index. -/
theorem const_zero (hu : 0 < S_.numel) : constantI S_ 32 0#32 (Shape.Idx.first hu) = 0#32 := rfl

/-- A left fold of word addition over a list is the initial word plus the sum of the list. -/
theorem foldl_addi_eq_sum {ι : Type} (l : List ι) (g : ι → BitVec 32) (v : BitVec 32) :
    l.foldl (fun r n => IntOp.addi r (g n)) v = v + (l.map g).sum := by
  induction l generalizing v with
  | nil => simp
  | cons a l ih =>
    simp only [List.foldl_cons, List.map_cons, List.sum_cons]
    rw [ih]
    show (v + g a) + _ = _
    rw [add_assoc]

/-- A fold of word addition over a finite set is the initial word plus the sum over the set. -/
theorem fold_addi_eq_sum {ι : Type} (S : Finset ι) (f : ι → BitVec 32) (b : BitVec 32) :
    S.fold IntOp.addi b f = b + ∑ i ∈ S, f i := by
  induction S using Finset.cons_induction with
  | empty => simp
  | cons a S ha ih =>
    rw [Finset.fold_cons, Finset.sum_cons, ih]
    show f a + (b + _) = _
    rw [add_left_comm]

/-- A window sum from a zero initial value, at any shapes: the sum, over the positions of the window, of the operand
    element under the position, or zero where the position is padding. -/
theorem reduceWindow_addi_eq_sum {s t u : Shape} (window strides lo hi : Fin s.rank → Nat) (x : IVec s 32)
    (init : u.Idx → BitVec 32) (h : s.ReduceWindows window strides lo hi t) (hu : 0 < u.numel)
    (h0 : init (Shape.Idx.first hu) = 0#32) (j : t.Idx) :
    Host.reduceWindow IntOp.addi window strides lo hi x init h hu j
      = ∑ k : (⟨s.rank, window⟩ : Shape).Idx,
          (if hin : ∀ a, lo a ≤ (j (a.cast h.1.symm)).val * strides a + (k a).val
                ∧ (j (a.cast h.1.symm)).val * strides a + (k a).val - lo a < s.size a
           then x (fun a => ⟨(j (a.cast h.1.symm)).val * strides a + (k a).val - lo a, (hin a).2⟩) else 0#32) := by
  unfold Host.reduceWindow
  dsimp only
  rw [foldl_addi_eq_sum, h0, BitVec.zero_add, ← Fin.sum_univ_def]
  refine Fintype.sum_equiv (⟨s.rank, window⟩ : Shape).rowMajor.symm _ _ (fun i => ?_)
  first | rfl | congr

/-- THE RUNNING SUM. The window of height 8192 over an operand padded by 8191 rows of zeros above, read at (t, e), is
    the sum of column e over the rows s ≤ t (in the ring of 32-bit words). -/
theorem cumsum_apply (hrw : S8192x32.ReduceWindows (![8192, 1] : Fin 2 → Nat) ![1, 1] ![8191, 0] ![0, 0] S8192x32)
    {u : Shape} (hu : 0 < u.numel) (x : IVec S8192x32 32) (init : u.Idx → BitVec 32)
    (h0 : init (Shape.Idx.first hu) = 0#32) (t : Fin 8192) (e : Fin 32) :
    Host.reduceWindow IntOp.addi ![8192, 1] ![1, 1] ![8191, 0] ![0, 0] x init hrw hu (ix2 t e)
      = ∑ s ∈ Finset.univ.filter (fun s : Fin 8192 => s ≤ t), x (ix2 s e) := by
  classical
  rw [reduceWindow_addi_eq_sum _ _ _ _ x init hrw hu h0]
  refine (sum_idx2 (n0 := 8192) (n1 := 1) _).trans ?_
  simp only [Fin.sum_univ_one]
  rw [← Finset.sum_filter_of_ne (p := fun a : Fin 8192 => 8191 ≤ t.val + a.val)]
  · refine Finset.sum_bij'
      (fun a ha => (⟨t.val + a.val - 8191, by have := (Finset.mem_filter.1 ha).2; have := a.isLt; have := t.isLt; omega⟩ : Fin 8192))
      (fun s hs => (⟨s.val + 8191 - t.val, by have := Fin.le_def.1 (Finset.mem_filter.1 hs).2; have := s.isLt; have := t.isLt; omega⟩ : Fin 8192))
      ?_ ?_ ?_ ?_ ?_
    · intro a ha
      have hc := (Finset.mem_filter.1 ha).2
      have := a.isLt
      exact Finset.mem_filter.2 ⟨Finset.mem_univ _, Fin.le_def.2 (by show t.val + a.val - 8191 ≤ t.val; omega)⟩
    · intro s hs
      have hc := Fin.le_def.1 (Finset.mem_filter.1 hs).2
      exact Finset.mem_filter.2 ⟨Finset.mem_univ _, by show 8191 ≤ t.val + (s.val + 8191 - t.val); omega⟩
    · intro a ha
      have hc := (Finset.mem_filter.1 ha).2
      exact Fin.ext (by show t.val + a.val - 8191 + 8191 - t.val = a.val; omega)
    · intro s hs
      have hc := Fin.le_def.1 (Finset.mem_filter.1 hs).2
      exact Fin.ext (by show t.val + (s.val + 8191 - t.val) - 8191 = s.val; omega)
    · intro a ha
      have hc := (Finset.mem_filter.1 ha).2
      have hat := a.isLt
      have htt := t.isLt
      have het := e.isLt
      rw [dif_pos (by
        intro a'
        match a' with
        | ⟨0, _⟩ => exact ⟨by show 8191 ≤ t.val * 1 + a.val; omega, by show t.val * 1 + a.val - 8191 < 8192; omega⟩
        | ⟨1, _⟩ => exact ⟨Nat.zero_le _, by show e.val * 1 + 0 - 0 < 32; omega⟩)]
      refine congrArg x (funext fun a' => ?_)
      match a' with
      | ⟨0, _⟩ => exact Fin.ext (by show t.val * 1 + a.val - 8191 = t.val + a.val - 8191; omega)
      | ⟨1, _⟩ => exact Fin.ext (by show e.val * 1 + 0 - 0 = e.val; omega)
  · intro a _ hne
    by_contra hc
    apply hne
    exact dif_neg (fun hin => hc (by
      have h1 : 8191 ≤ t.val * 1 + a.val := (hin ⟨0, Nat.zero_lt_two⟩).1
      omega))

/-- Reducing the rows away sends an index to its column. -/
theorem drop_rows_iff (hred : S8192x32.ReducesTo [0] S32) (i : S8192x32.Idx) (e : Fin 32) :
    hred.drop i = ix1 e ↔ i 1 = e := by
  have hv : (hred.drop i 0 : Nat) = i 1 := Shape.ReducesTo.drop_apply_val hred i 0
  constructor
  · intro h; rw [h] at hv; exact Fin.ext hv.symm
  · intro h; funext b
    have hb : b = 0 := Subsingleton.elim _ _
    subst hb
    exact Fin.ext (by rw [hv, h])

/-- THE TOTALS. The sum-reduction over the rows, read at e, is the sum of column e. -/
theorem counts_apply (hred : S8192x32.ReducesTo [0] S32) {u : Shape} (hu : 0 < u.numel) (x : IVec S8192x32 32)
    (init : u.Idx → BitVec 32) (h0 : init (Shape.Idx.first hu) = 0#32) (e : Fin 32) :
    Host.reduce IntOp.addi x init hred hu (ix1 e) = ∑ s : Fin 8192, x (ix2 s e) := by
  classical
  rw [Host.reduce_eq_fold, fold_addi_eq_sum, h0, BitVec.zero_add]
  have hback : ∀ i : S8192x32.Idx, i 1 = e → ix2 (i 0) e = i := fun i h1 => by
    funext b; match b with
    | ⟨0, _⟩ => rfl
    | ⟨1, _⟩ => exact h1.symm
  refine Finset.sum_bij' (fun i _ => i 0) (fun s _ => ix2 s e) (fun _ _ => Finset.mem_univ _)
    (fun s _ => Finset.mem_filter.2 ⟨Finset.mem_univ _, (drop_rows_iff hred _ e).2 rfl⟩)
    (fun i hi => hback i ((drop_rows_iff hred i e).1 (Finset.mem_filter.1 hi).2)) (fun _ _ => rfl) ?_
  intro i hi
  exact (congrArg x (hback i ((drop_rows_iff hred i e).1 (Finset.mem_filter.1 hi).2))).symm

/-! ## At the one-hot matrix: counts -/

/-- A sum of indicator words over a set of fewer than 2^32 elements is the number of elements with the property. -/
theorem toNat_sum_ind {ι : Type} (S : Finset ι) (p : ι → Prop) [DecidablePred p] (hS : S.card < 2 ^ 32) :
    (∑ i ∈ S, if p i then 1#32 else 0#32).toNat = (S.filter p).card := by
  have h : (∑ i ∈ S, if p i then 1#32 else 0#32) = BitVec.ofNat 32 (S.filter p).card := by
    have h' := Finset.sum_boole (R := BitVec 32) (p := p) (s := S)
    rw [BitVec.natCast_eq_ofNat] at h'
    exact h'
  rw [h, BitVec.toNat_ofNat]
  exact Nat.mod_eq_of_lt (lt_of_le_of_lt (Finset.card_filter_le _ _) hS)

/-- A signed word in [0, 32) is below 32 unsigned. -/
theorem toNat_lt_of_range {w : BitVec 32} (h : 0 ≤ w.toInt ∧ w.toInt < 32) : w.toNat < 32 := by
  obtain ⟨h0, h1⟩ := h
  have hlt := w.isLt
  rw [BitVec.toInt_eq_toNat_cond] at h0 h1
  by_cases hc : 2 * w.toNat < 2 ^ 32
  · rw [if_pos hc] at h1; omega
  · rw [if_neg hc] at h0; omega

theorem card_fin8192_lt : (Finset.univ : Finset (Fin 8192)).card < 2 ^ 32 := by
  rw [Finset.card_univ, Fintype.card_fin]; norm_num

/-- The running sum of a one-hot matrix at (t, e) is the number of tokens s ≤ t routed to e. -/
theorem cumsum_toNat (hrw : S8192x32.ReduceWindows (![8192, 1] : Fin 2 → Nat) ![1, 1] ![8191, 0] ![0, 0] S8192x32)
    {u : Shape} (hu : 0 < u.numel) (idx : IVec S8192 32) (x : IVec S8192x32 32) (hx : IsOneHot idx x)
    (init : u.Idx → BitVec 32) (h0 : init (Shape.Idx.first hu) = 0#32) (t : Fin 8192) (e : Fin 32) :
    (Host.reduceWindow IntOp.addi ![8192, 1] ![1, 1] ![8191, 0] ![0, 0] x init hrw hu (ix2 t e)).toNat
      = (Finset.univ.filter (fun s : Fin 8192 => s ≤ t ∧ idx (ix1 s) = BitVec.ofNat 32 e.val)).card := by
  classical
  rw [cumsum_apply hrw hu x init h0 t e]
  simp only [fun s : Fin 8192 => hx s e]
  rw [toNat_sum_ind _ _ (lt_of_le_of_lt (Finset.card_le_card (Finset.filter_subset _ _)) card_fin8192_lt),
    Finset.filter_filter]

/-- The total of a one-hot matrix at e is the number of tokens routed to e. -/
theorem counts_toNat (hred : S8192x32.ReducesTo [0] S32) {u : Shape} (hu : 0 < u.numel) (idx : IVec S8192 32)
    (x : IVec S8192x32 32) (hx : IsOneHot idx x) (init : u.Idx → BitVec 32) (h0 : init (Shape.Idx.first hu) = 0#32)
    (e : Fin 32) :
    (Host.reduce IntOp.addi x init hred hu (ix1 e)).toNat
      = (Finset.univ.filter (fun s : Fin 8192 => idx (ix1 s) = BitVec.ofNat 32 e.val)).card := by
  classical
  rw [counts_apply hred hu x init h0 e]
  simp only [fun s : Fin 8192 => hx s e]
  exact toNat_sum_ind _ _ card_fin8192_lt

/-- A total is at most the number of tokens, so it reads the same signed and unsigned. -/
theorem counts_toInt (hred : S8192x32.ReducesTo [0] S32) {u : Shape} (hu : 0 < u.numel) (idx : IVec S8192 32)
    (x : IVec S8192x32 32) (hx : IsOneHot idx x) (init : u.Idx → BitVec 32) (h0 : init (Shape.Idx.first hu) = 0#32)
    (e : Fin 32) :
    (Host.reduce IntOp.addi x init hred hu (ix1 e)).toInt = ((Host.reduce IntOp.addi x init hred hu (ix1 e)).toNat : Int)
      ∧ (Host.reduce IntOp.addi x init hred hu (ix1 e)).toNat ≤ 8192 := by
  have hc := counts_toNat hred hu idx x hx init h0 e
  have hle : (Host.reduce IntOp.addi x init hred hu (ix1 e)).toNat ≤ 8192 := by
    rw [hc]
    exact le_trans (Finset.card_le_univ _) (by rw [Fintype.card_fin])
  exact ⟨StableHlo.Predicate.toInt_eq_toNat_of_lt (by omega), hle⟩

/-! ## The position of a token among those of its expert -/

/-- The position of token t, whose expert id is the word e: (cs − x)[t, e] is the number of EARLIER tokens routed to e. -/
theorem pos_toNat (hrw : S8192x32.ReduceWindows (![8192, 1] : Fin 2 → Nat) ![1, 1] ![8191, 0] ![0, 0] S8192x32)
    {u : Shape} (hu : 0 < u.numel) (idx : IVec S8192 32) (x : IVec S8192x32 32) (hx : IsOneHot idx x)
    (init : u.Idx → BitVec 32) (h0 : init (Shape.Idx.first hu) = 0#32) (t : Fin 8192) (e : Fin 32)
    (he : idx (ix1 t) = BitVec.ofNat 32 e.val) :
    (subi (Host.reduceWindow IntOp.addi ![8192, 1] ![1, 1] ![8191, 0] ![0, 0] x init hrw hu) x (ix2 t e)).toNat
      = (Finset.univ.filter (fun s : Fin 8192 => s < t ∧ idx (ix1 s) = BitVec.ofNat 32 e.val)).card := by
  classical
  have hA := cumsum_toNat hrw hu idx x hx init h0 t e
  have hxt : x (ix2 t e) = 1#32 := by rw [hx t e, if_pos he]
  have hset : Finset.univ.filter (fun s : Fin 8192 => s ≤ t ∧ idx (ix1 s) = BitVec.ofNat 32 e.val)
      = insert t (Finset.univ.filter (fun s : Fin 8192 => s < t ∧ idx (ix1 s) = BitVec.ofNat 32 e.val)) := by
    ext s
    simp only [Finset.mem_filter, Finset.mem_univ, true_and, Finset.mem_insert]
    constructor
    · rintro ⟨hle, hs⟩
      rcases lt_or_eq_of_le hle with hlt | heq
      · exact Or.inr ⟨hlt, hs⟩
      · exact Or.inl heq
    · rintro (heq | ⟨hlt, hs⟩)
      · rw [heq]; exact ⟨le_refl _, he⟩
      · exact ⟨le_of_lt hlt, hs⟩
  have hnot : t ∉ Finset.univ.filter (fun s : Fin 8192 => s < t ∧ idx (ix1 s) = BitVec.ofNat 32 e.val) := by
    simp
  rw [hset, Finset.card_insert_of_notMem hnot] at hA
  have hle : (Finset.univ.filter (fun s : Fin 8192 => s < t ∧ idx (ix1 s) = BitVec.ofNat 32 e.val)).card ≤ 8192 :=
    le_trans (Finset.card_le_univ _) (by rw [Fintype.card_fin])
  have hp : subi (Host.reduceWindow IntOp.addi ![8192, 1] ![1, 1] ![8191, 0] ![0, 0] x init hrw hu) x (ix2 t e)
      = (Host.reduceWindow IntOp.addi ![8192, 1] ![1, 1] ![8191, 0] ![0, 0] x init hrw hu) (ix2 t e) - x (ix2 t e) := rfl
  have h1 : (1#32 : BitVec 32).toNat = 1 := rfl
  rw [hp, hxt, BitVec.toNat_sub, hA, h1]
  omega

/-- THE BOUND, in naturals: the position of token t is below the total of its expert. x and y are any two one-hot
    matrices of idx (the running sum is taken of one, the totals of the other; they may be the same term). -/
theorem pos_lt_count_toNat (hrw : S8192x32.ReduceWindows (![8192, 1] : Fin 2 → Nat) ![1, 1] ![8191, 0] ![0, 0] S8192x32)
    (hred : S8192x32.ReducesTo [0] S32) {u u' : Shape} (hu : 0 < u.numel) (hu' : 0 < u'.numel) (idx : IVec S8192 32)
    (x y : IVec S8192x32 32) (hx : IsOneHot idx x) (hy : IsOneHot idx y)
    (init : u.Idx → BitVec 32) (h0 : init (Shape.Idx.first hu) = 0#32)
    (init' : u'.Idx → BitVec 32) (h0' : init' (Shape.Idx.first hu') = 0#32) (t : Fin 8192) (e : Fin 32)
    (he : idx (ix1 t) = BitVec.ofNat 32 e.val) :
    (subi (Host.reduceWindow IntOp.addi ![8192, 1] ![1, 1] ![8191, 0] ![0, 0] x init hrw hu) x (ix2 t e)).toNat
      < (Host.reduce IntOp.addi y init' hred hu' (ix1 e)).toNat := by
  classical
  rw [pos_toNat hrw hu idx x hx init h0 t e he, counts_toNat hred hu' idx y hy init' h0' e]
  refine Finset.card_lt_card ⟨?_, ?_⟩
  · intro s hs
    simp only [Finset.mem_filter, Finset.mem_univ, true_and] at hs ⊢
    exact hs.2
  · intro hsub
    have ht : t ∈ Finset.univ.filter (fun s : Fin 8192 => idx (ix1 s) = BitVec.ofNat 32 e.val) := by
      simp only [Finset.mem_filter, Finset.mem_univ, true_and]; exact he
    have hcon := hsub ht
    simp only [Finset.mem_filter, Finset.mem_univ, true_and] at hcon
    exact lt_irrefl _ hcon.1

/-- THE BOUND, signed: 0 ≤ pos[t] < cnt[idx[t]]. -/
theorem pos_bounds (hrw : S8192x32.ReduceWindows (![8192, 1] : Fin 2 → Nat) ![1, 1] ![8191, 0] ![0, 0] S8192x32)
    (hred : S8192x32.ReducesTo [0] S32) {u u' : Shape} (hu : 0 < u.numel) (hu' : 0 < u'.numel) (idx : IVec S8192 32)
    (x y : IVec S8192x32 32) (hx : IsOneHot idx x) (hy : IsOneHot idx y)
    (init : u.Idx → BitVec 32) (h0 : init (Shape.Idx.first hu) = 0#32)
    (init' : u'.Idx → BitVec 32) (h0' : init' (Shape.Idx.first hu') = 0#32) (t : Fin 8192) (e : Fin 32)
    (he : idx (ix1 t) = BitVec.ofNat 32 e.val) :
    0 ≤ (subi (Host.reduceWindow IntOp.addi ![8192, 1] ![1, 1] ![8191, 0] ![0, 0] x init hrw hu) x (ix2 t e)).toInt
      ∧ (subi (Host.reduceWindow IntOp.addi ![8192, 1] ![1, 1] ![8191, 0] ![0, 0] x init hrw hu) x (ix2 t e)).toInt
          < (Host.reduce IntOp.addi y init' hred hu' (ix1 e)).toInt := by
  have hlt := pos_lt_count_toNat hrw hred hu hu' idx x y hx hy init h0 init' h0' t e he
  have hc := counts_toInt hred hu' idx y hy init' h0' e
  rw [StableHlo.Predicate.toInt_eq_toNat_of_lt (a := subi (Host.reduceWindow IntOp.addi ![8192, 1] ![1, 1] ![8191, 0] ![0, 0] x init hrw hu) x (ix2 t e)) (by omega), hc.1]
  exact ⟨Int.natCast_nonneg _, by exact_mod_cast hlt⟩

/-- Under a capacity bound on expert e's total the position is below the capacity. -/
theorem pos_lt_cap (hrw : S8192x32.ReduceWindows (![8192, 1] : Fin 2 → Nat) ![1, 1] ![8191, 0] ![0, 0] S8192x32)
    (hred : S8192x32.ReducesTo [0] S32) {u u' : Shape} (hu : 0 < u.numel) (hu' : 0 < u'.numel) (idx : IVec S8192 32)
    (x y : IVec S8192x32 32) (hx : IsOneHot idx x) (hy : IsOneHot idx y)
    (init : u.Idx → BitVec 32) (h0 : init (Shape.Idx.first hu) = 0#32)
    (init' : u'.Idx → BitVec 32) (h0' : init' (Shape.Idx.first hu') = 0#32) (t : Fin 8192) (e : Fin 32)
    (he : idx (ix1 t) = BitVec.ofNat 32 e.val) (cap : Nat)
    (hB : (Host.reduce IntOp.addi y init' hred hu' (ix1 e)).toInt ≤ (cap : Int)) :
    (subi (Host.reduceWindow IntOp.addi ![8192, 1] ![1, 1] ![8191, 0] ![0, 0] x init hrw hu) x (ix2 t e)).toInt < (cap : Int)
      ∧ (subi (Host.reduceWindow IntOp.addi ![8192, 1] ![1, 1] ![8191, 0] ![0, 0] x init hrw hu) x (ix2 t e)).toNat < cap := by
  have hb := pos_bounds hrw hred hu hu' idx x y hx hy init h0 init' h0' t e he
  have hlt := pos_lt_count_toNat hrw hred hu hu' idx x y hx hy init h0 init' h0' t e he
  have hc := counts_toInt hred hu' idx y hy init' h0' e
  refine ⟨by omega, ?_⟩
  rw [hc.1] at hB
  omega

/-! ## The expert of a token whose id is in range -/

/-- The expert that 0 ≤ idx[t] < 32 names, as an element of Fin 32. -/
def expertOf (idx : IVec S8192 32) (hA : ∀ t : Fin 8192, 0 ≤ (idx (ix1 t)).toInt ∧ (idx (ix1 t)).toInt < 32) (t : Fin 8192) :
    Fin 32 :=
  ⟨(idx (ix1 t)).toNat, toNat_lt_of_range (hA t)⟩

theorem idx_eq_expertOf (idx : IVec S8192 32) (hA : ∀ t : Fin 8192, 0 ≤ (idx (ix1 t)).toInt ∧ (idx (ix1 t)).toInt < 32)
    (t : Fin 8192) : idx (ix1 t) = BitVec.ofNat 32 (expertOf idx hA t).val := by
  have h : (expertOf idx hA t).val = (idx (ix1 t)).toNat := rfl
  rw [h]
  apply BitVec.eq_of_toNat_eq
  rw [BitVec.toNat_ofNat]
  exact (Nat.mod_eq_of_lt (idx (ix1 t)).isLt).symm

theorem expertOf_val (idx : IVec S8192 32) (hA : ∀ t : Fin 8192, 0 ≤ (idx (ix1 t)).toInt ∧ (idx (ix1 t)).toInt < 32)
    (t : Fin 8192) : (expertOf idx hA t).val = (idx (ix1 t)).toNat ∧ ((expertOf idx hA t).val : Int) = (idx (ix1 t)).toInt := by
  have hlt := toNat_lt_of_range (hA t)
  have h2 : (idx (ix1 t)).toInt = ((idx (ix1 t)).toNat : Int) :=
    StableHlo.Predicate.toInt_eq_toNat_of_lt (a := idx (ix1 t)) (by omega)
  exact ⟨rfl, h2.symm⟩

/-! ## The chain as the programs print it

The side conditions the printed operations cite are bundled in one record; the seven arrays below are the printed
terms, so a program's own staging of the same operations equals them definitionally. -/

/-- The side conditions cited by the printed routing chain. -/
structure Facts : Prop where
  hb1 : S8192.BroadcastsInDim S8192x1 (![0] : Fin 1 → Fin S8192x1.rank)
  hb2 : S8192x1.BroadcastsInDim S8192x32 (![0, 1] : Fin 2 → Fin S8192x32.rank)
  hb3 : S1x32.BroadcastsInDim S8192x32 (![0, 1] : Fin 2 → Fin S8192x32.rank)
  hlt : 1 < 32
  hb0 : S_.BroadcastsInDim S_ (![] : Fin 0 → Fin S_.rank)
  hrw : S8192x32.ReduceWindows (![8192, 1] : Fin 2 → Nat) ![1, 1] ![8191, 0] ![0, 0] S8192x32
  hu : 0 < S_.numel
  hbz : S_.BroadcastsInDim S8192x1 (![] : Fin 0 → Fin S8192x1.rank)
  hsc : S8192x1.ShapeCasts S8192x1x1
  hbz3 : S_.BroadcastsInDim S8192x1x1 (![] : Fin 0 → Fin S8192x1x1.rank)
  hb1_111 : S1.BroadcastsInDim S1x1x1 (![2] : Fin 1 → Fin S1x1x1.rank)
  hb111 : S1x1x1.BroadcastsInDim S8192x1x1 (![0, 1, 2] : Fin 3 → Fin S8192x1x1.rank)
  hred2 : S8192x1x1.ReducesTo [2] S8192x1
  hwf : GatherDims.WF S8192x32 S8192x1x1 S8192x1 [] [1] [0] [1] [0] 2 ![1, 1]
  hsc' : S8192x1.ShapeCasts S8192
  hred : S8192x32.ReducesTo [0] S32

section Chain
variable (hF : Facts)

/-- The one-hot matrix of the expert ids. -/
def oh (a7 : IVec S8192 32) : IVec S8192x32 32 :=
  extui 32 (cmpi .eq (broadcastInDim S8192x32 ![0, 1] hF.hb2 (broadcastInDim S8192x1 ![0] hF.hb1 a7))
    (broadcastInDim S8192x32 ![0, 1] hF.hb3 (iotaInDim S1x32 32 1))) hF.hlt

/-- The same matrix with a full iota. -/
def ohPre (a7 : IVec S8192 32) : IVec S8192x32 32 :=
  extui 32 (cmpi .eq (broadcastInDim S8192x32 ![0, 1] hF.hb2 (broadcastInDim S8192x1 ![0] hF.hb1 a7))
    (iotaInDim S8192x32 32 1)) hF.hlt

/-- The running column sums. -/
def cs (x : IVec S8192x32 32) : IVec S8192x32 32 :=
  Host.reduceWindow IntOp.addi ![8192, 1] ![1, 1] ![8191, 0] ![0, 0] x
    (broadcastInDim S_ ![] hF.hb0 (constantI S_ 32 0#32)) hF.hrw hF.hu

/-- A column of indices with negative ones moved up by 32, as a [8192, 1, 1] array. -/
def wrap (i : IVec S8192x1 32) : IVec S8192x1x1 32 :=
  shapeCast S8192x1x1 (select (cmpi .slt i (broadcastInDim S8192x1 ![] hF.hbz (constantI S_ 32 0#32)))
    (addi i (broadcastInDim S8192x1 ![] hF.hbz (constantI S_ 32 32#32))) i) hF.hsc

/-- The range mask 0 ≤ j ≤ 31 of a [8192, 1, 1] array of indices, reduced over its last axis. -/
def mask (j : IVec S8192x1x1 32) : IVec S8192x1 1 :=
  Host.reduce IntOp.andi (andi (cmpi .sge j (broadcastInDim S8192x1x1 ![] hF.hbz3 (constantI S_ 32 0#32)))
    (cmpi .sle j (broadcastInDim S8192x1x1 ![0, 1, 2] hF.hb111
      (broadcastInDim S1x1x1 ![2] hF.hb1_111 (constantI S1 32 31#32))))) (constantI S_ 1 1#1) hF.hred2 hF.hu

/-- take_along_axis along the columns: one entry per row, filled where the index is out of range. -/
def take (x : IVec S8192x32 32) (i : IVec S8192x1 32) : IVec S8192x1 32 :=
  select (mask hF (wrap hF i)) (Host.gather (Cert.Proof.LibTakeAlong.takeAlongDims 8192 32 hF.hwf) x (wrap hF i))
    (broadcastInDim S8192x1 ![] hF.hbz (constantI S_ 32 2147483648#32))

/-- Each token's position among the tokens of its expert. -/
def pos (a7 : IVec S8192 32) : IVec S8192 32 :=
  shapeCast S8192 (take hF (subi (cs hF (oh hF a7)) (oh hF a7)) (broadcastInDim S8192x1 ![0] hF.hb1 a7)) hF.hsc'

/-- Each expert's number of tokens. -/
def cnt (a7 : IVec S8192 32) : IVec S32 32 :=
  Host.reduce IntOp.addi (oh hF a7) (constantI S_ 32 0#32) hF.hred hF.hu

/-- The same totals taken of the full-iota spelling of the one-hot matrix. -/
def cntPre (a7 : IVec S8192 32) : IVec S32 32 :=
  Host.reduce IntOp.addi (ohPre hF a7) (constantI S_ 32 0#32) hF.hred hF.hu

/-- Row t of a [8192, 1, 1] array is row t of the [8192, 1] array it was reshaped from. -/
theorem reshape3_idx (hsc : S8192x1.ShapeCasts S8192x1x1) (t : Fin 8192) :
    Shape.reshapeEquiv hsc (ix3 t (0 : Fin 1) (0 : Fin 1)) = ix2 t (0 : Fin 1) := by
  refine Shape.reshapeEquiv_eq_of_rowMajor hsc ?_
  rw [Shape.rowMajor_val_two, Shape.rowMajor_val_three]
  show t.val * 1 + 0 = (t.val * 1 + 0) * 1 + 0
  omega

/-- Entry t of a [8192] vector is row t of the [8192, 1] array it was reshaped from. -/
theorem reshape1_idx (hsc' : S8192x1.ShapeCasts S8192) (t : Fin 8192) :
    Shape.reshapeEquiv hsc' (ix1 t) = ix2 t (0 : Fin 1) := by
  refine Shape.reshapeEquiv_eq_of_rowMajor hsc' ?_
  rw [Shape.rowMajor_val_two, Shape.rowMajor_val_one]
  show t.val * 1 + 0 = t.val
  omega

/-- A fold of bitwise and from the set bit, over bits that are all set, is the set bit. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, ih (fun i hi => h i (Finset.mem_cons_of_mem hi)), h a (Finset.mem_cons_self a S)]
    rfl

/-- A small word's unsigned value. -/
theorem toNat_ofNat_fin32 (e : Fin 32) : (BitVec.ofNat 32 e.val).toNat = e.val := by
  rw [BitVec.toNat_ofNat]
  exact Nat.mod_eq_of_lt (by have := e.isLt; omega)

/-- A non-negative index is left where it is by the wrap of negative indices. -/
theorem wrap_apply (i : IVec S8192x1 32) (t : Fin 8192) (e : Fin 32)
    (he : i (ix2 t (0 : Fin 1)) = BitVec.ofNat 32 e.val) :
    wrap hF i (ix3 t (0 : Fin 1) (0 : Fin 1)) = BitVec.ofNat 32 e.val := by
  show select (cmpi .slt i (broadcastInDim S8192x1 ![] hF.hbz (constantI S_ 32 0#32)))
      (addi i (broadcastInDim S8192x1 ![] hF.hbz (constantI S_ 32 32#32))) i
      (Shape.reshapeEquiv hF.hsc (ix3 t (0 : Fin 1) (0 : Fin 1))) = _
  rw [reshape3_idx hF.hsc t]
  show Scalar.select (IntOp.cmpi .slt (i (ix2 t (0 : Fin 1))) 0#32) _ (i (ix2 t (0 : Fin 1))) = _
  rw [he, Cert.LibColGather.slt_zero_ofNat_small e.val (by have := e.isLt; omega), select_zero]

/-- The range mask is set at a row whose index is an expert. -/
theorem mask_apply (j : IVec S8192x1x1 32) (t : Fin 8192) (e : Fin 32)
    (hj : j (ix3 t (0 : Fin 1) (0 : Fin 1)) = BitVec.ofNat 32 e.val) :
    mask hF j (ix2 t (0 : Fin 1)) = 1#1 := by
  classical
  unfold mask
  rw [Host.reduce_eq_fold]
  show Finset.fold IntOp.andi 1#1 _ _ = 1#1
  apply fold_andi_one
  intro k hk
  have hk' := (Finset.mem_filter.1 hk).2
  have hv : (hF.hred2.drop k 0 : Nat) = k 0 := Shape.ReducesTo.drop_apply_val_of_eq hF.hred2 k 0 0
  have hk0 : k = ix3 t (0 : Fin 1) (0 : Fin 1) := by
    funext b
    match b with
    | ⟨0, _⟩ => apply Fin.ext; rw [hk'] at hv; exact hv.symm
    | ⟨1, hb⟩ =>
      have h : (k ⟨1, hb⟩).val < 1 := (k ⟨1, hb⟩).isLt
      exact Fin.ext (show (k ⟨1, hb⟩).val = 0 by omega)
    | ⟨2, hb⟩ =>
      have h : (k ⟨2, hb⟩).val < 1 := (k ⟨2, hb⟩).isLt
      exact Fin.ext (show (k ⟨2, hb⟩).val = 0 by omega)
  rw [hk0]
  show IntOp.andi (IntOp.cmpi .sge (j (ix3 t (0 : Fin 1) (0 : Fin 1))) 0#32)
      (IntOp.cmpi .sle (j (ix3 t (0 : Fin 1) (0 : Fin 1))) 31#32) = 1#1
  rw [hj]
  have hn := toNat_ofNat_fin32 e
  have het := e.isLt
  have h1 : IntOp.cmpi .sge (BitVec.ofNat 32 e.val) 0#32 = 1#1 :=
    (StableHlo.Predicate.sge_iff_toNat (by rw [hn]; omega) (by decide)).2 (Nat.zero_le _)
  have h2 : IntOp.cmpi .sle (BitVec.ofNat 32 e.val) 31#32 = 1#1 :=
    (StableHlo.Predicate.sle_iff_toNat (by rw [hn]; omega) (by decide)).2 (by
      rw [hn]; show e.val ≤ 31; omega)
  rw [h1, h2]
  rfl

/-- The printed gather record is the one the take reads through. -/
theorem gatherDims_eq (G : GatherDims S8192x32 S8192x1x1 S8192x1) (h1 : G.offsetDims = []) (h2 : G.collapsedSliceDims = [1])
    (h3 : G.operandBatchingDims = [0]) (h4 : G.startIndicesBatchingDims = [0]) (h5 : G.startIndexMap = [1])
    (h6 : G.indexVectorDim = 2) (h7 : G.sliceSizes = ![1, 1]) :
    G = Cert.Proof.LibTakeAlong.takeAlongDims 8192 32 hF.hwf := by
  obtain ⟨a1, a2, a3, a4, a5, a6, a7, awf⟩ := G
  simp only at h1 h2 h3 h4 h5 h6 h7
  subst h1 h2 h3 h4 h5 h6 h7
  rfl

theorem ohPre_eq (a7 : IVec S8192 32) : ohPre hF a7 = oh hF a7 := ohPre_eq_oh hF.hb1 hF.hb2 hF.hb3 hF.hlt a7

theorem cntPre_eq (a7 : IVec S8192 32) : cntPre hF a7 = cnt hF a7 := by
  unfold cntPre cnt
  rw [ohPre_eq]

/-- The take read at a row whose index is in range: the entry the index names. -/
theorem take_apply (x : IVec S8192x32 32) (i : IVec S8192x1 32) (t : Fin 8192) (e : Fin 32)
    (he : i (ix2 t (0 : Fin 1)) = BitVec.ofNat 32 e.val) :
    take hF x i (ix2 t (0 : Fin 1)) = x (ix2 t e) := by
  have hw := wrap_apply hF i t e he
  have hm := mask_apply hF (wrap hF i) t e hw
  have het := e.isLt
  show Scalar.select (mask hF (wrap hF i) (ix2 t (0 : Fin 1)))
      (Host.gather (Cert.Proof.LibTakeAlong.takeAlongDims 8192 32 hF.hwf) x (wrap hF i) (ix2 t (0 : Fin 1))) _ = _
  rw [hm, select_one, Cert.Proof.LibTakeAlong.gather_takeAlong_ix2 (by norm_num) hF.hwf x (wrap hF i) t 0]
  refine congrArg x (Cert.LibColGather.ext2 rfl ?_)
  show min (wrap hF i (ix3 t (0 : Fin 1) (0 : Fin 1))).toInt.toNat (32 - 1) = e.val
  rw [hw, Cert.LibColGather.toInt_ofNat_small e.val (by omega), Int.toNat_natCast]
  omega

/-- The position read at a token whose id is the word e. -/
theorem pos_apply (a7 : IVec S8192 32) (t : Fin 8192) (e : Fin 32) (he : a7 (ix1 t) = BitVec.ofNat 32 e.val) :
    pos hF a7 (ix1 t) = subi (cs hF (oh hF a7)) (oh hF a7) (ix2 t e) := by
  show take hF _ _ (Shape.reshapeEquiv hF.hsc' (ix1 t)) = _
  rw [reshape1_idx hF.hsc' t]
  refine take_apply hF _ _ t e ?_
  have hb := StableHlo.Predicate.bcast_col1 (n := 8192) hF.hb1 a7 t
  have hix : (StableHlo.Predicate.ixP t) = ix2 t (0 : Fin 1) := by
    funext a; match a with | ⟨0, _⟩ => rfl | ⟨1, _⟩ => rfl
  rw [ofFin_eq_ix1, hix] at hb
  rw [hb, he]

/-- Its value: the number of earlier tokens of the same expert. -/
theorem pos_card (a7 : IVec S8192 32) (t : Fin 8192) (e : Fin 32) (he : a7 (ix1 t) = BitVec.ofNat 32 e.val) :
    (pos hF a7 (ix1 t)).toNat
      = (Finset.univ.filter (fun s : Fin 8192 => s < t ∧ a7 (ix1 s) = BitVec.ofNat 32 e.val)).card := by
  rw [pos_apply hF a7 t e he]
  exact pos_toNat hF.hrw hF.hu a7 (oh hF a7) (oh_isOneHot hF.hb1 hF.hb2 hF.hb3 hF.hlt a7) _
    (init_zero hF.hb0 hF.hu) t e he

/-- An expert's total: the number of its tokens. -/
theorem cnt_card (a7 : IVec S8192 32) (e : Fin 32) :
    (cnt hF a7 (ix1 e)).toNat
      = (Finset.univ.filter (fun s : Fin 8192 => a7 (ix1 s) = BitVec.ofNat 32 e.val)).card := counts_toNat hF.hred hF.hu a7 (oh hF a7) (oh_isOneHot hF.hb1 hF.hb2 hF.hb3 hF.hlt a7) _ (const_zero hF.hu) e

/-- THE BOUND on the printed chain: 0 ≤ pos[t] < cnt[idx[t]] for ids in range. -/
theorem pos_bounds_chain (a7 : IVec S8192 32)
    (hA : ∀ t : Fin 8192, 0 ≤ (a7 (ix1 t)).toInt ∧ (a7 (ix1 t)).toInt < 32) (t : Fin 8192) :
    0 ≤ (pos hF a7 (ix1 t)).toInt
      ∧ (pos hF a7 (ix1 t)).toInt < (cnt hF a7 (ix1 (⟨(a7 (ix1 t)).toNat, toNat_lt_of_range (hA t)⟩ : Fin 32))).toInt := by
  have he := idx_eq_expertOf a7 hA t
  rw [pos_apply hF a7 t (expertOf a7 hA t) he]
  exact pos_bounds hF.hrw hF.hred hF.hu hF.hu a7 (oh hF a7) (oh hF a7)
    (oh_isOneHot hF.hb1 hF.hb2 hF.hb3 hF.hlt a7) (oh_isOneHot hF.hb1 hF.hb2 hF.hb3 hF.hlt a7)
    _ (init_zero hF.hb0 hF.hu) _ (const_zero hF.hu) t (expertOf a7 hA t) he

/-- Under the capacity bound on every expert's total (in the full-iota spelling) every position is below the capacity. -/
theorem pos_lt_512 (a7 : IVec S8192 32)
    (hA : ∀ t : Fin 8192, 0 ≤ (a7 (ix1 t)).toInt ∧ (a7 (ix1 t)).toInt < 32)
    (hB : ∀ e : Fin 32, (cntPre hF a7 (ix1 e)).toInt ≤ 512) (t : Fin 8192) :
    0 ≤ (pos hF a7 (ix1 t)).toInt ∧ (pos hF a7 (ix1 t)).toInt < 512 ∧ (pos hF a7 (ix1 t)).toNat < 512 := by
  have hb := pos_bounds_chain hF a7 hA t
  have hB' := hB ⟨(a7 (ix1 t)).toNat, toNat_lt_of_range (hA t)⟩
  rw [cntPre_eq] at hB'
  have hpos : (pos hF a7 (ix1 t)).toInt < 512 := lt_of_lt_of_le hb.2 hB'
  have hnat : (pos hF a7 (ix1 t)).toNat < 512 := by
    have hlt := (pos hF a7 (ix1 t)).isLt
    have h0 := hb.1
    have h1 := hpos
    rw [BitVec.toInt_eq_toNat_cond] at h0 h1
    by_cases hc : 2 * (pos hF a7 (ix1 t)).toNat < 2 ^ 32
    · rw [if_pos hc] at h1; omega
    · rw [if_neg hc] at h0; omega
  exact ⟨hb.1, hpos, hnat⟩

end Chain

end Cert.Count

end
-- ==== Proof.BridgeStages.lean ====
/-
  The routing tables of the two programs are one computation.

  The kernel's program and the reference compute the one-hot matrix of the expert indices, its running sum, each
  token's position inside its expert's buffer, the (expert, position) pairs and the dispatch buffer by the same
  operations in the same order. Stage by stage the two terms differ only in the names of the side conditions
  they cite and of the small records of dimension numbers, so they are equal; at the ideal instance the dispatch
  buffers agree too, a change of float format being the identity there and both zero words denoting 0.
-/
import proofs.«427358_j7456063225884_2_alg».proof.Proof.KHost
import proofs.«427358_j7456063225884_2_alg».proof.Proof.RefRun
import proofs.«427358_j7456063225884_2_alg».proof.Proof.LibSlice
import Idealize.ShloMosaic.PureOps.Ideal
import Idealize.ShloMosaic.PureOps.Ideal.Laws

noncomputable section

namespace Cert.Proof.Stages

open Idealize.ShloMosaic

variable [Cert.KernelIdeal.Facts] [Cert.ReferenceIdeal.Facts]

theorem oh_eq (a7 : IVec Cert.KernelIdeal.S8192 32) :
    Cert.KernelIdeal.Hand.ohK a7 = Cert.ReferenceIdeal.Hand.ohR a7 := rfl

theorem cs_eq (oh : IVec Cert.KernelIdeal.S8192x32 32) :
    Cert.KernelIdeal.Hand.csK oh = Cert.ReferenceIdeal.Hand.csR oh := rfl

theorem wrap_eq (i : IVec Cert.KernelIdeal.S8192x1 32) :
    Cert.KernelIdeal.Hand.wrapK i = Cert.ReferenceIdeal.Hand.wrapR i := rfl

theorem mask_eq (j : IVec Cert.KernelIdeal.S8192x1x1 32) :
    Cert.KernelIdeal.Hand.maskK j = Cert.ReferenceIdeal.Hand.maskR j := rfl

theorem gatherDims_eq :
    Cert.KernelIdeal.gather_S8192x32_S8192x1x1_S8192x1_n_1_0_0_1_2_11
      = Cert.ReferenceIdeal.gather_S8192x32_S8192x1x1_S8192x1_n_1_0_0_1_2_11 := rfl

theorem take_eq (x : IVec Cert.KernelIdeal.S8192x32 32) (i : IVec Cert.KernelIdeal.S8192x1 32) :
    Cert.KernelIdeal.Hand.takeK x i = Cert.ReferenceIdeal.Hand.takeR x i := by
  unfold Cert.KernelIdeal.Hand.takeK Cert.ReferenceIdeal.Hand.takeR
  rw [wrap_eq, mask_eq, gatherDims_eq]

/-- Every token's position inside its expert's buffer is the same array in both programs. -/
theorem pos_eq (a7 : IVec Cert.KernelIdeal.S8192 32) :
    Cert.KernelIdeal.Hand.posK a7 = Cert.ReferenceIdeal.Hand.posR a7 := by
  unfold Cert.KernelIdeal.Hand.posK Cert.ReferenceIdeal.Hand.posR
  rw [oh_eq, cs_eq, take_eq]

theorem wrapI_eq (n : BitVec 32) (v : IVec Cert.KernelIdeal.S8192 32) :
    Cert.KernelIdeal.Hand.wrapIK n v = Cert.ReferenceIdeal.Hand.wrapI n v := rfl

theorem pair_eq (a7 pos : IVec Cert.KernelIdeal.S8192 32) :
    Cert.KernelIdeal.Hand.pairK a7 pos = Cert.ReferenceIdeal.Hand.pairR a7 pos := by
  unfold Cert.KernelIdeal.Hand.pairK Cert.ReferenceIdeal.Hand.pairR
  rw [wrapI_eq, wrapI_eq]

theorem scatterDims_eq :
    Cert.KernelIdeal.scatter_S32x512x2048_S8192x2_S8192x2048_1_01_01_1
      = Cert.ReferenceIdeal.scatter_S32x512x2048_S8192x2_S8192x2048_1_01_01_1 := rfl

/-- The bf16 zero word denotes 0 at the ideal instance. -/
theorem ofBits_zero_bf16 : Ideal.ofBits .bf16 0x0000#16 = 0 := by simp [Ideal.ofBits, Ideal.ieee]

/-- The zero-filled buffers the two scatters start from are the same array of extended reals. -/
theorem zeros_eq :
    (broadcastInDim Cert.KernelIdeal.S32x512x2048 ![] Cert.KernelIdeal.Facts₀.bcast_S_S32x512x2048
        (constant (F := Ideal) Cert.KernelIdeal.S_ .bf16 0x0000#16) : Cert.KernelIdeal.S32x512x2048.Idx → EReal)
      = broadcastInDim Cert.ReferenceIdeal.S32x512x2048 ![] Cert.ReferenceIdeal.Facts₀.bcast_S_S32x512x2048
        (constant (F := Ideal) Cert.ReferenceIdeal.S_ .f32 0x00000000#32) := by
  funext i
  simp only [broadcastInDim, constant, Ideal.ofBits_def, ofBits_zero_bf16, Ideal.ofBits_zero_f32]

/-- At the ideal instance the dispatch buffer is the same array in both programs: the same pairs, the same rows
    (the change of format of the kernel's rows is the identity), the same zeros. -/
theorem xd_eq (a0 : FVec Ideal Cert.KernelIdeal.S4x2048x2048 .f32) (a7 : IVec Cert.KernelIdeal.S8192 32) :
    (Cert.KernelIdeal.Hand.xdK (F := Ideal) a0 a7 : Cert.KernelIdeal.S32x512x2048.Idx → EReal)
      = Cert.ReferenceIdeal.Hand.xdR (F := Ideal) a0 a7 := by
  unfold Cert.KernelIdeal.Hand.xdK Cert.ReferenceIdeal.Hand.xdR
  rw [pair_eq, pos_eq, scatterDims_eq]
  exact congrArg (fun z => Host.scatter Cert.ReferenceIdeal.scatter_S32x512x2048_S8192x2_S8192x2048_1_01_01_1 (fun _ b => b) z
    (Cert.ReferenceIdeal.Hand.pairR a7 (Cert.ReferenceIdeal.Hand.posR a7))
    (shapeCast Cert.ReferenceIdeal.S8192x2048 a0 Cert.ReferenceIdeal.Facts₀.shapeCasts_S4x2048x2048_S8192x2048)) zeros_eq

end Cert.Proof.Stages

end
-- ==== Proof.LibMidUnit.lean ====
/-
  A matrix given a unit middle axis, read at an index.

  Reshaping an [a, b] array to [a, 1, b] moves no element: the entry at (i, 0, j) of the result is the entry at
  (i, j) of the operand, because both sit at position i · b + j of the row-major order. For any sizes.
-/
import Idealize.ShloMosaic.Lib.ValueIdx
import Idealize.ShloMosaic.Lib.Pipeline.Value

namespace Cert.LibMidUnit

open Idealize.ShloMosaic Idealize.ShloMosaic.ValueIdx

variable {α : Type}

/-- The reshape of an [a, b] array to [a, 1, b], at (i, u, j), is the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    -- both indices are at position i · b + j of the row-major order, the unit coordinate being 0
    have hu : u.val = 0 := by omega
    rw [Shape.rowMajor_val_three, Shape.rowMajor_val_two]
    show i.val * b + j.val = (i.val * 1 + u.val) * b + j.val
    rw [hu, Nat.mul_one, Nat.add_zero])

end Cert.LibMidUnit
-- ==== Proof.Bridge.lean ====
/-
  The two programs' results are one array, under the precondition.

  Under the precondition every expert index e_t lies in [0, 32) and no expert receives more than 512 tokens. Then
  every token's position q_t (how many earlier tokens chose the same expert) satisfies 0 ≤ q_t < n(e_t) ≤ 512, where
  n(e) is the number of tokens of expert e. So in the reference the gather at the pair (e_t, q_t) is in range and
  reads row q_t of expert e_t of the feed-forward result; in the kernel's program the flat row e_t · 512 + q_t is in
  range, the fill mask holds, and the row read is row q_t of expert e_t of the region's result, which lies in the
  capacity tile q_t / 256 whose first row (q_t / 256) · 256 ≤ q_t is below n(e_t): the tile was computed, not zeroed.
  There the region's result is the same feed-forward expression of the same dispatch buffer (BridgeStages), the
  weights unchanged by the change of float format and the biases by their reshape.
-/
import proofs.«427358_j7456063225884_2_alg».proof.Proof.KHost
import proofs.«427358_j7456063225884_2_alg».proof.Proof.KPayload
import proofs.«427358_j7456063225884_2_alg».proof.Proof.RefRun
import proofs.«427358_j7456063225884_2_alg».proof.Proof.RefValue
import proofs.«427358_j7456063225884_2_alg».proof.Proof.Count
import proofs.«427358_j7456063225884_2_alg».proof.Proof.PreDecode
import proofs.«427358_j7456063225884_2_alg».proof.Proof.BridgeStages
import proofs.«427358_j7456063225884_2_alg».proof.Proof.LibMidUnit
import proofs.«427358_j7456063225884_2_alg».proof.Proof.LibSlice

noncomputable section

namespace Cert.Proof.Bridge

open Idealize.ShloMosaic Idealize.ShloMosaic.ValueIdx

variable [Cert.KernelIdeal.Facts] [Cert.ReferenceIdeal.Facts] [Cert.Pre_finite_inputs.Facts]

section KernelFacts
open Cert.KernelIdeal Cert.KernelIdeal.Facts₀ Cert.KernelIdeal.Facts

/-- The side conditions the kernel's routing operations cite, as the record the counting lemmas take. -/
theorem factsK : Cert.Count.Facts :=
  ⟨bcast_S8192_S8192x1_0, bcast_S8192x1_S8192x32_0_1, bcast_S1x32_S8192x32_0_1, natLt_1_32, bcast_S_S_,
    reduceWindows_S8192x32_S8192x32_w8192s1p8191_0_w1s1p0_0, h_S_, bcast_S_S8192x1, shapeCasts_S8192x1_S8192x1x1,
    bcast_S_S8192x1x1, bcast_S1_S1x1x1_2, bcast_S1x1x1_S8192x1x1_0_1_2, reducesTo_S8192x1x1_S8192x1_d2,
    gather_S8192x32_S8192x1x1_S8192x1_n_1_0_0_1_2_11_wf, shapeCasts_S8192x1_S8192, reducesTo_S8192x32_S32_d0⟩

end KernelFacts

/-- The kernel's positions are the counting module's. -/
theorem posK_eq (a7 : IVec Cert.KernelIdeal.S8192 32) :
    Cert.KernelIdeal.Hand.posK a7 = Cert.Count.pos factsK a7 := rfl

/-- The kernel's per-expert counts are the counting module's. -/
theorem cntK_eq (a7 : IVec Cert.KernelIdeal.S8192 32) :
    Cert.KernelIdeal.Hand.cntK a7 = Cert.Count.cnt factsK a7 := rfl

/-- The precondition's per-expert counts are the counting module's, in its second spelling. -/
theorem cntPre_eq (a7 : IVec Cert.KernelIdeal.S8192 32) :
    Cert.Proof.PreDecode.cntPre a7 = Cert.Count.cntPre factsK a7 := rfl

/-- Under the two range facts every token's position is in [0, 512) and below its expert's count. -/
theorem pos_facts (a7 : IVec Cert.KernelIdeal.S8192 32)
    (hA : ∀ t : Fin 8192, 0 ≤ (a7 (ix1 t)).toInt ∧ (a7 (ix1 t)).toInt < 32)
    (hB : ∀ e : Fin 32, (Cert.Proof.PreDecode.cntPre a7 (ix1 e)).toInt ≤ 512) (t : Fin 8192) :
    (0 ≤ (Cert.KernelIdeal.Hand.posK a7 (ix1 t)).toInt ∧ (Cert.KernelIdeal.Hand.posK a7 (ix1 t)).toInt < 512)
      ∧ (Cert.KernelIdeal.Hand.posK a7 (ix1 t)).toInt
          < (Cert.KernelIdeal.Hand.cntK a7 (ix1 (⟨(a7 (ix1 t)).toNat, Cert.Count.toNat_lt_of_range (hA t)⟩ : Fin 32))).toInt := by
  have h1 := Cert.Count.pos_lt_512 factsK a7 hA (fun e => by rw [← cntPre_eq]; exact hB e) t
  have h2 := Cert.Count.pos_bounds_chain factsK a7 hA t
  rw [posK_eq, cntK_eq]
  exact ⟨⟨h1.1, h1.2.1⟩, h2.2⟩

section Join

open Cert.KernelIdeal.Hand Cert.KernelIdeal.Value Cert.ReferenceIdeal.Hand Cert.ReferenceIdeal.Value

variable (A0 : FVec Ideal Cert.KernelIdeal.S4x2048x2048 .f32) (A1 : FVec Ideal Cert.KernelIdeal.S32x2048x1024 .f32)
  (A2 : FVec Ideal Cert.KernelIdeal.S32x1024 .f32) (A3 : FVec Ideal Cert.KernelIdeal.S32x1024x2048 .f32)
  (A4 : FVec Ideal Cert.KernelIdeal.S32x2048 .f32) (A5 : FVec Ideal Cert.KernelIdeal.S32x2048x1024 .f32)
  (A6 : FVec Ideal Cert.KernelIdeal.S32x1024 .f32) (A7 : IVec Cert.KernelIdeal.S8192 32)

/-- A word with a non-negative signed value: that value is its unsigned one. -/
theorem toNat_cast_of_nonneg {x : BitVec 32} (h : 0 ≤ x.toInt) : ((x.toNat : ℕ) : Int) = x.toInt := by
  have hlt := x.isLt
  rw [BitVec.toInt_eq_toNat_cond] at h ⊢
  by_cases hc : 2 * x.toNat < 2 ^ 32
  · rw [if_pos hc]
  · rw [if_neg hc] at h; omega

/-- The feed-forward expression of the reference, over its own operands, is the kernel's over the operands its
    region is handed: the dispatch buffers are one array, the weights are unchanged by the change of float format,
    and a bias reshaped to [32, 1, ·] holds at (e, 0, j) what it held at (e, j). -/
theorem ffn_eq (e : Fin 32) (q : Fin 512) (d : Fin 2048) :
    (∑ f : Fin 1024, gateR (xdR (F := Ideal) A0 A7) A1 A2 A5 A6 e q f * A3 (ix3 e f d)) + A4 (ix2 e d)
      = ffnAt (xdK (F := Ideal) A0 A7) (w1K (F := Ideal) A1) (w3K (F := Ideal) A5) (w2K (F := Ideal) A3)
          (b1K (F := Ideal) A2) (b3K (F := Ideal) A6) (b2K (F := Ideal) A4) e q d := by
  unfold ffnAt gateAt affineAt gateR w1K w3K w2K b1K b3K b2K
  rw [Cert.Proof.Stages.xd_eq A0 A7]
  simp only [truncf, Ideal.truncf_def, Cert.LibMidUnit.shapeCast_ab_a1b_apply]

variable (hA : ∀ t : Fin 8192, 0 ≤ (A7 (ix1 t)).toInt ∧ (A7 (ix1 t)).toInt < 32)
  (hB : ∀ e : Fin 32, (Cert.Proof.PreDecode.cntPre A7 (ix1 e)).toInt ≤ 512)
  (Y : FVec Ideal Cert.KernelIdeal.S32x512x2048 .f32)
  (hY : ∀ (e : Fin 32) (q : Fin 512) (d : Fin 2048), (q.val : Int) < (cntK A7 (ix1 e)).toInt →
    Y (ix3 e q d) = ffnAt (xdK (F := Ideal) A0 A7) (w1K (F := Ideal) A1) (w3K (F := Ideal) A5) (w2K (F := Ideal) A3)
      (b1K (F := Ideal) A2) (b3K (F := Ideal) A6) (b2K (F := Ideal) A4) e q d)

include hA hB hY in
/-- Token by token the two results agree: both read row q_t of expert e_t of the feed-forward result, the kernel's
    from a tile its body computed. -/
theorem result_at (t : Fin 8192) (d : Fin 2048) :
    outR (F := Ideal) (yR (F := Ideal) (xdR (F := Ideal) A0 A7) A1 A2 A3 A4 A5 A6) A7 (posR A7)
        (ix3 (⟨t.val / 2048, by have := t.isLt; omega⟩ : Fin 4) (⟨t.val % 2048, Nat.mod_lt _ (by decide)⟩ : Fin 2048) d)
      = tailK (F := Ideal) Y A7 (posK A7)
        (ix3 (⟨t.val / 2048, by have := t.isLt; omega⟩ : Fin 4) (⟨t.val % 2048, Nat.mod_lt _ (by decide)⟩ : Fin 2048) d) := by
  obtain ⟨hq, hlt⟩ := pos_facts A7 hA hB t
  rw [← Cert.Proof.Stages.pos_eq A7]
  rw [outR_apply _ A7 (posK A7) t d (hA t) hq, tailK_apply Y A7 (posK A7) t d (hA t) hq, yR_apply]
  rw [hY _ _ d (by rw [toNat_cast_of_nonneg hq.1]; exact hlt)]
  exact ffn_eq A0 A1 A2 A3 A4 A5 A6 A7 _ _ d

include hA hB hY in
/-- The two results are one array. -/
theorem result_eq :
    outR (F := Ideal) (yR (F := Ideal) (xdR (F := Ideal) A0 A7) A1 A2 A3 A4 A5 A6) A7 (posR A7)
      = tailK (F := Ideal) Y A7 (posK A7) := by
  funext j
  obtain ⟨b, s, d, rfl⟩ : ∃ (b : Fin 4) (s : Fin 2048) (d : Fin 2048), j = ix3 b s d := ⟨j 0, j 1, j 2, eq_ix3 j⟩
  have key := result_at A0 A1 A2 A3 A4 A5 A6 A7 hA hB Y hY ⟨b.val * 2048 + s.val, by have := b.isLt; have := s.isLt; omega⟩ d
  have hb : (b.val * 2048 + s.val) / 2048 = b.val := by have := s.isLt; omega
  have hs : (b.val * 2048 + s.val) % 2048 = s.val := by have := s.isLt; omega
  simp only [hb, hs, Fin.eta] at key
  exact key

end Join

end Cert.Proof.Bridge

end
-- ==== Proof.lean ====
/-
  The certificate of the mixture-of-experts routing kernel against its reference.

  Both programs route 8192 tokens to 32 experts: each token gets a position inside its expert's buffer of 512
  rows (how many earlier tokens chose the same expert), the tokens are scattered into a [32, 512, 2048] dispatch
  buffer, every expert applies a gated feed-forward network to its rows, and each token gathers its row back.
  The kernel does the feed-forward work tile by tile of 256 rows and skips (zeroes) a tile whose first row is at or
  beyond the expert's token count; the reference computes every row.

  The three frames: the reference is a straight line of host operations, run as such; the kernel's program (at
  both instances) is host operations, one pipelined region, host operations, launched as a list of segments, the
  token counts a table the region holds while it runs. No frame needs the precondition.
  The ideal pass rewrote nothing, so `preserves` is trivial.
  The value claim: under the precondition (expert indices in [0, 32), no expert over 512 tokens) each token's
  position is below its expert's count, so the row it gathers lies in a tile the kernel computed, where the
  region's result is the reference's feed-forward expression of the same dispatch buffer.
-/
import proofs.«427358_j7456063225884_2_alg».proof.Defs
import proofs.«427358_j7456063225884_2_alg».proof.Proof.Gen.Kernel
import proofs.«427358_j7456063225884_2_alg».proof.Proof.Gen.KernelIdeal
import proofs.«427358_j7456063225884_2_alg».proof.Proof.Gen.ReferenceIdeal
import proofs.«427358_j7456063225884_2_alg».proof.Proof.Gen.Pre_finite_inputs
import proofs.«427358_j7456063225884_2_alg».proof.Proof.KLaunch
import proofs.«427358_j7456063225884_2_alg».proof.Proof.KHost
import proofs.«427358_j7456063225884_2_alg».proof.Proof.KValue
import proofs.«427358_j7456063225884_2_alg».proof.Proof.BitsKLaunch
import proofs.«427358_j7456063225884_2_alg».proof.Proof.BitsKHost
import proofs.«427358_j7456063225884_2_alg».proof.Proof.RefRun
import proofs.«427358_j7456063225884_2_alg».proof.Proof.RefValue
import proofs.«427358_j7456063225884_2_alg».proof.Proof.PreDecode
import proofs.«427358_j7456063225884_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments as they were: the launch's run, each
    argument read off the final contents (no host operation and no window writes an argument). -/
theorem frame_k : Cert.frame_Kernel := fun m g _ =>
  (θ_run (Cert.Kernel.defs (F := Bits)) _ _).mono (fun _ h c => by
    obtain ⟨-, h0, h1, h2, h3, h4, h5, h6, h7⟩ := h c
    exact ⟨h0.trans (Cert.Kernel.Hand.Vfin_arg0 m c _), h1.trans (Cert.Kernel.Hand.Vfin_arg1 m c _), h2.trans (Cert.Kernel.Hand.Vfin_arg2 m c _), h3.trans (Cert.Kernel.Hand.Vfin_arg3 m c _), h4.trans (Cert.Kernel.Hand.Vfin_arg4 m c _), h5.trans (Cert.Kernel.Hand.Vfin_arg5 m c _), h6.trans (Cert.Kernel.Hand.Vfin_arg6 m c _), h7.trans (Cert.Kernel.Hand.Vfin_arg7 m c _)⟩)
    (Cert.Kernel.Hand.run_main (F := Bits) m g)

/-- The idealized kernel program likewise. -/
theorem frame_ki : Cert.frame_KernelIdeal := fun m g _ =>
  (θ_run (Cert.KernelIdeal.defs (F := Ideal)) _ _).mono (fun _ h c => by
    obtain ⟨-, h0, h1, h2, h3, h4, h5, h6, h7⟩ := h c
    exact ⟨h0.trans (Cert.KernelIdeal.Hand.Vfin_arg0 m c _), h1.trans (Cert.KernelIdeal.Hand.Vfin_arg1 m c _), h2.trans (Cert.KernelIdeal.Hand.Vfin_arg2 m c _), h3.trans (Cert.KernelIdeal.Hand.Vfin_arg3 m c _), h4.trans (Cert.KernelIdeal.Hand.Vfin_arg4 m c _), h5.trans (Cert.KernelIdeal.Hand.Vfin_arg5 m c _), h6.trans (Cert.KernelIdeal.Hand.Vfin_arg6 m c _), h7.trans (Cert.KernelIdeal.Hand.Vfin_arg7 m c _)⟩)
    (Cert.KernelIdeal.Hand.run_main (F := Ideal) m g)

/-- The reference is a line of host operations none of which writes an argument. -/
theorem frame_ri : Cert.frame_ReferenceIdeal := fun m g _ =>
  (θ_run (Cert.ReferenceIdeal.defs (F := Ideal)) _ _).mono (fun _ h c =>
    ⟨(h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _)⟩)
    (Cert.ReferenceIdeal.Hand.run_main (F := Ideal) m g)

/-- The ideal pass rewrote no operation. -/
theorem preserves : Cert.preserves_Kernel_KernelIdeal := trivial

/-- From memories agreeing on the arguments both idealized programs end with the same result array: the kernel
    program's is its last host stretch applied to the region's result, the reference's its operations' composed
    term, and under the precondition the two are one array (Bridge). -/
theorem algebraic : Cert.algebraic_KernelIdeal_ReferenceIdeal := by
  intro m g m' g' hpre hagree
  refine ⟨fun c => Cert.KernelIdeal.Hand.Vfin m c (Cert.KernelIdeal.Hand.resultY m c) (Proc.devRef .tc Cert.KernelIdeal.main_v36), ?_, ?_⟩
  · refine (θ_run (Cert.KernelIdeal.defs (F := Ideal)) _ _).mono (fun _ h c => ?_) (Cert.KernelIdeal.Hand.run_main (F := Ideal) m g)
    obtain ⟨hv, h0, h1, h2, h3, h4, h5, h6, h7⟩ := h c
    exact ⟨hv, h0.trans (Cert.KernelIdeal.Hand.Vfin_arg0 m c _), h1.trans (Cert.KernelIdeal.Hand.Vfin_arg1 m c _), h2.trans (Cert.KernelIdeal.Hand.Vfin_arg2 m c _), h3.trans (Cert.KernelIdeal.Hand.Vfin_arg3 m c _), h4.trans (Cert.KernelIdeal.Hand.Vfin_arg4 m c _), h5.trans (Cert.KernelIdeal.Hand.Vfin_arg5 m c _), h6.trans (Cert.KernelIdeal.Hand.Vfin_arg6 m c _), h7.trans (Cert.KernelIdeal.Hand.Vfin_arg7 m c _)⟩
  · refine (θ_run (Cert.ReferenceIdeal.defs (F := Ideal)) _ _).mono (fun _ h c => ?_) (Cert.ReferenceIdeal.Hand.run_main (F := Ideal) m' g')
    obtain ⟨a0, a1, a2, a3, a4, a5, a6, a7⟩ := hagree c
    refine ⟨(h c Cert.ReferenceIdeal.main_v50).trans ?_,
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _)⟩
    beta_reduce
    rw [Cert.ReferenceIdeal.Hand.out_eq, Cert.KernelIdeal.Hand.Vfin_v36]
    show Cert.ReferenceIdeal.Hand.outR (F := Ideal)
        (Cert.ReferenceIdeal.Hand.yR (F := Ideal)
          (Cert.ReferenceIdeal.Hand.xdR (F := Ideal) (m' ((c.tc : Thread _ _).loc Cert.ReferenceIdeal.main_arg0)) (m' ((c.tc : Thread _ _).loc Cert.ReferenceIdeal.main_arg7)))
          (m' ((c.tc : Thread _ _).loc Cert.ReferenceIdeal.main_arg1)) (m' ((c.tc : Thread _ _).loc Cert.ReferenceIdeal.main_arg2))
          (m' ((c.tc : Thread _ _).loc Cert.ReferenceIdeal.main_arg3)) (m' ((c.tc : Thread _ _).loc Cert.ReferenceIdeal.main_arg4))
          (m' ((c.tc : Thread _ _).loc Cert.ReferenceIdeal.main_arg5)) (m' ((c.tc : Thread _ _).loc Cert.ReferenceIdeal.main_arg6)))
        (m' ((c.tc : Thread _ _).loc Cert.ReferenceIdeal.main_arg7))
        (Cert.ReferenceIdeal.Hand.posR (m' ((c.tc : Thread _ _).loc Cert.ReferenceIdeal.main_arg7))) = _
    rw [a0, a1, a2, a3, a4, a5, a6, a7]
    refine Cert.Proof.Bridge.result_eq _ _ _ _ _ _ _ _ (Cert.Proof.PreDecode.idx_range_pre m hpre c)
      (Cert.Proof.PreDecode.counts_le_pre m hpre c) (Cert.KernelIdeal.Hand.resultY m c) (fun e q d hlt => ?_)
    rw [Cert.KernelIdeal.Value.resultY_of_lt m c e q d (by rw [Cert.KernelIdeal.Hand.Vpre_v6]; exact hlt),
      Cert.KernelIdeal.Hand.Vpre_v23, Cert.KernelIdeal.Hand.Vpre_v24, Cert.KernelIdeal.Hand.Vpre_v25,
      Cert.KernelIdeal.Hand.Vpre_v26, Cert.KernelIdeal.Hand.Vpre_v27, Cert.KernelIdeal.Hand.Vpre_v28,
      Cert.KernelIdeal.Hand.Vpre_v29]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
